-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S3x64x64 : Shape := ⟨3, ![3, 64, 64]⟩
abbrev S64x64 : Shape := ⟨2, ![64, 64]⟩
abbrev S64 : Shape := ⟨1, ![64]⟩
abbrev S5x64x64 : Shape := ⟨3, ![5, 64, 64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S5x64x64 : S_.BroadcastsInDim S5x64x64 (![] : Fin 0 → Fin S5x64x64.rank)
  reducesTo_S5x64x64_S_d0_1_2 : S5x64x64.ReducesTo [0, 1, 2] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_arg12 : FVec F S16 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_c_22 : IVec S_ 32 := constantI S_ 32 0#32
  let main_v59 : IVec S2x1600000 32 := broadcastInDim S2x1600000 ![] bcast_S_S2x1600000 main_c_22
  let main_v60 : IVec S2x1600000 1 := cmpi .sge main_arg1 main_v59
  let main_c_23 : IVec S_ 32 := constantI S_ 32 100000#32
  let main_v61 : IVec S2x1600000 32 := broadcastInDim S2x1600000 ![] bcast_S_S2x1600000 main_c_23
  let main_v62 : IVec S2x1600000 1 := cmpi .slt main_arg1 main_v61
  let main_v63 : IVec S2x1600000 1 := andi main_v60 main_v62
  let main_c_24 : IVec S_ 1 := constantI S_ 1 1#1
  let main_v64 : IVec S_ 1 := (fun x v => Host.reduce IntOp.andi x v reducesTo_S2x1600000_S_d0_1 h_S_) main_v63 main_c_24
  let main_v65 : IVec S_ 1 := andi main_v58 main_v64
  main_v65

def fn_part2 {F : FTy → Type} [FloatOps F] (main_arg1 : IVec S2x1600000 32) (main_arg8 : FVec F S64 .f32) (main_arg9 : FVec F S64x64 .f32) (main_arg10 : FVec F S64 .f32) (main_arg11 : FVec F S64x16 .f32) (main_arg12 : FVec F S16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x16 .f32 := Host.absf main_arg11
  let main_cst_18 : FVec F S_ .f32 := constant S_ .f32 0x7F800000#32
  let main_v50 : FVec F S64x16 .f32 := broadcastInDim S64x16 ![] bcast_S_S64x16 main_cst_18
  fn_part3 (F := F) main_arg1 main_arg12 main_v48 main_v49 main_v50

def fn_part1 {F : FTy → Type} [FloatOps F] (main_arg1 : IVec S2x1600000 32) (main_arg5 : FVec F S64 .f32) (main_arg6 : FVec F S5x64x64 .f32) (main_arg7 : FVec F S64x64 .f32) (main_arg8 : FVec F S64 .f32) (main_arg9 : FVec F S64x64 .f32) (main_arg10 : FVec F S64 .f32) (main_arg11 : FVec F S64x16 .f32) (main_arg12 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S5x64x64 .f32 := Host.absf main_arg6
  let main_cst_8 : FVec F S_ .f32 := constant S_ .f32 0x7F800000#32
  let main_v25 : FVec F S5x64x64 .f32 := broadcastInDim S5x64x64 ![] bcast_S_S5x64x64 main_cst_8
  let main_v26 : IVec S5x64x64 1 := cmpf .olt main_v24 main_v25
  let main_c_9 : IVec S_ 1 := constantI S_ 1 1#1
  let main_v27 : IVec S_ 1 := (fun x v => Host.reduce IntOp.andi x v reducesTo_S5x64x64_S_d0_1_2 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x64 .f32) (main_arg1 : IVec S2x1600000 32) (main_arg2 : FVec F S1600000x1 .f32) (main_arg3 : FVec F S3x64x64 .f32) (main_arg4 : FVec F S64x64 .f32) (main_arg5 : FVec F S64 .f32) (main_arg6 : FVec F S5x64x64 .f32) (main_arg7 : FVec F S64x64 .f32) (main_arg8 : FVec F S64 .f32) (main_arg9 : FVec F S64x64 .f32) (main_arg10 : FVec F S64 .f32) (main_arg11 : FVec F S64x16 .f32) (main_arg12 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S1600000x1 : Shape := ⟨2, ![1600000, 1]⟩
abbrev S3x64x64 : Shape := ⟨3, ![3, 64, 64]⟩
abbrev S64x64 : Shape := ⟨2, ![64, 64]⟩
abbrev S64 : Shape := ⟨1, ![64]⟩
abbrev S5x64x64 : Shape := ⟨3, ![5, 64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1 : Shape := ⟨1, ![1]⟩
abbrev S1x1 : Shape := ⟨2, ![1, 1]⟩
abbrev S1600000x64 : Shape := ⟨2, ![1600000, 64]⟩
abbrev S3200000 : Shape := ⟨1, ![3200000]⟩
abbrev S3200000x64 : Shape := ⟨2, ![3200000, 64]⟩
abbrev S300000x64 : Shape := ⟨2, ![300000, 64]⟩
abbrev S3200000x1 : Shape := ⟨2, ![3200000, 1]⟩
abbrev S100000x192 : Shape := ⟨2, ![100000, 192]⟩
abbrev S192x64 : Shape := ⟨2, ![192, 64]⟩
abbrev S1x64 : Shape := ⟨2, ![1, 64]⟩
abbrev S4000x64 : Shape := ⟨2, ![4000, 64]⟩
abbrev S4000x192 : Shape := ⟨2, ![4000, 192]⟩
abbrev S500000x64 : Shape := ⟨2, ![500000, 64]⟩
abbrev S100000x320 : Shape := ⟨2, ![100000, 320]⟩
abbrev S320x64 : Shape := ⟨2, ![320, 64]⟩
abbrev S1x16 : Shape := ⟨2, ![1, 16]⟩
abbrev S100000x16 : Shape := ⟨2, ![100000, 16]⟩
abbrev S4000x320 : Shape := ⟨2, ![4000, 320]⟩
abbrev S4000x16 : Shape := ⟨2, ![4000, 16]⟩

abbrev nBuf : Space → Nat
  | .hbm => 198
  | .vmem => 22
  | .smem => 0
  | _ => 0

abbrev hbmTy0_0 (i : Nat) : BufTy := match i % 128 with
  | 0 => ⟨S100000x64, .f32⟩
  | 1 => ⟨S2x1600000, .i32⟩
  | 2 => ⟨S1600000x1, .f32⟩
  | 3 => ⟨S3x64x64, .f32⟩
  | 4 => ⟨S64x64, .f32⟩
  | 5 => ⟨S64, .f32⟩
  | 6 => ⟨S5x64x64, .f32⟩
  | 7 => ⟨S64x64, .f32⟩
  | 8 => ⟨S64, .f32⟩
  | 9 => ⟨S64x64, .f32⟩
  | 10 => ⟨S64, .f32⟩
  | 11 => ⟨S64x16, .f32⟩
  | 12 => ⟨S16, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .f32⟩
  | 40 => ⟨S1600000, .f32⟩
  | 41 => ⟨S1600000, .f32⟩
  | 42 => ⟨S1600000, .f32⟩
  | 43 => ⟨S1600000, .f32⟩
  | 44 => ⟨S1600000, .f32⟩
  | 45 => ⟨S1600000, .i32⟩
  | 46 => ⟨S_, .i32⟩
  | 47 => ⟨S_, .i32⟩
  | 48 => ⟨S_, .i32⟩
  | 49 => ⟨S1600000, .i32⟩
  | 50 => ⟨S1600000, .i32⟩
  | 51 => ⟨S_, .i32⟩
  | 52 => ⟨S1600000, .i32⟩
  | 53 => ⟨S1600000, .i32⟩
  | 54 => ⟨S_, .i32⟩
  | 55 => ⟨S1600000, .i32⟩
  | 56 => ⟨S1600000, .i32⟩
  | 57 => ⟨S_, .i32⟩
  | 58 => ⟨S_, .i32⟩
  | 59 => ⟨S_, .i32⟩
  | 60 => ⟨S1600000, .i32⟩
  | 61 => ⟨S1600000, .i32⟩
  | 62 => ⟨S_, .i32⟩
  | 63 => ⟨S1600000, .i32⟩
  | 64 => ⟨S1600000, .i32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1, .i32⟩
  | 74 => ⟨S_, .i32⟩
  | 75 => ⟨S1600000x1, .i32⟩
  | 76 => ⟨S1600000x1, .i1⟩
  | 77 => ⟨S1x1, .i32⟩
  | 78 => ⟨S1600000x1, .i32⟩
  | 79 => ⟨S1600000x1, .i1⟩
  | 80 => ⟨S1600000x1, .i1⟩
  | 81 => ⟨S_, .i1⟩
  | 82 => ⟨S1600000, .i1⟩
  | 83 => ⟨S1600000x64, .f32⟩
  | 84 => ⟨S1600000x64, .i1⟩
  | 85 => ⟨S_, .f32⟩
  | 86 => ⟨S1600000x64, .f32⟩
  | 87 => ⟨S1600000x64, .f32⟩
  | 88 => ⟨S_, .f32⟩
  | 89 => ⟨S1600000, .f32⟩
  | 90 => ⟨S1600000, .f32⟩
  | 91 => ⟨S1600000, .f32⟩
  | 92 => ⟨S1600000, .f32⟩
  | 93 => ⟨S_, .i32⟩
  | 94 => ⟨S1600000, .i32⟩
  | 95 => ⟨S1600000, .i32⟩
  | 96 => ⟨S1600000, .i32⟩
  | 97 => ⟨S_, .i32⟩
  | 98 => ⟨S1600000, .i32⟩
  | 99 => ⟨S1600000, .i32⟩
  | 100 => ⟨S1600000, .i32⟩
  | 101 => ⟨S3200000, .i32⟩
  | 102 => ⟨S1600000x1, .f32⟩
  | 103 => ⟨S1600000x64, .f32⟩
  | 104 => ⟨S1600000x64, .f32⟩
  | 105 => ⟨S1600000x1, .f32⟩
  | 106 => ⟨S1600000x64, .f32⟩
  | 107 => ⟨S1600000x64, .f32⟩
  | 108 => ⟨S3200000x64, .f32⟩
  | 109 => ⟨S_, .f32⟩
  | 110 => ⟨S300000x64, .f32⟩
  | 111 => ⟨S3200000x1, .i32⟩
  | 112 => ⟨S300000x64, .f32⟩
  | 113 => ⟨S100000x192, .f32⟩
  | 114 => ⟨S192x64, .f32⟩
  | 115 => ⟨S1x64, .f32⟩
  | 116 => ⟨S100000x64, .f32⟩
  | 117 => ⟨S1600000, .f32⟩
  | 118 => ⟨S_, .f32⟩
  | 119 => ⟨S1600000, .f32⟩
  | 120 => ⟨S1600000, .f32⟩
  | 121 => ⟨S1600000, .f32⟩
  | 122 => ⟨S1600000, .f32⟩
  | 123 => ⟨S1600000, .f32⟩
  | 124 => ⟨S1600000, .i32⟩
  | 125 => ⟨S_, .i32⟩
  | 126 => ⟨S_, .i32⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S_, .i32⟩
  | 3 => ⟨S1600000, .i32⟩
  | 4 => ⟨S1600000, .i32⟩
  | 5 => ⟨S_, .i32⟩
  | 6 => ⟨S1600000, .i32⟩
  | 7 => ⟨S1600000, .i32⟩
  | 8 => ⟨S_, .i32⟩
  | 9 => ⟨S_, .i32⟩
  | 10 => ⟨S_, .i32⟩
  | 11 => ⟨S1600000, .i32⟩
  | 12 => ⟨S1600000, .i32⟩
  | 13 => ⟨S_, .i32⟩
  | 14 => ⟨S1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1, .i32⟩
  | 25 => ⟨S_, .i32⟩
  | 26 => ⟨S1600000x1, .i32⟩
  | 27 => ⟨S1600000x1, .i1⟩
  | 28 => ⟨S1x1, .i32⟩
  | 29 => ⟨S1600000x1, .i32⟩
  | 30 => ⟨S1600000x1, .i1⟩
  | 31 => ⟨S1600000x1, .i1⟩
  | 32 => ⟨S_, .i1⟩
  | 33 => ⟨S1600000, .i1⟩
  | 34 => ⟨S1600000x64, .f32⟩
  | 35 => ⟨S1600000x64, .i1⟩
  | 36 => ⟨S_, .f32⟩
  | 37 => ⟨S1600000x64, .f32⟩
  | 38 => ⟨S1600000x64, .f32⟩
  | 39 => ⟨S_, .f32⟩
  | 40 => ⟨S1600000, .f32⟩
  | 41 => ⟨S1600000, .f32⟩
  | 42 => ⟨S1600000, .f32⟩
  | 43 => ⟨S1600000, .f32⟩
  | 44 => ⟨S_, .i32⟩
  | 45 => ⟨S1600000, .i32⟩
  | 46 => ⟨S1600000, .i32⟩
  | 47 => ⟨S1600000, .i32⟩
  | 48 => ⟨S_, .i32⟩
  | 49 => ⟨S1600000, .i32⟩
  | 50 => ⟨S1600000, .i32⟩
  | 51 => ⟨S1600000, .i32⟩
  | 52 => ⟨S3200000, .i32⟩
  | 53 => ⟨S1600000x1, .f32⟩
  | 54 => ⟨S1600000x64, .f32⟩
  | 55 => ⟨S1600000x64, .f32⟩
  | 56 => ⟨S1600000x1, .f32⟩
  | 57 => ⟨S1600000x64, .f32⟩
  | 58 => ⟨S1600000x64, .f32⟩
  | 59 => ⟨S3200000x64, .f32⟩
  | 60 => ⟨S_, .f32⟩
  | 61 => ⟨S500000x64, .f32⟩
  | 62 => ⟨S3200000x1, .i32⟩
  | 63 => ⟨S500000x64, .f32⟩
  | 64 => ⟨S100000x320, .f32⟩
  | 65 => ⟨S320x64, .f32⟩
  | 66 => ⟨S1x64, .f32⟩
  | 67 => ⟨S1x64, .f32⟩
  | 68 => ⟨S1x16, .f32⟩
  | 69 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x192, .f32⟩
  | .local _ .vmem, ⟨3, _⟩ => ⟨S4000x192, .f32⟩
  | .local _ .vmem, ⟨4, _⟩ => ⟨S192x64, .f32⟩
  | .local _ .vmem, ⟨5, _⟩ => ⟨S64x64, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x320, .f32⟩
  | .local _ .vmem, ⟨12, _⟩ => ⟨S4000x320, .f32⟩
  | .local _ .vmem, ⟨13, _⟩ => ⟨S320x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x16, .f32⟩
  | .local _ .vmem, ⟨19, _⟩ => ⟨S1x16, .f32⟩
  | .local _ .vmem, ⟨20, _⟩ => ⟨S4000x16, .f32⟩
  | .local _ .vmem, ⟨21, _⟩ => ⟨S4000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_c_6 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_c_8 : Ref sig .tc := ⟨.hbm, 57, rfl⟩
abbrev main_c_9 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v29 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v30 : Ref sig .tc := ⟨.hbm, 87, rfl⟩
abbrev main_cst_10 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_c_11 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_c_12 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_cst_13 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_cst_14 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_c_15 : Ref sig .tc := ⟨.hbm, 125, rfl⟩
abbrev main_c_16 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_v63 : Ref sig .tc := ⟨.hbm, 132, rfl⟩
abbrev main_c_17 : Ref sig .tc := ⟨.hbm, 133, rfl⟩
abbrev main_v64 : Ref sig .tc := ⟨.hbm, 134, rfl⟩
abbrev main_v65 : Ref sig .tc := ⟨.hbm, 135, rfl⟩
abbrev main_c_18 : Ref sig .tc := ⟨.hbm, 136, rfl⟩
abbrev main_c_19 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_v66 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v67 : Ref sig .tc := ⟨.hbm, 166, rfl⟩
abbrev main_cst_20 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_c_21 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_c_22 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_cst_23 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x320 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S320x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000x1_S1600000 : S1600000x1.ShapeCasts S1600000
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  concatenates_S1600000_S1600000_S3200000_d0 : Shape.Concatenates [S1600000, S1600000] S3200000 0
  bcast_S1600000x1_S1600000x64_0_1 : S1600000x1.BroadcastsInDim S1600000x64 (![0, 1] : Fin 2 → Fin S1600000x64.rank)
  concatenates_S1600000x64_S1600000x64_S3200000x64_d0 : Shape.Concatenates [S1600000x64, S1600000x64] S3200000x64 0
  bcast_S_S300000x64 : S_.BroadcastsInDim S300000x64 (![] : Fin 0 → Fin S300000x64.rank)
  bcast_S3200000_S3200000x1_0 : S3200000.BroadcastsInDim S3200000x1 (![0] : Fin 1 → Fin S3200000x1.rank)
  shapeCasts_S300000x64_S100000x192 : S300000x64.ShapeCasts S100000x192
  shapeCasts_S3x64x64_S192x64 : S3x64x64.ShapeCasts S192x64
  shapeCasts_S64_S1x64 : S64.ShapeCasts S1x64
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S500000x64 : S_.BroadcastsInDim S500000x64 (![] : Fin 0 → Fin S500000x64.rank)
  shapeCasts_S500000x64_S100000x320 : S500000x64.ShapeCasts S100000x320
  shapeCasts_S5x64x64_S320x64 : S5x64x64.ShapeCasts S320x64
  shapeCasts_S16_S1x16 : S16.ShapeCasts S1x16
  inb_S4000x320_S4000x320_0_0 : ∀ a, (![0, 0] : Fin 2 → Nat) a + S4000x320.size a ≤ S4000x320.size a
  h_S4000x320 : 0 < S4000x320.numel
  shapeCasts_S4000x320_S4000x320 : S4000x320.ShapeCasts S4000x320
  inb_S320x64_S320x64_0_0 : ∀ a, (![0, 0] : Fin 2 → Nat) a + S320x64.size a ≤ S320x64.size a
  h_S320x64 : 0 < S320x64.numel
  shapeCasts_S320x64_S320x64 : S320x64.ShapeCasts S320x64
  shapeCasts_S4000x64_S4000x64 : S4000x64.ShapeCasts S4000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S300000x64_S3200000x1_S3200000x64_1_0_0_1_wf : ScatterDims.WF S300000x64 S3200000x1 S3200000x64 [1] [0] [0] 1
  dot_S4000x192_S192x64_S4000x64_1_0_0_1_n_n_wf : DotDims.WF S4000x192 S192x64 S4000x64 [1] [0] [0] [1] [] []
  dot_S4000x64_S64x64_S4000x64_1_0_0_1_n_n_wf : DotDims.WF S4000x64 S64x64 S4000x64 [1] [0] [0] [1] [] []
  scatter_S500000x64_S3200000x1_S3200000x64_1_0_0_1_wf : ScatterDims.WF S500000x64 S3200000x1 S3200000x64 [1] [0] [0] 1
  dot_S4000x320_S320x64_S4000x64_1_0_0_1_n_n_wf : DotDims.WF S4000x320 S320x64 S4000x64 [1] [0] [0] [1] [] []
  dot_S4000x64_S64x16_S4000x16_1_0_0_1_n_n_wf : DotDims.WF S4000x64 S64x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x192.size a ≤ S100000x192.size a
  hwx0_1 : ∀ i : grid0.Coords, EltTy.bits .f32 = 32 ∨ (Rect.block (s := S100000x192) S4000x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x64.size a ≤ S192x64.size a
  hwx0_2 : ∀ i : grid0.Coords, EltTy.bits .f32 = 32 ∨ (Rect.block (s := S192x64) S192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x320.size a ≤ S100000x320.size a
  hwx1_1 : ∀ i : grid1.Coords, EltTy.bits .f32 = 32 ∨ (Rect.block (s := S100000x320) S4000x320.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S320x64.size a ≤ S320x64.size a
  hwx1_2 : ∀ i : grid1.Coords, EltTy.bits .f32 = 32 ∨ (Rect.block (s := S320x64) S320x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x16.size a ≤ S64x16.size a
  hwx1_7 : ∀ i : grid1.Coords, EltTy.bits .f32 = 32 ∨ (Rect.block (s := S64x16) S64x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x16.size a ≤ S100000x16.size a
  hwx1_9 : ∀ i : grid1.Coords, EltTy.bits .f32 = 32 ∨ (Rect.block (s := S100000x16) S4000x16.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S300000x64_S3200000x1_S3200000x64_1_0_0_1 : ScatterDims S300000x64 S3200000x1 S3200000x64 where
  updateWindowDims := [1]
  insertedWindowDims := [0]
  scatterDimsToOperandDims := [0]
  indexVectorDim := 1
  wf := scatter_S300000x64_S3200000x1_S3200000x64_1_0_0_1_wf
def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S500000x64_S3200000x1_S3200000x64_1_0_0_1 : ScatterDims S500000x64 S3200000x1 S3200000x64 where
  updateWindowDims := [1]
  insertedWindowDims := [0]
  scatterDimsToOperandDims := [0]
  indexVectorDim := 1
  wf := scatter_S500000x64_S3200000x1_S3200000x64_1_0_0_1_wf
def dot_S4000x320_S320x64_S4000x64_1_0_0_1_n_n : DotDims S4000x320 S320x64 S4000x64 where
  lhsContracting := [1]
  rhsContracting := [0]
  lhsNonContracting := [0]
  rhsNonContracting := [1]
  lhsBatch := []
  rhsBatch := []
  wf := dot_S4000x320_S320x64_S4000x64_1_0_0_1_n_n_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S4000x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v54) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v55) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v55) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S4000x320.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v90) S320x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v91) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v92) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v93) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v94) S4000x16.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S3x64x64 : Shape := ⟨3, ![3, 64, 64]⟩
abbrev S64x64 : Shape := ⟨2, ![64, 64]⟩
abbrev S64 : Shape := ⟨1, ![64]⟩
abbrev S5x64x64 : Shape := ⟨3, ![5, 64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x64 : Shape := ⟨2, ![1600000, 64]⟩
abbrev S100000 : Shape := ⟨1, ![100000]⟩
abbrev S1x64x64 : Shape := ⟨3, ![1, 64, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 375
  | .vmem => 0
  | .smem => 0
  | _ => 0

abbrev hbmTy0_0 (i : Nat) : BufTy := match i % 128 with
  | 0 => ⟨S100000x64, .f32⟩
  | 1 => ⟨S2x1600000, .i32⟩
  | 2 => ⟨S1600000x1, .f32⟩
  | 3 => ⟨S3x64x64, .f32⟩
  | 4 => ⟨S64x64, .f32⟩
  | 5 => ⟨S64, .f32⟩
  | 6 => ⟨S5x64x64, .f32⟩
  | 7 => ⟨S64x64, .f32⟩
  | 8 => ⟨S64, .f32⟩
  | 9 => ⟨S64x64, .f32⟩
  | 10 => ⟨S64, .f32⟩
  | 11 => ⟨S64x16, .f32⟩
  | 12 => ⟨S16, .f32⟩
  | 13 => ⟨S1x1600000, .i32⟩
  | 14 => ⟨S1600000, .i32⟩
  | 15 => ⟨S1x1600000, .i32⟩
  | 16 => ⟨S1600000, .i32⟩
  | 17 => ⟨S1600000, .f32⟩
  | 18 => ⟨S_, .f32⟩
  | 19 => ⟨S1600000, .f32⟩
  | 20 => ⟨S1600000, .f32⟩
  | 21 => ⟨S1600000, .f32⟩
  | 22 => ⟨S1600000, .f32⟩
  | 23 => ⟨S1600000, .f32⟩
  | 24 => ⟨S1600000, .i32⟩
  | 25 => ⟨S_, .i32⟩
  | 26 => ⟨S_, .i32⟩
  | 27 => ⟨S_, .i32⟩
  | 28 => ⟨S1600000, .i32⟩
  | 29 => ⟨S1600000, .i32⟩
  | 30 => ⟨S_, .i32⟩
  | 31 => ⟨S1600000, .i32⟩
  | 32 => ⟨S1600000, .i32⟩
  | 33 => ⟨S_, .i32⟩
  | 34 => ⟨S1600000, .i32⟩
  | 35 => ⟨S1600000, .i32⟩
  | 36 => ⟨S_, .i32⟩
  | 37 => ⟨S_, .i32⟩
  | 38 => ⟨S_, .i32⟩
  | 39 => ⟨S1600000, .i32⟩
  | 40 => ⟨S1600000, .i32⟩
  | 41 => ⟨S_, .i32⟩
  | 42 => ⟨S1600000, .i32⟩
  | 43 => ⟨S1600000, .i32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S_, .f32⟩
  | 54 => ⟨S1600000, .f32⟩
  | 55 => ⟨S_, .f32⟩
  | 56 => ⟨S100000, .f32⟩
  | 57 => ⟨S1600000x1, .i32⟩
  | 58 => ⟨S100000, .f32⟩
  | 59 => ⟨S_, .f32⟩
  | 60 => ⟨S100000x64, .f32⟩
  | 61 => ⟨S_, .f32⟩
  | 62 => ⟨S1600000, .f32⟩
  | 63 => ⟨S1600000, .f32⟩
  | 64 => ⟨S_, .i32⟩
  | 65 => ⟨S1600000, .i32⟩
  | 66 => ⟨S1600000, .i1⟩
  | 67 => ⟨S1600000, .f32⟩
  | 68 => ⟨S1600000, .f32⟩
  | 69 => ⟨S_, .i32⟩
  | 70 => ⟨S1600000, .i32⟩
  | 71 => ⟨S1600000, .i1⟩
  | 72 => ⟨S1600000, .f32⟩
  | 73 => ⟨S1600000, .f32⟩
  | 74 => ⟨S1600000, .f32⟩
  | 75 => ⟨S1600000x1, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S1x64x64, .f32⟩
  | 83 => ⟨S64x64, .f32⟩
  | 84 => ⟨S100000x64, .f32⟩
  | 85 => ⟨S100000x64, .f32⟩
  | 86 => ⟨S_, .f32⟩
  | 87 => ⟨S1600000, .f32⟩
  | 88 => ⟨S1600000, .f32⟩
  | 89 => ⟨S_, .i32⟩
  | 90 => ⟨S1600000, .i32⟩
  | 91 => ⟨S1600000, .i1⟩
  | 92 => ⟨S1600000, .f32⟩
  | 93 => ⟨S1600000, .f32⟩
  | 94 => ⟨S_, .i32⟩
  | 95 => ⟨S1600000, .i32⟩
  | 96 => ⟨S1600000, .i1⟩
  | 97 => ⟨S1600000, .f32⟩
  | 98 => ⟨S1600000, .f32⟩
  | 99 => ⟨S1600000, .f32⟩
  | 100 => ⟨S1600000x1, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S1x64x64, .f32⟩
  | 108 => ⟨S64x64, .f32⟩
  | 109 => ⟨S100000x64, .f32⟩
  | 110 => ⟨S100000x64, .f32⟩
  | 111 => ⟨S_, .f32⟩
  | 112 => ⟨S1600000, .f32⟩
  | 113 => ⟨S1600000, .f32⟩
  | 114 => ⟨S_, .i32⟩
  | 115 => ⟨S1600000, .i32⟩
  | 116 => ⟨S1600000, .i1⟩
  | 117 => ⟨S1600000, .f32⟩
  | 118 => ⟨S1600000, .f32⟩
  | 119 => ⟨S_, .i32⟩
  | 120 => ⟨S1600000, .i32⟩
  | 121 => ⟨S1600000, .i1⟩
  | 122 => ⟨S1600000, .f32⟩
  | 123 => ⟨S1600000, .f32⟩
  | 124 => ⟨S1600000, .f32⟩
  | 125 => ⟨S1600000x1, .f32⟩
  | 126 => ⟨S1600000x64, .f32⟩
  | 127 => ⟨S1600000x64, .f32⟩
  | _ => ⟨S100000x64, .f32⟩

abbrev hbmTy0_1 (i : Nat) : BufTy := match i % 128 with
  | 0 => ⟨S_, .f32⟩
  | 1 => ⟨S100000x64, .f32⟩
  | 2 => ⟨S1600000x1, .i32⟩
  | 3 => ⟨S100000x64, .f32⟩
  | 4 => ⟨S1x64x64, .f32⟩
  | 5 => ⟨S64x64, .f32⟩
  | 6 => ⟨S100000x64, .f32⟩
  | 7 => ⟨S100000x64, .f32⟩
  | 8 => ⟨S_, .f32⟩
  | 9 => ⟨S100000, .f32⟩
  | 10 => ⟨S100000, .f32⟩
  | 11 => ⟨S100000x1, .f32⟩
  | 12 => ⟨S100000x64, .f32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .i1⟩
  | 22 => ⟨S_, .f32⟩
  | 23 => ⟨S100000x64, .f32⟩
  | 24 => ⟨S100000x64, .i1⟩
  | 25 => ⟨S_, .f32⟩
  | 26 => ⟨S_, .f32⟩
  | 27 => ⟨S100000x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S1x1600000, .i32⟩
  | 35 => ⟨S1600000, .i32⟩
  | 36 => ⟨S1x1600000, .i32⟩
  | 37 => ⟨S1600000, .i32⟩
  | 38 => ⟨S1600000, .f32⟩
  | 39 => ⟨S_, .f32⟩
  | 40 => ⟨S1600000, .f32⟩
  | 41 => ⟨S1600000, .f32⟩
  | 42 => ⟨S1600000, .f32⟩
  | 43 => ⟨S1600000, .f32⟩
  | 44 => ⟨S1600000, .f32⟩
  | 45 => ⟨S1600000, .i32⟩
  | 46 => ⟨S_, .i32⟩
  | 47 => ⟨S_, .i32⟩
  | 48 => ⟨S_, .i32⟩
  | 49 => ⟨S1600000, .i32⟩
  | 50 => ⟨S1600000, .i32⟩
  | 51 => ⟨S_, .i32⟩
  | 52 => ⟨S1600000, .i32⟩
  | 53 => ⟨S1600000, .i32⟩
  | 54 => ⟨S_, .i32⟩
  | 55 => ⟨S1600000, .i32⟩
  | 56 => ⟨S1600000, .i32⟩
  | 57 => ⟨S_, .i32⟩
  | 58 => ⟨S_, .i32⟩
  | 59 => ⟨S_, .i32⟩
  | 60 => ⟨S1600000, .i32⟩
  | 61 => ⟨S1600000, .i32⟩
  | 62 => ⟨S_, .i32⟩
  | 63 => ⟨S1600000, .i32⟩
  | 64 => ⟨S1600000, .i32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000x64, .f32⟩
  | 82 => ⟨S_, .f32⟩
  | 83 => ⟨S1600000, .f32⟩
  | 84 => ⟨S1600000, .f32⟩
  | 85 => ⟨S_, .i32⟩
  | 86 => ⟨S1600000, .i32⟩
  | 87 => ⟨S1600000, .i1⟩
  | 88 => ⟨S1600000, .f32⟩
  | 89 => ⟨S1600000, .f32⟩
  | 90 => ⟨S_, .i32⟩
  | 91 => ⟨S1600000, .i32⟩
  | 92 => ⟨S1600000, .i1⟩
  | 93 => ⟨S1600000, .f32⟩
  | 94 => ⟨S1600000, .f32⟩
  | 95 => ⟨S1600000, .f32⟩
  | 96 => ⟨S1600000x1, .f32⟩
  | 97 => ⟨S1600000x64, .f32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S1x64x64, .f32⟩
  | 104 => ⟨S64x64, .f32⟩
  | 105 => ⟨S100000x64, .f32⟩
  | 106 => ⟨S100000x64, .f32⟩
  | 107 => ⟨S_, .f32⟩
  | 108 => ⟨S1600000, .f32⟩
  | 109 => ⟨S1600000, .f32⟩
  | 110 => ⟨S_, .i32⟩
  | 111 => ⟨S1600000, .i32⟩
  | 112 => ⟨S1600000, .i1⟩
  | 113 => ⟨S1600000, .f32⟩
  | 114 => ⟨S1600000, .f32⟩
  | 115 => ⟨S_, .i32⟩
  | 116 => ⟨S1600000, .i32⟩
  | 117 => ⟨S1600000, .i1⟩
  | 118 => ⟨S1600000, .f32⟩
  | 119 => ⟨S1600000, .f32⟩
  | 120 => ⟨S1600000, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_2 (i : Nat) : BufTy := match i % 128 with
  | 0 => ⟨S1x64x64, .f32⟩
  | 1 => ⟨S64x64, .f32⟩
  | 2 => ⟨S100000x64, .f32⟩
  | 3 => ⟨S100000x64, .f32⟩
  | 4 => ⟨S_, .f32⟩
  | 5 => ⟨S1600000, .f32⟩
  | 6 => ⟨S1600000, .f32⟩
  | 7 => ⟨S_, .i32⟩
  | 8 => ⟨S1600000, .i32⟩
  | 9 => ⟨S1600000, .i1⟩
  | 10 => ⟨S1600000, .f32⟩
  | 11 => ⟨S1600000, .f32⟩
  | 12 => ⟨S_, .i32⟩
  | 13 => ⟨S1600000, .i32⟩
  | 14 => ⟨S1600000, .i1⟩
  | 15 => ⟨S1600000, .f32⟩
  | 16 => ⟨S1600000, .f32⟩
  | 17 => ⟨S1600000, .f32⟩
  | 18 => ⟨S1600000x1, .f32⟩
  | 19 => ⟨S1600000x64, .f32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S1x64x64, .f32⟩
  | 26 => ⟨S64x64, .f32⟩
  | 27 => ⟨S100000x64, .f32⟩
  | 28 => ⟨S100000x64, .f32⟩
  | 29 => ⟨S_, .f32⟩
  | 30 => ⟨S1600000, .f32⟩
  | 31 => ⟨S1600000, .f32⟩
  | 32 => ⟨S_, .i32⟩
  | 33 => ⟨S1600000, .i32⟩
  | 34 => ⟨S1600000, .i1⟩
  | 35 => ⟨S1600000, .f32⟩
  | 36 => ⟨S1600000, .f32⟩
  | 37 => ⟨S_, .i32⟩
  | 38 => ⟨S1600000, .i32⟩
  | 39 => ⟨S1600000, .i1⟩
  | 40 => ⟨S1600000, .f32⟩
  | 41 => ⟨S1600000, .f32⟩
  | 42 => ⟨S1600000, .f32⟩
  | 43 => ⟨S1600000x1, .f32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1x64x64, .f32⟩
  | 51 => ⟨S64x64, .f32⟩
  | 52 => ⟨S100000x64, .f32⟩
  | 53 => ⟨S100000x64, .f32⟩
  | 54 => ⟨S_, .f32⟩
  | 55 => ⟨S1600000, .f32⟩
  | 56 => ⟨S1600000, .f32⟩
  | 57 => ⟨S_, .i32⟩
  | 58 => ⟨S1600000, .i32⟩
  | 59 => ⟨S1600000, .i1⟩
  | 60 => ⟨S1600000, .f32⟩
  | 61 => ⟨S1600000, .f32⟩
  | 62 => ⟨S_, .i32⟩
  | 63 => ⟨S1600000, .i32⟩
  | 64 => ⟨S1600000, .i1⟩
  | 65 => ⟨S1600000, .f32⟩
  | 66 => ⟨S1600000, .f32⟩
  | 67 => ⟨S1600000, .f32⟩
  | 68 => ⟨S1600000x1, .f32⟩
  | 69 => ⟨S1600000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S1x64x64, .f32⟩
  | 76 => ⟨S64x64, .f32⟩
  | 77 => ⟨S100000x64, .f32⟩
  | 78 => ⟨S100000x64, .f32⟩
  | 79 => ⟨S_, .f32⟩
  | 80 => ⟨S100000, .f32⟩
  | 81 => ⟨S100000, .f32⟩
  | 82 => ⟨S100000x1, .f32⟩
  | 83 => ⟨S100000x64, .f32⟩
  | 84 => ⟨S100000x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .i1⟩
  | 93 => ⟨S_, .f32⟩
  | 94 => ⟨S100000x64, .f32⟩
  | 95 => ⟨S100000x64, .i1⟩
  | 96 => ⟨S_, .f32⟩
  | 97 => ⟨S_, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x16, .f32⟩
  | 113 => ⟨S1x16, .f32⟩
  | 114 => ⟨S100000x16, .f32⟩
  | 115 => ⟨S100000x16, .f32⟩
  | 116 => ⟨S_, .f32⟩
  | 117 => ⟨S100000x16, .f32⟩
  | 118 => ⟨S100000x16, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_c_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_c_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_c_5 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_6 : Ref sig .tc := ⟨.hbm, 53, rfl⟩
abbrev main_v22 : Ref sig .tc := ⟨.hbm, 54, rfl⟩
abbrev main_cst_7 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_8 : Ref sig .tc := ⟨.hbm, 59, rfl⟩
abbrev main_v26 : Ref sig .tc := ⟨.hbm, 60, rfl⟩
abbrev main_cst_9 : Ref sig .tc := ⟨.hbm, 61, rfl⟩
abbrev main_v27 : Ref sig .tc := ⟨.hbm, 62, rfl⟩
abbrev main_v28 : Ref sig .tc := ⟨.hbm, 63, rfl⟩
abbrev main_c_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_11 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_12 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_13 : Ref sig .tc := ⟨.hbm, 86, rfl⟩
abbrev main_v48 : Ref sig .tc := ⟨.hbm, 87, rfl⟩
abbrev main_v49 : Ref sig .tc := ⟨.hbm, 88, rfl⟩
abbrev main_c_14 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_15 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_16 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_17 : Ref sig .tc := ⟨.hbm, 111, rfl⟩
abbrev main_v69 : Ref sig .tc := ⟨.hbm, 112, rfl⟩
abbrev main_v70 : Ref sig .tc := ⟨.hbm, 113, rfl⟩
abbrev main_c_18 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_19 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_20 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_21 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_cst_1 : Ref sig .tc := ⟨.hbm, 153, rfl⟩
abbrev main_call2_call0_v0 : Ref sig .tc := ⟨.hbm, 154, rfl⟩
abbrev main_call2_call0_v1 : Ref sig .tc := ⟨.hbm, 155, rfl⟩
abbrev main_call2_v4 : Ref sig .tc := ⟨.hbm, 156, rfl⟩
abbrev main_call2_v5 : Ref sig .tc := ⟨.hbm, 157, rfl⟩
abbrev main_call2_cst_2 : Ref sig .tc := ⟨.hbm, 158, rfl⟩
abbrev main_call2_v6 : Ref sig .tc := ⟨.hbm, 159, rfl⟩
abbrev main_call2_v7 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_22 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_23 : Ref sig .tc := ⟨.hbm, 174, rfl⟩
abbrev main_c_24 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_call3_v3 : Ref sig .tc := ⟨.hbm, 179, rfl⟩
abbrev main_call3_v4 : Ref sig .tc := ⟨.hbm, 180, rfl⟩
abbrev main_v112 : Ref sig .tc := ⟨.hbm, 181, rfl⟩
abbrev main_c_25 : Ref sig .tc := ⟨.hbm, 182, rfl⟩
abbrev main_v113 : Ref sig .tc := ⟨.hbm, 183, rfl⟩
abbrev main_v114 : Ref sig .tc := ⟨.hbm, 184, rfl⟩
abbrev main_c_26 : Ref sig .tc := ⟨.hbm, 185, rfl⟩
abbrev main_c_27 : Ref sig .tc := ⟨.hbm, 186, rfl⟩
abbrev main_call4_v0 : Ref sig .tc := ⟨.hbm, 187, rfl⟩
abbrev main_call4_v1 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_v115 : Ref sig .tc := ⟨.hbm, 192, rfl⟩
abbrev main_c_28 : Ref sig .tc := ⟨.hbm, 193, rfl⟩
abbrev main_v116 : Ref sig .tc := ⟨.hbm, 194, rfl⟩
abbrev main_v117 : Ref sig .tc := ⟨.hbm, 195, rfl⟩
abbrev main_c_29 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_30 : Ref sig .tc := ⟨.hbm, 202, rfl⟩
abbrev main_v123 : Ref sig .tc := ⟨.hbm, 203, rfl⟩
abbrev main_cst_31 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_cst_32 : Ref sig .tc := ⟨.hbm, 208, rfl⟩
abbrev main_v127 : Ref sig .tc := ⟨.hbm, 209, rfl⟩
abbrev main_cst_33 : Ref sig .tc := ⟨.hbm, 210, rfl⟩
abbrev main_v128 : Ref sig .tc := ⟨.hbm, 211, rfl⟩
abbrev main_v129 : Ref sig .tc := ⟨.hbm, 212, rfl⟩
abbrev main_c_34 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_c_35 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_36 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_cst_37 : Ref sig .tc := ⟨.hbm, 235, rfl⟩
abbrev main_v149 : Ref sig .tc := ⟨.hbm, 236, rfl⟩
abbrev main_v150 : Ref sig .tc := ⟨.hbm, 237, rfl⟩
abbrev main_c_38 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_c_39 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_40 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_cst_41 : Ref sig .tc := ⟨.hbm, 260, rfl⟩
abbrev main_v170 : Ref sig .tc := ⟨.hbm, 261, rfl⟩
abbrev main_v171 : Ref sig .tc := ⟨.hbm, 262, rfl⟩
abbrev main_c_42 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_c_43 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_cst_44 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_cst_45 : Ref sig .tc := ⟨.hbm, 285, rfl⟩
abbrev main_v191 : Ref sig .tc := ⟨.hbm, 286, rfl⟩
abbrev main_v192 : Ref sig .tc := ⟨.hbm, 287, rfl⟩
abbrev main_c_46 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_c_47 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_cst_48 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_cst_49 : Ref sig .tc := ⟨.hbm, 310, rfl⟩
abbrev main_v212 : Ref sig .tc := ⟨.hbm, 311, rfl⟩
abbrev main_v213 : Ref sig .tc := ⟨.hbm, 312, rfl⟩
abbrev main_c_50 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_c_51 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_cst_52 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_cst_53 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_call5_cst : Ref sig .tc := ⟨.hbm, 346, rfl⟩
abbrev main_call5_v0 : Ref sig .tc := ⟨.hbm, 347, rfl⟩
abbrev main_call5_v1 : Ref sig .tc := ⟨.hbm, 348, rfl⟩
abbrev main_call5_cst_0 : Ref sig .tc := ⟨.hbm, 349, rfl⟩
abbrev main_call5_v2 : Ref sig .tc := ⟨.hbm, 350, rfl⟩
abbrev main_call5_v3 : Ref sig .tc := ⟨.hbm, 351, rfl⟩
abbrev main_call5_cst_1 : Ref sig .tc := ⟨.hbm, 352, rfl⟩
abbrev main_call5_call0_v0 : Ref sig .tc := ⟨.hbm, 353, rfl⟩
abbrev main_call5_call0_v1 : Ref sig .tc := ⟨.hbm, 354, rfl⟩
abbrev main_call5_v4 : Ref sig .tc := ⟨.hbm, 355, rfl⟩
abbrev main_call5_v5 : Ref sig .tc := ⟨.hbm, 356, rfl⟩
abbrev main_call5_cst_2 : Ref sig .tc := ⟨.hbm, 357, rfl⟩
abbrev main_call5_v6 : Ref sig .tc := ⟨.hbm, 358, rfl⟩
abbrev main_call5_v7 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_v246 : Ref sig .tc := ⟨.hbm, 363, rfl⟩
abbrev main_v247 : Ref sig .tc := ⟨.hbm, 364, rfl⟩
abbrev main_call6_cst : Ref sig .tc := ⟨.hbm, 365, rfl⟩
abbrev main_call6_v0 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_call7_cst : Ref sig .tc := ⟨.hbm, 372, rfl⟩
abbrev main_call7_v0 : Ref sig .tc := ⟨.hbm, 373, rfl⟩
abbrev main_v253 : Ref sig .tc := ⟨.hbm, 374, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S5x64x64_S1x64x64_0_0_0 : S5x64x64.Slices ![0, 0, 0] S1x64x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  gather_S100000x64_S1600000x1_S1600000x64_1_0_n_n_0_1_164_wf : GatherDims.WF S100000x64 S1600000x1 S1600000x64 [1] [0] [] [0] [] 1 ![1, 64]
  scatter_S100000_S1600000x1_S1600000_n_0_0_1_wf : ScatterDims.WF S100000 S1600000x1 S1600000 [] [0] [0] 1
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spline.lean ====
/-
  SplineConv, twice, then a two-layer ReLU head: the two arrangements of one computation, index by index over
  the extended reals.

  An edge e carries a pseudo-coordinate p; with K kernel slots its position is v = p·(K−1), its base slot
  ⌊v⌋ clipped to [0, K−1], its next slot the base plus one clipped again, and its fraction v − ⌊v⌋. The
  message of e is the source node's feature row; the open linear B-spline gives it weight (1 − frac) in the
  base slot and frac in the next slot.

  First arrangement (one scatter per layer): every edge contributes twice to an array indexed by
  (destination, slot), each contribution already multiplied by the reciprocal of the destination's clamped
  in-degree; the N × (K·D) array so obtained meets the K·D × D stack of the K weight matrices in ONE product.
  Second arrangement (one scatter per slot): for each slot k the messages weighted by
  (1 − frac)·[base = k] + frac·[next = k] are summed per destination, multiplied by the k-th weight matrix, the
  K products added, and the sum divided by the clamped in-degree.
  Both then add the root projection and the bias and apply ELU, spelt exp(y) − 1 in the first and
  expm1(min-branch) in the second. They agree because a destination's reciprocal degree is constant over the
  edges that reach it, so it leaves every sum as a common factor (finite entries: the extended reals
  distribute over finite summands), and x·(1/d) is x/d for a real d ≠ 0.
-/
import Idealize.ShloMosaic.PureOps.Ideal
import Idealize.ShloMosaic.PureOps.Ideal.Laws
import Idealize.ShloMosaic.Lib.ValueIdx

noncomputable section

namespace Cert.Spline

open Idealize.ShloMosaic Idealize.ShloMosaic.ValueIdx

/-! ## Reading arrays by coordinates -/

/-- A rank-1 array by its coordinate. -/
def vec1 {α : Type} {a : ℕ} (A : (⟨1, ![a]⟩ : Shape).Idx → α) : Fin a → α := fun i => A (ix1 i)
/-- A rank-2 array by its two coordinates. -/
def mat2 {α : Type} {a b : ℕ} (A : (⟨2, ![a, b]⟩ : Shape).Idx → α) : Fin a → Fin b → α := fun i j => A (ix2 i j)
/-- A rank-3 array by its three coordinates. -/
def ten3 {α : Type} {a b c : ℕ} (A : (⟨3, ![a, b, c]⟩ : Shape).Idx → α) : Fin a → Fin b → Fin c → α :=
  fun i j k => A (ix3 i j k)

/-! ## One edge's spline data, from its pseudo-coordinate -/

/-- The position of an edge on the spline's axis: the pseudo-coordinate times the number of intervals. -/
def pos (κ p : EReal) : EReal := p * κ
/-- The position rounded down. -/
def base (κ p : EReal) : EReal := Ideal.liftRound Int.floor (pos κ p)
/-- The fractional part of the position: the weight of the next slot. -/
def frac (κ p : EReal) : EReal := pos κ p - base κ p
/-- The base slot as a word: the rounded-down position converted to an integer and clipped to [0, hi]. -/
def slot0 (hi : BitVec 32) (κ p : EReal) : BitVec 32 :=
  IntOp.minsi hi (IntOp.maxsi 0#32 (Ideal.fptosi 32 (base κ p)))
/-- The next slot as a word: the base slot plus one, clipped to [0, hi] again. -/
def slot1 (hi : BitVec 32) (κ p : EReal) : BitVec 32 :=
  IntOp.minsi hi (IntOp.maxsi 0#32 (IntOp.addi (slot0 hi κ p) 1#32))

/-- An indicator as an extended real. -/
def ind (P : Prop) [Decidable P] : EReal := if P then 1 else 0

/-! ## The graph's degrees -/

section Graph
variable {N E : ℕ} (dst : Fin E → Fin N)

/-- The in-degree of node n: one per edge that ends at n, added to zero. -/
def deg (n : Fin N) : EReal := 0 + ∑ e : Fin E, if dst e = n then (1 : EReal) else 0
/-- The in-degree clamped below at one (a node without edges divides by one). -/
def cdeg (n : Fin N) : EReal := max (deg dst n) 1
/-- The reciprocal of the clamped in-degree. -/
def invdeg (n : Fin N) : EReal := Ideal.div 1 (cdeg dst n)
end Graph

/-! ## A dense row: two products and a bias -/

/-- Row n, column j of  A·Wf + X·R + b, each product accumulated from zero. -/
def densePre {N M D' D : ℕ} (A : Fin N → Fin M → EReal) (Wf : Fin M → Fin D → EReal)
    (X : Fin N → Fin D' → EReal) (R : Fin D' → Fin D → EReal) (b : Fin D → EReal) (n : Fin N) (j : Fin D) : EReal :=
  ((0 + ∑ c : Fin M, A n c * Wf c j) + (0 + ∑ d : Fin D', X n d * R d j)) + b j

/-- Row n, column j of  X·R + b, the product accumulated from zero, clamped below at zero. -/
def reluDense0 {N D' D : ℕ} (X : Fin N → Fin D' → EReal) (R : Fin D' → Fin D → EReal) (b : Fin D → EReal)
    (n : Fin N) (j : Fin D) : EReal :=
  max ((0 + ∑ d : Fin D', X n d * R d j) + b j) 0

/-- Row n, column j of  X·R + b, the product a plain sum, clamped below at zero. -/
def reluDense {N D' D : ℕ} (X : Fin N → Fin D' → EReal) (R : Fin D' → Fin D → EReal) (b : Fin D → EReal)
    (n : Fin N) (j : Fin D) : EReal :=
  max ((∑ d : Fin D', X n d * R d j) + b j) 0

/-- ELU with the negative branch spelt exp(y) − 1. -/
def eluExp (y : EReal) : EReal := if Ideal.cmp .ogt y 0 = 1#1 then y else Ideal.exp y - 1

/-- ELU with the negative branch spelt 1 · expm1 of (0 where y > 0, else y). -/
def eluExpm1 (y : EReal) : EReal :=
  if Ideal.cmp .ogt y 0 = 1#1 then y else 1 * (Ideal.exp (if Ideal.cmp .ogt y 0 = 1#1 then 0 else y) - 1)

/-! ## One layer, in its two arrangements -/

section Layer
variable {N E D K M : ℕ} (hM : M = K * D) (hD : 0 < D)
variable (src dst : Fin E → Fin N) (fr : Fin E → EReal) (s0 s1 : Fin E → Fin K)
variable (X : Fin N → Fin D → EReal) (W : Fin K → Fin D → Fin D → EReal) (R : Fin D → Fin D → EReal) (b : Fin D → EReal)

/-- The slot of a column of the N × (K·D) aggregate. -/
def colSlot (c : Fin M) : Fin K := ⟨c.val / D, by
  exact Nat.div_lt_of_lt_mul (lt_of_lt_of_eq c.isLt (hM.trans (Nat.mul_comm K D)))⟩
/-- The feature of a column of the N × (K·D) aggregate. -/
def colFeat (c : Fin M) : Fin D := ⟨c.val % D, Nat.mod_lt _ hD⟩

/-- First arrangement: the aggregate at (destination n, slot k, feature d). Two scatter passes added to zero:
    the base-slot contributions, then the next-slot contributions, each message already carrying the reciprocal
    degree of its destination. -/
def aggFused (n : Fin N) (k : Fin K) (d : Fin D) : EReal :=
  0 + ((∑ e : Fin E, if dst e = n ∧ s0 e = k then X (src e) d * ((1 - fr e) * invdeg dst (dst e)) else 0)
     + (∑ e : Fin E, if dst e = n ∧ s1 e = k then X (src e) d * (fr e * invdeg dst (dst e)) else 0))

/-- First arrangement: the layer before its activation, the aggregate flattened to N × (K·D) against the
    stacked weights. -/
def preFused (n : Fin N) (j : Fin D) : EReal :=
  densePre (fun n (c : Fin M) => aggFused src dst fr s0 s1 X n (colSlot hM c) (colFeat hD c))
    (fun (c : Fin M) j => W (colSlot hM c) (colFeat hD c) j) X R b n j

/-- First arrangement: the layer. -/
def layerFused (n : Fin N) (j : Fin D) : EReal := eluExp (preFused hM hD src dst fr s0 s1 X W R b n j)

/-- Second arrangement: the weight of edge e in slot k. -/
def coeff (k : Fin K) (e : Fin E) : EReal := (1 - fr e) * ind (s0 e = k) + fr e * ind (s1 e = k)

/-- Second arrangement: slot k's aggregate at (destination n, feature d), added to zero. -/
def aggSlot (k : Fin K) (n : Fin N) (d : Fin D) : EReal :=
  0 + ∑ e : Fin E, if dst e = n then X (src e) d * coeff fr s0 s1 k e else 0

/-- Second arrangement: the layer before its activation: the K slot products summed, divided by the clamped
    degree, plus the root projection and the bias. -/
def preSlots (n : Fin N) (j : Fin D) : EReal :=
  (Ideal.div (∑ k : Fin K, ∑ d : Fin D, aggSlot src dst fr s0 s1 X k n d * W k d j) (cdeg dst n)
    + ∑ d : Fin D, X n d * R d j) + b j

/-- Second arrangement: the layer. -/
def layerSlots (n : Fin N) (j : Fin D) : EReal := eluExpm1 (preSlots src dst fr s0 s1 X W R b n j)

end Layer

/-! ## The whole network -/

/-- The network's inputs by coordinates, the edge ends decoded to nodes. -/
structure Inputs (N E D C : ℕ) where
  x : Fin N → Fin D → EReal
  src : Fin E → Fin N
  dst : Fin E → Fin N
  ps : Fin E → EReal
  W1 : Fin 3 → Fin D → Fin D → EReal
  root1 : Fin D → Fin D → EReal
  b1 : Fin D → EReal
  W2 : Fin 5 → Fin D → Fin D → EReal
  root2 : Fin D → Fin D → EReal
  b2 : Fin D → EReal
  Wm1 : Fin D → Fin D → EReal
  bm1 : Fin D → EReal
  Wm2 : Fin D → Fin C → EReal
  bm2 : Fin C → EReal

/-- The scale of a layer with three slots: two intervals. -/
abbrev κ3 : EReal := Ideal.ofBits .f32 0x40000000#32
/-- The scale of a layer with five slots: four intervals. -/
abbrev κ5 : EReal := Ideal.ofBits .f32 0x40800000#32

/-- A clipped word is at most its upper bound (both read as naturals), when the bound is non-negative. -/
theorem clip_toNat_le (hi x : BitVec 32) (hhi : hi.msb = false) :
    (IntOp.minsi hi (IntOp.maxsi 0#32 x)).toNat ≤ hi.toNat := by
  unfold IntOp.minsi IntOp.maxsi
  by_cases h1 : x.slt 0#32 = true
  · -- a negative word is raised to zero, and zero is below every bound
    rw [if_pos h1]
    by_cases h2 : hi.slt 0#32 = true
    · rw [if_pos h2]
    · rw [if_neg h2]; simp
  · -- a non-negative word not above the bound (as integers) is not above it as a natural either
    rw [if_neg h1]
    by_cases h2 : hi.slt x = true
    · rw [if_pos h2]
    · rw [if_neg h2]
      have hx : ¬ (x.toInt < 0) := by
        intro h; apply h1; simp [BitVec.slt, h]
      have hle : ¬ (hi.toInt < x.toInt) := by
        intro h; apply h2; simp [BitVec.slt, h]
      have ex := BitVec.toInt_eq_toNat_cond x
      have eh := BitVec.toInt_eq_toNat_cond hi
      rw [BitVec.msb_eq_decide] at hhi
      have hhi' : hi.toNat < 2 ^ 31 := by simpa using hhi
      have := x.isLt
      split_ifs at ex eh <;> omega

/-- A slot word of a layer with K slots, decoded. -/
def slotFin (K : ℕ) (hi : BitVec 32) (hK : hi.toNat + 1 = K) (hhi : hi.msb = false) (w : BitVec 32)
    (hw : w.toNat ≤ hi.toNat) : Fin K := ⟨w.toNat, by omega⟩

section Net
variable {N E D C : ℕ} (hD : 0 < D) (I : Inputs N E D C)

/-- The base slots of the three-slot layer. -/
def s0_3 (e : Fin E) : Fin 3 := slotFin 3 2#32 (by decide) (by decide) (slot0 2#32 κ3 (I.ps e)) (clip_toNat_le _ _ (by decide))
/-- The next slots of the three-slot layer. -/
def s1_3 (e : Fin E) : Fin 3 := slotFin 3 2#32 (by decide) (by decide) (slot1 2#32 κ3 (I.ps e)) (clip_toNat_le _ _ (by decide))
/-- The base slots of the five-slot layer. -/
def s0_5 (e : Fin E) : Fin 5 := slotFin 5 4#32 (by decide) (by decide) (slot0 4#32 κ5 (I.ps e)) (clip_toNat_le _ _ (by decide))
/-- The next slots of the five-slot layer. -/
def s1_5 (e : Fin E) : Fin 5 := slotFin 5 4#32 (by decide) (by decide) (slot1 4#32 κ5 (I.ps e)) (clip_toNat_le _ _ (by decide))

/-- First arrangement, layer one. -/
def h1Fused : Fin N → Fin D → EReal :=
  layerFused (M := 3 * D) rfl hD I.src I.dst (fun e => frac κ3 (I.ps e)) (s0_3 I) (s1_3 I) I.x I.W1 I.root1 I.b1
/-- First arrangement, layer two, over layer one's result. -/
def h2Fused : Fin N → Fin D → EReal :=
  layerFused (M := 5 * D) rfl hD I.src I.dst (fun e => frac κ5 (I.ps e)) (s0_5 I) (s1_5 I) (h1Fused hD I) I.W2 I.root2 I.b2
/-- First arrangement, the result: the two-layer ReLU head on layer two, every product accumulated from zero. -/
def outFused : Fin N → Fin C → EReal :=
  reluDense0 (reluDense0 (h2Fused hD I) I.Wm1 I.bm1) I.Wm2 I.bm2

/-- Second arrangement, layer one. -/
def h1Slots : Fin N → Fin D → EReal :=
  layerSlots I.src I.dst (fun e => frac κ3 (I.ps e)) (s0_3 I) (s1_3 I) I.x I.W1 I.root1 I.b1
/-- Second arrangement, layer two, over layer one's result. -/
def h2Slots : Fin N → Fin D → EReal :=
  layerSlots I.src I.dst (fun e => frac κ5 (I.ps e)) (s0_5 I) (s1_5 I) (h1Slots I) I.W2 I.root2 I.b2
/-- Second arrangement, the result: the two-layer ReLU head on layer two, every product a plain sum. -/
def outSlots : Fin N → Fin C → EReal :=
  reluDense (reluDense (h2Slots I) I.Wm1 I.bm1) I.Wm2 I.bm2

/-- An extended real that is a real number. -/
def IsFin (x : EReal) : Prop := ∃ r : ℝ, x = (r : EReal)

/-- The inputs the law needs finite: the features, the pseudo-coordinates, both layers' weights, root
    projections and biases. -/
structure FiniteInputs : Prop where
  x : ∀ n d, IsFin (I.x n d)
  ps : ∀ e, IsFin (I.ps e)
  W1 : ∀ k d j, IsFin (I.W1 k d j)
  root1 : ∀ d j, IsFin (I.root1 d j)
  b1 : ∀ j, IsFin (I.b1 j)
  W2 : ∀ k d j, IsFin (I.W2 k d j)
  root2 : ∀ d j, IsFin (I.root2 d j)
  b2 : ∀ j, IsFin (I.b2 j)

end Net

/-! ## The inputs from the thirteen argument arrays -/

/-- The network's inputs read off the argument arrays: the features, the 2 × E edge words (row 0 the sources,
    row 1 the destinations, every word a node number), the E × 1 pseudo-coordinates, and the parameters. -/
def ofArrays
    (a0 : (⟨2, ![100000, 64]⟩ : Shape).Idx → EReal) (a1 : (⟨2, ![2, 1600000]⟩ : Shape).Idx → BitVec 32)
    (a2 : (⟨2, ![1600000, 1]⟩ : Shape).Idx → EReal) (a3 : (⟨3, ![3, 64, 64]⟩ : Shape).Idx → EReal)
    (a4 : (⟨2, ![64, 64]⟩ : Shape).Idx → EReal) (a5 : (⟨1, ![64]⟩ : Shape).Idx → EReal)
    (a6 : (⟨3, ![5, 64, 64]⟩ : Shape).Idx → EReal) (a7 : (⟨2, ![64, 64]⟩ : Shape).Idx → EReal)
    (a8 : (⟨1, ![64]⟩ : Shape).Idx → EReal) (a9 : (⟨2, ![64, 64]⟩ : Shape).Idx → EReal)
    (a10 : (⟨1, ![64]⟩ : Shape).Idx → EReal) (a11 : (⟨2, ![64, 16]⟩ : Shape).Idx → EReal)
    (a12 : (⟨1, ![16]⟩ : Shape).Idx → EReal)
    (hr : ∀ (r : Fin 2) (e : Fin 1600000), (a1 (ix2 r e)).toNat < 100000) : Inputs 100000 1600000 64 16 where
  x := mat2 a0
  src := fun e => ⟨(a1 (ix2 0 e)).toNat, hr 0 e⟩
  dst := fun e => ⟨(a1 (ix2 1 e)).toNat, hr 1 e⟩
  ps := fun e => a2 (ix2 e 0)
  W1 := ten3 a3
  root1 := mat2 a4
  b1 := vec1 a5
  W2 := ten3 a6
  root2 := mat2 a7
  b2 := vec1 a8
  Wm1 := mat2 a9
  bm1 := vec1 a10
  Wm2 := mat2 a11
  bm2 := vec1 a12

end Cert.Spline

end
-- ==== Proof.KernelInputs.lean ====
/-
  The network's inputs as the first program finds them: the thirteen argument arrays of the launch memory of
  one device, read by coordinates, the edge words decoded to nodes (every edge word is a node number).
-/
import proofs.«403743_j85538568667548_2_alg».proof.KernelIdeal
import proofs.«403743_j85538568667548_2_alg».proof.Proof.Spline

noncomputable section

namespace Cert.KernelIdeal.Val

open Idealize.ShloMosaic Idealize.ShloMosaic.TcCoe Idealize.ShloMosaic.ValueIdx Idealize.SL.Sem Cert.KernelIdeal

/-- Every edge word of a memory's edge array, on device c, is a node number. -/
def InRange (m : (ℓ : Loc nD τ sig) → Buf (Elt Ideal) ℓ) (c : Dev nD) : Prop :=
  ∀ (r : Fin 2) (e : Fin 1600000),
    ((m ((c.tc : Thread nD τ).loc main_arg1) : S2x1600000.Idx → BitVec 32) (ix2 r e)).toNat < 100000

/-- The inputs by coordinates, from the launch memory of device c. -/
def inputs (m : (ℓ : Loc nD τ sig) → Buf (Elt Ideal) ℓ) (c : Dev nD) (hr : InRange m c) :
    Cert.Spline.Inputs 100000 1600000 64 16 :=
  Cert.Spline.ofArrays
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) hr

end Cert.KernelIdeal.Val

end
-- ==== Proof.RefInputs.lean ====
/-
  The network's inputs as the second program finds them: the thirteen argument buffers of a valuation, read by
  coordinates, the edge words decoded to nodes (every edge word is a node number).
-/
import proofs.«403743_j85538568667548_2_alg».proof.ReferenceIdeal
import proofs.«403743_j85538568667548_2_alg».proof.Proof.Spline
import Idealize.ShloMosaic.Lib.StableHlo.Run

noncomputable section

namespace Cert.ReferenceIdeal.Val

open Idealize.ShloMosaic Idealize.ShloMosaic.TcCoe Idealize.ShloMosaic.ValueIdx Idealize.SL.Sem Idealize.ShloMosaic.StableHlo
open Cert.ReferenceIdeal

/-- Every edge word of a valuation's edge array is a node number. -/
def InRange (V : Valuation τ sig (Elt Ideal)) : Prop :=
  ∀ (r : Fin 2) (e : Fin 1600000),
    ((V (main_arg1 : DevRef τ sig) : S2x1600000.Idx → BitVec 32) (ix2 r e)).toNat < 100000

/-- The inputs by coordinates, from a valuation's argument buffers. -/
def inputs (V : Valuation τ sig (Elt Ideal)) (hr : InRange V) : Cert.Spline.Inputs 100000 1600000 64 16 :=
  Cert.Spline.ofArrays
    (V (main_arg0 : DevRef τ sig)) (V (main_arg1 : DevRef τ sig)) (V (main_arg2 : DevRef τ sig))
    (V (main_arg3 : DevRef τ sig)) (V (main_arg4 : DevRef τ sig)) (V (main_arg5 : DevRef τ sig))
    (V (main_arg6 : DevRef τ sig)) (V (main_arg7 : DevRef τ sig)) (V (main_arg8 : DevRef τ sig))
    (V (main_arg9 : DevRef τ sig)) (V (main_arg10 : DevRef τ sig)) (V (main_arg11 : DevRef τ sig))
    (V (main_arg12 : DevRef τ sig)) hr

end Cert.ReferenceIdeal.Val

end
-- ==== Proof.RefOps.lean ====
/-
  The second program's @main as LISTS of its host operations, in order, every call to a module-local
  function replaced by the function's own operations over that call's buffers (a clip: six; an ELU: fifteen,
  its two selects among them; a ReLU: three).  Running the lists one after the other is running @main; a
  list's effect on the buffers is the fold of its operations' results.  The lists are cut where the network
  is: layer one (the statements up to the first ELU's result %100), layer two (up to the second ELU's result
  %243), and the two-layer ReLU head (up to %253); each layer is cut again into pieces of at most sixty
  operations, a piece never ending inside a call.
-/
import Idealize.ShloMosaic.Lib.StableHlo.Run
import proofs.«403743_j85538568667548_2_alg».proof.ReferenceIdeal
import proofs.«403743_j85538568667548_2_alg».proof.Proof.Gen.ReferenceIdeal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Layer one, statements %0 … %c_5: 35 operations. -/
abbrev opsL1a : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.reshape main_arg2 main_v4 rfl shapeCasts_S1600000x1_S1600000,
    StableHlo.nullary main_cst (constant S_ .f32 0x40000000#32),
    StableHlo.unary main_cst main_v5 (broadcastInDim S1600000 ![] bcast_S_S1600000 : (⟨S_, .f32⟩ : BufTy).Contents (Elt F) → (⟨S1600000, .f32⟩ : BufTy).Contents (Elt F)),
    StableHlo.binary main_v4 main_v5 main_v6 (mulf : (⟨S1600000, .f32⟩ : BufTy).Contents (Elt F) → (⟨S1600000, .f32⟩ : BufTy).Contents (Elt F) → (⟨S1600000, .f32⟩ : BufTy).Contents (Elt F)),
    StableHlo.unary main_v6 main_v7 (Host.floor : (⟨S1600000, .f32⟩ : BufTy).Contents (Elt F) → (⟨S1600000, .f32⟩ : BufTy).Contents (Elt F)),
    StableHlo.binary main_v6 main_v7 main_v8 (subf : (⟨S1600000, .f32⟩ : BufTy).Contents (Elt F) → (⟨S1600000, .f32⟩ : BufTy).Contents (Elt F) → (⟨S1600000, .f32⟩ : BufTy).Contents (Elt F)),
    StableHlo.unary main_v6 main_v9 (Host.floor : (⟨S1600000, .f32⟩ : BufTy).Contents (Elt F) → (⟨S1600000, .f32⟩ : BufTy).Contents (Elt F)),
    StableHlo.unary main_v9 main_v10 (fptosi 32 : (⟨S1600000, .f32⟩ : BufTy).Contents (Elt F) → (⟨S1600000, .i32⟩ : BufTy).Contents (Elt F)),
    StableHlo.nullary main_c (constantI S_ 32 0#32),
    StableHlo.nullary main_c_0 (constantI S_ 32 2#32),
    StableHlo.TRef.unary (.of main_c) main_call0.v0 id,
    StableHlo.TRef.unary main_call0.v0 main_call0.v1 (broadcastInDim S1600000 ![] bcast_S_S1600000),
    StableHlo.TRef.binary main_call0.v1 (.of main_v10) main_call0.v2 maxsi,
    StableHlo.TRef.unary (.of main_c_0) main_call0.v3 id,
    StableHlo.TRef.unary main_call0.v3 main_call0.v4 (broadcastInDim S1600000 ![] bcast_S_S1600000),
    StableHlo.TRef.binary main_call0.v4 main_call0.v2 main_call0.v5 minsi,
    StableHlo.nullary main_c_1 (constantI S_ 32 1#32),
    StableHlo.unary main_c_1 main_v12 (broadcastInDim S1600000 ![] bcast_S_S1600000 : (⟨S_, .i32⟩ : BufTy).Contents (Elt F) → (⟨S1600000, .i32⟩ : BufTy).Contents (Elt F)),
    StableHlo.binary main_v11 main_v12 main_v13 (addi : (⟨S1600000, .i32⟩ : BufTy).Contents (Elt F) → (⟨S1600000, .i32⟩ : BufTy).Contents (Elt F) → (⟨S1600000, .i32⟩ : BufTy).Contents (Elt F)),
    StableHlo.nullary main_c_2 (constantI S_ 32 0#32),
    StableHlo.nullary main_c_3 (constantI S_ 32 2#32),
    StableHlo.TRef.unary (.of main_c_2) main_call1.v0 id,
    StableHlo.TRef.unary main_call1.v0 main_call1.v1 (broadcastInDim S1600000 ![] bcast_S_S1600000),
    StableHlo.TRef.binary main_call1.v1 (.of main_v13) main_call1.v2 maxsi,
    StableHlo.TRef.unary (.of main_c_3) main_call1.v3 id,
    StableHlo.TRef.unary main_call1.v3 main_call1.v4 (broadcastInDim S1600000 ![] bcast_S_S1600000),
    StableHlo.TRef.binary main_call1.v4 main_call1.v2 main_call1.v5 minsi,
    StableHlo.nullary main_c_4 (constantI S_ 32 0#32),
    StableHlo.unary main_c_4 main_v15 (broadcastInDim S1600000 ![] bcast_S_S1600000 : (⟨S_, .i32⟩ : BufTy).Contents (Elt F) → (⟨S1600000, .i32⟩ : BufTy).Contents (Elt F)),
    StableHlo.binary main_v1 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32) ]

/-- Layer one, statements %17 … %44: 35 operations. -/
abbrev opsL1b : List (HloOp τ sig (Elt F)) :=
  [ StableHlo.unary main_c_5 main_v17 (broadcastInDim S1600000 ![] bcast_S_S1600000 : (⟨S_, .i32⟩ : BufTy).Contents (Elt F) → (⟨S1600000, .i32⟩ : BufTy).Contents (Elt F)),
    StableHlo.binary main_v1 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_arg0 main_v20 main_v21 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_6 (constant S_ .f32 0x3F800000#32),
    StableHlo.unary main_cst_6 main_v22 (broadcastInDim S1600000 ![] bcast_S_S1600000 : (⟨S_, .f32⟩ : BufTy).Contents (Elt F) → (⟨S1600000, .f32⟩ : BufTy).Contents (Elt F)),
    StableHlo.nullary main_cst_7 (constant S_ .f32 0x00000000#32),
    StableHlo.unary main_cst_7 main_v23 (broadcastInDim S100000 ![] bcast_S_S100000 : (⟨S_, .f32⟩ : BufTy).Contents (Elt F) → (⟨S100000, .f32⟩ : BufTy).Contents (Elt F)),
    StableHlo.unary main_v3 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_8 (constant S_ .f32 0x00000000#32),
    StableHlo.unary main_cst_8 main_v26 (broadcastInDim S100000x64 ![] bcast_S_S100000x64 : (⟨S_, .f32⟩ : BufTy).Contents (Elt F) → (⟨S100000x64, .f32⟩ : BufTy).Contents (Elt F)),
    StableHlo.nullary main_cst_9 (constant S_ .f32 0x3F800000#32),
    StableHlo.unary main_cst_9 main_v27 (broadcastInDim S1600000 ![] bcast_S_S1600000 : (⟨S_, .f32⟩ : BufTy).Contents (Elt F) → (⟨S1600000, .f32⟩ : BufTy).Contents (Elt F)),
    StableHlo.binary main_v27 main_v8 main_v28 (subf : (⟨S1600000, .f32⟩ : BufTy).Contents (Elt F) → (⟨S1600000, .f32⟩ : BufTy).Contents (Elt F) → (⟨S1600000, .f32⟩ : BufTy).Contents (Elt F)),
    StableHlo.nullary main_c_10 (constantI S_ 32 0#32),
    StableHlo.unary main_c_10 main_v29 (broadcastInDim S1600000 ![] bcast_S_S1600000 : (⟨S_, .i32⟩ : BufTy).Contents (Elt F) → (⟨S1600000, .i32⟩ : BufTy).Contents (Elt F)),
    StableHlo.binary main_v11 main_v29 main_v30 (cmpi .eq : (⟨S1600000, .i32⟩ : BufTy).Contents (Elt F) → (⟨S1600000, .i32⟩ : BufTy).Contents (Elt F) → (⟨S1600000, .i1⟩ : BufTy).Contents (Elt F)),
    StableHlo.unary main_v30 main_v31 (uitofp .f32 : (⟨S1600000, .i1⟩ : BufTy).Contents (Elt F) → (⟨S1600000, .f32⟩ : BufTy).Contents (Elt F)),
    StableHlo.binary main_v28 main_v31 main_v32 (mulf : (⟨S1600000, .f32⟩ : BufTy).Contents (Elt F) → (⟨S1600000, .f32⟩ : BufTy).Contents (Elt F) → (⟨S1600000, .f32⟩ : BufTy).Contents (Elt F)),
    StableHlo.nullary main_c_11 (constantI S_ 32 0#32),
    StableHlo.unary main_c_11 main_v33 (broadcastInDim S1600000 ![] bcast_S_S1600000 : (⟨S_, .i32⟩ : BufTy).Contents (Elt F) → (⟨S1600000, .i32⟩ : BufTy).Contents (Elt F)),
    StableHlo.binary main_v14 main_v33 main_v34 (cmpi .eq : (⟨S1600000, .i32⟩ : BufTy).Contents (Elt F) → (⟨S1600000, .i32⟩ : BufTy).Contents (Elt F) → (⟨S1600000, .i1⟩ : BufTy).Contents (Elt F)),
    StableHlo.unary main_v34 main_v35 (uitofp .f32 : (⟨S1600000, .i1⟩ : BufTy).Contents (Elt F) → (⟨S1600000, .f32⟩ : BufTy).Contents (Elt F)),
    StableHlo.binary main_v8 main_v35 main_v36 (mulf : (⟨S1600000, .f32⟩ : BufTy).Contents (Elt F) → (⟨S1600000, .f32⟩ : BufTy).Contents (Elt F) → (⟨S1600000, .f32⟩ : BufTy).Contents (Elt F)),
    StableHlo.binary main_v32 main_v36 main_v37 (addf : (⟨S1600000, .f32⟩ : BufTy).Contents (Elt F) → (⟨S1600000, .f32⟩ : BufTy).Contents (Elt F) → (⟨S1600000, .f32⟩ : BufTy).Contents (Elt F)),
    StableHlo.unary main_v37 main_v38 (broadcastInDim S1600000x1 ![0] bcast_S1600000_S1600000x1_0 : (⟨S1600000, .f32⟩ : BufTy).Contents (Elt F) → (⟨S1600000x1, .f32⟩ : BufTy).Contents (Elt F)),
    StableHlo.unary main_v38 main_v39 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v21 main_v39 main_v40 (mulf : (⟨S1600000x64, .f32⟩ : BufTy).Contents (Elt F) → (⟨S1600000x64, .f32⟩ : BufTy).Contents (Elt F) → (⟨S1600000x64, .f32⟩ : BufTy).Contents (Elt F)),
    StableHlo.nullary main_cst_12 (constant S_ .f32 0x00000000#32),
    StableHlo.unary main_cst_12 main_v41 (broadcastInDim S100000x64 ![] bcast_S_S100000x64 : (⟨S_, .f32⟩ : BufTy).Contents (Elt F) → (⟨S100000x64, .f32⟩ : BufTy).Contents (Elt F)),
    StableHlo.unary main_v3 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg3 main_v44 ((extractStridedSlice S1x64x64 ![0, 0, 0] · slices_S3x64x64_S1x64x64_0_0_0) : (⟨S3x64x64, .f32⟩ : BufTy).Contents (Elt F) → (⟨S1x64x64, .f32⟩ : BufTy).Contents (Elt F)) ]

/-- Layer one, statements %45 … %95: 60 operations. -/
abbrev opsL1c : List (HloOp τ sig (Elt F)) :=
  [ StableHlo.reshape main_v44 main_v45 rfl shapeCasts_S1x64x64_S64x64,
    StableHlo.binary main_v43 main_v45 main_v46 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v26 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3F800000#32),
    StableHlo.unary main_cst_13 main_v48 (broadcastInDim S1600000 ![] bcast_S_S1600000 : (⟨S_, .f32⟩ : BufTy).Contents (Elt F) → (⟨S1600000, .f32⟩ : BufTy).Contents (Elt F)),
    StableHlo.binary main_v48 main_v8 main_v49 (subf : (⟨S1600000, .f32⟩ : BufTy).Contents (Elt F) → (⟨S1600000, .f32⟩ : BufTy).Contents (Elt F) → (⟨S1600000, .f32⟩ : BufTy).Contents (Elt F)),
    StableHlo.nullary main_c_14 (constantI S_ 32 1#32),
    StableHlo.unary main_c_14 main_v50 (broadcastInDim S1600000 ![] bcast_S_S1600000 : (⟨S_, .i32⟩ : BufTy).Contents (Elt F) → (⟨S1600000, .i32⟩ : BufTy).Contents (Elt F)),
    StableHlo.binary main_v11 main_v50 main_v51 (cmpi .eq : (⟨S1600000, .i32⟩ : BufTy).Contents (Elt F) → (⟨S1600000, .i32⟩ : BufTy).Contents (Elt F) → (⟨S1600000, .i1⟩ : BufTy).Contents (Elt F)),
    StableHlo.unary main_v51 main_v52 (uitofp .f32 : (⟨S1600000, .i1⟩ : BufTy).Contents (Elt F) → (⟨S1600000, .f32⟩ : BufTy).Contents (Elt F)),
    StableHlo.binary main_v49 main_v52 main_v53 (mulf : (⟨S1600000, .f32⟩ : BufTy).Contents (Elt F) → (⟨S1600000, .f32⟩ : BufTy).Contents (Elt F) → (⟨S1600000, .f32⟩ : BufTy).Contents (Elt F)),
    StableHlo.nullary main_c_15 (constantI S_ 32 1#32),
    StableHlo.unary main_c_15 main_v54 (broadcastInDim S1600000 ![] bcast_S_S1600000 : (⟨S_, .i32⟩ : BufTy).Contents (Elt F) → (⟨S1600000, .i32⟩ : BufTy).Contents (Elt F)),
    StableHlo.binary main_v14 main_v54 main_v55 (cmpi .eq : (⟨S1600000, .i32⟩ : BufTy).Contents (Elt F) → (⟨S1600000, .i32⟩ : BufTy).Contents (Elt F) → (⟨S1600000, .i1⟩ : BufTy).Contents (Elt F)),
    StableHlo.unary main_v55 main_v56 (uitofp .f32 : (⟨S1600000, .i1⟩ : BufTy).Contents (Elt F) → (⟨S1600000, .f32⟩ : BufTy).Contents (Elt F)),
    StableHlo.binary main_v8 main_v56 main_v57 (mulf : (⟨S1600000, .f32⟩ : BufTy).Contents (Elt F) → (⟨S1600000, .f32⟩ : BufTy).Contents (Elt F) → (⟨S1600000, .f32⟩ : BufTy).Contents (Elt F)),
    StableHlo.binary main_v53 main_v57 main_v58 (addf : (⟨S1600000, .f32⟩ : BufTy).Contents (Elt F) → (⟨S1600000, .f32⟩ : BufTy).Contents (Elt F) → (⟨S1600000, .f32⟩ : BufTy).Contents (Elt F)),
    StableHlo.unary main_v58 main_v59 (broadcastInDim S1600000x1 ![0] bcast_S1600000_S1600000x1_0 : (⟨S1600000, .f32⟩ : BufTy).Contents (Elt F) → (⟨S1600000x1, .f32⟩ : BufTy).Contents (Elt F)),
    StableHlo.unary main_v59 main_v60 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v21 main_v60 main_v61 (mulf : (⟨S1600000x64, .f32⟩ : BufTy).Contents (Elt F) → (⟨S1600000x64, .f32⟩ : BufTy).Contents (Elt F) → (⟨S1600000x64, .f32⟩ : BufTy).Contents (Elt F)),
    StableHlo.nullary main_cst_16 (constant S_ .f32 0x00000000#32),
    StableHlo.unary main_cst_16 main_v62 (broadcastInDim S100000x64 ![] bcast_S_S100000x64 : (⟨S_, .f32⟩ : BufTy).Contents (Elt F) → (⟨S100000x64, .f32⟩ : BufTy).Contents (Elt F)),
    StableHlo.unary main_v3 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg3 main_v65 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v65 main_v66 rfl shapeCasts_S1x64x64_S64x64,
    StableHlo.binary main_v64 main_v66 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v47 main_v67 main_v68 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3F800000#32),
    StableHlo.unary main_cst_17 main_v69 (broadcastInDim S1600000 ![] bcast_S_S1600000 : (⟨S_, .f32⟩ : BufTy).Contents (Elt F) → (⟨S1600000, .f32⟩ : BufTy).Contents (Elt F)),
    StableHlo.binary main_v69 main_v8 main_v70 (subf : (⟨S1600000, .f32⟩ : BufTy).Contents (Elt F) → (⟨S1600000, .f32⟩ : BufTy).Contents (Elt F) → (⟨S1600000, .f32⟩ : BufTy).Contents (Elt F)),
    StableHlo.nullary main_c_18 (constantI S_ 32 2#32),
    StableHlo.unary main_c_18 main_v71 (broadcastInDim S1600000 ![] bcast_S_S1600000 : (⟨S_, .i32⟩ : BufTy).Contents (Elt F) → (⟨S1600000, .i32⟩ : BufTy).Contents (Elt F)),
    StableHlo.binary main_v11 main_v71 main_v72 (cmpi .eq : (⟨S1600000, .i32⟩ : BufTy).Contents (Elt F) → (⟨S1600000, .i32⟩ : BufTy).Contents (Elt F) → (⟨S1600000, .i1⟩ : BufTy).Contents (Elt F)),
    StableHlo.unary main_v72 main_v73 (uitofp .f32 : (⟨S1600000, .i1⟩ : BufTy).Contents (Elt F) → (⟨S1600000, .f32⟩ : BufTy).Contents (Elt F)),
    StableHlo.binary main_v70 main_v73 main_v74 (mulf : (⟨S1600000, .f32⟩ : BufTy).Contents (Elt F) → (⟨S1600000, .f32⟩ : BufTy).Contents (Elt F) → (⟨S1600000, .f32⟩ : BufTy).Contents (Elt F)),
    StableHlo.nullary main_c_19 (constantI S_ 32 2#32),
    StableHlo.unary main_c_19 main_v75 (broadcastInDim S1600000 ![] bcast_S_S1600000 : (⟨S_, .i32⟩ : BufTy).Contents (Elt F) → (⟨S1600000, .i32⟩ : BufTy).Contents (Elt F)),
    StableHlo.binary main_v14 main_v75 main_v76 (cmpi .eq : (⟨S1600000, .i32⟩ : BufTy).Contents (Elt F) → (⟨S1600000, .i32⟩ : BufTy).Contents (Elt F) → (⟨S1600000, .i1⟩ : BufTy).Contents (Elt F)),
    StableHlo.unary main_v76 main_v77 (uitofp .f32 : (⟨S1600000, .i1⟩ : BufTy).Contents (Elt F) → (⟨S1600000, .f32⟩ : BufTy).Contents (Elt F)),
    StableHlo.binary main_v8 main_v77 main_v78 (mulf : (⟨S1600000, .f32⟩ : BufTy).Contents (Elt F) → (⟨S1600000, .f32⟩ : BufTy).Contents (Elt F) → (⟨S1600000, .f32⟩ : BufTy).Contents (Elt F)),
    StableHlo.binary main_v74 main_v78 main_v79 (addf : (⟨S1600000, .f32⟩ : BufTy).Contents (Elt F) → (⟨S1600000, .f32⟩ : BufTy).Contents (Elt F) → (⟨S1600000, .f32⟩ : BufTy).Contents (Elt F)),
    StableHlo.unary main_v79 main_v80 (broadcastInDim S1600000x1 ![0] bcast_S1600000_S1600000x1_0 : (⟨S1600000, .f32⟩ : BufTy).Contents (Elt F) → (⟨S1600000x1, .f32⟩ : BufTy).Contents (Elt F)),
    StableHlo.unary main_v80 main_v81 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v21 main_v81 main_v82 (mulf : (⟨S1600000x64, .f32⟩ : BufTy).Contents (Elt F) → (⟨S1600000x64, .f32⟩ : BufTy).Contents (Elt F) → (⟨S1600000x64, .f32⟩ : BufTy).Contents (Elt F)),
    StableHlo.nullary main_cst_20 (constant S_ .f32 0x00000000#32),
    StableHlo.unary main_cst_20 main_v83 (broadcastInDim S100000x64 ![] bcast_S_S100000x64 : (⟨S_, .f32⟩ : BufTy).Contents (Elt F) → (⟨S100000x64, .f32⟩ : BufTy).Contents (Elt F)),
    StableHlo.unary main_v3 main_v84 (broadcastInDim S1600000x1 ![0] bcast_S1600000_S1600000x1_0 : (⟨S1600000, .i32⟩ : BufTy).Contents (Elt F) → (⟨S1600000x1, .i32⟩ : BufTy).Contents (Elt F)),
    StableHlo.ternary main_v83 main_v84 main_v82 main_v85 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg3 main_v86 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v86 main_v87 rfl shapeCasts_S1x64x64_S64x64,
    StableHlo.binary main_v85 main_v87 main_v88 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v68 main_v88 main_v89 (addf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3F800000#32),
    StableHlo.unary main_cst_21 main_v90 (broadcastInDim S100000 ![] bcast_S_S100000 : (⟨S_, .f32⟩ : BufTy).Contents (Elt F) → (⟨S100000, .f32⟩ : BufTy).Contents (Elt F)),
    StableHlo.binary main_v25 main_v90 main_v91 (maximumf : (⟨S100000, .f32⟩ : BufTy).Contents (Elt F) → (⟨S100000, .f32⟩ : BufTy).Contents (Elt F) → (⟨S100000, .f32⟩ : BufTy).Contents (Elt F)),
    StableHlo.unary main_v91 main_v92 (broadcastInDim S100000x1 ![0] bcast_S100000_S100000x1_0 : (⟨S100000, .f32⟩ : BufTy).Contents (Elt F) → (⟨S100000x1, .f32⟩ : BufTy).Contents (Elt F)),
    StableHlo.unary main_v92 main_v93 (broadcastInDim S100000x64 ![0, 1] bcast_S100000x1_S100000x64_0_1 : (⟨S100000x1, .f32⟩ : BufTy).Contents (Elt F) → (⟨S100000x64, .f32⟩ : BufTy).Contents (Elt F)),
    StableHlo.binary main_v89 main_v93 main_v94 (Host.divf : (⟨S100000x64, .f32⟩ : BufTy).Contents (Elt F) → (⟨S100000x64, .f32⟩ : BufTy).Contents (Elt F) → (⟨S100000x64, .f32⟩ : BufTy).Contents (Elt F)),
    StableHlo.binary main_arg0 main_arg4 main_v95 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Layer one, statements %96 … %100: 19 operations. -/
abbrev opsL1d : List (HloOp τ sig (Elt F)) :=
  [ StableHlo.binary main_v94 main_v95 main_v96 (addf : (⟨S100000x64, .f32⟩ : BufTy).Contents (Elt F) → (⟨S100000x64, .f32⟩ : BufTy).Contents (Elt F) → (⟨S100000x64, .f32⟩ : BufTy).Contents (Elt F)),
    StableHlo.unary main_arg5 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v98 main_v99 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v99) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v99) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v99) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v99) main_call2.v7 main_call2.call1.v0 select ]

/-- Layer one: 149 operations. -/
abbrev opsL1 : List (HloOp τ sig (Elt F)) := opsL1a ++ opsL1b ++ opsL1c ++ opsL1d

/-- Layer two, statements %101 … %c_28: 32 operations. -/
abbrev opsL2a : List (HloOp τ sig (Elt F)) :=
  [ StableHlo.unary main_arg1 main_v101 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v101 main_v102 rfl shapeCasts_S1x1600000_S1600000,
    StableHlo.unary main_arg1 main_v103 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v103 main_v104 rfl shapeCasts_S1x1600000_S1600000,
    StableHlo.reshape main_arg2 main_v105 rfl shapeCasts_S1600000x1_S1600000,
    StableHlo.nullary main_cst_22 (constant S_ .f32 0x40800000#32),
    StableHlo.unary main_cst_22 main_v106 (broadcastInDim S1600000 ![] bcast_S_S1600000 : (⟨S_, .f32⟩ : BufTy).Contents (Elt F) → (⟨S1600000, .f32⟩ : BufTy).Contents (Elt F)),
    StableHlo.binary main_v105 main_v106 main_v107 (mulf : (⟨S1600000, .f32⟩ : BufTy).Contents (Elt F) → (⟨S1600000, .f32⟩ : BufTy).Contents (Elt F) → (⟨S1600000, .f32⟩ : BufTy).Contents (Elt F)),
    StableHlo.unary main_v107 main_v108 (Host.floor : (⟨S1600000, .f32⟩ : BufTy).Contents (Elt F) → (⟨S1600000, .f32⟩ : BufTy).Contents (Elt F)),
    StableHlo.binary main_v107 main_v108 main_v109 (subf : (⟨S1600000, .f32⟩ : BufTy).Contents (Elt F) → (⟨S1600000, .f32⟩ : BufTy).Contents (Elt F) → (⟨S1600000, .f32⟩ : BufTy).Contents (Elt F)),
    StableHlo.unary main_v107 main_v110 (Host.floor : (⟨S1600000, .f32⟩ : BufTy).Contents (Elt F) → (⟨S1600000, .f32⟩ : BufTy).Contents (Elt F)),
    StableHlo.unary main_v110 main_v111 (fptosi 32 : (⟨S1600000, .f32⟩ : BufTy).Contents (Elt F) → (⟨S1600000, .i32⟩ : BufTy).Contents (Elt F)),
    StableHlo.nullary main_c_23 (constantI S_ 32 0#32),
    StableHlo.nullary main_c_24 (constantI S_ 32 4#32),
    StableHlo.TRef.unary (.of main_c_23) main_call3.v0 id,
    StableHlo.TRef.unary main_call3.v0 main_call3.v1 (broadcastInDim S1600000 ![] bcast_S_S1600000),
    StableHlo.TRef.binary main_call3.v1 (.of main_v111) main_call3.v2 maxsi,
    StableHlo.TRef.unary (.of main_c_24) main_call3.v3 id,
    StableHlo.TRef.unary main_call3.v3 main_call3.v4 (broadcastInDim S1600000 ![] bcast_S_S1600000),
    StableHlo.TRef.binary main_call3.v4 main_call3.v2 main_call3.v5 minsi,
    StableHlo.nullary main_c_25 (constantI S_ 32 1#32),
    StableHlo.unary main_c_25 main_v113 (broadcastInDim S1600000 ![] bcast_S_S1600000 : (⟨S_, .i32⟩ : BufTy).Contents (Elt F) → (⟨S1600000, .i32⟩ : BufTy).Contents (Elt F)),
    StableHlo.binary main_v112 main_v113 main_v114 (addi : (⟨S1600000, .i32⟩ : BufTy).Contents (Elt F) → (⟨S1600000, .i32⟩ : BufTy).Contents (Elt F) → (⟨S1600000, .i32⟩ : BufTy).Contents (Elt F)),
    StableHlo.nullary main_c_26 (constantI S_ 32 0#32),
    StableHlo.nullary main_c_27 (constantI S_ 32 4#32),
    StableHlo.TRef.unary (.of main_c_26) main_call4.v0 id,
    StableHlo.TRef.unary main_call4.v0 main_call4.v1 (broadcastInDim S1600000 ![] bcast_S_S1600000),
    StableHlo.TRef.binary main_call4.v1 (.of main_v114) main_call4.v2 maxsi,
    StableHlo.TRef.unary (.of main_c_27) main_call4.v3 id,
    StableHlo.TRef.unary main_call4.v3 main_call4.v4 (broadcastInDim S1600000 ![] bcast_S_S1600000),
    StableHlo.TRef.binary main_call4.v4 main_call4.v2 main_call4.v5 minsi,
    StableHlo.nullary main_c_28 (constantI S_ 32 0#32) ]

/-- Layer two, statements %116 … %141: 33 operations. -/
abbrev opsL2b : List (HloOp τ sig (Elt F)) :=
  [ StableHlo.unary main_c_28 main_v116 (broadcastInDim S1600000 ![] bcast_S_S1600000 : (⟨S_, .i32⟩ : BufTy).Contents (Elt F) → (⟨S1600000, .i32⟩ : BufTy).Contents (Elt F)),
    StableHlo.binary main_v102 main_v116 main_v117 (cmpi .slt : (⟨S1600000, .i32⟩ : BufTy).Contents (Elt F) → (⟨S1600000, .i32⟩ : BufTy).Contents (Elt F) → (⟨S1600000, .i1⟩ : BufTy).Contents (Elt F)),
    StableHlo.nullary main_c_29 (constantI S_ 32 100000#32),
    StableHlo.unary main_c_29 main_v118 (broadcastInDim S1600000 ![] bcast_S_S1600000 : (⟨S_, .i32⟩ : BufTy).Contents (Elt F) → (⟨S1600000, .i32⟩ : BufTy).Contents (Elt F)),
    StableHlo.binary main_v102 main_v118 main_v119 (addi : (⟨S1600000, .i32⟩ : BufTy).Contents (Elt F) → (⟨S1600000, .i32⟩ : BufTy).Contents (Elt F) → (⟨S1600000, .i32⟩ : BufTy).Contents (Elt F)),
    StableHlo.ternary main_v117 main_v119 main_v102 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v120 main_v121 (broadcastInDim S1600000x1 ![0] bcast_S1600000_S1600000x1_0 : (⟨S1600000, .i32⟩ : BufTy).Contents (Elt F) → (⟨S1600000x1, .i32⟩ : BufTy).Contents (Elt F)),
    StableHlo.binary main_v100 main_v121 main_v122 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_30 (constant S_ .f32 0x3F800000#32),
    StableHlo.unary main_cst_30 main_v123 (broadcastInDim S1600000 ![] bcast_S_S1600000 : (⟨S_, .f32⟩ : BufTy).Contents (Elt F) → (⟨S1600000, .f32⟩ : BufTy).Contents (Elt F)),
    StableHlo.nullary main_cst_31 (constant S_ .f32 0x00000000#32),
    StableHlo.unary main_cst_31 main_v124 (broadcastInDim S100000 ![] bcast_S_S100000 : (⟨S_, .f32⟩ : BufTy).Contents (Elt F) → (⟨S100000, .f32⟩ : BufTy).Contents (Elt F)),
    StableHlo.unary main_v104 main_v125 (broadcastInDim S1600000x1 ![0] bcast_S1600000_S1600000x1_0 : (⟨S1600000, .i32⟩ : BufTy).Contents (Elt F) → (⟨S1600000x1, .i32⟩ : BufTy).Contents (Elt F)),
    StableHlo.ternary main_v124 main_v125 main_v123 main_v126 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_32 (constant S_ .f32 0x00000000#32),
    StableHlo.unary main_cst_32 main_v127 (broadcastInDim S100000x64 ![] bcast_S_S100000x64 : (⟨S_, .f32⟩ : BufTy).Contents (Elt F) → (⟨S100000x64, .f32⟩ : BufTy).Contents (Elt F)),
    StableHlo.nullary main_cst_33 (constant S_ .f32 0x3F800000#32),
    StableHlo.unary main_cst_33 main_v128 (broadcastInDim S1600000 ![] bcast_S_S1600000 : (⟨S_, .f32⟩ : BufTy).Contents (Elt F) → (⟨S1600000, .f32⟩ : BufTy).Contents (Elt F)),
    StableHlo.binary main_v128 main_v109 main_v129 (subf : (⟨S1600000, .f32⟩ : BufTy).Contents (Elt F) → (⟨S1600000, .f32⟩ : BufTy).Contents (Elt F) → (⟨S1600000, .f32⟩ : BufTy).Contents (Elt F)),
    StableHlo.nullary main_c_34 (constantI S_ 32 0#32),
    StableHlo.unary main_c_34 main_v130 (broadcastInDim S1600000 ![] bcast_S_S1600000 : (⟨S_, .i32⟩ : BufTy).Contents (Elt F) → (⟨S1600000, .i32⟩ : BufTy).Contents (Elt F)),
    StableHlo.binary main_v112 main_v130 main_v131 (cmpi .eq : (⟨S1600000, .i32⟩ : BufTy).Contents (Elt F) → (⟨S1600000, .i32⟩ : BufTy).Contents (Elt F) → (⟨S1600000, .i1⟩ : BufTy).Contents (Elt F)),
    StableHlo.unary main_v131 main_v132 (uitofp .f32 : (⟨S1600000, .i1⟩ : BufTy).Contents (Elt F) → (⟨S1600000, .f32⟩ : BufTy).Contents (Elt F)),
    StableHlo.binary main_v129 main_v132 main_v133 (mulf : (⟨S1600000, .f32⟩ : BufTy).Contents (Elt F) → (⟨S1600000, .f32⟩ : BufTy).Contents (Elt F) → (⟨S1600000, .f32⟩ : BufTy).Contents (Elt F)),
    StableHlo.nullary main_c_35 (constantI S_ 32 0#32),
    StableHlo.unary main_c_35 main_v134 (broadcastInDim S1600000 ![] bcast_S_S1600000 : (⟨S_, .i32⟩ : BufTy).Contents (Elt F) → (⟨S1600000, .i32⟩ : BufTy).Contents (Elt F)),
    StableHlo.binary main_v115 main_v134 main_v135 (cmpi .eq : (⟨S1600000, .i32⟩ : BufTy).Contents (Elt F) → (⟨S1600000, .i32⟩ : BufTy).Contents (Elt F) → (⟨S1600000, .i1⟩ : BufTy).Contents (Elt F)),
    StableHlo.unary main_v135 main_v136 (uitofp .f32 : (⟨S1600000, .i1⟩ : BufTy).Contents (Elt F) → (⟨S1600000, .f32⟩ : BufTy).Contents (Elt F)),
    StableHlo.binary main_v109 main_v136 main_v137 (mulf : (⟨S1600000, .f32⟩ : BufTy).Contents (Elt F) → (⟨S1600000, .f32⟩ : BufTy).Contents (Elt F) → (⟨S1600000, .f32⟩ : BufTy).Contents (Elt F)),
    StableHlo.binary main_v133 main_v137 main_v138 (addf : (⟨S1600000, .f32⟩ : BufTy).Contents (Elt F) → (⟨S1600000, .f32⟩ : BufTy).Contents (Elt F) → (⟨S1600000, .f32⟩ : BufTy).Contents (Elt F)),
    StableHlo.unary main_v138 main_v139 (broadcastInDim S1600000x1 ![0] bcast_S1600000_S1600000x1_0 : (⟨S1600000, .f32⟩ : BufTy).Contents (Elt F) → (⟨S1600000x1, .f32⟩ : BufTy).Contents (Elt F)),
    StableHlo.unary main_v139 main_v140 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v122 main_v140 main_v141 (mulf : (⟨S1600000x64, .f32⟩ : BufTy).Contents (Elt F) → (⟨S1600000x64, .f32⟩ : BufTy).Contents (Elt F) → (⟨S1600000x64, .f32⟩ : BufTy).Contents (Elt F)) ]

/-- Layer two, statements %cst_36 … %191: 60 operations. -/
abbrev opsL2c : List (HloOp τ sig (Elt F)) :=
  [ StableHlo.nullary main_cst_36 (constant S_ .f32 0x00000000#32),
    StableHlo.unary main_cst_36 main_v142 (broadcastInDim S100000x64 ![] bcast_S_S100000x64 : (⟨S_, .f32⟩ : BufTy).Contents (Elt F) → (⟨S100000x64, .f32⟩ : BufTy).Contents (Elt F)),
    StableHlo.unary main_v104 main_v143 (broadcastInDim S1600000x1 ![0] bcast_S1600000_S1600000x1_0 : (⟨S1600000, .i32⟩ : BufTy).Contents (Elt F) → (⟨S1600000x1, .i32⟩ : BufTy).Contents (Elt F)),
    StableHlo.ternary main_v142 main_v143 main_v141 main_v144 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v145 ((extractStridedSlice S1x64x64 ![0, 0, 0] · slices_S5x64x64_S1x64x64_0_0_0) : (⟨S5x64x64, .f32⟩ : BufTy).Contents (Elt F) → (⟨S1x64x64, .f32⟩ : BufTy).Contents (Elt F)),
    StableHlo.reshape main_v145 main_v146 rfl shapeCasts_S1x64x64_S64x64,
    StableHlo.binary main_v144 main_v146 main_v147 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v127 main_v147 main_v148 (addf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x3F800000#32),
    StableHlo.unary main_cst_37 main_v149 (broadcastInDim S1600000 ![] bcast_S_S1600000 : (⟨S_, .f32⟩ : BufTy).Contents (Elt F) → (⟨S1600000, .f32⟩ : BufTy).Contents (Elt F)),
    StableHlo.binary main_v149 main_v109 main_v150 (subf : (⟨S1600000, .f32⟩ : BufTy).Contents (Elt F) → (⟨S1600000, .f32⟩ : BufTy).Contents (Elt F) → (⟨S1600000, .f32⟩ : BufTy).Contents (Elt F)),
    StableHlo.nullary main_c_38 (constantI S_ 32 1#32),
    StableHlo.unary main_c_38 main_v151 (broadcastInDim S1600000 ![] bcast_S_S1600000 : (⟨S_, .i32⟩ : BufTy).Contents (Elt F) → (⟨S1600000, .i32⟩ : BufTy).Contents (Elt F)),
    StableHlo.binary main_v112 main_v151 main_v152 (cmpi .eq : (⟨S1600000, .i32⟩ : BufTy).Contents (Elt F) → (⟨S1600000, .i32⟩ : BufTy).Contents (Elt F) → (⟨S1600000, .i1⟩ : BufTy).Contents (Elt F)),
    StableHlo.unary main_v152 main_v153 (uitofp .f32 : (⟨S1600000, .i1⟩ : BufTy).Contents (Elt F) → (⟨S1600000, .f32⟩ : BufTy).Contents (Elt F)),
    StableHlo.binary main_v150 main_v153 main_v154 (mulf : (⟨S1600000, .f32⟩ : BufTy).Contents (Elt F) → (⟨S1600000, .f32⟩ : BufTy).Contents (Elt F) → (⟨S1600000, .f32⟩ : BufTy).Contents (Elt F)),
    StableHlo.nullary main_c_39 (constantI S_ 32 1#32),
    StableHlo.unary main_c_39 main_v155 (broadcastInDim S1600000 ![] bcast_S_S1600000 : (⟨S_, .i32⟩ : BufTy).Contents (Elt F) → (⟨S1600000, .i32⟩ : BufTy).Contents (Elt F)),
    StableHlo.binary main_v115 main_v155 main_v156 (cmpi .eq : (⟨S1600000, .i32⟩ : BufTy).Contents (Elt F) → (⟨S1600000, .i32⟩ : BufTy).Contents (Elt F) → (⟨S1600000, .i1⟩ : BufTy).Contents (Elt F)),
    StableHlo.unary main_v156 main_v157 (uitofp .f32 : (⟨S1600000, .i1⟩ : BufTy).Contents (Elt F) → (⟨S1600000, .f32⟩ : BufTy).Contents (Elt F)),
    StableHlo.binary main_v109 main_v157 main_v158 (mulf : (⟨S1600000, .f32⟩ : BufTy).Contents (Elt F) → (⟨S1600000, .f32⟩ : BufTy).Contents (Elt F) → (⟨S1600000, .f32⟩ : BufTy).Contents (Elt F)),
    StableHlo.binary main_v154 main_v158 main_v159 (addf : (⟨S1600000, .f32⟩ : BufTy).Contents (Elt F) → (⟨S1600000, .f32⟩ : BufTy).Contents (Elt F) → (⟨S1600000, .f32⟩ : BufTy).Contents (Elt F)),
    StableHlo.unary main_v159 main_v160 (broadcastInDim S1600000x1 ![0] bcast_S1600000_S1600000x1_0 : (⟨S1600000, .f32⟩ : BufTy).Contents (Elt F) → (⟨S1600000x1, .f32⟩ : BufTy).Contents (Elt F)),
    StableHlo.unary main_v160 main_v161 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v122 main_v161 main_v162 (mulf : (⟨S1600000x64, .f32⟩ : BufTy).Contents (Elt F) → (⟨S1600000x64, .f32⟩ : BufTy).Contents (Elt F) → (⟨S1600000x64, .f32⟩ : BufTy).Contents (Elt F)),
    StableHlo.nullary main_cst_40 (constant S_ .f32 0x00000000#32),
    StableHlo.unary main_cst_40 main_v163 (broadcastInDim S100000x64 ![] bcast_S_S100000x64 : (⟨S_, .f32⟩ : BufTy).Contents (Elt F) → (⟨S100000x64, .f32⟩ : BufTy).Contents (Elt F)),
    StableHlo.unary main_v104 main_v164 (broadcastInDim S1600000x1 ![0] bcast_S1600000_S1600000x1_0 : (⟨S1600000, .i32⟩ : BufTy).Contents (Elt F) → (⟨S1600000x1, .i32⟩ : BufTy).Contents (Elt F)),
    StableHlo.ternary main_v163 main_v164 main_v162 main_v165 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v166 ((extractStridedSlice S1x64x64 ![1, 0, 0] · slices_S5x64x64_S1x64x64_1_0_0) : (⟨S5x64x64, .f32⟩ : BufTy).Contents (Elt F) → (⟨S1x64x64, .f32⟩ : BufTy).Contents (Elt F)),
    StableHlo.reshape main_v166 main_v167 rfl shapeCasts_S1x64x64_S64x64,
    StableHlo.binary main_v165 main_v167 main_v168 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v148 main_v168 main_v169 (addf : (⟨S100000x64, .f32⟩ : BufTy).Contents (Elt F) → (⟨S100000x64, .f32⟩ : BufTy).Contents (Elt F) → (⟨S100000x64, .f32⟩ : BufTy).Contents (Elt F)),
    StableHlo.nullary main_cst_41 (constant S_ .f32 0x3F800000#32),
    StableHlo.unary main_cst_41 main_v170 (broadcastInDim S1600000 ![] bcast_S_S1600000 : (⟨S_, .f32⟩ : BufTy).Contents (Elt F) → (⟨S1600000, .f32⟩ : BufTy).Contents (Elt F)),
    StableHlo.binary main_v170 main_v109 main_v171 (subf : (⟨S1600000, .f32⟩ : BufTy).Contents (Elt F) → (⟨S1600000, .f32⟩ : BufTy).Contents (Elt F) → (⟨S1600000, .f32⟩ : BufTy).Contents (Elt F)),
    StableHlo.nullary main_c_42 (constantI S_ 32 2#32),
    StableHlo.unary main_c_42 main_v172 (broadcastInDim S1600000 ![] bcast_S_S1600000 : (⟨S_, .i32⟩ : BufTy).Contents (Elt F) → (⟨S1600000, .i32⟩ : BufTy).Contents (Elt F)),
    StableHlo.binary main_v112 main_v172 main_v173 (cmpi .eq : (⟨S1600000, .i32⟩ : BufTy).Contents (Elt F) → (⟨S1600000, .i32⟩ : BufTy).Contents (Elt F) → (⟨S1600000, .i1⟩ : BufTy).Contents (Elt F)),
    StableHlo.unary main_v173 main_v174 (uitofp .f32 : (⟨S1600000, .i1⟩ : BufTy).Contents (Elt F) → (⟨S1600000, .f32⟩ : BufTy).Contents (Elt F)),
    StableHlo.binary main_v171 main_v174 main_v175 (mulf : (⟨S1600000, .f32⟩ : BufTy).Contents (Elt F) → (⟨S1600000, .f32⟩ : BufTy).Contents (Elt F) → (⟨S1600000, .f32⟩ : BufTy).Contents (Elt F)),
    StableHlo.nullary main_c_43 (constantI S_ 32 2#32),
    StableHlo.unary main_c_43 main_v176 (broadcastInDim S1600000 ![] bcast_S_S1600000 : (⟨S_, .i32⟩ : BufTy).Contents (Elt F) → (⟨S1600000, .i32⟩ : BufTy).Contents (Elt F)),
    StableHlo.binary main_v115 main_v176 main_v177 (cmpi .eq : (⟨S1600000, .i32⟩ : BufTy).Contents (Elt F) → (⟨S1600000, .i32⟩ : BufTy).Contents (Elt F) → (⟨S1600000, .i1⟩ : BufTy).Contents (Elt F)),
    StableHlo.unary main_v177 main_v178 (uitofp .f32 : (⟨S1600000, .i1⟩ : BufTy).Contents (Elt F) → (⟨S1600000, .f32⟩ : BufTy).Contents (Elt F)),
    StableHlo.binary main_v109 main_v178 main_v179 (mulf : (⟨S1600000, .f32⟩ : BufTy).Contents (Elt F) → (⟨S1600000, .f32⟩ : BufTy).Contents (Elt F) → (⟨S1600000, .f32⟩ : BufTy).Contents (Elt F)),
    StableHlo.binary main_v175 main_v179 main_v180 (addf : (⟨S1600000, .f32⟩ : BufTy).Contents (Elt F) → (⟨S1600000, .f32⟩ : BufTy).Contents (Elt F) → (⟨S1600000, .f32⟩ : BufTy).Contents (Elt F)),
    StableHlo.unary main_v180 main_v181 (broadcastInDim S1600000x1 ![0] bcast_S1600000_S1600000x1_0 : (⟨S1600000, .f32⟩ : BufTy).Contents (Elt F) → (⟨S1600000x1, .f32⟩ : BufTy).Contents (Elt F)),
    StableHlo.unary main_v181 main_v182 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v122 main_v182 main_v183 (mulf : (⟨S1600000x64, .f32⟩ : BufTy).Contents (Elt F) → (⟨S1600000x64, .f32⟩ : BufTy).Contents (Elt F) → (⟨S1600000x64, .f32⟩ : BufTy).Contents (Elt F)),
    StableHlo.nullary main_cst_44 (constant S_ .f32 0x00000000#32),
    StableHlo.unary main_cst_44 main_v184 (broadcastInDim S100000x64 ![] bcast_S_S100000x64 : (⟨S_, .f32⟩ : BufTy).Contents (Elt F) → (⟨S100000x64, .f32⟩ : BufTy).Contents (Elt F)),
    StableHlo.unary main_v104 main_v185 (broadcastInDim S1600000x1 ![0] bcast_S1600000_S1600000x1_0 : (⟨S1600000, .i32⟩ : BufTy).Contents (Elt F) → (⟨S1600000x1, .i32⟩ : BufTy).Contents (Elt F)),
    StableHlo.ternary main_v184 main_v185 main_v183 main_v186 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v187 ((extractStridedSlice S1x64x64 ![2, 0, 0] · slices_S5x64x64_S1x64x64_2_0_0) : (⟨S5x64x64, .f32⟩ : BufTy).Contents (Elt F) → (⟨S1x64x64, .f32⟩ : BufTy).Contents (Elt F)),
    StableHlo.reshape main_v187 main_v188 rfl shapeCasts_S1x64x64_S64x64,
    StableHlo.binary main_v186 main_v188 main_v189 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v169 main_v189 main_v190 (addf : (⟨S100000x64, .f32⟩ : BufTy).Contents (Elt F) → (⟨S100000x64, .f32⟩ : BufTy).Contents (Elt F) → (⟨S100000x64, .f32⟩ : BufTy).Contents (Elt F)),
    StableHlo.nullary main_cst_45 (constant S_ .f32 0x3F800000#32),
    StableHlo.unary main_cst_45 main_v191 (broadcastInDim S1600000 ![] bcast_S_S1600000 : (⟨S_, .f32⟩ : BufTy).Contents (Elt F) → (⟨S1600000, .f32⟩ : BufTy).Contents (Elt F)) ]

/-- Layer two, statements %192 … %222: 37 operations. -/
abbrev opsL2d : List (HloOp τ sig (Elt F)) :=
  [ StableHlo.binary main_v191 main_v109 main_v192 (subf : (⟨S1600000, .f32⟩ : BufTy).Contents (Elt F) → (⟨S1600000, .f32⟩ : BufTy).Contents (Elt F) → (⟨S1600000, .f32⟩ : BufTy).Contents (Elt F)),
    StableHlo.nullary main_c_46 (constantI S_ 32 3#32),
    StableHlo.unary main_c_46 main_v193 (broadcastInDim S1600000 ![] bcast_S_S1600000 : (⟨S_, .i32⟩ : BufTy).Contents (Elt F) → (⟨S1600000, .i32⟩ : BufTy).Contents (Elt F)),
    StableHlo.binary main_v112 main_v193 main_v194 (cmpi .eq : (⟨S1600000, .i32⟩ : BufTy).Contents (Elt F) → (⟨S1600000, .i32⟩ : BufTy).Contents (Elt F) → (⟨S1600000, .i1⟩ : BufTy).Contents (Elt F)),
    StableHlo.unary main_v194 main_v195 (uitofp .f32 : (⟨S1600000, .i1⟩ : BufTy).Contents (Elt F) → (⟨S1600000, .f32⟩ : BufTy).Contents (Elt F)),
    StableHlo.binary main_v192 main_v195 main_v196 (mulf : (⟨S1600000, .f32⟩ : BufTy).Contents (Elt F) → (⟨S1600000, .f32⟩ : BufTy).Contents (Elt F) → (⟨S1600000, .f32⟩ : BufTy).Contents (Elt F)),
    StableHlo.nullary main_c_47 (constantI S_ 32 3#32),
    StableHlo.unary main_c_47 main_v197 (broadcastInDim S1600000 ![] bcast_S_S1600000 : (⟨S_, .i32⟩ : BufTy).Contents (Elt F) → (⟨S1600000, .i32⟩ : BufTy).Contents (Elt F)),
    StableHlo.binary main_v115 main_v197 main_v198 (cmpi .eq : (⟨S1600000, .i32⟩ : BufTy).Contents (Elt F) → (⟨S1600000, .i32⟩ : BufTy).Contents (Elt F) → (⟨S1600000, .i1⟩ : BufTy).Contents (Elt F)),
    StableHlo.unary main_v198 main_v199 (uitofp .f32 : (⟨S1600000, .i1⟩ : BufTy).Contents (Elt F) → (⟨S1600000, .f32⟩ : BufTy).Contents (Elt F)),
    StableHlo.binary main_v109 main_v199 main_v200 (mulf : (⟨S1600000, .f32⟩ : BufTy).Contents (Elt F) → (⟨S1600000, .f32⟩ : BufTy).Contents (Elt F) → (⟨S1600000, .f32⟩ : BufTy).Contents (Elt F)),
    StableHlo.binary main_v196 main_v200 main_v201 (addf : (⟨S1600000, .f32⟩ : BufTy).Contents (Elt F) → (⟨S1600000, .f32⟩ : BufTy).Contents (Elt F) → (⟨S1600000, .f32⟩ : BufTy).Contents (Elt F)),
    StableHlo.unary main_v201 main_v202 (broadcastInDim S1600000x1 ![0] bcast_S1600000_S1600000x1_0 : (⟨S1600000, .f32⟩ : BufTy).Contents (Elt F) → (⟨S1600000x1, .f32⟩ : BufTy).Contents (Elt F)),
    StableHlo.unary main_v202 main_v203 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v122 main_v203 main_v204 (mulf : (⟨S1600000x64, .f32⟩ : BufTy).Contents (Elt F) → (⟨S1600000x64, .f32⟩ : BufTy).Contents (Elt F) → (⟨S1600000x64, .f32⟩ : BufTy).Contents (Elt F)),
    StableHlo.nullary main_cst_48 (constant S_ .f32 0x00000000#32),
    StableHlo.unary main_cst_48 main_v205 (broadcastInDim S100000x64 ![] bcast_S_S100000x64 : (⟨S_, .f32⟩ : BufTy).Contents (Elt F) → (⟨S100000x64, .f32⟩ : BufTy).Contents (Elt F)),
    StableHlo.unary main_v104 main_v206 (broadcastInDim S1600000x1 ![0] bcast_S1600000_S1600000x1_0 : (⟨S1600000, .i32⟩ : BufTy).Contents (Elt F) → (⟨S1600000x1, .i32⟩ : BufTy).Contents (Elt F)),
    StableHlo.ternary main_v205 main_v206 main_v204 main_v207 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v208 ((extractStridedSlice S1x64x64 ![3, 0, 0] · slices_S5x64x64_S1x64x64_3_0_0) : (⟨S5x64x64, .f32⟩ : BufTy).Contents (Elt F) → (⟨S1x64x64, .f32⟩ : BufTy).Contents (Elt F)),
    StableHlo.reshape main_v208 main_v209 rfl shapeCasts_S1x64x64_S64x64,
    StableHlo.binary main_v207 main_v209 main_v210 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v190 main_v210 main_v211 (addf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3F800000#32),
    StableHlo.unary main_cst_49 main_v212 (broadcastInDim S1600000 ![] bcast_S_S1600000 : (⟨S_, .f32⟩ : BufTy).Contents (Elt F) → (⟨S1600000, .f32⟩ : BufTy).Contents (Elt F)),
    StableHlo.binary main_v212 main_v109 main_v213 (subf : (⟨S1600000, .f32⟩ : BufTy).Contents (Elt F) → (⟨S1600000, .f32⟩ : BufTy).Contents (Elt F) → (⟨S1600000, .f32⟩ : BufTy).Contents (Elt F)),
    StableHlo.nullary main_c_50 (constantI S_ 32 4#32),
    StableHlo.unary main_c_50 main_v214 (broadcastInDim S1600000 ![] bcast_S_S1600000 : (⟨S_, .i32⟩ : BufTy).Contents (Elt F) → (⟨S1600000, .i32⟩ : BufTy).Contents (Elt F)),
    StableHlo.binary main_v112 main_v214 main_v215 (cmpi .eq : (⟨S1600000, .i32⟩ : BufTy).Contents (Elt F) → (⟨S1600000, .i32⟩ : BufTy).Contents (Elt F) → (⟨S1600000, .i1⟩ : BufTy).Contents (Elt F)),
    StableHlo.unary main_v215 main_v216 (uitofp .f32 : (⟨S1600000, .i1⟩ : BufTy).Contents (Elt F) → (⟨S1600000, .f32⟩ : BufTy).Contents (Elt F)),
    StableHlo.binary main_v213 main_v216 main_v217 (mulf : (⟨S1600000, .f32⟩ : BufTy).Contents (Elt F) → (⟨S1600000, .f32⟩ : BufTy).Contents (Elt F) → (⟨S1600000, .f32⟩ : BufTy).Contents (Elt F)),
    StableHlo.nullary main_c_51 (constantI S_ 32 4#32),
    StableHlo.unary main_c_51 main_v218 (broadcastInDim S1600000 ![] bcast_S_S1600000 : (⟨S_, .i32⟩ : BufTy).Contents (Elt F) → (⟨S1600000, .i32⟩ : BufTy).Contents (Elt F)),
    StableHlo.binary main_v115 main_v218 main_v219 (cmpi .eq : (⟨S1600000, .i32⟩ : BufTy).Contents (Elt F) → (⟨S1600000, .i32⟩ : BufTy).Contents (Elt F) → (⟨S1600000, .i1⟩ : BufTy).Contents (Elt F)),
    StableHlo.unary main_v219 main_v220 (uitofp .f32 : (⟨S1600000, .i1⟩ : BufTy).Contents (Elt F) → (⟨S1600000, .f32⟩ : BufTy).Contents (Elt F)),
    StableHlo.binary main_v109 main_v220 main_v221 (mulf : (⟨S1600000, .f32⟩ : BufTy).Contents (Elt F) → (⟨S1600000, .f32⟩ : BufTy).Contents (Elt F) → (⟨S1600000, .f32⟩ : BufTy).Contents (Elt F)),
    StableHlo.binary main_v217 main_v221 main_v222 (addf : (⟨S1600000, .f32⟩ : BufTy).Contents (Elt F) → (⟨S1600000, .f32⟩ : BufTy).Contents (Elt F) → (⟨S1600000, .f32⟩ : BufTy).Contents (Elt F)) ]

/-- Layer two, statements %223 … %243: 37 operations. -/
abbrev opsL2e : List (HloOp τ sig (Elt F)) :=
  [ StableHlo.unary main_v222 main_v223 (broadcastInDim S1600000x1 ![0] bcast_S1600000_S1600000x1_0 : (⟨S1600000, .f32⟩ : BufTy).Contents (Elt F) → (⟨S1600000x1, .f32⟩ : BufTy).Contents (Elt F)),
    StableHlo.unary main_v223 main_v224 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v122 main_v224 main_v225 (mulf : (⟨S1600000x64, .f32⟩ : BufTy).Contents (Elt F) → (⟨S1600000x64, .f32⟩ : BufTy).Contents (Elt F) → (⟨S1600000x64, .f32⟩ : BufTy).Contents (Elt F)),
    StableHlo.nullary main_cst_52 (constant S_ .f32 0x00000000#32),
    StableHlo.unary main_cst_52 main_v226 (broadcastInDim S100000x64 ![] bcast_S_S100000x64 : (⟨S_, .f32⟩ : BufTy).Contents (Elt F) → (⟨S100000x64, .f32⟩ : BufTy).Contents (Elt F)),
    StableHlo.unary main_v104 main_v227 (broadcastInDim S1600000x1 ![0] bcast_S1600000_S1600000x1_0 : (⟨S1600000, .i32⟩ : BufTy).Contents (Elt F) → (⟨S1600000x1, .i32⟩ : BufTy).Contents (Elt F)),
    StableHlo.ternary main_v226 main_v227 main_v225 main_v228 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg6 main_v229 ((extractStridedSlice S1x64x64 ![4, 0, 0] · slices_S5x64x64_S1x64x64_4_0_0) : (⟨S5x64x64, .f32⟩ : BufTy).Contents (Elt F) → (⟨S1x64x64, .f32⟩ : BufTy).Contents (Elt F)),
    StableHlo.reshape main_v229 main_v230 rfl shapeCasts_S1x64x64_S64x64,
    StableHlo.binary main_v228 main_v230 main_v231 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v211 main_v231 main_v232 (addf : (⟨S100000x64, .f32⟩ : BufTy).Contents (Elt F) → (⟨S100000x64, .f32⟩ : BufTy).Contents (Elt F) → (⟨S100000x64, .f32⟩ : BufTy).Contents (Elt F)),
    StableHlo.nullary main_cst_53 (constant S_ .f32 0x3F800000#32),
    StableHlo.unary main_cst_53 main_v233 (broadcastInDim S100000 ![] bcast_S_S100000 : (⟨S_, .f32⟩ : BufTy).Contents (Elt F) → (⟨S100000, .f32⟩ : BufTy).Contents (Elt F)),
    StableHlo.binary main_v126 main_v233 main_v234 (maximumf : (⟨S100000, .f32⟩ : BufTy).Contents (Elt F) → (⟨S100000, .f32⟩ : BufTy).Contents (Elt F) → (⟨S100000, .f32⟩ : BufTy).Contents (Elt F)),
    StableHlo.unary main_v234 main_v235 (broadcastInDim S100000x1 ![0] bcast_S100000_S100000x1_0 : (⟨S100000, .f32⟩ : BufTy).Contents (Elt F) → (⟨S100000x1, .f32⟩ : BufTy).Contents (Elt F)),
    StableHlo.unary main_v235 main_v236 (broadcastInDim S100000x64 ![0, 1] bcast_S100000x1_S100000x64_0_1 : (⟨S100000x1, .f32⟩ : BufTy).Contents (Elt F) → (⟨S100000x64, .f32⟩ : BufTy).Contents (Elt F)),
    StableHlo.binary main_v232 main_v236 main_v237 (Host.divf : (⟨S100000x64, .f32⟩ : BufTy).Contents (Elt F) → (⟨S100000x64, .f32⟩ : BufTy).Contents (Elt F) → (⟨S100000x64, .f32⟩ : BufTy).Contents (Elt F)),
    StableHlo.binary main_v100 main_arg7 main_v238 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v237 main_v238 main_v239 (addf : (⟨S100000x64, .f32⟩ : BufTy).Contents (Elt F) → (⟨S100000x64, .f32⟩ : BufTy).Contents (Elt F) → (⟨S100000x64, .f32⟩ : BufTy).Contents (Elt F)),
    StableHlo.unary main_arg8 main_v240 (broadcastInDim S1x64 ![1] bcast_S64_S1x64_1 : (⟨S64, .f32⟩ : BufTy).Contents (Elt F) → (⟨S1x64, .f32⟩ : BufTy).Contents (Elt F)),
    StableHlo.unary main_v240 main_v241 (broadcastInDim S100000x64 ![0, 1] bcast_S1x64_S100000x64_0_1 : (⟨S1x64, .f32⟩ : BufTy).Contents (Elt F) → (⟨S100000x64, .f32⟩ : BufTy).Contents (Elt F)),
    StableHlo.binary main_v239 main_v241 main_v242 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v242) main_call5.v0 main_call5.v1 (cmpf .ogt),
    StableHlo.TRef.nullary main_call5.cst_0 (constant S_ .f32 0x00000000#32),
    StableHlo.TRef.unary main_call5.cst_0 main_call5.v2 (broadcastInDim S100000x64 ![] bcast_S_S100000x64),
    StableHlo.TRef.binary (.of main_v242) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x64 ![] bcast_S_S100000x64),
    StableHlo.TRef.ternary main_call5.v3 main_call5.call0.v1 (.of main_v242) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x64 ![] bcast_S_S100000x64),
    StableHlo.TRef.binary main_call5.v6 main_call5.v5 main_call5.v7 mulf,
    StableHlo.TRef.ternary main_call5.v1 (.of main_v242) main_call5.v7 main_call5.call1.v0 select ]

/-- Layer two: 199 operations. -/
abbrev opsL2 : List (HloOp τ sig (Elt F)) := opsL2a ++ opsL2b ++ opsL2c ++ opsL2d ++ opsL2e

/-- The head, statements %244 … %253: 14 operations. -/
abbrev opsHead : List (HloOp τ sig (Elt F)) :=
  [ StableHlo.binary main_v243 main_arg9 main_v244 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S100000x64 ![0, 1] bcast_S1x64_S100000x64_0_1 : (⟨S1x64, .f32⟩ : BufTy).Contents (Elt F) → (⟨S100000x64, .f32⟩ : BufTy).Contents (Elt F)),
    StableHlo.binary main_v244 main_v246 main_v247 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v247) main_call6.v0 main_call6.v1 maximumf,
    StableHlo.binary main_v248 main_arg11 main_v249 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    StableHlo.unary main_arg12 main_v250 (broadcastInDim S1x16 ![1] bcast_S16_S1x16_1 : (⟨S16, .f32⟩ : BufTy).Contents (Elt F) → (⟨S1x16, .f32⟩ : BufTy).Contents (Elt F)),
    StableHlo.unary main_v250 main_v251 (broadcastInDim S100000x16 ![0, 1] bcast_S1x16_S100000x16_0_1 : (⟨S1x16, .f32⟩ : BufTy).Contents (Elt F) → (⟨S100000x16, .f32⟩ : BufTy).Contents (Elt F)),
    StableHlo.binary main_v249 main_v251 main_v252 (addf : (⟨S100000x16, .f32⟩ : BufTy).Contents (Elt F) → (⟨S100000x16, .f32⟩ : BufTy).Contents (Elt F) → (⟨S100000x16, .f32⟩ : BufTy).Contents (Elt F)),
    StableHlo.TRef.nullary main_call7.cst (constant S_ .f32 0x00000000#32),
    StableHlo.TRef.unary main_call7.cst main_call7.v0 (broadcastInDim S100000x16 ![] bcast_S_S100000x16),
    StableHlo.TRef.binary (.of main_v252) main_call7.v0 main_call7.v1 maximumf ]

/-- @main's operations, in order: layer one, layer two, the head. -/
abbrev ops : List (HloOp τ sig (Elt F)) := opsL1 ++ (opsL2 ++ opsHead)

end Cert.ReferenceIdeal.HandRun

end
-- ==== Proof.SplineLaws.lean ====
/-
  The two arrangements of the spline network agree on finite inputs.

  ELU: where y > 0 both spellings answer y; elsewhere the second spelling's inner selection picks y itself,
  and 1 · (exp y − 1) is exp y − 1. The head: a product accumulated from zero is the plain sum.

  One layer: a destination's in-degree is a finite sum of ones, so its clamp from below at one is a real
  c ≥ 1, the reciprocal 1/c is a real, and dividing by c is multiplying by 1/c. With real features,
  fractions and weights every aggregate is a real, and the computation is one in the field of reals: under
  "the edge ends at n" the reciprocal carried by each message is 1/c(n), a common factor of the two
  conditional sums; the base-slot and next-slot sums merge edge by edge into one sum with the coefficient
  (1 − frac)·[base = k] + frac·[next = k]; the common factor then leaves the sum over slots and features too.
  The K·D columns of the flattened aggregate are the pairs (slot, feature) by quotient and remainder.

  Layer one's result is real on finite inputs (sums and products of reals; exp of a real; the fraction of
  a real position is real), which is what layer two needs of its features.
-/
import proofs.«403743_j85538568667548_2_alg».proof.Proof.Spline
import Mathlib.Data.EReal.Operations
import Mathlib.Data.EReal.Inv
import Mathlib.Algebra.BigOperators.Ring.Finset
import Mathlib.Logic.Equiv.Fin.Basic
import Mathlib.Tactic.Ring

noncomputable section

namespace Cert.Spline

open Idealize.ShloMosaic

namespace Laws

/-! ## The activation and the head -/

/-- The two spellings of ELU agree at every extended real. -/
theorem eluExp_eq_eluExpm1 (y : EReal) : eluExp y = eluExpm1 y := by
  unfold eluExp eluExpm1
  by_cases h : Ideal.cmp .ogt y 0 = 1#1
  · rw [if_pos h, if_pos h]
  · rw [if_neg h, if_neg h, if_neg h, one_mul]

/-- A dense ReLU row accumulated from zero is the one with the plain sum. -/
theorem reluDense0_eq_reluDense {N D' D : ℕ} (X : Fin N → Fin D' → EReal) (R : Fin D' → Fin D → EReal)
    (b : Fin D → EReal) : reluDense0 X R b = reluDense X R b := by
  funext n j
  unfold reluDense0 reluDense
  rw [zero_add]

/-! ## Real numbers inside the extended reals -/

/-- The embedding of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding of the reals commutes with a selection. -/
theorem coe_ite (P : Prop) [Decidable P] (a b : ℝ) :
    ((if P then a else b : ℝ) : EReal) = if P then (a : EReal) else (b : EReal) := by
  split_ifs <;> rfl

/-! ## Degrees are reals -/

section Graph
variable {N E : ℕ} (dst : Fin E → Fin N)

/-- The in-degree as a real number. -/
def degR (n : Fin N) : ℝ := ∑ e : Fin E, if dst e = n then (1 : ℝ) else 0

/-- The clamped in-degree as a real number. -/
def cdegR (n : Fin N) : ℝ := max (degR dst n) 1

theorem deg_coe (n : Fin N) : deg dst n = (degR dst n : EReal) := by
  unfold deg degR
  rw [zero_add, coe_sum]
  refine Finset.sum_congr rfl fun e _ => ?_
  rw [coe_ite, EReal.coe_one, EReal.coe_zero]

theorem cdeg_coe (n : Fin N) : cdeg dst n = (cdegR dst n : EReal) := by
  unfold cdeg cdegR
  rw [deg_coe, ← EReal.coe_one]
  exact (EReal.coe_strictMono.monotone.map_max).symm

theorem cdegR_ne_zero (n : Fin N) : cdegR dst n ≠ 0 := by
  have : (1 : ℝ) ≤ cdegR dst n := le_max_right _ _
  intro h; rw [h] at this; norm_num at this

theorem invdeg_coe (n : Fin N) : invdeg dst n = ((1 / cdegR dst n : ℝ) : EReal) := by
  unfold invdeg
  rw [cdeg_coe, Ideal.div_coe (cdegR_ne_zero dst n), one_mul]

end Graph

/-! ## The aggregates are reals -/

section Aggregates
variable {N E D K : ℕ}
variable (src dst : Fin E → Fin N) (f : Fin E → ℝ) (s0 s1 : Fin E → Fin K) (x : Fin N → Fin D → ℝ)

/-- Slot k's aggregate at (destination n, feature d) as a real number. -/
def aggSlotR (k : Fin K) (n : Fin N) (d : Fin D) : ℝ :=
  ∑ e : Fin E, if dst e = n then
    x (src e) d * ((1 - f e) * (if s0 e = k then 1 else 0) + f e * (if s1 e = k then 1 else 0)) else 0

theorem aggSlot_coe (k : Fin K) (n : Fin N) (d : Fin D) :
    aggSlot src dst (fun e => (f e : EReal)) s0 s1 (fun n d => (x n d : EReal)) k n d
      = (aggSlotR src dst f s0 s1 x k n d : EReal) := by
  unfold aggSlot aggSlotR coeff ind
  rw [zero_add, coe_sum]
  refine Finset.sum_congr rfl fun e _ => ?_
  simp only [coe_ite, EReal.coe_mul, EReal.coe_add, EReal.coe_sub, EReal.coe_one, EReal.coe_zero]

/-- The first arrangement's aggregate is the second's times the reciprocal clamped degree: under "e ends at n"
    the reciprocal each message carries is that of n, and the two conditional sums merge edge by edge. -/
theorem aggFused_coe (n : Fin N) (k : Fin K) (d : Fin D) :
    aggFused src dst (fun e => (f e : EReal)) s0 s1 (fun n d => (x n d : EReal)) n k d
      = ((aggSlotR src dst f s0 s1 x k n d * (1 / cdegR dst n) : ℝ) : EReal) := by
  have hR : aggSlotR src dst f s0 s1 x k n d * (1 / cdegR dst n)
      = (∑ e : Fin E, if dst e = n ∧ s0 e = k then x (src e) d * ((1 - f e) * (1 / cdegR dst (dst e))) else 0)
        + (∑ e : Fin E, if dst e = n ∧ s1 e = k then x (src e) d * (f e * (1 / cdegR dst (dst e))) else 0) := by
    unfold aggSlotR
    rw [Finset.sum_mul, ← Finset.sum_add_distrib]
    refine Finset.sum_congr rfl fun e _ => ?_
    by_cases h : dst e = n
    · subst h
      by_cases h0 : s0 e = k <;> by_cases h1 : s1 e = k <;> simp [h0, h1] <;> ring
    · simp [h]
  rw [hR]
  unfold aggFused
  simp only [invdeg_coe]
  rw [zero_add, EReal.coe_add, coe_sum, coe_sum]
  congr 1 <;> refine Finset.sum_congr rfl fun e _ => ?_ <;>
    simp only [coe_ite, EReal.coe_mul, EReal.coe_sub, EReal.coe_one, EReal.coe_zero]

end Aggregates

/-! ## One layer -/

section Layer
variable {N E D K M : ℕ} (hM : M = K * D) (hD : 0 < D)

/-- The K·D columns are the pairs (slot, feature): a column's quotient and remainder by D. -/
theorem sum_cols (g : Fin K → Fin D → EReal) :
    ∑ c : Fin M, g (colSlot hM c) (colFeat hD c) = ∑ k : Fin K, ∑ d : Fin D, g k d := by
  subst hM
  rw [← Fintype.sum_prod_type' (f := g)]
  exact Fintype.sum_equiv finProdFinEquiv.symm _ _ (fun c => rfl)

variable (src dst : Fin E → Fin N) (fr : Fin E → EReal) (s0 s1 : Fin E → Fin K)
variable (X : Fin N → Fin D → EReal) (W : Fin K → Fin D → Fin D → EReal) (R : Fin D → Fin D → EReal) (b : Fin D → EReal)

/-- THE LAYER LAW. With real features, fractions and weights the two arrangements of a layer agree before the
    activation (the root projection and the bias are the same terms on both sides, whatever they are). -/
theorem preFused_eq_preSlots (hfr : ∀ e, IsFin (fr e)) (hX : ∀ n d, IsFin (X n d)) (hW : ∀ k d j, IsFin (W k d j))
    (n : Fin N) (j : Fin D) :
    preFused hM hD src dst fr s0 s1 X W R b n j = preSlots src dst fr s0 s1 X W R b n j := by
  choose f hf using hfr
  choose x hx using hX
  choose w hw using hW
  obtain rfl : fr = fun e => (f e : EReal) := funext hf
  obtain rfl : X = fun n d => (x n d : EReal) := funext fun n => funext fun d => hx n d
  obtain rfl : W = fun k d j => (w k d j : EReal) := funext fun k => funext fun d => funext fun j => hw k d j
  unfold preFused preSlots densePre
  rw [zero_add, zero_add]
  congr 2
  rw [sum_cols hM hD (fun k d =>
    aggFused src dst (fun e => (f e : EReal)) s0 s1 (fun n d => (x n d : EReal)) n k d * (w k d j : EReal))]
  simp only [aggFused_coe, aggSlot_coe]
  rw [cdeg_coe, Ideal.div_coe (cdegR_ne_zero dst n)]
  simp only [← EReal.coe_mul, ← coe_sum]
  rw [EReal.coe_eq_coe_iff]
  simp only [Finset.sum_mul]
  refine Finset.sum_congr rfl fun k _ => Finset.sum_congr rfl fun d _ => ?_
  ring

/-- So the two arrangements of a layer agree after the activation too. -/
theorem layerFused_eq_layerSlots (hfr : ∀ e, IsFin (fr e)) (hX : ∀ n d, IsFin (X n d))
    (hW : ∀ k d j, IsFin (W k d j)) :
    layerFused hM hD src dst fr s0 s1 X W R b = layerSlots src dst fr s0 s1 X W R b := by
  funext n j
  unfold layerFused layerSlots
  rw [preFused_eq_preSlots hM hD src dst fr s0 s1 X W R b hfr hX hW, eluExp_eq_eluExpm1]

end Layer

/-! ## Finiteness through a layer -/

theorem isFin_zero : IsFin 0 := ⟨0, EReal.coe_zero.symm⟩
theorem isFin_one : IsFin 1 := ⟨1, EReal.coe_one.symm⟩
theorem isFin_add {x y : EReal} (hx : IsFin x) (hy : IsFin y) : IsFin (x + y) := by
  obtain ⟨a, rfl⟩ := hx; obtain ⟨c, rfl⟩ := hy; exact ⟨a + c, (EReal.coe_add a c).symm⟩
theorem isFin_mul {x y : EReal} (hx : IsFin x) (hy : IsFin y) : IsFin (x * y) := by
  obtain ⟨a, rfl⟩ := hx; obtain ⟨c, rfl⟩ := hy; exact ⟨a * c, (EReal.coe_mul a c).symm⟩
theorem isFin_sub {x y : EReal} (hx : IsFin x) (hy : IsFin y) : IsFin (x - y) := by
  obtain ⟨a, rfl⟩ := hx; obtain ⟨c, rfl⟩ := hy; exact ⟨a - c, (EReal.coe_sub a c).symm⟩
theorem isFin_sum {ι : Type*} (s : Finset ι) (g : ι → EReal) (hg : ∀ i ∈ s, IsFin (g i)) : IsFin (∑ i ∈ s, g i) := by
  classical
  induction s using Finset.induction_on with
  | empty => simpa using isFin_zero
  | insert a s ha ih =>
    rw [Finset.sum_insert ha]
    exact isFin_add (hg a (Finset.mem_insert_self a s)) (ih fun i hi => hg i (Finset.mem_insert_of_mem hi))

/-- ELU of a real is a real: the identity branch, or exp of a real less one. -/
theorem isFin_eluExpm1 {y : EReal} (hy : IsFin y) : IsFin (eluExpm1 y) := by
  obtain ⟨r, rfl⟩ := hy
  unfold eluExpm1
  by_cases h : Ideal.cmp .ogt (r : EReal) 0 = 1#1
  · rw [if_pos h]; exact ⟨r, rfl⟩
  · rw [if_neg h, if_neg h, one_mul, Ideal.exp_coe]
    exact ⟨Real.exp r - 1, by rw [EReal.coe_sub, EReal.coe_one]⟩

/-- The fraction of a real position on a real scale is a real: the position less its integer part. -/
theorem isFin_frac {κ p : EReal} (hκ : IsFin κ) (hp : IsFin p) : IsFin (frac κ p) := by
  obtain ⟨c, rfl⟩ := hκ; obtain ⟨a, rfl⟩ := hp
  unfold frac base pos
  rw [← EReal.coe_mul, Ideal.liftRound_coe, ← EReal.coe_sub]
  exact ⟨_, rfl⟩

/-- The three-slot scale is the real number two. -/
theorem κ3_eq : κ3 = ((2 : ℝ) : EReal) := by
  simp [κ3, Ideal.ofBits, Ideal.ieee]
  rw [← EReal.coe_mul, EReal.coe_eq_coe_iff]
  norm_num

/-- The five-slot scale is the real number four. -/
theorem κ5_eq : κ5 = ((4 : ℝ) : EReal) := by
  simp [κ5, Ideal.ofBits, Ideal.ieee]
  rw [← EReal.coe_mul, EReal.coe_eq_coe_iff]
  norm_num

section LayerFinite
variable {N E D K : ℕ}
variable (src dst : Fin E → Fin N) (fr : Fin E → EReal) (s0 s1 : Fin E → Fin K)
variable (X : Fin N → Fin D → EReal) (W : Fin K → Fin D → Fin D → EReal) (R : Fin D → Fin D → EReal) (b : Fin D → EReal)

/-- A layer of the second arrangement on real data is real: sums and products of reals, a division by the
    clamped degree (a real that is not zero), then ELU. -/
theorem isFin_layerSlots (hfr : ∀ e, IsFin (fr e)) (hX : ∀ n d, IsFin (X n d)) (hW : ∀ k d j, IsFin (W k d j))
    (hR : ∀ d j, IsFin (R d j)) (hb : ∀ j, IsFin (b j)) (n : Fin N) (j : Fin D) :
    IsFin (layerSlots src dst fr s0 s1 X W R b n j) := by
  unfold layerSlots
  apply isFin_eluExpm1
  unfold preSlots
  refine isFin_add (isFin_add ?_ (isFin_sum _ _ fun d _ => isFin_mul (hX n d) (hR d j))) (hb j)
  rw [cdeg_coe, Ideal.div_coe (cdegR_ne_zero dst n)]
  refine isFin_mul (isFin_sum _ _ fun k _ => isFin_sum _ _ fun d _ => isFin_mul ?_ (hW k d j)) ⟨_, rfl⟩
  unfold aggSlot
  rw [zero_add]
  refine isFin_sum _ _ fun e _ => ?_
  split_ifs
  · refine isFin_mul (hX _ _) ?_
    unfold coeff ind
    refine isFin_add (isFin_mul (isFin_sub isFin_one (hfr e)) ?_) (isFin_mul (hfr e) ?_) <;>
      split_ifs <;> first | exact isFin_one | exact isFin_zero
  · exact isFin_zero

end LayerFinite

/-! ## The whole network -/

section Net
variable {N E D C : ℕ} (hD : 0 < D) (I : Inputs N E D C) (hfin : FiniteInputs I)
include hfin

theorem isFin_frac3 (e : Fin E) : IsFin (frac κ3 (I.ps e)) := isFin_frac ⟨2, κ3_eq⟩ (hfin.ps e)

theorem isFin_frac5 (e : Fin E) : IsFin (frac κ5 (I.ps e)) := isFin_frac ⟨4, κ5_eq⟩ (hfin.ps e)

/-- Layer one: the two arrangements agree. -/
theorem h1Fused_eq_h1Slots : h1Fused hD I = h1Slots I := by
  unfold h1Fused h1Slots
  exact layerFused_eq_layerSlots rfl hD _ _ _ _ _ _ _ _ _ (isFin_frac3 I hfin) hfin.x hfin.W1

/-- Layer one's result is real. -/
theorem isFin_h1Slots (n : Fin N) (j : Fin D) : IsFin (h1Slots I n j) :=
  isFin_layerSlots _ _ _ _ _ _ _ _ _ (isFin_frac3 I hfin) hfin.x hfin.W1 hfin.root1 hfin.b1 n j

/-- Layer two: the two arrangements agree, layer one's common result being real. -/
theorem h2Fused_eq_h2Slots : h2Fused hD I = h2Slots I := by
  unfold h2Fused h2Slots
  rw [h1Fused_eq_h1Slots hD I hfin]
  exact layerFused_eq_layerSlots rfl hD _ _ _ _ _ _ _ _ _ (isFin_frac5 I hfin) (isFin_h1Slots I hfin) hfin.W2

end Net

end Laws

/-- The network: on finite inputs the two arrangements compute the same array. -/
theorem outFused_eq_outSlots {N E D C : ℕ} (hD : 0 < D) (I : Inputs N E D C) (hfin : FiniteInputs I) :
    outFused hD I = outSlots I := by
  unfold outFused outSlots
  rw [Laws.h2Fused_eq_h2Slots hD I hfin, Laws.reluDense0_eq_reluDense, Laws.reluDense0_eq_reluDense]

end Cert.Spline

end
-- ==== Proof.PreDecode.lean ====
/-
  What the precondition says, read back: every entry of the twelve float arrays is a real number (its absolute
  value is below +∞), and every edge word, read signed, lies in [0, 100000), so read unsigned it is a node number.
  The printed predicate is a conjunction of thirteen "all entries" reductions; it being 1 gives each reduction 1,
  and a conjunction over all entries that is 1 was 1 at every entry.
-/
import proofs.«403743_j85538568667548_2_alg».proof.Pre_finite_inputs
import proofs.«403743_j85538568667548_2_alg».proof.Proof.Gen.Pre_finite_inputs
import proofs.«403743_j85538568667548_2_alg».proof.Proof.Spline
import Idealize.ShloMosaic.Lib.ReduceAll
import Idealize.ShloMosaic.Lib.Affine
import Idealize.ShloMosaic.PureOps.Ideal.Laws

noncomputable section

namespace Cert.PreDecode

open Idealize.ShloMosaic Idealize.ShloMosaic.ValueIdx Cert.Pre_finite_inputs Cert.Pre_finite_inputs.Facts Cert.Spline

instance : Subsingleton S_.Idx := ⟨fun a b => funext fun d => d.elim0⟩

/-- A one-bit word made from a truth value is 1 exactly when the value is true. -/
theorem ofBool_one (b : Bool) : BitVec.ofBool b = 1#1 ↔ b = true := by cases b <;> decide

/-- The positive-infinity pattern denotes +∞. -/
theorem ofBits_inf : Ideal.ofBits .f32 0x7F800000#32 = (⊤ : EReal) := by
  simp [Ideal.ofBits, Ideal.ieee]

/-- An extended real whose absolute value is below +∞ is a real number. -/
theorem isFin_of_abs_lt (x : EReal)
    (h : FloatOps.cmpf (F := Ideal) (φ := .f32) .olt (FloatOps.hostAbsf (F := Ideal) (φ := .f32) x)
      (FloatOps.ofBits (F := Ideal) .f32 0x7F800000#32) = 1#1) : IsFin x := by
  have h' : max x (-x) < (⊤ : EReal) := by
    have := h
    simp only [Ideal.cmpf_def, Ideal.cmp, ofBool_one, decide_eq_true_eq] at this
    rw [← ofBits_inf]; exact this
  induction x using EReal.rec with
  | bot => exact absurd h' (by simp)
  | coe r => exact ⟨r, rfl⟩
  | top => exact absurd h' (by simp)

/-- A pointwise conjunction of one-bit arrays that is 1 at an index has both conjuncts 1 there. -/
theorem both_one {s : Shape} (x y : IVec s 1) (i : s.Idx) (h : andi x y i = 1#1) : x i = 1#1 ∧ y i = 1#1 :=
  IntOp.andi_eq_one.1 h

/-- A word that is at least 0 and below 100000, read signed, is below 100000 read unsigned. -/
theorem toNat_lt_of_signed (w : BitVec 32) (h0 : (0#32).toInt ≤ w.toInt) (h1 : w.toInt < (100000#32).toInt) :
    w.toNat < 100000 := by
  have e0 : (0#32 : BitVec 32).toInt = 0 := by decide
  have e1 : (100000#32 : BitVec 32).toInt = 100000 := by decide
  rw [e0] at h0; rw [e1] at h1
  have hc := BitVec.toInt_eq_toNat_cond w
  have hlt := w.isLt
  split at hc <;> omega

/-- What the precondition says of the thirteen argument arrays. -/
structure Says (a0 : FVec Ideal S100000x64 .f32) (a1 : IVec S2x1600000 32) (a2 : FVec Ideal S1600000x1 .f32)
    (a3 : FVec Ideal S3x64x64 .f32) (a4 : FVec Ideal S64x64 .f32) (a5 : FVec Ideal S64 .f32)
    (a6 : FVec Ideal S5x64x64 .f32) (a7 : FVec Ideal S64x64 .f32) (a8 : FVec Ideal S64 .f32)
    (a9 : FVec Ideal S64x64 .f32) (a10 : FVec Ideal S64 .f32) (a11 : FVec Ideal S64x16 .f32)
    (a12 : FVec Ideal S16 .f32) : Prop where
  fin0 : ∀ i, IsFin (a0 i)
  range1 : ∀ i, (a1 i).toNat < 100000
  fin2 : ∀ i, IsFin (a2 i)
  fin3 : ∀ i, IsFin (a3 i)
  fin4 : ∀ i, IsFin (a4 i)
  fin5 : ∀ i, IsFin (a5 i)
  fin6 : ∀ i, IsFin (a6 i)
  fin7 : ∀ i, IsFin (a7 i)
  fin8 : ∀ i, IsFin (a8 i)
  fin9 : ∀ i, IsFin (a9 i)
  fin10 : ∀ i, IsFin (a10 i)
  fin11 : ∀ i, IsFin (a11 i)
  fin12 : ∀ i, IsFin (a12 i)

/-- "Every entry's absolute value is below +∞" as the printed predicate spells it: the one-bit result of the
    conjunction over all entries. -/
def allBelowInf {s : Shape} {axes : List (Fin s.rank)} (a : FVec Ideal s .f32) (hb : S_.BroadcastsInDim s ![])
    (hr : s.ReducesTo axes S_) (hu : 0 < S_.numel) : IVec S_ 1 :=
  Host.reduce IntOp.andi (cmpf .olt (Host.absf a) (broadcastInDim s ![] hb (constant S_ .f32 0x7F800000#32)))
    (constantI S_ 1 1#1) hr hu

/-- When that bit is 1, every entry is a real number. -/
theorem isFin_of_allBelowInf {s : Shape} {axes : List (Fin s.rank)} (a : FVec Ideal s .f32)
    (hb : S_.BroadcastsInDim s ![]) (hr : s.ReducesTo axes S_) (hu : 0 < S_.numel)
    (h : allBelowInf a hb hr hu ix0 = 1#1) (i : s.Idx) : IsFin (a i) :=
  isFin_of_abs_lt _ (Host.reduce_andi_all _ _ hr hu ix0 h i)

/-- "Every edge word is at least 0 and below 100000" as the printed predicate spells it. -/
def allInRange (a1 : IVec S2x1600000 32) : IVec S_ 1 :=
  Host.reduce IntOp.andi
    (andi (cmpi .sge a1 (broadcastInDim S2x1600000 ![] bcast_S_S2x1600000 (constantI S_ 32 0#32)))
      (cmpi .slt a1 (broadcastInDim S2x1600000 ![] bcast_S_S2x1600000 (constantI S_ 32 100000#32))))
    (constantI S_ 1 1#1) reducesTo_S2x1600000_S_d0_1 h_S_

/-- When that bit is 1, every edge word read unsigned is below 100000. -/
theorem lt_of_allInRange (a1 : IVec S2x1600000 32) (h : allInRange a1 ix0 = 1#1) (i : S2x1600000.Idx) :
    (a1 i).toNat < 100000 := by
  have hi := Host.reduce_andi_all _ _ reducesTo_S2x1600000_S_d0_1 h_S_ ix0 h i
  obtain ⟨hge, hlt⟩ := both_one _ _ _ hi
  exact toNat_lt_of_signed _ (IntOp.cmpi_sge.1 hge) (IntOp.cmpi_slt.1 hlt)

/-- The printed predicate is the conjunction of the thirteen all-entries bits, in the order it accumulates them. -/
theorem fn_eq (a0 : FVec Ideal S100000x64 .f32) (a1 : IVec S2x1600000 32) (a2 : FVec Ideal S1600000x1 .f32)
    (a3 : FVec Ideal S3x64x64 .f32) (a4 : FVec Ideal S64x64 .f32) (a5 : FVec Ideal S64 .f32)
    (a6 : FVec Ideal S5x64x64 .f32) (a7 : FVec Ideal S64x64 .f32) (a8 : FVec Ideal S64 .f32)
    (a9 : FVec Ideal S64x64 .f32) (a10 : FVec Ideal S64 .f32) (a11 : FVec Ideal S64x16 .f32)
    (a12 : FVec Ideal S16 .f32) :
    fn (F := Ideal) a0 a1 a2 a3 a4 a5 a6 a7 a8 a9 a10 a11 a12
    = andi (andi (andi (andi (andi (andi (andi (andi (andi (andi (andi (andi
        (allBelowInf a0 bcast_S_S100000x64 reducesTo_S100000x64_S_d0_1 h_S_)
        (allBelowInf a2 bcast_S_S1600000x1 reducesTo_S1600000x1_S_d0_1 h_S_))
        (allBelowInf a3 bcast_S_S3x64x64 reducesTo_S3x64x64_S_d0_1_2 h_S_))
        (allBelowInf a4 bcast_S_S64x64 reducesTo_S64x64_S_d0_1 h_S_))
        (allBelowInf a5 bcast_S_S64 reducesTo_S64_S_d0 h_S_))
        (allBelowInf a6 bcast_S_S5x64x64 reducesTo_S5x64x64_S_d0_1_2 h_S_))
        (allBelowInf a7 bcast_S_S64x64 reducesTo_S64x64_S_d0_1 h_S_))
        (allBelowInf a8 bcast_S_S64 reducesTo_S64_S_d0 h_S_))
        (allBelowInf a9 bcast_S_S64x64 reducesTo_S64x64_S_d0_1 h_S_))
        (allBelowInf a10 bcast_S_S64 reducesTo_S64_S_d0 h_S_))
        (allBelowInf a11 bcast_S_S64x16 reducesTo_S64x16_S_d0_1 h_S_))
        (allBelowInf a12 bcast_S_S16 reducesTo_S16_S_d0 h_S_))
        (allInRange a1) := rfl

/-- The printed predicate being all ones says every float entry is a real and every edge word a node number. -/
theorem says_of_fn (a0 : FVec Ideal S100000x64 .f32) (a1 : IVec S2x1600000 32) (a2 : FVec Ideal S1600000x1 .f32)
    (a3 : FVec Ideal S3x64x64 .f32) (a4 : FVec Ideal S64x64 .f32) (a5 : FVec Ideal S64 .f32)
    (a6 : FVec Ideal S5x64x64 .f32) (a7 : FVec Ideal S64x64 .f32) (a8 : FVec Ideal S64 .f32)
    (a9 : FVec Ideal S64x64 .f32) (a10 : FVec Ideal S64 .f32) (a11 : FVec Ideal S64x16 .f32)
    (a12 : FVec Ideal S16 .f32)
    (h : fn (F := Ideal) a0 a1 a2 a3 a4 a5 a6 a7 a8 a9 a10 a11 a12 = fun _ => 1#1) :
    Says a0 a1 a2 a3 a4 a5 a6 a7 a8 a9 a10 a11 a12 := by
  rw [fn_eq] at h
  have h0 := congrFun h ix0
  obtain ⟨h0, e13⟩ := both_one _ _ _ h0
  obtain ⟨h0, e12⟩ := both_one _ _ _ h0
  obtain ⟨h0, e11⟩ := both_one _ _ _ h0
  obtain ⟨h0, e10⟩ := both_one _ _ _ h0
  obtain ⟨h0, e9⟩ := both_one _ _ _ h0
  obtain ⟨h0, e8⟩ := both_one _ _ _ h0
  obtain ⟨h0, e7⟩ := both_one _ _ _ h0
  obtain ⟨h0, e6⟩ := both_one _ _ _ h0
  obtain ⟨h0, e5⟩ := both_one _ _ _ h0
  obtain ⟨h0, e4⟩ := both_one _ _ _ h0
  obtain ⟨h0, e3⟩ := both_one _ _ _ h0
  obtain ⟨e1, e2⟩ := both_one _ _ _ h0
  exact ⟨isFin_of_allBelowInf _ _ _ _ e1, lt_of_allInRange _ e13, isFin_of_allBelowInf _ _ _ _ e2,
    isFin_of_allBelowInf _ _ _ _ e3, isFin_of_allBelowInf _ _ _ _ e4, isFin_of_allBelowInf _ _ _ _ e5,
    isFin_of_allBelowInf _ _ _ _ e6, isFin_of_allBelowInf _ _ _ _ e7, isFin_of_allBelowInf _ _ _ _ e8,
    isFin_of_allBelowInf _ _ _ _ e9, isFin_of_allBelowInf _ _ _ _ e10, isFin_of_allBelowInf _ _ _ _ e11,
    isFin_of_allBelowInf _ _ _ _ e12⟩

end Cert.PreDecode

end
-- ==== Proof.RefRun.lean ====
/-
  The second program's run, read back.  @main, the calls to its module-local functions unfolded, is its host
  operations run one after the other; so every weakly fair execution terminates, and each buffer then holds
  the fold of the operations' results over the launch contents.  Three facts per piece of the list carry this:
  the piece names buffers of the one device only, each of its operations determines what it writes, and every
  buffer it writes lies past the thirteen argument buffers (which therefore end as launched).  A fact of the
  whole list is the pieces' facts joined over concatenation.
-/
import proofs.«403743_j85538568667548_2_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main is its operations in order

Each printed window is a straight line: its calls unfold to their callees' lines, and grafting a line onto a
line is a line.  The windows run in order are the pieces run in order, whatever the bracketing. -/

set_option maxRecDepth 8192 in
theorem main_part0_eq (c : Dev nD) : main_part0 (F := F) c = seq (opsL1a ++ opsL1b) := rfl
set_option maxRecDepth 8192 in
theorem main_part1_eq (c : Dev nD) : main_part1 (F := F) c = seq opsL1c := rfl
set_option maxRecDepth 8192 in
theorem main_part2_eq (c : Dev nD) : main_part2 (F := F) c = seq (opsL1d ++ (opsL2a ++ opsL2b)) := rfl
set_option maxRecDepth 8192 in
theorem main_part3_eq (c : Dev nD) : main_part3 (F := F) c = seq opsL2c := rfl
set_option maxRecDepth 8192 in
theorem main_part4_eq (c : Dev nD) : main_part4 (F := F) c = seq (opsL2d ++ opsL2e) := rfl
set_option maxRecDepth 8192 in
theorem main_part5_eq (c : Dev nD) : main_part5 (F := F) c = seq opsHead := rfl

theorem main_eq (c : Dev nD) : main (F := F) c = seq ops := by
  simp only [main, main_part0_eq, main_part1_eq, main_part2_eq, main_part3_eq, main_part4_eq, main_part5_eq,
    ops, opsL1, opsL2, seq_append, bind_assoc]

/-! ## Facts of a list, piece by piece -/

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- Every buffer the operation writes lies past the thirteen argument buffers. -/
def PastArgs (op : HloOp τ sig (Elt F)) : Prop :=
  ∀ r : Ref sig .tc, Proc.devRef (τ := τ) .tc r ∈ op.writes → 13 ≤ r.idx.val

/-- An operation that writes the one buffer y, y past the arguments. -/
theorem pastArgs_of {op : HloOp τ sig (Elt F)} {y : Ref sig .tc} (hw : op.writes = {Proc.devRef (τ := τ) .tc y})
    (hy : 13 ≤ y.idx.val) : PastArgs op := by
  intro r hr
  rw [hw, Finset.mem_singleton] at hr
  exact Proc.devRef_injective _ hr ▸ hy

/-- A line of such operations leaves each argument buffer as it found it. -/
theorem kept_of_pastArgs {l : List (HloOp τ sig (Elt F))} (h : l.Forall PastArgs) {r : Ref sig .tc}
    (hr : r.idx.val < 13) (V : Valuation τ sig (Elt F)) :
    after l V (Proc.devRef .tc r) = V (Proc.devRef .tc r) :=
  after_of_forall_not_mem l V fun op hop hb =>
    absurd (List.forall_iff_forall_mem.mp h op hop r hb) (Nat.not_le.mpr hr)

/-- One operation's buffers are the device's: the fact is stated once per arity, and the operation's own
    arity selects it. -/
macro "bufs_sub_step" : tactic =>
  `(tactic| simp only [List.Forall, unary_bufs_sub, binary_bufs_sub, nullary_bufs_sub, ternary_bufs_sub, reshape_bufs_sub])

theorem opsL1a_sub : (opsL1a : List (HloOp τ sig (Elt F))).Forall fun op => op.bufs ⊆ tcRefs τ sig := by
  repeat' apply And.intro
  all_goals bufs_sub_step
theorem opsL1a_fresh : (opsL1a : List (HloOp τ sig (Elt F))).Forall fun op => op.fresh = ∅ := by
  repeat' apply And.intro
  all_goals rfl
theorem opsL1a_past : (opsL1a : List (HloOp τ sig (Elt F))).Forall PastArgs := by
  repeat' apply And.intro
  all_goals exact pastArgs_of rfl (by decide)

theorem opsL1b_sub : (opsL1b : List (HloOp τ sig (Elt F))).Forall fun op => op.bufs ⊆ tcRefs τ sig := by
  repeat' apply And.intro
  all_goals bufs_sub_step
theorem opsL1b_fresh : (opsL1b : List (HloOp τ sig (Elt F))).Forall fun op => op.fresh = ∅ := by
  repeat' apply And.intro
  all_goals rfl
theorem opsL1b_past : (opsL1b : List (HloOp τ sig (Elt F))).Forall PastArgs := by
  repeat' apply And.intro
  all_goals exact pastArgs_of rfl (by decide)

theorem opsL1c_sub : (opsL1c : List (HloOp τ sig (Elt F))).Forall fun op => op.bufs ⊆ tcRefs τ sig := by
  repeat' apply And.intro
  all_goals bufs_sub_step
theorem opsL1c_fresh : (opsL1c : List (HloOp τ sig (Elt F))).Forall fun op => op.fresh = ∅ := by
  repeat' apply And.intro
  all_goals rfl
theorem opsL1c_past : (opsL1c : List (HloOp τ sig (Elt F))).Forall PastArgs := by
  repeat' apply And.intro
  all_goals exact pastArgs_of rfl (by decide)

theorem opsL1d_sub : (opsL1d : List (HloOp τ sig (Elt F))).Forall fun op => op.bufs ⊆ tcRefs τ sig := by
  repeat' apply And.intro
  all_goals bufs_sub_step
theorem opsL1d_fresh : (opsL1d : List (HloOp τ sig (Elt F))).Forall fun op => op.fresh = ∅ := by
  repeat' apply And.intro
  all_goals rfl
theorem opsL1d_past : (opsL1d : List (HloOp τ sig (Elt F))).Forall PastArgs := by
  repeat' apply And.intro
  all_goals exact pastArgs_of rfl (by decide)

theorem opsL2a_sub : (opsL2a : List (HloOp τ sig (Elt F))).Forall fun op => op.bufs ⊆ tcRefs τ sig := by
  repeat' apply And.intro
  all_goals bufs_sub_step
theorem opsL2a_fresh : (opsL2a : List (HloOp τ sig (Elt F))).Forall fun op => op.fresh = ∅ := by
  repeat' apply And.intro
  all_goals rfl
theorem opsL2a_past : (opsL2a : List (HloOp τ sig (Elt F))).Forall PastArgs := by
  repeat' apply And.intro
  all_goals exact pastArgs_of rfl (by decide)

theorem opsL2b_sub : (opsL2b : List (HloOp τ sig (Elt F))).Forall fun op => op.bufs ⊆ tcRefs τ sig := by
  repeat' apply And.intro
  all_goals bufs_sub_step
theorem opsL2b_fresh : (opsL2b : List (HloOp τ sig (Elt F))).Forall fun op => op.fresh = ∅ := by
  repeat' apply And.intro
  all_goals rfl
theorem opsL2b_past : (opsL2b : List (HloOp τ sig (Elt F))).Forall PastArgs := by
  repeat' apply And.intro
  all_goals exact pastArgs_of rfl (by decide)

theorem opsL2c_sub : (opsL2c : List (HloOp τ sig (Elt F))).Forall fun op => op.bufs ⊆ tcRefs τ sig := by
  repeat' apply And.intro
  all_goals bufs_sub_step
theorem opsL2c_fresh : (opsL2c : List (HloOp τ sig (Elt F))).Forall fun op => op.fresh = ∅ := by
  repeat' apply And.intro
  all_goals rfl
theorem opsL2c_past : (opsL2c : List (HloOp τ sig (Elt F))).Forall PastArgs := by
  repeat' apply And.intro
  all_goals exact pastArgs_of rfl (by decide)

theorem opsL2d_sub : (opsL2d : List (HloOp τ sig (Elt F))).Forall fun op => op.bufs ⊆ tcRefs τ sig := by
  repeat' apply And.intro
  all_goals bufs_sub_step
theorem opsL2d_fresh : (opsL2d : List (HloOp τ sig (Elt F))).Forall fun op => op.fresh = ∅ := by
  repeat' apply And.intro
  all_goals rfl
theorem opsL2d_past : (opsL2d : List (HloOp τ sig (Elt F))).Forall PastArgs := by
  repeat' apply And.intro
  all_goals exact pastArgs_of rfl (by decide)

theorem opsL2e_sub : (opsL2e : List (HloOp τ sig (Elt F))).Forall fun op => op.bufs ⊆ tcRefs τ sig := by
  repeat' apply And.intro
  all_goals bufs_sub_step
theorem opsL2e_fresh : (opsL2e : List (HloOp τ sig (Elt F))).Forall fun op => op.fresh = ∅ := by
  repeat' apply And.intro
  all_goals rfl
theorem opsL2e_past : (opsL2e : List (HloOp τ sig (Elt F))).Forall PastArgs := by
  repeat' apply And.intro
  all_goals exact pastArgs_of rfl (by decide)

theorem opsHead_sub : (opsHead : List (HloOp τ sig (Elt F))).Forall fun op => op.bufs ⊆ tcRefs τ sig := by
  repeat' apply And.intro
  all_goals bufs_sub_step
theorem opsHead_fresh : (opsHead : List (HloOp τ sig (Elt F))).Forall fun op => op.fresh = ∅ := by
  repeat' apply And.intro
  all_goals rfl
theorem opsHead_past : (opsHead : List (HloOp τ sig (Elt F))).Forall PastArgs := by
  repeat' apply And.intro
  all_goals exact pastArgs_of rfl (by decide)

/-! ## The whole list -/

theorem ops_sub : (ops : List (HloOp τ sig (Elt F))).Forall fun op => op.bufs ⊆ tcRefs τ sig :=
  forall_append
    (forall_append (forall_append (forall_append (opsL1a_sub) opsL1b_sub) opsL1c_sub) opsL1d_sub)
    (forall_append
      (forall_append (forall_append (forall_append (forall_append (opsL2a_sub) opsL2b_sub) opsL2c_sub) opsL2d_sub) opsL2e_sub)
      opsHead_sub)

theorem ops_fresh : (ops : List (HloOp τ sig (Elt F))).Forall fun op => op.fresh = ∅ :=
  forall_append
    (forall_append (forall_append (forall_append (opsL1a_fresh) opsL1b_fresh) opsL1c_fresh) opsL1d_fresh)
    (forall_append
      (forall_append (forall_append (forall_append (forall_append (opsL2a_fresh) opsL2b_fresh) opsL2c_fresh) opsL2d_fresh) opsL2e_fresh)
      opsHead_fresh)

theorem ops_past : (ops : List (HloOp τ sig (Elt F))).Forall PastArgs :=
  forall_append
    (forall_append (forall_append (forall_append (opsL1a_past) opsL1b_past) opsL1c_past) opsL1d_past)
    (forall_append
      (forall_append (forall_append (forall_append (forall_append (opsL2a_past) opsL2b_past) opsL2c_past) opsL2d_past) opsL2e_past)
      opsHead_past)

theorem scopedRefs_eq : (Finset.univ.filter fun b : Ref sig .tc => b.isScoped) = ∅ := by decide
theorem scopedSems_eq : (Finset.univ.filter fun sm : SemLoc sig => sm.isScoped .tc) = ∅ := by decide

/-- On the one device, for any float values, from any memory with zero counters: every weakly fair execution of
    @main terminates, and every final state has each buffer at the fold of the operations' results over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The arguments end as launched -/

theorem arg0_kept (V : Valuation τ sig (Elt F)) :
    after ops V (main_arg0 : DevRef τ sig) = V (main_arg0 : DevRef τ sig) :=
  kept_of_pastArgs ops_past (by decide) V

theorem arg1_kept (V : Valuation τ sig (Elt F)) :
    after ops V (main_arg1 : DevRef τ sig) = V (main_arg1 : DevRef τ sig) :=
  kept_of_pastArgs ops_past (by decide) V

theorem arg2_kept (V : Valuation τ sig (Elt F)) :
    after ops V (main_arg2 : DevRef τ sig) = V (main_arg2 : DevRef τ sig) :=
  kept_of_pastArgs ops_past (by decide) V

theorem arg3_kept (V : Valuation τ sig (Elt F)) :
    after ops V (main_arg3 : DevRef τ sig) = V (main_arg3 : DevRef τ sig) :=
  kept_of_pastArgs ops_past (by decide) V

theorem arg4_kept (V : Valuation τ sig (Elt F)) :
    after ops V (main_arg4 : DevRef τ sig) = V (main_arg4 : DevRef τ sig) :=
  kept_of_pastArgs ops_past (by decide) V

theorem arg5_kept (V : Valuation τ sig (Elt F)) :
    after ops V (main_arg5 : DevRef τ sig) = V (main_arg5 : DevRef τ sig) :=
  kept_of_pastArgs ops_past (by decide) V

theorem arg6_kept (V : Valuation τ sig (Elt F)) :
    after ops V (main_arg6 : DevRef τ sig) = V (main_arg6 : DevRef τ sig) :=
  kept_of_pastArgs ops_past (by decide) V

theorem arg7_kept (V : Valuation τ sig (Elt F)) :
    after ops V (main_arg7 : DevRef τ sig) = V (main_arg7 : DevRef τ sig) :=
  kept_of_pastArgs ops_past (by decide) V

theorem arg8_kept (V : Valuation τ sig (Elt F)) :
    after ops V (main_arg8 : DevRef τ sig) = V (main_arg8 : DevRef τ sig) :=
  kept_of_pastArgs ops_past (by decide) V

theorem arg9_kept (V : Valuation τ sig (Elt F)) :
    after ops V (main_arg9 : DevRef τ sig) = V (main_arg9 : DevRef τ sig) :=
  kept_of_pastArgs ops_past (by decide) V

theorem arg10_kept (V : Valuation τ sig (Elt F)) :
    after ops V (main_arg10 : DevRef τ sig) = V (main_arg10 : DevRef τ sig) :=
  kept_of_pastArgs ops_past (by decide) V

theorem arg11_kept (V : Valuation τ sig (Elt F)) :
    after ops V (main_arg11 : DevRef τ sig) = V (main_arg11 : DevRef τ sig) :=
  kept_of_pastArgs ops_past (by decide) V

theorem arg12_kept (V : Valuation τ sig (Elt F)) :
    after ops V (main_arg12 : DevRef τ sig) = V (main_arg12 : DevRef τ sig) :=
  kept_of_pastArgs ops_past (by decide) V

end Cert.ReferenceIdeal.HandRun

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«403743_j85538568667548_2_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.RefReads.lean ====
/-
  The arrays of one spline-convolution layer, in the arrangement with one scatter per slot, read at one index.

  The layer is assembled from whole-array operations: a row of the 2 × E edge array taken as a vector of E words;
  the E × 1 pseudo-coordinates taken as a vector and multiplied by the number of intervals; the floor, the
  fractional part, the two slot words (the floor as an integer clipped to [0, hi], and that plus one clipped
  again); the source words with negative ones wrapped (none is negative, so they are the source words); the
  source rows gathered; the in-degrees as a scatter of ones; for each slot k the coefficient
  (1 − frac)·[base = k] + frac·[next = k], the gathered rows times it, their scatter by destination, and the
  product with the k-th weight matrix; the quotient by the clamped degree, the root product, the bias, and ELU.

  Each is named here as one function of its operand arrays, over extents N (nodes), E (edges), D (features)
  left general, and read at an index given by its coordinates: the result is the corresponding scalar
  expression of the layer's definition. The scatters and the gather are read through the statement that every
  edge word is a node number: a word w below 2³¹ read as a signed integer is its natural value, so an update
  row lands on node n exactly when its destination is n, and the gather's clamp does nothing.
-/
import Idealize.ShloMosaic.Lib.IdealHost
import Idealize.ShloMosaic.Lib.KernelVsHost
import Idealize.ShloMosaic.Lib.StackMember
import Idealize.ShloMosaic.Lib.ValueLayout
import proofs.«403743_j85538568667548_2_alg».proof.Proof.Spline
import proofs.«403743_j85538568667548_2_alg».proof.Proof.LibIndexMaps
import proofs.«403743_j85538568667548_2_alg».proof.Proof.LibLayoutReads
import proofs.«403743_j85538568667548_2_alg».proof.Proof.LibWordArith
import proofs.«403743_j85538568667548_2_alg».proof.Proof.LibDenseForms

noncomputable section

namespace Cert.Spline.Reads

open Idealize.ShloMosaic Idealize.ShloMosaic.ValueIdx

variable {N E D : ℕ}

/-! ## Layout: rows, columns, constants -/

/-- Row r of a 2 × E array of words, as a vector of E words. -/
def edgeRow (r : ℕ) (ei : IVec (⟨2, ![2, E]⟩ : Shape) 32)
    (hs : (⟨2, ![2, E]⟩ : Shape).Slices ![r, 0] ⟨2, ![1, E]⟩)
    (hc : (⟨2, ![1, E]⟩ : Shape).ShapeCasts ⟨1, ![E]⟩) : IVec (⟨1, ![E]⟩ : Shape) 32 :=
  shapeCast ⟨1, ![E]⟩ (extractStridedSlice ⟨2, ![1, E]⟩ ![r, 0] ei hs) hc

theorem edgeRow_apply (r : Fin 2) (ei : IVec (⟨2, ![2, E]⟩ : Shape) 32)
    (hs : (⟨2, ![2, E]⟩ : Shape).Slices ![r.val, 0] ⟨2, ![1, E]⟩)
    (hc : (⟨2, ![1, E]⟩ : Shape).ShapeCasts ⟨1, ![E]⟩) (e : Fin E) :
    edgeRow r.val ei hs hc (ix1 e) = ei (ix2 r e) := by
  unfold edgeRow
  rw [shapeCast_1a_a_apply]
  exact slice2_axis0_apply r.val ei hs (0 : Fin 1) e r (by simp)

/-- An E × 1 column as a vector of E entries. -/
def colVec {α : Type} (a : (⟨2, ![E, 1]⟩ : Shape).Idx → α) (hc : (⟨2, ![E, 1]⟩ : Shape).ShapeCasts ⟨1, ![E]⟩) :
    (⟨1, ![E]⟩ : Shape).Idx → α :=
  shapeCast ⟨1, ![E]⟩ a hc

theorem colVec_apply {α : Type} (a : (⟨2, ![E, 1]⟩ : Shape).Idx → α)
    (hc : (⟨2, ![E, 1]⟩ : Shape).ShapeCasts ⟨1, ![E]⟩) (e : Fin E) :
    colVec a hc (ix1 e) = a (ix2 e (0 : Fin 1)) :=
  Cert.Gcn.LayoutReads.shapeCast_ab_n_apply a hc e e (0 : Fin 1) (by simp)

/-- A float constant at every index of a shape. -/
def splatF (T : Shape) (b : BitVec 32) (hb : (⟨0, ![]⟩ : Shape).BroadcastsInDim T ![]) : FVec Ideal T .f32 :=
  broadcastInDim T ![] hb (constant (F := Ideal) (⟨0, ![]⟩ : Shape) .f32 b)

theorem splatF_apply (T : Shape) (b : BitVec 32) (hb : (⟨0, ![]⟩ : Shape).BroadcastsInDim T ![]) (j : T.Idx) :
    splatF T b hb j = Ideal.ofBits .f32 b := by
  unfold splatF
  rw [broadcastInDim_scalar_apply]
  rfl

/-- A word constant at every index of a shape. -/
def splatI (T : Shape) (b : BitVec 32) (hb : (⟨0, ![]⟩ : Shape).BroadcastsInDim T ![]) : IVec T 32 :=
  broadcastInDim T ![] hb (constantI (⟨0, ![]⟩ : Shape) 32 b)

theorem splatI_apply (T : Shape) (b : BitVec 32) (hb : (⟨0, ![]⟩ : Shape).BroadcastsInDim T ![]) (j : T.Idx) :
    splatI T b hb j = b := by
  unfold splatI
  rw [broadcastInDim_scalar_apply]
  rfl

/-- A vector of E entries made an E × 1 column. -/
def asCol {α : Type} (v : (⟨1, ![E]⟩ : Shape).Idx → α) (h : (⟨1, ![E]⟩ : Shape).BroadcastsInDim ⟨2, ![E, 1]⟩ ![0]) :
    (⟨2, ![E, 1]⟩ : Shape).Idx → α :=
  broadcastInDim ⟨2, ![E, 1]⟩ ![0] h v

theorem asCol_apply {α : Type} (v : (⟨1, ![E]⟩ : Shape).Idx → α)
    (h : (⟨1, ![E]⟩ : Shape).BroadcastsInDim ⟨2, ![E, 1]⟩ ![0]) (e : Fin E) (u : Fin 1) :
    asCol v h (ix2 e u) = v (ix1 e) :=
  Cert.Gcn.LayoutReads.broadcastInDim_a_a1_apply h v e u

/-- A vector of M entries repeated across the D columns of an M × D array. -/
def acrossCols {M : ℕ} (v : FVec Ideal (⟨1, ![M]⟩ : Shape) .f32)
    (h1 : (⟨1, ![M]⟩ : Shape).BroadcastsInDim ⟨2, ![M, 1]⟩ ![0])
    (h2 : (⟨2, ![M, 1]⟩ : Shape).BroadcastsInDim ⟨2, ![M, D]⟩ ![0, 1]) : FVec Ideal (⟨2, ![M, D]⟩ : Shape) .f32 :=
  broadcastInDim (⟨2, ![M, D]⟩ : Shape) ![0, 1] h2 (broadcastInDim (⟨2, ![M, 1]⟩ : Shape) ![0] h1 v)

theorem acrossCols_apply {M : ℕ} (v : FVec Ideal (⟨1, ![M]⟩ : Shape) .f32)
    (h1 : (⟨1, ![M]⟩ : Shape).BroadcastsInDim ⟨2, ![M, 1]⟩ ![0])
    (h2 : (⟨2, ![M, 1]⟩ : Shape).BroadcastsInDim ⟨2, ![M, D]⟩ ![0, 1]) (p : Fin M) (q : Fin D) :
    acrossCols v h1 h2 (ix2 p q) = v (ix1 p) :=
  DenseRows.column_host_form v h1 h2 p q

/-- A vector of D entries repeated down the N rows of an N × D array. -/
def downRows (b : FVec Ideal (⟨1, ![D]⟩ : Shape) .f32)
    (h1 : (⟨1, ![D]⟩ : Shape).BroadcastsInDim ⟨2, ![1, D]⟩ ![1])
    (h2 : (⟨2, ![1, D]⟩ : Shape).BroadcastsInDim ⟨2, ![N, D]⟩ ![0, 1]) : FVec Ideal (⟨2, ![N, D]⟩ : Shape) .f32 :=
  broadcastInDim (⟨2, ![N, D]⟩ : Shape) ![0, 1] h2 (broadcastInDim (⟨2, ![1, D]⟩ : Shape) ![1] h1 b)

theorem downRows_apply (b : FVec Ideal (⟨1, ![D]⟩ : Shape) .f32)
    (h1 : (⟨1, ![D]⟩ : Shape).BroadcastsInDim ⟨2, ![1, D]⟩ ![1])
    (h2 : (⟨2, ![1, D]⟩ : Shape).BroadcastsInDim ⟨2, ![N, D]⟩ ![0, 1]) (n : Fin N) (j : Fin D) :
    downRows (N := N) b h1 h2 (ix2 n j) = b (ix1 j) := by
  unfold downRows
  rw [broadcastInDim_oneRow_apply, DenseRows.broadcastInDim_asRow]
  rfl

/-- The k-th D × D matrix of a stack of K. -/
def stackMat {K : ℕ} (k : ℕ) (W : FVec Ideal (⟨3, ![K, D, D]⟩ : Shape) .f32)
    (hs : (⟨3, ![K, D, D]⟩ : Shape).Slices ![k, 0, 0] ⟨3, ![1, D, D]⟩)
    (hc : (⟨3, ![1, D, D]⟩ : Shape).ShapeCasts ⟨2, ![D, D]⟩) : FVec Ideal (⟨2, ![D, D]⟩ : Shape) .f32 :=
  shapeCast ⟨2, ![D, D]⟩ (extractStridedSlice ⟨3, ![1, D, D]⟩ ![k, 0, 0] W hs) hc

theorem stackMat_apply {K : ℕ} (k : Fin K) (W : FVec Ideal (⟨3, ![K, D, D]⟩ : Shape) .f32)
    (hs : (⟨3, ![K, D, D]⟩ : Shape).Slices ![k.val, 0, 0] ⟨3, ![1, D, D]⟩)
    (hc : (⟨3, ![1, D, D]⟩ : Shape).ShapeCasts ⟨2, ![D, D]⟩) (d j : Fin D) :
    stackMat k.val W hs hc (ix2 d j) = W (ix3 k d j) := by
  unfold stackMat
  rw [shapeCast_1ab_ab_apply]
  refine extractStridedSlice_apply _ W hs _ (ix3 k d j) (fun ax => ?_)
  match ax with
  | ⟨0, _⟩ => show k.val = k.val + 0; omega
  | ⟨1, _⟩ => show d.val = 0 + d.val; omega
  | ⟨2, _⟩ => show j.val = 0 + j.val; omega

/-! ## Words -/

/-- A word below a bound of at most 2³¹, read as a signed integer, is its natural value. -/
theorem toInt_of_lt {w : BitVec 32} {n : ℕ} (hn : n ≤ 2 ^ 31) (h : w.toNat < n) : w.toInt = (w.toNat : Int) :=
  Cert.Gcn.WordArith.toInt_of_small (lt_of_lt_of_le h hn)

/-- Two indicators of equivalent statements are the same number. -/
theorem ind_congr {P Q : Prop} [Decidable P] [Decidable Q] (h : P ↔ Q) : ind P = ind Q := by
  unfold ind
  by_cases hp : P
  · rw [if_pos hp, if_pos (h.mp hp)]
  · rw [if_neg hp, if_neg (fun hq => hp (h.mpr hq))]

/-- The words with the negative ones moved up by a constant. -/
def wrapWords (nw : BitVec 32) (w : IVec (⟨1, ![E]⟩ : Shape) 32)
    (hb : (⟨0, ![]⟩ : Shape).BroadcastsInDim ⟨1, ![E]⟩ ![]) : IVec (⟨1, ![E]⟩ : Shape) 32 :=
  select (cmpi .slt w (splatI _ 0#32 hb)) (addi w (splatI _ nw hb)) w

/-- A word that is not negative is left where it is. -/
theorem wrapWords_apply (nw : BitVec 32) (w : IVec (⟨1, ![E]⟩ : Shape) 32)
    (hb : (⟨0, ![]⟩ : Shape).BroadcastsInDim ⟨1, ![E]⟩ ![]) (i : (⟨1, ![E]⟩ : Shape).Idx)
    (h : (w i).toNat < 2 ^ 31) : wrapWords nw w hb i = w i := by
  show Scalar.select (IntOp.cmpi .slt (w i) (splatI _ 0#32 hb i)) (IntOp.addi (w i) (splatI _ nw hb i)) (w i) = w i
  rw [splatI_apply, splatI_apply]
  exact Cert.Gcn.WordArith.select_slt_zero_small nw h

/-- The words clipped to [lo, hi]. -/
def clipWords (lo hi : BitVec 32) (x : IVec (⟨1, ![E]⟩ : Shape) 32)
    (hb : (⟨0, ![]⟩ : Shape).BroadcastsInDim ⟨1, ![E]⟩ ![]) : IVec (⟨1, ![E]⟩ : Shape) 32 :=
  minsi (splatI _ hi hb) (maxsi (splatI _ lo hb) x)

theorem clipWords_apply (lo hi : BitVec 32) (x : IVec (⟨1, ![E]⟩ : Shape) 32)
    (hb : (⟨0, ![]⟩ : Shape).BroadcastsInDim ⟨1, ![E]⟩ ![]) (i : (⟨1, ![E]⟩ : Shape).Idx) :
    clipWords lo hi x hb i = IntOp.minsi hi (IntOp.maxsi lo (x i)) := by
  show IntOp.minsi (splatI _ hi hb i) (IntOp.maxsi (splatI _ lo hb i) (x i)) = _
  rw [splatI_apply, splatI_apply]

/-! ## Positions, fractions, slots -/

/-- The positions: the pseudo-coordinates times the number of intervals. -/
def posVec (κb : BitVec 32) (ps : FVec Ideal (⟨1, ![E]⟩ : Shape) .f32)
    (hb : (⟨0, ![]⟩ : Shape).BroadcastsInDim ⟨1, ![E]⟩ ![]) : FVec Ideal (⟨1, ![E]⟩ : Shape) .f32 :=
  mulf ps (splatF _ κb hb)

theorem posVec_apply (κb : BitVec 32) (ps : FVec Ideal (⟨1, ![E]⟩ : Shape) .f32)
    (hb : (⟨0, ![]⟩ : Shape).BroadcastsInDim ⟨1, ![E]⟩ ![]) (i : (⟨1, ![E]⟩ : Shape).Idx) :
    posVec κb ps hb i = pos (Ideal.ofBits .f32 κb) (ps i) := by
  show ps i * splatF _ κb hb i = _
  rw [splatF_apply]
  rfl

/-- The fractional parts of a vector. -/
def fracVec (v : FVec Ideal (⟨1, ![E]⟩ : Shape) .f32) : FVec Ideal (⟨1, ![E]⟩ : Shape) .f32 :=
  subf v (Host.floor v)

theorem fracVec_pos_apply (κb : BitVec 32) (ps : FVec Ideal (⟨1, ![E]⟩ : Shape) .f32)
    (hb : (⟨0, ![]⟩ : Shape).BroadcastsInDim ⟨1, ![E]⟩ ![]) (i : (⟨1, ![E]⟩ : Shape).Idx) :
    fracVec (posVec κb ps hb) i = frac (Ideal.ofBits .f32 κb) (ps i) := by
  show posVec κb ps hb i - Ideal.liftRound Int.floor (posVec κb ps hb i) = _
  rw [posVec_apply]
  rfl

/-- The base slots: the floors as integers, clipped to [0, hi]. -/
def slot0Words (hi : BitVec 32) (v : FVec Ideal (⟨1, ![E]⟩ : Shape) .f32)
    (hb : (⟨0, ![]⟩ : Shape).BroadcastsInDim ⟨1, ![E]⟩ ![]) : IVec (⟨1, ![E]⟩ : Shape) 32 :=
  clipWords 0#32 hi (fptosi 32 (Host.floor v)) hb

theorem slot0Words_pos_apply (hi κb : BitVec 32) (ps : FVec Ideal (⟨1, ![E]⟩ : Shape) .f32)
    (hb : (⟨0, ![]⟩ : Shape).BroadcastsInDim ⟨1, ![E]⟩ ![]) (i : (⟨1, ![E]⟩ : Shape).Idx) :
    slot0Words hi (posVec κb ps hb) hb i = slot0 hi (Ideal.ofBits .f32 κb) (ps i) := by
  unfold slot0Words
  rw [clipWords_apply]
  show IntOp.minsi hi (IntOp.maxsi 0#32 (Ideal.fptosi 32 (Ideal.liftRound Int.floor (posVec κb ps hb i)))) = _
  rw [posVec_apply]
  rfl

/-- The next slots: the base slots plus one, clipped to [0, hi]. -/
def slot1Words (hi : BitVec 32) (s : IVec (⟨1, ![E]⟩ : Shape) 32)
    (hb : (⟨0, ![]⟩ : Shape).BroadcastsInDim ⟨1, ![E]⟩ ![]) : IVec (⟨1, ![E]⟩ : Shape) 32 :=
  clipWords 0#32 hi (addi s (splatI _ 1#32 hb)) hb

theorem slot1Words_pos_apply (hi κb : BitVec 32) (ps : FVec Ideal (⟨1, ![E]⟩ : Shape) .f32)
    (hb : (⟨0, ![]⟩ : Shape).BroadcastsInDim ⟨1, ![E]⟩ ![]) (i : (⟨1, ![E]⟩ : Shape).Idx) :
    slot1Words hi (slot0Words hi (posVec κb ps hb) hb) hb i = slot1 hi (Ideal.ofBits .f32 κb) (ps i) := by
  unfold slot1Words
  rw [clipWords_apply]
  show IntOp.minsi hi (IntOp.maxsi 0#32 (IntOp.addi (slot0Words hi (posVec κb ps hb) hb i) (splatI _ 1#32 hb i))) = _
  rw [slot0Words_pos_apply, splatI_apply]
  rfl

/-! ## The gather of the source rows and the degrees -/

/-- The rows of an N × D array named by a vector of E words. -/
def gatherRows (dg : GatherDims (⟨2, ![N, D]⟩ : Shape) ⟨2, ![E, 1]⟩ ⟨2, ![E, D]⟩)
    (x : FVec Ideal (⟨2, ![N, D]⟩ : Shape) .f32) (w : IVec (⟨1, ![E]⟩ : Shape) 32)
    (h1 : (⟨1, ![E]⟩ : Shape).BroadcastsInDim ⟨2, ![E, 1]⟩ ![0]) : FVec Ideal (⟨2, ![E, D]⟩ : Shape) .f32 :=
  Host.gather dg x (asCol w h1)

theorem gatherRows_apply (dg : GatherDims (⟨2, ![N, D]⟩ : Shape) ⟨2, ![E, 1]⟩ ⟨2, ![E, D]⟩)
    (hod : dg.offsetDims = [1]) (hcoll : dg.collapsedSliceDims = [0]) (hob : dg.operandBatchingDims = [])
    (hsim : dg.startIndexMap = [0]) (hivd : dg.indexVectorDim = 1)
    (x : FVec Ideal (⟨2, ![N, D]⟩ : Shape) .f32) (w : IVec (⟨1, ![E]⟩ : Shape) 32)
    (h1 : (⟨1, ![E]⟩ : Shape).BroadcastsInDim ⟨2, ![E, 1]⟩ ![0])
    (src : Fin E → Fin N) (hsrc : ∀ e, (w (ix1 e)).toInt = ((src e).val : Int)) (e : Fin E) (d : Fin D) :
    gatherRows dg x w h1 (ix2 e d) = x (ix2 (src e) d) :=
  Cert.Gcn.IndexMaps.gather2_ix_apply dg hod hcoll hob hsim hivd x (asCol w h1) e d (src e).val (src e).isLt
    (by rw [asCol_apply]; exact hsrc e)

/-- The in-degrees: a one per edge, added at the edge's destination to a vector of zeros. -/
def degVec (ds : ScatterDims (⟨1, ![N]⟩ : Shape) ⟨2, ![E, 1]⟩ ⟨1, ![E]⟩) (w : IVec (⟨1, ![E]⟩ : Shape) 32)
    (hbN : (⟨0, ![]⟩ : Shape).BroadcastsInDim ⟨1, ![N]⟩ ![]) (hbE : (⟨0, ![]⟩ : Shape).BroadcastsInDim ⟨1, ![E]⟩ ![])
    (h1 : (⟨1, ![E]⟩ : Shape).BroadcastsInDim ⟨2, ![E, 1]⟩ ![0]) : FVec Ideal (⟨1, ![N]⟩ : Shape) .f32 :=
  Host.scatterAdd ds (splatF _ 0x00000000#32 hbN) (asCol w h1) (splatF _ 0x3F800000#32 hbE)

theorem degVec_apply (ds : ScatterDims (⟨1, ![N]⟩ : Shape) ⟨2, ![E, 1]⟩ ⟨1, ![E]⟩)
    (huw : ds.updateWindowDims = []) (hiw : ds.insertedWindowDims = [0])
    (hsd : ds.scatterDimsToOperandDims = [0]) (hivd : ds.indexVectorDim = 1)
    (w : IVec (⟨1, ![E]⟩ : Shape) 32)
    (hbN : (⟨0, ![]⟩ : Shape).BroadcastsInDim ⟨1, ![N]⟩ ![]) (hbE : (⟨0, ![]⟩ : Shape).BroadcastsInDim ⟨1, ![E]⟩ ![])
    (h1 : (⟨1, ![E]⟩ : Shape).BroadcastsInDim ⟨2, ![E, 1]⟩ ![0])
    (dst : Fin E → Fin N) (hdst : ∀ e, (w (ix1 e)).toInt = ((dst e).val : Int)) (n : Fin N) :
    degVec ds w hbN hbE h1 (ix1 n) = deg dst n := by
  show Ideal.hostScatterAdd ds (splatF _ 0x00000000#32 hbN) (asCol w h1) (splatF _ 0x3F800000#32 hbE) (ix1 n) = _
  rw [Cert.Gcn.IndexMaps.hostScatterAdd1_apply ds huw hiw hsd hivd, splatF_apply, Ideal.ofBits_zero_f32]
  unfold deg
  congr 1
  refine Finset.sum_congr rfl (fun e _ => ?_)
  rw [asCol_apply, hdst e, splatF_apply, Ideal.ofBits_one_f32]
  refine if_congr ?_ rfl rfl
  rw [Nat.cast_inj, Fin.val_inj]

/-! ## A slot's coefficient and aggregate -/

/-- The indicator of the words equal to a constant, as numbers. -/
def indVec (kw : BitVec 32) (s : IVec (⟨1, ![E]⟩ : Shape) 32)
    (hb : (⟨0, ![]⟩ : Shape).BroadcastsInDim ⟨1, ![E]⟩ ![]) : FVec Ideal (⟨1, ![E]⟩ : Shape) .f32 :=
  uitofp (F := Ideal) .f32 (cmpi .eq s (splatI _ kw hb))

theorem indVec_apply (kw : BitVec 32) (s : IVec (⟨1, ![E]⟩ : Shape) 32)
    (hb : (⟨0, ![]⟩ : Shape).BroadcastsInDim ⟨1, ![E]⟩ ![]) (i : (⟨1, ![E]⟩ : Shape).Idx) :
    indVec kw s hb i = ind (s i = kw) := by
  show (((IntOp.cmpi .eq (s i) (splatI _ kw hb i)).toNat : ℝ) : EReal) = _
  rw [splatI_apply]
  unfold ind IntOp.cmpi
  by_cases h : s i = kw
  · rw [if_pos h]; simp [h]
  · rw [if_neg h]; simp [h]

/-- A slot's coefficients: (1 − frac)·[base = k] + frac·[next = k]. -/
def coeffVec (kw : BitVec 32) (fr : FVec Ideal (⟨1, ![E]⟩ : Shape) .f32) (s0 s1 : IVec (⟨1, ![E]⟩ : Shape) 32)
    (hb : (⟨0, ![]⟩ : Shape).BroadcastsInDim ⟨1, ![E]⟩ ![]) : FVec Ideal (⟨1, ![E]⟩ : Shape) .f32 :=
  addf (mulf (subf (splatF _ 0x3F800000#32 hb) fr) (indVec kw s0 hb)) (mulf fr (indVec kw s1 hb))

theorem coeffVec_apply (kw : BitVec 32) (fr : FVec Ideal (⟨1, ![E]⟩ : Shape) .f32) (s0 s1 : IVec (⟨1, ![E]⟩ : Shape) 32)
    (hb : (⟨0, ![]⟩ : Shape).BroadcastsInDim ⟨1, ![E]⟩ ![]) (i : (⟨1, ![E]⟩ : Shape).Idx) :
    coeffVec kw fr s0 s1 hb i = (1 - fr i) * ind (s0 i = kw) + fr i * ind (s1 i = kw) := by
  show (splatF _ 0x3F800000#32 hb i - fr i) * indVec kw s0 hb i + fr i * indVec kw s1 hb i = _
  rw [splatF_apply, Ideal.ofBits_one_f32, indVec_apply, indVec_apply]

/-- A slot's aggregate: the gathered rows times the slot's coefficients, added at the edges' destinations to
    an array of zeros. -/
def slotAgg (ds : ScatterDims (⟨2, ![N, D]⟩ : Shape) ⟨2, ![E, 1]⟩ ⟨2, ![E, D]⟩) (w : IVec (⟨1, ![E]⟩ : Shape) 32)
    (xj : FVec Ideal (⟨2, ![E, D]⟩ : Shape) .f32) (co : FVec Ideal (⟨1, ![E]⟩ : Shape) .f32)
    (hbND : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1]) : FVec Ideal (⟨2, ![N, D]⟩ : Shape) .f32 :=
  Host.scatterAdd ds (splatF _ 0x00000000#32 hbND) (asCol w h1) (mulf xj (acrossCols co h1 h2))

theorem slotAgg_apply (ds : ScatterDims (⟨2, ![N, D]⟩ : Shape) ⟨2, ![E, 1]⟩ ⟨2, ![E, D]⟩)
    (huw : ds.updateWindowDims = [1]) (hiw : ds.insertedWindowDims = [0])
    (hsd : ds.scatterDimsToOperandDims = [0]) (hivd : ds.indexVectorDim = 1)
    (w : IVec (⟨1, ![E]⟩ : Shape) 32)
    (xj : FVec Ideal (⟨2, ![E, D]⟩ : Shape) .f32) (co : FVec Ideal (⟨1, ![E]⟩ : Shape) .f32)
    (hbND : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (dst : Fin E → Fin N) (hdst : ∀ e, (w (ix1 e)).toInt = ((dst e).val : Int)) (n : Fin N) (d : Fin D) :
    slotAgg ds w xj co hbND h1 h2 (ix2 n d)
      = 0 + ∑ e : Fin E, if dst e = n then xj (ix2 e d) * co (ix1 e) else 0 := by
  show Ideal.hostScatterAdd ds (splatF _ 0x00000000#32 hbND) (asCol w h1) (mulf xj (acrossCols co h1 h2)) (ix2 n d) = _
  rw [Cert.Gcn.IndexMaps.hostScatterAdd2_apply ds huw hiw hsd hivd, splatF_apply, Ideal.ofBits_zero_f32]
  congr 1
  refine Finset.sum_congr rfl (fun e _ => ?_)
  rw [asCol_apply, hdst e]
  refine if_congr ?_ ?_ rfl
  · rw [Nat.cast_inj, Fin.val_inj]
  · show xj (ix2 e d) * acrossCols co h1 h2 (ix2 e d) = _
    rw [acrossCols_apply]

/-! ## Products, the sum over the slots, the layer's tail -/

/-- A word and a constant word that read two positions below K are equal exactly when the positions are. -/
theorem word_eq_iff {K : ℕ} {w kw : BitVec 32} {s k : Fin K} (hs : w.toNat = s.val) (hk : kw.toNat = k.val) :
    w = kw ↔ s = k := by
  rw [← BitVec.toNat_inj, hs, hk, Fin.val_inj]

/-- A plain product of an N × D by a D × D' array, read at an entry: the sum over the contracted coordinate. -/
theorem dot_apply {D' : ℕ} (dd : DotDims (⟨2, ![N, D]⟩ : Shape) ⟨2, ![D, D']⟩ ⟨2, ![N, D']⟩)
    (h1 : dd.lhsContracting = [1]) (h2 : dd.rhsContracting = [0]) (h3 : dd.lhsNonContracting = [0])
    (h4 : dd.rhsNonContracting = [1]) (h5 : dd.lhsBatch = []) (h6 : dd.rhsBatch = [])
    (A : FVec Ideal (⟨2, ![N, D]⟩ : Shape) .f32) (B : FVec Ideal (⟨2, ![D, D']⟩ : Shape) .f32) (n : Fin N) (j : Fin D') :
    Host.dotGeneral dd none A B (ix2 n j) = ∑ d : Fin D, A (ix2 n d) * B (ix2 d j) := by
  obtain ⟨lc, rc, lnc, rnc, lb, rb, wf⟩ := dd
  simp only at h1 h2 h3 h4 h5 h6
  subst h1 h2 h3 h4 h5 h6
  exact StackMember.dotGeneral_plain_apply none A B n j

/-- A slot's product: the slot's aggregate times the slot's weight matrix. -/
def slotProd {K : ℕ} (dd : DotDims (⟨2, ![N, D]⟩ : Shape) ⟨2, ![D, D]⟩ ⟨2, ![N, D]⟩)
    (ds : ScatterDims (⟨2, ![N, D]⟩ : Shape) ⟨2, ![E, 1]⟩ ⟨2, ![E, D]⟩) (k : ℕ) (kw : BitVec 32)
    (dstw : IVec (⟨1, ![E]⟩ : Shape) 32) (xj : FVec Ideal (⟨2, ![E, D]⟩ : Shape) .f32)
    (frv : FVec Ideal (⟨1, ![E]⟩ : Shape) .f32) (s0w s1w : IVec (⟨1, ![E]⟩ : Shape) 32)
    (W : FVec Ideal (⟨3, ![K, D, D]⟩ : Shape) .f32)
    (hbE : (⟨0, ![]⟩ : Shape).BroadcastsInDim ⟨1, ![E]⟩ ![])
    (hbND : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (hs : (⟨3, ![K, D, D]⟩ : Shape).Slices ![k, 0, 0] ⟨3, ![1, D, D]⟩)
    (hc : (⟨3, ![1, D, D]⟩ : Shape).ShapeCasts ⟨2, ![D, D]⟩) : FVec Ideal (⟨2, ![N, D]⟩ : Shape) .f32 :=
  Host.dotGeneral dd none (slotAgg ds dstw xj (coeffVec kw frv s0w s1w hbE) hbND h1 h2) (stackMat k W hs hc)

/-- A slot's product at (n, j): the sum over the features of the slot's aggregate times the slot's weights. -/
theorem slotProd_apply {K : ℕ} (dd : DotDims (⟨2, ![N, D]⟩ : Shape) ⟨2, ![D, D]⟩ ⟨2, ![N, D]⟩)
    (d1 : dd.lhsContracting = [1]) (d2 : dd.rhsContracting = [0]) (d3 : dd.lhsNonContracting = [0])
    (d4 : dd.rhsNonContracting = [1]) (d5 : dd.lhsBatch = []) (d6 : dd.rhsBatch = [])
    (ds : ScatterDims (⟨2, ![N, D]⟩ : Shape) ⟨2, ![E, 1]⟩ ⟨2, ![E, D]⟩)
    (huw : ds.updateWindowDims = [1]) (hiw : ds.insertedWindowDims = [0])
    (hsd : ds.scatterDimsToOperandDims = [0]) (hivd : ds.indexVectorDim = 1)
    (k : Fin K) (kw : BitVec 32) (hkw : kw.toNat = k.val)
    (dstw : IVec (⟨1, ![E]⟩ : Shape) 32) (xj : FVec Ideal (⟨2, ![E, D]⟩ : Shape) .f32)
    (frv : FVec Ideal (⟨1, ![E]⟩ : Shape) .f32) (s0w s1w : IVec (⟨1, ![E]⟩ : Shape) 32)
    (W : FVec Ideal (⟨3, ![K, D, D]⟩ : Shape) .f32)
    (hbE : (⟨0, ![]⟩ : Shape).BroadcastsInDim ⟨1, ![E]⟩ ![])
    (hbND : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (hs : (⟨3, ![K, D, D]⟩ : Shape).Slices ![k.val, 0, 0] ⟨3, ![1, D, D]⟩)
    (hc : (⟨3, ![1, D, D]⟩ : Shape).ShapeCasts ⟨2, ![D, D]⟩)
    (src dst : Fin E → Fin N) (fr : Fin E → EReal) (s0 s1 : Fin E → Fin K)
    (X : Fin N → Fin D → EReal) (Wf : Fin K → Fin D → Fin D → EReal)
    (hdst : ∀ e, (dstw (ix1 e)).toInt = ((dst e).val : Int))
    (hxj : ∀ e d, xj (ix2 e d) = X (src e) d) (hfr : ∀ e, frv (ix1 e) = fr e)
    (hs0 : ∀ e, (s0w (ix1 e)).toNat = (s0 e).val) (hs1 : ∀ e, (s1w (ix1 e)).toNat = (s1 e).val)
    (hW : ∀ k d j, W (ix3 k d j) = Wf k d j) (n : Fin N) (j : Fin D) :
    slotProd dd ds k.val kw dstw xj frv s0w s1w W hbE hbND h1 h2 hs hc (ix2 n j)
      = ∑ d : Fin D, aggSlot src dst fr s0 s1 X k n d * Wf k d j := by
  unfold slotProd
  rw [dot_apply dd d1 d2 d3 d4 d5 d6]
  refine Finset.sum_congr rfl (fun d _ => ?_)
  rw [slotAgg_apply ds huw hiw hsd hivd dstw xj _ hbND h1 h2 dst hdst, stackMat_apply, hW]
  unfold aggSlot coeff
  congr 2
  refine Finset.sum_congr rfl (fun e _ => ?_)
  rw [hxj, coeffVec_apply, hfr, ind_congr (word_eq_iff (hs0 e) hkw), ind_congr (word_eq_iff (hs1 e) hkw)]

/-- Three arrays added one after the other to an array of zeros. -/
theorem sum3_apply (T : Shape) (hb : (⟨0, ![]⟩ : Shape).BroadcastsInDim T ![]) (P0 P1 P2 : FVec Ideal T .f32) (i : T.Idx) :
    addf (addf (addf (splatF T 0x00000000#32 hb) P0) P1) P2 i = P0 i + P1 i + P2 i := by
  show ((splatF T 0x00000000#32 hb i + P0 i) + P1 i) + P2 i = _
  rw [splatF_apply, Ideal.ofBits_zero_f32, zero_add]

/-- Five arrays added one after the other to an array of zeros. -/
theorem sum5_apply (T : Shape) (hb : (⟨0, ![]⟩ : Shape).BroadcastsInDim T ![]) (P0 P1 P2 P3 P4 : FVec Ideal T .f32)
    (i : T.Idx) :
    addf (addf (addf (addf (addf (splatF T 0x00000000#32 hb) P0) P1) P2) P3) P4 i = P0 i + P1 i + P2 i + P3 i + P4 i := by
  show ((((splatF T 0x00000000#32 hb i + P0 i) + P1 i) + P2 i) + P3 i) + P4 i = _
  rw [splatF_apply, Ideal.ofBits_zero_f32, zero_add]

/-- The layer before its activation: the slots' sum over the clamped degree, plus the root product, plus the bias. -/
def preAct (S : FVec Ideal (⟨2, ![N, D]⟩ : Shape) .f32) (dg : FVec Ideal (⟨1, ![N]⟩ : Shape) .f32)
    (root : FVec Ideal (⟨2, ![N, D]⟩ : Shape) .f32) (b : FVec Ideal (⟨1, ![D]⟩ : Shape) .f32)
    (hbN : (⟨0, ![]⟩ : Shape).BroadcastsInDim ⟨1, ![N]⟩ ![])
    (c1 : (⟨1, ![N]⟩ : Shape).BroadcastsInDim ⟨2, ![N, 1]⟩ ![0])
    (c2 : (⟨2, ![N, 1]⟩ : Shape).BroadcastsInDim ⟨2, ![N, D]⟩ ![0, 1])
    (r1 : (⟨1, ![D]⟩ : Shape).BroadcastsInDim ⟨2, ![1, D]⟩ ![1])
    (r2 : (⟨2, ![1, D]⟩ : Shape).BroadcastsInDim ⟨2, ![N, D]⟩ ![0, 1]) : FVec Ideal (⟨2, ![N, D]⟩ : Shape) .f32 :=
  addf (addf (Host.divf S (acrossCols (maximumf dg (splatF _ 0x3F800000#32 hbN)) c1 c2)) root) (downRows b r1 r2)

theorem preAct_apply (S : FVec Ideal (⟨2, ![N, D]⟩ : Shape) .f32) (dg : FVec Ideal (⟨1, ![N]⟩ : Shape) .f32)
    (root : FVec Ideal (⟨2, ![N, D]⟩ : Shape) .f32) (b : FVec Ideal (⟨1, ![D]⟩ : Shape) .f32)
    (hbN : (⟨0, ![]⟩ : Shape).BroadcastsInDim ⟨1, ![N]⟩ ![])
    (c1 : (⟨1, ![N]⟩ : Shape).BroadcastsInDim ⟨2, ![N, 1]⟩ ![0])
    (c2 : (⟨2, ![N, 1]⟩ : Shape).BroadcastsInDim ⟨2, ![N, D]⟩ ![0, 1])
    (r1 : (⟨1, ![D]⟩ : Shape).BroadcastsInDim ⟨2, ![1, D]⟩ ![1])
    (r2 : (⟨2, ![1, D]⟩ : Shape).BroadcastsInDim ⟨2, ![N, D]⟩ ![0, 1]) (n : Fin N) (j : Fin D) :
    preAct S dg root b hbN c1 c2 r1 r2 (ix2 n j)
      = (Ideal.div (S (ix2 n j)) (max (dg (ix1 n)) 1) + root (ix2 n j)) + b (ix1 j) := by
  show (Ideal.div (S (ix2 n j)) (acrossCols (maximumf dg (splatF _ 0x3F800000#32 hbN)) c1 c2 (ix2 n j)) + root (ix2 n j))
      + downRows b r1 r2 (ix2 n j) = _
  rw [acrossCols_apply, downRows_apply]
  show (Ideal.div (S (ix2 n j)) (max (dg (ix1 n)) (splatF _ 0x3F800000#32 hbN (ix1 n))) + root (ix2 n j)) + b (ix1 j) = _
  rw [splatF_apply, Ideal.ofBits_one_f32]

/-- ELU of an array, the negative branch spelt 1 · expm1 of (0 where the entry is positive, else the entry). -/
def eluArr (T : Shape) (y : FVec Ideal T .f32) (hb : (⟨0, ![]⟩ : Shape).BroadcastsInDim T ![]) : FVec Ideal T .f32 :=
  select (cmpf .ogt y (splatF T 0x00000000#32 hb)) y
    (mulf (splatF T 0x3F800000#32 hb)
      (Host.expm1 (select (cmpf .ogt y (splatF T 0x00000000#32 hb)) (splatF T 0x00000000#32 hb) y)))

theorem eluArr_apply (T : Shape) (y : FVec Ideal T .f32) (hb : (⟨0, ![]⟩ : Shape).BroadcastsInDim T ![]) (i : T.Idx) :
    eluArr T y hb i = eluExpm1 (y i) := by
  show Scalar.select (Ideal.cmp .ogt (y i) (splatF T 0x00000000#32 hb i)) (y i)
      (splatF T 0x3F800000#32 hb i
        * (Ideal.exp (Scalar.select (Ideal.cmp .ogt (y i) (splatF T 0x00000000#32 hb i)) (splatF T 0x00000000#32 hb i) (y i)) - 1)) = _
  rw [splatF_apply, splatF_apply, Ideal.ofBits_zero_f32, Ideal.ofBits_one_f32]
  rfl

/-- The layer at (n, j), given the slots' sum there: the layer's definition. -/
theorem layer_apply {K : ℕ} (dd : DotDims (⟨2, ![N, D]⟩ : Shape) ⟨2, ![D, D]⟩ ⟨2, ![N, D]⟩)
    (d1 : dd.lhsContracting = [1]) (d2 : dd.rhsContracting = [0]) (d3 : dd.lhsNonContracting = [0])
    (d4 : dd.rhsNonContracting = [1]) (d5 : dd.lhsBatch = []) (d6 : dd.rhsBatch = [])
    (ds1 : ScatterDims (⟨1, ![N]⟩ : Shape) ⟨2, ![E, 1]⟩ ⟨1, ![E]⟩)
    (huw : ds1.updateWindowDims = []) (hiw : ds1.insertedWindowDims = [0])
    (hsd : ds1.scatterDimsToOperandDims = [0]) (hivd : ds1.indexVectorDim = 1)
    (S x : FVec Ideal (⟨2, ![N, D]⟩ : Shape) .f32) (dstw : IVec (⟨1, ![E]⟩ : Shape) 32)
    (R : FVec Ideal (⟨2, ![D, D]⟩ : Shape) .f32) (b : FVec Ideal (⟨1, ![D]⟩ : Shape) .f32)
    (hbN : (⟨0, ![]⟩ : Shape).BroadcastsInDim ⟨1, ![N]⟩ ![]) (hbE : (⟨0, ![]⟩ : Shape).BroadcastsInDim ⟨1, ![E]⟩ ![])
    (hbND : (⟨0, ![]⟩ : Shape).BroadcastsInDim ⟨2, ![N, D]⟩ ![])
    (h1 : (⟨1, ![E]⟩ : Shape).BroadcastsInDim ⟨2, ![E, 1]⟩ ![0])
    (c1 : (⟨1, ![N]⟩ : Shape).BroadcastsInDim ⟨2, ![N, 1]⟩ ![0])
    (c2 : (⟨2, ![N, 1]⟩ : Shape).BroadcastsInDim ⟨2, ![N, D]⟩ ![0, 1])
    (r1 : (⟨1, ![D]⟩ : Shape).BroadcastsInDim ⟨2, ![1, D]⟩ ![1])
    (r2 : (⟨2, ![1, D]⟩ : Shape).BroadcastsInDim ⟨2, ![N, D]⟩ ![0, 1])
    (src dst : Fin E → Fin N) (fr : Fin E → EReal) (s0 s1 : Fin E → Fin K)
    (X : Fin N → Fin D → EReal) (Wf : Fin K → Fin D → Fin D → EReal) (Rf : Fin D → Fin D → EReal) (bf : Fin D → EReal)
    (hdst : ∀ e, (dstw (ix1 e)).toInt = ((dst e).val : Int))
    (hx : ∀ n d, x (ix2 n d) = X n d) (hR : ∀ d j, R (ix2 d j) = Rf d j) (hb : ∀ j, b (ix1 j) = bf j)
    (n : Fin N) (j : Fin D)
    (hS : S (ix2 n j) = ∑ k : Fin K, ∑ d : Fin D, aggSlot src dst fr s0 s1 X k n d * Wf k d j) :
    eluArr _ (preAct S (degVec ds1 dstw hbN hbE h1) (Host.dotGeneral dd none x R) b hbN c1 c2 r1 r2) hbND (ix2 n j)
      = layerSlots src dst fr s0 s1 X Wf Rf bf n j := by
  rw [eluArr_apply, preAct_apply, hS, degVec_apply ds1 huw hiw hsd hivd dstw hbN hbE h1 dst hdst,
    dot_apply dd d1 d2 d3 d4 d5 d6, hb]
  have hroot : (∑ d : Fin D, x (ix2 n d) * R (ix2 d j)) = ∑ d : Fin D, X n d * Rf d j :=
    Finset.sum_congr rfl (fun d _ => by rw [hx, hR])
  rw [hroot]
  rfl

/-! ## The decoded slots -/

/-- A decoded slot word is the word's natural value. -/
theorem slotFin_val (K : ℕ) (hi : BitVec 32) (hK : hi.toNat + 1 = K) (hhi : hi.msb = false) (w : BitVec 32)
    (hw : w.toNat ≤ hi.toNat) : (slotFin K hi hK hhi w hw).val = w.toNat := by
  unfold slotFin
  rfl

section Slots
variable {C : ℕ} (I : Inputs N E D C)

theorem s0_3_val (e : Fin E) : (s0_3 I e).val = (slot0 2#32 (Ideal.ofBits .f32 0x40000000#32) (I.ps e)).toNat :=
  slotFin_val _ _ _ _ _ _
theorem s1_3_val (e : Fin E) : (s1_3 I e).val = (slot1 2#32 (Ideal.ofBits .f32 0x40000000#32) (I.ps e)).toNat :=
  slotFin_val _ _ _ _ _ _
theorem s0_5_val (e : Fin E) : (s0_5 I e).val = (slot0 4#32 (Ideal.ofBits .f32 0x40800000#32) (I.ps e)).toNat :=
  slotFin_val _ _ _ _ _ _
theorem s1_5_val (e : Fin E) : (s1_5 I e).val = (slot1 4#32 (Ideal.ofBits .f32 0x40800000#32) (I.ps e)).toNat :=
  slotFin_val _ _ _ _ _ _

end Slots

end Cert.Spline.Reads

end
-- ==== Proof.KernelReads.lean ====
/-
  The host part of one spline layer in the arrangement with ONE scatter, read element by element.

  The in-degree of a node is the number of edges ending there; its clamped reciprocal 1 / max(deg, 1) is looked
  up at every edge's destination. The source rows are looked up with an out-of-range fill that never fires when
  every source word is a node number. Each edge contributes two rows — its source row times (1 − frac)/deg and
  times frac/deg — to a table indexed by destination·K + slot (the base slot for the first, the next slot for the
  second); no such index wraps, being below N·K. The table of N·K rows of width D, read as N rows of width K·D,
  has at (n, c) the sum of the contributions of the edges ending at n whose slot is c / D, in feature c mod D.
  The K weight matrices stacked into one of K·D rows have at row c row c mod D of matrix c / D.

  Every array is read at an index given by its coordinates; every lemma takes the dimension records' fields and
  the shape facts as hypotheses, so it serves a layer with any number of slots. The edge rows, the positions,
  fractions and slot words, and the degrees are the shared stage reads this module imports.
-/
import Idealize.ShloMosaic.PureOps.Contract
import Idealize.ShloMosaic.Lib.Pipeline.Value
import Mathlib.Algebra.BigOperators.Fin
import Mathlib.Tactic.Ring
import proofs.«403743_j85538568667548_2_alg».proof.Proof.RefReads

noncomputable section

open scoped BigOperators

namespace Cert.Spline.Reads

open Idealize.ShloMosaic Idealize.ShloMosaic.ValueIdx Cert.Gcn

/-! ## Layout -/

section Layout
variable {α : Type}

/-- A vector repeated along a new second axis reads, at (e, d), its entry e. -/
theorem broadcastRows_apply {E D : ℕ} (h : (⟨1, ![E]⟩ : Shape).BroadcastsInDim ⟨2, ![E, D]⟩ ![0])
    (v : (⟨1, ![E]⟩ : Shape).Idx → α) (e : Fin E) (d : Fin D) :
    broadcastInDim ⟨2, ![E, D]⟩ ![0] h v (ix2 e d) = v (ix1 e) :=
  broadcastInDim_apply ![0] h v _ _ (fun ax => by
    match ax with
    | ⟨0, _⟩ =>
      show e.val = if E = 1 then 0 else e.val
      split
      · have := e.isLt; omega
      · rfl)

/-- Two vectors laid end to end: below the first length, the first vector. -/
theorem cat2_fst_apply {n1 n2 n : ℕ} (x1 : (⟨1, ![n1]⟩ : Shape).Idx → α) (x2 : (⟨1, ![n2]⟩ : Shape).Idx → α)
    (h : Shape.Concatenates [(⟨1, ![n1]⟩ : Shape), ⟨1, ![n2]⟩] ⟨1, ![n]⟩ 0) (k : Fin n) (i : Fin n1)
    (hk : k.val = i.val) :
    concatenate ⟨1, ![n]⟩ 0 [⟨⟨1, ![n1]⟩, x1⟩, ⟨⟨1, ![n2]⟩, x2⟩] h (ix1 k) = x1 (ix1 i) :=
  concatenate_pair_apply_left (0 : Fin 1) x1 x2 h (ix1 k) rfl (ix1 i) (fun b => by
    match b with
    | ⟨0, _⟩ => exact hk.symm)

/-- Two vectors laid end to end: from the first length on, the second vector, the first length less. -/
theorem cat2_snd_apply {n1 n2 n : ℕ} (x1 : (⟨1, ![n1]⟩ : Shape).Idx → α) (x2 : (⟨1, ![n2]⟩ : Shape).Idx → α)
    (h : Shape.Concatenates [(⟨1, ![n1]⟩ : Shape), ⟨1, ![n2]⟩] ⟨1, ![n]⟩ 0) (k : Fin n) (i : Fin n2)
    (hk : k.val = n1 + i.val) :
    concatenate ⟨1, ![n]⟩ 0 [⟨⟨1, ![n1]⟩, x1⟩, ⟨⟨1, ![n2]⟩, x2⟩] h (ix1 k) = x2 (ix1 i) :=
  concatenate_pair_apply_right (0 : Fin 1) x1 x2 h (ix1 k) rfl rfl (ix1 i)
    (fun b hb => absurd (Subsingleton.elim _ _) hb) (by show i.val + n1 = k.val; omega)

/-- K matrices of D rows stacked into one of K·D rows: row c of the stack is row c mod D of matrix c / D. -/
theorem stackedWeights_apply {K D J M : ℕ} (x : (⟨3, ![K, D, J]⟩ : Shape).Idx → α)
    (h : (⟨3, ![K, D, J]⟩ : Shape).ShapeCasts ⟨2, ![M, J]⟩) (hM : M = K * D) (hD : 0 < D) (cc : Fin M) (j : Fin J) :
    shapeCast ⟨2, ![M, J]⟩ x h (ix2 cc j) = x (ix3 (colSlot hM cc) (colFeat hD cc) j) :=
  shapeCast_apply x h _ _ (by
    rw [Shape.rowMajor_val_three, Shape.rowMajor_val_two]
    show (cc.val / D * D + cc.val % D) * J + j.val = cc.val * J + j.val
    rw [Nat.mul_comm (cc.val / D) D, Nat.div_add_mod])

/-- A vector as a one-row matrix. -/
theorem biasRow_apply {a : ℕ} (x : (⟨1, ![a]⟩ : Shape).Idx → α) (h : (⟨1, ![a]⟩ : Shape).ShapeCasts ⟨2, ![1, a]⟩)
    (j : Fin a) : shapeCast ⟨2, ![1, a]⟩ x h (ix2 0 j) = x (ix1 j) :=
  shapeCast_a_1a_apply x h 0 j

end Layout

/-! ## The reciprocal degrees, looked up at the edges -/

section Recip
variable {N E : ℕ}

/-- A word that reads a natural number below a bound of at most 2^31 reads it as a signed integer too. -/
theorem toInt_of_toNat {a : BitVec 32} {k n : ℕ} (ha : a.toNat = k) (hk : k < n) (hn : n ≤ 2 ^ 31) :
    a.toInt = (k : Int) := by
  rw [toInt_of_lt hn (by rw [ha]; exact hk), ha]

/-- The reciprocals of the degrees clamped below at one. -/
def recipVec (dg : FVec Ideal ⟨1, ![N]⟩ .f32) (hbN : (⟨0, ![]⟩ : Shape).BroadcastsInDim ⟨1, ![N]⟩ ![]) :
    FVec Ideal ⟨1, ![N]⟩ .f32 :=
  Host.divf (splatF _ 0x3F800000#32 hbN) (maximumf dg (splatF _ 0x3F800000#32 hbN))

theorem recipVec_apply (dg : FVec Ideal ⟨1, ![N]⟩ .f32) (hbN : (⟨0, ![]⟩ : Shape).BroadcastsInDim ⟨1, ![N]⟩ ![])
    (i : (⟨1, ![N]⟩ : Shape).Idx) : recipVec dg hbN i = Ideal.div 1 (max (dg i) 1) := by
  show Ideal.div (splatF _ 0x3F800000#32 hbN i) (max (dg i) (splatF _ 0x3F800000#32 hbN i)) = _
  rw [splatF_apply, Ideal.ofBits_one_f32]

/-- A vector looked up at the (wrapped) index words. -/
def lookupVec {α : Type} (g : GatherDims ⟨1, ![N]⟩ ⟨2, ![E, 1]⟩ ⟨1, ![E]⟩) (x : (⟨1, ![N]⟩ : Shape).Idx → α)
    (nw : BitVec 32) (w : IVec ⟨1, ![E]⟩ 32) (hb : (⟨0, ![]⟩ : Shape).BroadcastsInDim ⟨1, ![E]⟩ ![])
    (h1 : (⟨1, ![E]⟩ : Shape).BroadcastsInDim ⟨2, ![E, 1]⟩ ![0]) : (⟨1, ![E]⟩ : Shape).Idx → α :=
  Host.gather g x (asCol (wrapWords nw w hb) h1)

/-- Where the index word reads a position k, the lookup is the vector's entry k. -/
theorem lookupVec_apply {α : Type} (g : GatherDims ⟨1, ![N]⟩ ⟨2, ![E, 1]⟩ ⟨1, ![E]⟩)
    (hcoll : g.collapsedSliceDims = [0]) (hob : g.operandBatchingDims = [])
    (hsim : g.startIndexMap = [0]) (hivd : g.indexVectorDim = 1)
    (x : (⟨1, ![N]⟩ : Shape).Idx → α) (nw : BitVec 32) (w : IVec ⟨1, ![E]⟩ 32)
    (hb : (⟨0, ![]⟩ : Shape).BroadcastsInDim ⟨1, ![E]⟩ ![])
    (h1 : (⟨1, ![E]⟩ : Shape).BroadcastsInDim ⟨2, ![E, 1]⟩ ![0]) (e : Fin E) (k : Fin N)
    (hk : (w (ix1 e)).toNat = k.val) (hN : N ≤ 2 ^ 31) :
    lookupVec g x nw w hb h1 (ix1 e) = x (ix1 k) := by
  unfold lookupVec
  have hs : (w (ix1 e)).toNat < 2 ^ 31 := by rw [hk]; exact lt_of_lt_of_le k.isLt hN
  refine (IndexMaps.gather1_ix_apply g hcoll hob hsim hivd x _ e k.val k.isLt ?_).trans rfl
  rw [asCol_apply, wrapWords_apply nw w hb (ix1 e) hs]
  exact toInt_of_toNat hk k.isLt hN

end Recip

/-! ## The source rows -/

section Take
variable {N E D : ℕ}

/-- A conjunction of bits that are all one, started at one, is one. -/
theorem reduce_andi_ones {s t u : Shape} {axes : List (Fin s.rank)} (x : IVec s 1) (init : IVec u 1)
    (h : s.ReducesTo axes t) (hu : 0 < u.numel) (hx : ∀ i, x i = 1#1) (hinit : ∀ i, init i = 1#1) (j : t.Idx) :
    Host.reduce IntOp.andi x init h hu j = 1#1 := by
  unfold Host.reduce
  rw [hinit]
  generalize ((List.finRange s.numel).filter fun n => h.drop (s.rowMajor.symm n) = j) = l
  have h1 : IntOp.andi (1#1) (1#1) = 1#1 := by decide
  induction l with
  | nil => rfl
  | cons a l ih => rw [List.foldl_cons, hx, h1]; exact ih

/-- The rows of x at the (wrapped) index words, with a fill where a wrapped word is not a row number. -/
def takeRows (g : GatherDims ⟨2, ![N, D]⟩ ⟨2, ![E, 1]⟩ ⟨2, ![E, D]⟩)
    (x : FVec Ideal ⟨2, ![N, D]⟩ .f32) (nw lastW fill : BitVec 32) (w : IVec ⟨1, ![E]⟩ 32)
    (hb : (⟨0, ![]⟩ : Shape).BroadcastsInDim ⟨1, ![E]⟩ ![])
    (h1 : (⟨1, ![E]⟩ : Shape).BroadcastsInDim ⟨2, ![E, 1]⟩ ![0])
    (hbc : (⟨0, ![]⟩ : Shape).BroadcastsInDim ⟨2, ![E, 1]⟩ ![])
    (h11 : (⟨1, ![1]⟩ : Shape).BroadcastsInDim ⟨2, ![1, 1]⟩ ![1])
    (h11E : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (hrow : (⟨1, ![E]⟩ : Shape).BroadcastsInDim ⟨2, ![E, D]⟩ ![0])
    (hbED : (⟨0, ![]⟩ : Shape).BroadcastsInDim ⟨2, ![E, D]⟩ ![]) : FVec Ideal ⟨2, ![E, D]⟩ .f32 :=
  select
    (broadcastInDim ⟨2, ![E, D]⟩ ![0] hrow
      (Host.reduce IntOp.andi
        (andi
          (cmpi .sge (asCol (wrapWords nw w hb) h1) (splatI _ 0#32 hbc))
          (cmpi .sle (asCol (wrapWords nw w hb) h1)
            (broadcastInDim ⟨2, ![E, 1]⟩ ![0, 1] h11E
              (broadcastInDim ⟨2, ![1, 1]⟩ ![1] h11 (constantI ⟨1, ![1]⟩ 32 lastW)))))
        (constantI ⟨0, ![]⟩ 1 1#1) hred hu))
    (Host.gather g x (asCol (wrapWords nw w hb) h1))
    (splatF _ fill hbED)

/-- When every index word reads a row number, the fill never fires: row e of the result is the row of x the
    word of e reads. -/
theorem takeRows_apply (g : GatherDims ⟨2, ![N, D]⟩ ⟨2, ![E, 1]⟩ ⟨2, ![E, D]⟩)
    (hod : g.offsetDims = [1]) (hcoll : g.collapsedSliceDims = [0]) (hob : g.operandBatchingDims = [])
    (hsim : g.startIndexMap = [0]) (hivd : g.indexVectorDim = 1)
    (x : FVec Ideal ⟨2, ![N, D]⟩ .f32) (nw lastW fill : BitVec 32) (w : IVec ⟨1, ![E]⟩ 32)
    (hb : (⟨0, ![]⟩ : Shape).BroadcastsInDim ⟨1, ![E]⟩ ![])
    (h1 : (⟨1, ![E]⟩ : Shape).BroadcastsInDim ⟨2, ![E, 1]⟩ ![0])
    (hbc : (⟨0, ![]⟩ : Shape).BroadcastsInDim ⟨2, ![E, 1]⟩ ![])
    (h11 : (⟨1, ![1]⟩ : Shape).BroadcastsInDim ⟨2, ![1, 1]⟩ ![1])
    (h11E : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (hrow : (⟨1, ![E]⟩ : Shape).BroadcastsInDim ⟨2, ![E, D]⟩ ![0])
    (hbED : (⟨0, ![]⟩ : Shape).BroadcastsInDim ⟨2, ![E, D]⟩ ![])
    (src : Fin E → Fin N) (hsrc : ∀ e, (w (ix1 e)).toNat = (src e).val) (hN : N ≤ 2 ^ 31)
    (hlast : lastW.toNat + 1 = N) (e : Fin E) (d : Fin D) :
    takeRows g x nw lastW fill w hb h1 hbc h11 h11E hred hu hrow hbED (ix2 e d) = x (ix2 (src e) d) := by
  have hsmall : ∀ p : Fin E, (w (ix1 p)).toNat < 2 ^ 31 := fun p => by
    rw [hsrc p]; exact lt_of_lt_of_le (src p).isLt hN
  have hcolw : ∀ (p : Fin E) (q : Fin 1), asCol (wrapWords nw w hb) h1 (ix2 p q) = w (ix1 p) := fun p q => by
    rw [asCol_apply, wrapWords_apply nw w hb (ix1 p) (hsmall p)]
  unfold takeRows
  rw [select_apply, broadcastRows_apply hrow _ e d,
    reduce_andi_ones _ (constantI ⟨0, ![]⟩ 1 1#1) hred hu (fun i => ?_) (fun _ => rfl) (ix1 e), select_one]
  · refine (IndexMaps.gather2_ix_apply g hod hcoll hob hsim hivd x _ e d (src e).val (src e).isLt ?_).trans rfl
    rw [hcolw e 0]
    exact toInt_of_toNat (hsrc e) (src e).isLt hN
  · rw [eq_ix2 i]
    show IntOp.andi (IntOp.cmpi .sge (asCol (wrapWords nw w hb) h1 (ix2 (i 0) (i 1))) 0#32)
        (IntOp.cmpi .sle (asCol (wrapWords nw w hb) h1 (ix2 (i 0) (i 1))) lastW) = 1#1
    rw [hcolw (i 0) (i 1)]
    have hl : lastW.toNat < 2 ^ 31 := by omega
    rw [WordArith.sge_small (hsmall (i 0)) (by decide), WordArith.sle_small (hsmall (i 0)) hl]
    have h0 : (0#32 : BitVec 32).toNat ≤ (w (ix1 (i 0))).toNat := Nat.zero_le _
    have h1' : (w (ix1 (i 0))).toNat ≤ lastW.toNat := by
      rw [hsrc (i 0)]; have := (src (i 0)).isLt; omega
    rw [if_pos h0, if_pos h1']
    decide

end Take

/-! ## The aggregate -/

section Aggregate
variable {N E D : ℕ}

/-- The base-slot weights: (1 − frac) · reciprocal degree at the destination. -/
def weight0 (fr rc : FVec Ideal ⟨1, ![E]⟩ .f32) (hb : (⟨0, ![]⟩ : Shape).BroadcastsInDim ⟨1, ![E]⟩ ![]) :
    FVec Ideal ⟨1, ![E]⟩ .f32 :=
  mulf (subf (splatF _ 0x3F800000#32 hb) fr) rc

/-- The next-slot weights: frac · reciprocal degree at the destination. -/
def weight1 (fr rc : FVec Ideal ⟨1, ![E]⟩ .f32) : FVec Ideal ⟨1, ![E]⟩ .f32 := mulf fr rc

theorem weight0_apply (fr rc : FVec Ideal ⟨1, ![E]⟩ .f32) (hb : (⟨0, ![]⟩ : Shape).BroadcastsInDim ⟨1, ![E]⟩ ![])
    (i : (⟨1, ![E]⟩ : Shape).Idx) : weight0 fr rc hb i = (1 - fr i) * rc i := by
  show (splatF _ 0x3F800000#32 hb i - fr i) * rc i = _
  rw [splatF_apply, Ideal.ofBits_one_f32]

/-- The composite index words: destination · K + slot. -/
def cidxWords (Kw : BitVec 32) (dstw sw : IVec ⟨1, ![E]⟩ 32) (hb : (⟨0, ![]⟩ : Shape).BroadcastsInDim ⟨1, ![E]⟩ ![]) :
    IVec ⟨1, ![E]⟩ 32 :=
  addi (muli dstw (splatI _ Kw hb)) sw

/-- Two numbers written in base K with digits below K agree exactly when both digits agree. -/
theorem mul_add_eq_iff {K a b c d : ℕ} (hb : b < K) (hd : d < K) : a * K + b = c * K + d ↔ a = c ∧ b = d := by
  constructor
  · intro h
    have hK : 0 < K := by omega
    have ha : (a * K + b) / K = a := by
      rw [Nat.mul_comm, Nat.mul_add_div hK, Nat.div_eq_of_lt hb, Nat.add_zero]
    have hc : (c * K + d) / K = c := by
      rw [Nat.mul_comm, Nat.mul_add_div hK, Nat.div_eq_of_lt hd, Nat.add_zero]
    have hac : a = c := by rw [← ha, ← hc, h]
    subst hac
    exact ⟨rfl, by omega⟩
  · rintro ⟨rfl, rfl⟩; rfl

/-- The composite word of small operands reads destination · K + slot, with no wrap. -/
theorem cidx_toInt (a k s : BitVec 32) (h : a.toNat * k.toNat + s.toNat < 2 ^ 31) :
    (IntOp.addi (IntOp.muli a k) s).toInt = ((a.toNat * k.toNat + s.toNat : ℕ) : Int) := by
  have hn : (IntOp.addi (IntOp.muli a k) s).toNat = a.toNat * k.toNat + s.toNat := by
    show (a * k + s).toNat = _
    rw [BitVec.toNat_add, BitVec.toNat_mul, Nat.mod_eq_of_lt (a := a.toNat * k.toNat) (by omega),
      Nat.mod_eq_of_lt (by omega)]
  rw [WordArith.toInt_of_small (by rw [hn]; exact h), hn]

/-- A composite word reads n·K + k exactly when its edge ends at n in slot k. -/
theorem cidxWords_toInt_iff {Kn : ℕ} (Kw : BitVec 32) (hKw : Kw.toNat = Kn) (dstw sw : IVec ⟨1, ![E]⟩ 32)
    (hb : (⟨0, ![]⟩ : Shape).BroadcastsInDim ⟨1, ![E]⟩ ![])
    (dst : Fin E → Fin N) (hdst : ∀ e, (dstw (ix1 e)).toNat = (dst e).val)
    (s : Fin E → Fin Kn) (hs : ∀ e, (sw (ix1 e)).toNat = (s e).val) (hbig : N * Kn < 2 ^ 31)
    (e : Fin E) (n : Fin N) (k : Fin Kn) :
    (cidxWords Kw dstw sw hb (ix1 e)).toInt = ((n.val * Kn + k.val : ℕ) : Int) ↔ dst e = n ∧ s e = k := by
  show (IntOp.addi (IntOp.muli (dstw (ix1 e)) (splatI _ Kw hb (ix1 e))) (sw (ix1 e))).toInt = _ ↔ _
  rw [splatI_apply]
  have hlt : (dstw (ix1 e)).toNat * Kw.toNat + (sw (ix1 e)).toNat < 2 ^ 31 := by
    rw [hdst, hKw, hs]
    have hk := (s e).isLt
    calc (dst e).val * Kn + (s e).val < (dst e).val * Kn + Kn := by omega
      _ = ((dst e).val + 1) * Kn := by ring
      _ ≤ N * Kn := Nat.mul_le_mul_right Kn (dst e).isLt
      _ < 2 ^ 31 := hbig
  rw [cidx_toInt _ _ _ hlt, hdst, hKw, hs, Nat.cast_inj, mul_add_eq_iff (s e).isLt k.isLt, Fin.val_inj, Fin.val_inj]

/-- The aggregate: both halves of the contributions scattered by composite index into zeros, the N·K × D table
    read as N × (K·D). -/
def fusedAgg {NK M E2 : ℕ} (d2 : ScatterDims ⟨2, ![NK, D]⟩ ⟨2, ![E2, 1]⟩ ⟨2, ![E2, D]⟩)
    (Kw : BitVec 32) (dstw s0w s1w : IVec ⟨1, ![E]⟩ 32) (xs : FVec Ideal ⟨2, ![E, D]⟩ .f32)
    (fr rc : FVec Ideal ⟨1, ![E]⟩ .f32)
    (hb : (⟨0, ![]⟩ : Shape).BroadcastsInDim ⟨1, ![E]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (hcat1 : Shape.Concatenates [(⟨1, ![E]⟩ : Shape), ⟨1, ![E]⟩] ⟨1, ![E2]⟩ 0)
    (hcat2 : Shape.Concatenates [(⟨2, ![E, D]⟩ : Shape), ⟨2, ![E, D]⟩] ⟨2, ![E2, D]⟩ 0)
    (hbz : (⟨0, ![]⟩ : Shape).BroadcastsInDim ⟨2, ![NK, D]⟩ ![])
    (h1' : (⟨1, ![E2]⟩ : Shape).BroadcastsInDim ⟨2, ![E2, 1]⟩ ![0])
    (hsc : (⟨2, ![NK, D]⟩ : Shape).ShapeCasts ⟨2, ![N, M]⟩) : FVec Ideal ⟨2, ![N, M]⟩ .f32 :=
  shapeCast ⟨2, ![N, M]⟩
    (Host.scatterAdd d2 (splatF _ 0x00000000#32 hbz)
      (asCol (concatenate ⟨1, ![E2]⟩ 0
        [⟨⟨1, ![E]⟩, cidxWords Kw dstw s0w hb⟩, ⟨⟨1, ![E]⟩, cidxWords Kw dstw s1w hb⟩] hcat1) h1')
      (concatenate ⟨2, ![E2, D]⟩ 0
        [⟨⟨2, ![E, D]⟩, mulf xs (acrossCols (weight0 fr rc hb) h1 h2)⟩,
         ⟨⟨2, ![E, D]⟩, mulf xs (acrossCols (weight1 fr rc) h1 h2)⟩] hcat2))
    hsc

/-- The aggregate at (n, c): zero plus the base-slot and the next-slot contributions of the edges that end at
    n in slot c / D, in feature c mod D. -/
theorem fusedAgg_apply {Kn NK M E2 : ℕ} (d2 : ScatterDims ⟨2, ![NK, D]⟩ ⟨2, ![E2, 1]⟩ ⟨2, ![E2, D]⟩)
    (huw : d2.updateWindowDims = [1]) (hiw : d2.insertedWindowDims = [0])
    (hsd : d2.scatterDimsToOperandDims = [0]) (hivd : d2.indexVectorDim = 1)
    (Kw : BitVec 32) (dstw s0w s1w : IVec ⟨1, ![E]⟩ 32) (xs : FVec Ideal ⟨2, ![E, D]⟩ .f32)
    (fr rc : FVec Ideal ⟨1, ![E]⟩ .f32)
    (hb : (⟨0, ![]⟩ : Shape).BroadcastsInDim ⟨1, ![E]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (hcat1 : Shape.Concatenates [(⟨1, ![E]⟩ : Shape), ⟨1, ![E]⟩] ⟨1, ![E2]⟩ 0)
    (hcat2 : Shape.Concatenates [(⟨2, ![E, D]⟩ : Shape), ⟨2, ![E, D]⟩] ⟨2, ![E2, D]⟩ 0)
    (hbz : (⟨0, ![]⟩ : Shape).BroadcastsInDim ⟨2, ![NK, D]⟩ ![])
    (h1' : (⟨1, ![E2]⟩ : Shape).BroadcastsInDim ⟨2, ![E2, 1]⟩ ![0])
    (hsc : (⟨2, ![NK, D]⟩ : Shape).ShapeCasts ⟨2, ![N, M]⟩)
    (hKw : Kw.toNat = Kn) (hE2 : E2 = E + E) (hNK : NK = N * Kn) (hM : M = Kn * D) (hD : 0 < D)
    (hbig : N * Kn < 2 ^ 31)
    (dst : Fin E → Fin N) (hdst : ∀ e, (dstw (ix1 e)).toNat = (dst e).val)
    (s0 s1 : Fin E → Fin Kn) (hs0 : ∀ e, (s0w (ix1 e)).toNat = (s0 e).val)
    (hs1 : ∀ e, (s1w (ix1 e)).toNat = (s1 e).val) (n : Fin N) (cc : Fin M) :
    fusedAgg d2 Kw dstw s0w s1w xs fr rc hb h1 h2 hcat1 hcat2 hbz h1' hsc (ix2 n cc)
      = 0 + ((∑ e : Fin E, if dst e = n ∧ s0 e = colSlot hM cc
                then xs (ix2 e (colFeat hD cc)) * ((1 - fr (ix1 e)) * rc (ix1 e)) else 0)
           + (∑ e : Fin E, if dst e = n ∧ s1 e = colSlot hM cc
                then xs (ix2 e (colFeat hD cc)) * (fr (ix1 e) * rc (ix1 e)) else 0)) := by
  subst hE2 hNK hM
  have hq : cc.val / D < Kn := Nat.div_lt_of_lt_mul (Nat.lt_of_lt_of_eq cc.isLt (Nat.mul_comm Kn D))
  have hr : n.val * Kn + cc.val / D < N * Kn := by
    calc n.val * Kn + cc.val / D < n.val * Kn + Kn := by omega
      _ = (n.val + 1) * Kn := by ring
      _ ≤ N * Kn := Nat.mul_le_mul_right Kn n.isLt
  unfold fusedAgg
  refine (shapeCast_apply _ hsc (ix2 n cc) (ix2 (⟨n.val * Kn + cc.val / D, hr⟩ : Fin (N * Kn)) (colFeat hD cc)) ?_).trans ?_
  · rw [Shape.rowMajor_val_two, Shape.rowMajor_val_two]
    show (n.val * Kn + cc.val / D) * D + cc.val % D = n.val * (Kn * D) + cc.val
    have hdm := Nat.div_add_mod cc.val D
    calc (n.val * Kn + cc.val / D) * D + cc.val % D
        = n.val * (Kn * D) + (D * (cc.val / D) + cc.val % D) := by ring
      _ = n.val * (Kn * D) + cc.val := by rw [hdm]
  refine (IndexMaps.hostScatterAdd2_apply d2 huw hiw hsd hivd _ _ _ (⟨n.val * Kn + cc.val / D, hr⟩ : Fin (N * Kn))
    (colFeat hD cc)).trans ?_
  congr 1
  · rw [splatF_apply]; exact Ideal.ofBits_zero_f32
  rw [Fin.sum_univ_add]
  congr 1
  · refine Finset.sum_congr rfl (fun e _ => if_congr ?_ ?_ rfl)
    · rw [asCol_apply, cat2_fst_apply _ _ hcat1 (Fin.castAdd E e) e rfl]
      exact cidxWords_toInt_iff Kw hKw dstw s0w hb dst hdst s0 hs0 hbig e n (colSlot rfl cc)
    · rw [LayoutReads.stack2_top_apply _ _ hcat2 (Fin.castAdd E e) (colFeat hD cc) e rfl]
      show xs _ * acrossCols (weight0 fr rc hb) h1 h2 (ix2 e (colFeat hD cc)) = _
      rw [acrossCols_apply, weight0_apply]
  · refine Finset.sum_congr rfl (fun e _ => if_congr ?_ ?_ rfl)
    · rw [asCol_apply, cat2_snd_apply _ _ hcat1 (Fin.natAdd E e) e rfl]
      exact cidxWords_toInt_iff Kw hKw dstw s1w hb dst hdst s1 hs1 hbig e n (colSlot rfl cc)
    · rw [LayoutReads.stack2_bot_apply _ _ hcat2 (Fin.natAdd E e) (colFeat hD cc) e rfl]
      show xs _ * acrossCols (weight1 fr rc) h1 h2 (ix2 e (colFeat hD cc)) = _
      rw [acrossCols_apply]
      rfl

end Aggregate

end Cert.Spline.Reads

end
-- ==== Proof.KernelStretches.lean ====
/-
  Layer one of the first program: from the launch memory, through the host operations before the first call, to
  the array the first call leaves.

  The host operations come in six stretches. The first reads the two rows of the edge array (sources,
  destinations), counts the in-degrees, takes the reciprocal of the clamped degree and looks it up at every
  edge's destination, and computes every edge's position, fraction and rounded-down position. The second clips
  the rounded-down position to the base slot, the third adds one, the fourth clips again to the next slot, the
  fifth looks up the source rows, and the sixth forms the two weights per edge, the composite indices
  destination·3 + slot, scatters the weighted source rows and reads the 300000 × 64 table as 100000 × 192; it also
  stacks the three weight matrices into 192 rows and makes the bias a row. A buffer no operation of a stretch
  writes is the same before and after it, so every intermediate is read at the boundary where it was written.

  Under the hypothesis that every edge word is a node number, each array is, entry by entry, the corresponding
  expression of the layer's definition; the first call then leaves layer one of the first arrangement.
-/
import proofs.«403743_j85538568667548_2_alg».proof.Proof.Gen.KernelIdeal.Frame
import proofs.«403743_j85538568667548_2_alg».proof.Proof.KernelInputs
import proofs.«403743_j85538568667548_2_alg».proof.Proof.Spline
import proofs.«403743_j85538568667548_2_alg».proof.Proof.KernelReads

set_option maxHeartbeats 1000000

noncomputable section

namespace Cert.KernelIdeal.Val

open Idealize.ShloMosaic Idealize.ShloMosaic.TcCoe Idealize.ShloMosaic.ValueIdx Idealize.SL.Sem Cert.KernelIdeal Cert.Spline

variable (m : (ℓ : Loc nD τ sig) → Buf (Elt Ideal) ℓ) (ρ : Dev nD → PrngReg) (c : Dev nD)

/-- A stretch of host operations leaves alone a buffer none of its operations writes. -/
macro "keeps " ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## Buffers carried over the stretches that do not write them -/

/-- The source words are as the first stretch leaves them. -/
theorem W6_v1 : Gen.W6 m ρ c (Proc.devRef .tc main_v1) = Gen.W1 m ρ c (Proc.devRef .tc main_v1) :=
  calc Gen.W6 m ρ c (Proc.devRef .tc main_v1)
    _ = Gen.W5 m ρ c (Proc.devRef .tc main_v1) := by keeps Gen.hostOps0_5
    _ = Gen.W4 m ρ c (Proc.devRef .tc main_v1) := by keeps Gen.hostOps0_4
    _ = Gen.W3 m ρ c (Proc.devRef .tc main_v1) := by keeps Gen.hostOps0_3
    _ = Gen.W2 m ρ c (Proc.devRef .tc main_v1) := by keeps Gen.hostOps0_2
    _ = Gen.W1 m ρ c (Proc.devRef .tc main_v1) := by keeps Gen.hostOps0_1

/-- The source words, when the source rows are looked up. -/
theorem W4_v1 : Gen.W4 m ρ c (Proc.devRef .tc main_v1) = Gen.W1 m ρ c (Proc.devRef .tc main_v1) :=
  calc Gen.W4 m ρ c (Proc.devRef .tc main_v1)
    _ = Gen.W3 m ρ c (Proc.devRef .tc main_v1) := by keeps Gen.hostOps0_3
    _ = Gen.W2 m ρ c (Proc.devRef .tc main_v1) := by keeps Gen.hostOps0_2
    _ = Gen.W1 m ρ c (Proc.devRef .tc main_v1) := by keeps Gen.hostOps0_1

/-- The destination words are as the first stretch leaves them. -/
theorem W6_v3 : Gen.W6 m ρ c (Proc.devRef .tc main_v3) = Gen.W1 m ρ c (Proc.devRef .tc main_v3) :=
  calc Gen.W6 m ρ c (Proc.devRef .tc main_v3)
    _ = Gen.W5 m ρ c (Proc.devRef .tc main_v3) := by keeps Gen.hostOps0_5
    _ = Gen.W4 m ρ c (Proc.devRef .tc main_v3) := by keeps Gen.hostOps0_4
    _ = Gen.W3 m ρ c (Proc.devRef .tc main_v3) := by keeps Gen.hostOps0_3
    _ = Gen.W2 m ρ c (Proc.devRef .tc main_v3) := by keeps Gen.hostOps0_2
    _ = Gen.W1 m ρ c (Proc.devRef .tc main_v3) := by keeps Gen.hostOps0_1

/-- The destination words, when the composite indices are formed. -/
theorem W5_v3 : Gen.W5 m ρ c (Proc.devRef .tc main_v3) = Gen.W1 m ρ c (Proc.devRef .tc main_v3) :=
  calc Gen.W5 m ρ c (Proc.devRef .tc main_v3)
    _ = Gen.W4 m ρ c (Proc.devRef .tc main_v3) := by keeps Gen.hostOps0_4
    _ = Gen.W3 m ρ c (Proc.devRef .tc main_v3) := by keeps Gen.hostOps0_3
    _ = Gen.W2 m ρ c (Proc.devRef .tc main_v3) := by keeps Gen.hostOps0_2
    _ = Gen.W1 m ρ c (Proc.devRef .tc main_v3) := by keeps Gen.hostOps0_1

/-- The reciprocal degrees at the destinations are as the first stretch leaves them. -/
theorem W6_v18 : Gen.W6 m ρ c (Proc.devRef .tc main_v18) = Gen.W1 m ρ c (Proc.devRef .tc main_v18) :=
  calc Gen.W6 m ρ c (Proc.devRef .tc main_v18)
    _ = Gen.W5 m ρ c (Proc.devRef .tc main_v18) := by keeps Gen.hostOps0_5
    _ = Gen.W4 m ρ c (Proc.devRef .tc main_v18) := by keeps Gen.hostOps0_4
    _ = Gen.W3 m ρ c (Proc.devRef .tc main_v18) := by keeps Gen.hostOps0_3
    _ = Gen.W2 m ρ c (Proc.devRef .tc main_v18) := by keeps Gen.hostOps0_2
    _ = Gen.W1 m ρ c (Proc.devRef .tc main_v18) := by keeps Gen.hostOps0_1

/-- The reciprocal degrees at the destinations, when the weights are formed. -/
theorem W5_v18 : Gen.W5 m ρ c (Proc.devRef .tc main_v18) = Gen.W1 m ρ c (Proc.devRef .tc main_v18) :=
  calc Gen.W5 m ρ c (Proc.devRef .tc main_v18)
    _ = Gen.W4 m ρ c (Proc.devRef .tc main_v18) := by keeps Gen.hostOps0_4
    _ = Gen.W3 m ρ c (Proc.devRef .tc main_v18) := by keeps Gen.hostOps0_3
    _ = Gen.W2 m ρ c (Proc.devRef .tc main_v18) := by keeps Gen.hostOps0_2
    _ = Gen.W1 m ρ c (Proc.devRef .tc main_v18) := by keeps Gen.hostOps0_1

/-- The fractions, when the weights are formed. -/
theorem W5_v23 : Gen.W5 m ρ c (Proc.devRef .tc main_v23) = Gen.W1 m ρ c (Proc.devRef .tc main_v23) :=
  calc Gen.W5 m ρ c (Proc.devRef .tc main_v23)
    _ = Gen.W4 m ρ c (Proc.devRef .tc main_v23) := by keeps Gen.hostOps0_4
    _ = Gen.W3 m ρ c (Proc.devRef .tc main_v23) := by keeps Gen.hostOps0_3
    _ = Gen.W2 m ρ c (Proc.devRef .tc main_v23) := by keeps Gen.hostOps0_2
    _ = Gen.W1 m ρ c (Proc.devRef .tc main_v23) := by keeps Gen.hostOps0_1

/-- The base slot words, when the composite indices are formed. -/
theorem W5_v26 : Gen.W5 m ρ c (Proc.devRef .tc main_v26) = Gen.W2 m ρ c (Proc.devRef .tc main_v26) :=
  calc Gen.W5 m ρ c (Proc.devRef .tc main_v26)
    _ = Gen.W4 m ρ c (Proc.devRef .tc main_v26) := by keeps Gen.hostOps0_4
    _ = Gen.W3 m ρ c (Proc.devRef .tc main_v26) := by keeps Gen.hostOps0_3
    _ = Gen.W2 m ρ c (Proc.devRef .tc main_v26) := by keeps Gen.hostOps0_2

/-- The next slot words, when the composite indices are formed. -/
theorem W5_v29 : Gen.W5 m ρ c (Proc.devRef .tc main_v29) = Gen.W4 m ρ c (Proc.devRef .tc main_v29) :=
  calc Gen.W5 m ρ c (Proc.devRef .tc main_v29)
    _ = Gen.W4 m ρ c (Proc.devRef .tc main_v29) := by keeps Gen.hostOps0_4

/-- The features, when the source rows are looked up. -/
theorem W4_arg0 : Gen.W4 m ρ c (Proc.devRef .tc main_arg0) = Gen.W0 m ρ c (Proc.devRef .tc main_arg0) :=
  calc Gen.W4 m ρ c (Proc.devRef .tc main_arg0)
    _ = Gen.W3 m ρ c (Proc.devRef .tc main_arg0) := by keeps Gen.hostOps0_3
    _ = Gen.W2 m ρ c (Proc.devRef .tc main_arg0) := by keeps Gen.hostOps0_2
    _ = Gen.W1 m ρ c (Proc.devRef .tc main_arg0) := by keeps Gen.hostOps0_1
    _ = Gen.W0 m ρ c (Proc.devRef .tc main_arg0) := by keeps Gen.hostOps0

/-- The three weight matrices, when they are stacked. -/
theorem W5_arg3 : Gen.W5 m ρ c (Proc.devRef .tc main_arg3) = Gen.W0 m ρ c (Proc.devRef .tc main_arg3) :=
  calc Gen.W5 m ρ c (Proc.devRef .tc main_arg3)
    _ = Gen.W4 m ρ c (Proc.devRef .tc main_arg3) := by keeps Gen.hostOps0_4
    _ = Gen.W3 m ρ c (Proc.devRef .tc main_arg3) := by keeps Gen.hostOps0_3
    _ = Gen.W2 m ρ c (Proc.devRef .tc main_arg3) := by keeps Gen.hostOps0_2
    _ = Gen.W1 m ρ c (Proc.devRef .tc main_arg3) := by keeps Gen.hostOps0_1
    _ = Gen.W0 m ρ c (Proc.devRef .tc main_arg3) := by keeps Gen.hostOps0

/-- The bias, when it is made a row. -/
theorem W5_arg5 : Gen.W5 m ρ c (Proc.devRef .tc main_arg5) = Gen.W0 m ρ c (Proc.devRef .tc main_arg5) :=
  calc Gen.W5 m ρ c (Proc.devRef .tc main_arg5)
    _ = Gen.W4 m ρ c (Proc.devRef .tc main_arg5) := by keeps Gen.hostOps0_4
    _ = Gen.W3 m ρ c (Proc.devRef .tc main_arg5) := by keeps Gen.hostOps0_3
    _ = Gen.W2 m ρ c (Proc.devRef .tc main_arg5) := by keeps Gen.hostOps0_2
    _ = Gen.W1 m ρ c (Proc.devRef .tc main_arg5) := by keeps Gen.hostOps0_1
    _ = Gen.W0 m ρ c (Proc.devRef .tc main_arg5) := by keeps Gen.hostOps0

/-- The features as the first call finds them: as launched. -/
theorem W6_arg0 : Gen.W6 m ρ c (Proc.devRef .tc main_arg0) = m ((c.tc : Thread nD τ).loc main_arg0) :=
  calc Gen.W6 m ρ c (Proc.devRef .tc main_arg0)
    _ = Gen.W5 m ρ c (Proc.devRef .tc main_arg0) := by keeps Gen.hostOps0_5
    _ = Gen.W4 m ρ c (Proc.devRef .tc main_arg0) := by keeps Gen.hostOps0_4
    _ = Gen.W0 m ρ c (Proc.devRef .tc main_arg0) := W4_arg0 m ρ c
    _ = m ((c.tc : Thread nD τ).loc main_arg0) := rfl
/-- The root matrix is never written before the first call. -/
theorem W6_arg4_W0 : Gen.W6 m ρ c (Proc.devRef .tc main_arg4) = Gen.W0 m ρ c (Proc.devRef .tc main_arg4) :=
  calc Gen.W6 m ρ c (Proc.devRef .tc main_arg4)
    _ = Gen.W5 m ρ c (Proc.devRef .tc main_arg4) := by keeps Gen.hostOps0_5
    _ = Gen.W4 m ρ c (Proc.devRef .tc main_arg4) := by keeps Gen.hostOps0_4
    _ = Gen.W3 m ρ c (Proc.devRef .tc main_arg4) := by keeps Gen.hostOps0_3
    _ = Gen.W2 m ρ c (Proc.devRef .tc main_arg4) := by keeps Gen.hostOps0_2
    _ = Gen.W1 m ρ c (Proc.devRef .tc main_arg4) := by keeps Gen.hostOps0_1
    _ = Gen.W0 m ρ c (Proc.devRef .tc main_arg4) := by keeps Gen.hostOps0

/-- The root matrix as the first call finds it: as launched. -/
theorem W6_arg4 : Gen.W6 m ρ c (Proc.devRef .tc main_arg4) = m ((c.tc : Thread nD τ).loc main_arg4) :=
  (W6_arg4_W0 m ρ c).trans rfl

/-! ## The first stretch: edge words, reciprocal degrees, positions -/

/-- The source words: row 0 of the edge array. -/
theorem W1_src : (Gen.W1 m ρ c (Proc.devRef .tc main_v1) : S1600000.Idx → BitVec 32)
    = Reads.edgeRow 0 (m ((c.tc : Thread nD τ).loc main_arg1)) Gen.slices_S2x1600000_S1x1600000_0_0 Gen.shapeCasts_S1x1600000_S1600000 := by
  show StableHlo.after Gen.hostOps0 (Gen.W0 m ρ c) (Proc.devRef .tc main_v1) = _
  after_results
  rfl

/-- The destination words: row 1 of the edge array. -/
theorem W1_dst : (Gen.W1 m ρ c (Proc.devRef .tc main_v3) : S1600000.Idx → BitVec 32)
    = Reads.edgeRow 1 (m ((c.tc : Thread nD τ).loc main_arg1)) Gen.slices_S2x1600000_S1x1600000_1_0 Gen.shapeCasts_S1x1600000_S1600000 := by
  show StableHlo.after Gen.hostOps0 (Gen.W0 m ρ c) (Proc.devRef .tc main_v3) = _
  after_results
  rfl

/-- The reciprocal of the clamped in-degree, looked up at the destination words. -/
theorem W1_recipAt : (Gen.W1 m ρ c (Proc.devRef .tc main_v18) : S1600000.Idx → EReal)
    = Reads.lookupVec gather_S100000_S1600000x1_S1600000_n_0_n_n_0_1_1
        (Reads.recipVec
          (Reads.degVec scatter_S100000_S1600000x1_S1600000_n_0_0_1 (Gen.W1 m ρ c (Proc.devRef .tc main_v3))
            Gen.bcast_S_S100000 Gen.bcast_S_S1600000 Gen.bcast_S1600000_S1600000x1_0)
          Gen.bcast_S_S100000)
        100000#32 (Gen.W1 m ρ c (Proc.devRef .tc main_v3)) Gen.bcast_S_S1600000 Gen.bcast_S1600000_S1600000x1_0 := by
  rw [W1_dst m ρ c]
  show StableHlo.after Gen.hostOps0 (Gen.W0 m ρ c) (Proc.devRef .tc main_v18) = _
  after_results
  rfl

/-- The fractions of the positions (the pseudo-coordinates times two). -/
theorem W1_frac : (Gen.W1 m ρ c (Proc.devRef .tc main_v23) : S1600000.Idx → EReal) = Reads.fracVec (Reads.posVec 0x40000000#32 (Reads.colVec (m ((c.tc : Thread nD τ).loc main_arg2)) Gen.shapeCasts_S1600000x1_S1600000) Gen.bcast_S_S1600000) := by
  show StableHlo.after Gen.hostOps0 (Gen.W0 m ρ c) (Proc.devRef .tc main_v23) = _
  after_results
  rfl

/-- The rounded-down positions as integer words. -/
theorem W1_base : (Gen.W1 m ρ c (Proc.devRef .tc main_v25) : S1600000.Idx → BitVec 32) = fptosi 32 (Host.floor (Reads.posVec 0x40000000#32 (Reads.colVec (m ((c.tc : Thread nD τ).loc main_arg2)) Gen.shapeCasts_S1600000x1_S1600000) Gen.bcast_S_S1600000)) := by
  show StableHlo.after Gen.hostOps0 (Gen.W0 m ρ c) (Proc.devRef .tc main_v25) = _
  after_results
  rfl

/-- The two clip bounds the first stretch leaves for the second. -/
theorem W1_c5 : (Gen.W1 m ρ c (Proc.devRef .tc main_c_5) : S_.Idx → BitVec 32) = constantI S_ 32 0#32 := by
  show StableHlo.after Gen.hostOps0 (Gen.W0 m ρ c) (Proc.devRef .tc main_c_5) = _
  after_results
theorem W1_c6 : (Gen.W1 m ρ c (Proc.devRef .tc main_c_6) : S_.Idx → BitVec 32) = constantI S_ 32 2#32 := by
  show StableHlo.after Gen.hostOps0 (Gen.W0 m ρ c) (Proc.devRef .tc main_c_6) = _
  after_results

/-! ## The second, third and fourth stretches: the two slot words -/

/-- The base slot words: the rounded-down positions clipped to [0, 2]. -/
theorem W2_slot0 : (Gen.W2 m ρ c (Proc.devRef .tc main_v26) : S1600000.Idx → BitVec 32) = Reads.slot0Words 2#32 (Reads.posVec 0x40000000#32 (Reads.colVec (m ((c.tc : Thread nD τ).loc main_arg2)) Gen.shapeCasts_S1600000x1_S1600000) Gen.bcast_S_S1600000) Gen.bcast_S_S1600000 := by
  have h : (Gen.W2 m ρ c (Proc.devRef .tc main_v26) : S1600000.Idx → BitVec 32)
      = Reads.clipWords 0#32 2#32 (Gen.W1 m ρ c (Proc.devRef .tc main_v25)) Gen.bcast_S_S1600000 := by
    show StableHlo.after Gen.hostOps0_1 (Gen.W1 m ρ c) (Proc.devRef .tc main_v26) = _
    generalize hV : Gen.W1 m ρ c = V
    have h5 : (V (Proc.devRef .tc main_c_5) : S_.Idx → BitVec 32) = constantI S_ 32 0#32 := by
      rw [← hV]; exact W1_c5 m ρ c
    have h6 : (V (Proc.devRef .tc main_c_6) : S_.Idx → BitVec 32) = constantI S_ 32 2#32 := by
      rw [← hV]; exact W1_c6 m ρ c
    after_results
    rw [h5, h6]
    rfl
  rw [h, W1_base m ρ c]
  rfl

/-- The base slot words plus one. -/
theorem W3_succ : (Gen.W3 m ρ c (Proc.devRef .tc main_v28) : S1600000.Idx → BitVec 32)
    = addi (Gen.W2 m ρ c (Proc.devRef .tc main_v26)) (Reads.splatI _ 1#32 Gen.bcast_S_S1600000) := by
  show StableHlo.after Gen.hostOps0_2 (Gen.W2 m ρ c) (Proc.devRef .tc main_v28) = _
  generalize Gen.W2 m ρ c = V
  after_results
  rfl

/-- The two clip bounds the third stretch leaves for the fourth. -/
theorem W3_c8 : (Gen.W3 m ρ c (Proc.devRef .tc main_c_8) : S_.Idx → BitVec 32) = constantI S_ 32 0#32 := by
  show StableHlo.after Gen.hostOps0_2 (Gen.W2 m ρ c) (Proc.devRef .tc main_c_8) = _
  generalize Gen.W2 m ρ c = V
  after_results
theorem W3_c9 : (Gen.W3 m ρ c (Proc.devRef .tc main_c_9) : S_.Idx → BitVec 32) = constantI S_ 32 2#32 := by
  show StableHlo.after Gen.hostOps0_2 (Gen.W2 m ρ c) (Proc.devRef .tc main_c_9) = _
  generalize Gen.W2 m ρ c = V
  after_results

/-- The next slot words: the base slot words plus one, clipped to [0, 2]. -/
theorem W4_slot1 : (Gen.W4 m ρ c (Proc.devRef .tc main_v29) : S1600000.Idx → BitVec 32)
    = Reads.slot1Words 2#32 (Gen.W2 m ρ c (Proc.devRef .tc main_v26)) Gen.bcast_S_S1600000 := by
  have h : (Gen.W4 m ρ c (Proc.devRef .tc main_v29) : S1600000.Idx → BitVec 32)
      = Reads.clipWords 0#32 2#32 (Gen.W3 m ρ c (Proc.devRef .tc main_v28)) Gen.bcast_S_S1600000 := by
    show StableHlo.after Gen.hostOps0_3 (Gen.W3 m ρ c) (Proc.devRef .tc main_v29) = _
    generalize hV : Gen.W3 m ρ c = V
    have h8 : (V (Proc.devRef .tc main_c_8) : S_.Idx → BitVec 32) = constantI S_ 32 0#32 := by
      rw [← hV]; exact W3_c8 m ρ c
    have h9 : (V (Proc.devRef .tc main_c_9) : S_.Idx → BitVec 32) = constantI S_ 32 2#32 := by
      rw [← hV]; exact W3_c9 m ρ c
    after_results
    rw [h8, h9]
    rfl
  rw [h, W3_succ m ρ c]
  rfl

/-! ## The fifth stretch: the source rows -/

/-- A cast along an equation and back along its converse is the identity. -/
theorem cast_cast_cancel {α β : Type} (h1 : β = α) (h2 : α = β) (v : α) : cast h1 (cast h2 v) = v := by
  subst h2; rfl

/-- The three buffers the fifth stretch meets at its ends hold contents of their printed types. -/
theorem toBuf_v30 (x : (⟨S1600000x64, .f32⟩ : BufTy).Contents (Elt Ideal)) :
    (StableHlo.TRef.of main_v30 : StableHlo.TRef sig ⟨S1600000x64, .f32⟩).toBuf x = x := rfl
theorem ofBuf_v1 (x : (main_v1 : Ref sig .tc).ty.Contents (Elt Ideal)) :
    (StableHlo.TRef.of main_v1 : StableHlo.TRef sig ⟨S1600000, .i32⟩).ofBuf x = x := rfl
theorem ofBuf_arg0 (x : (main_arg0 : Ref sig .tc).ty.Contents (Elt Ideal)) :
    (StableHlo.TRef.of main_arg0 : StableHlo.TRef sig ⟨S100000x64, .f32⟩).ofBuf x = x := rfl

/-- The lookup of the source rows as one function of the features and the source words, from any contents. -/
abbrev takeOf (x : FVec Ideal S100000x64 .f32) (w : IVec S1600000 32) : FVec Ideal S1600000x64 .f32 :=
  Reads.takeRows gather_S100000x64_S1600000x1_S1600000x64_1_0_n_n_0_1_164 x
    100000#32 99999#32 0x7FC00000#32 w Gen.bcast_S_S1600000 Gen.bcast_S1600000_S1600000x1_0 Gen.bcast_S_S1600000x1
    Gen.bcast_S1_S1x1_1 Gen.bcast_S1x1_S1600000x1_0_1 Gen.reducesTo_S1600000x1_S1600000_d1 Gen.h_S_
    Gen.bcast_S1600000_S1600000x64_0 Gen.bcast_S_S1600000x64

/-- The fifth stretch's result, the contents at its two ends still wrapped in their type casts. -/
theorem take_cast (V : Valuation τ sig (Elt Ideal)) :
    StableHlo.after Gen.hostOps0_4 V (Proc.devRef .tc main_v30)
      = (StableHlo.TRef.of main_v30 : StableHlo.TRef sig ⟨S1600000x64, .f32⟩).toBuf
          (takeOf ((StableHlo.TRef.of main_arg0 : StableHlo.TRef sig ⟨S100000x64, .f32⟩).ofBuf (V (Proc.devRef .tc main_arg0)))
            ((StableHlo.TRef.of main_v1 : StableHlo.TRef sig ⟨S1600000, .i32⟩).ofBuf (V (Proc.devRef .tc main_v1)))) := by
  after_results_simp
  simp only [cast_cast_cancel]
  rfl

/-- The source rows, with their out-of-range fill. -/
theorem W5_take : (Gen.W5 m ρ c (Proc.devRef .tc main_v30) : S1600000x64.Idx → EReal)
    = takeOf (Gen.W4 m ρ c (Proc.devRef .tc main_arg0)) (Gen.W4 m ρ c (Proc.devRef .tc main_v1)) :=
  (take_cast (Gen.W4 m ρ c)).trans ((toBuf_v30 _).trans (congrArg₂ takeOf (ofBuf_arg0 _) (ofBuf_v1 _)))

/-! ## The sixth stretch: the aggregate, the stacked weights, the bias row -/

set_option maxHeartbeats 4000000 in
/-- The aggregate the first call reads. -/
theorem W6_agg : (Gen.W6 m ρ c (Proc.devRef .tc main_v52) : S100000x192.Idx → EReal)
    = Reads.fusedAgg scatter_S300000x64_S3200000x1_S3200000x64_1_0_0_1 3#32
        (Gen.W5 m ρ c (Proc.devRef .tc main_v3)) (Gen.W5 m ρ c (Proc.devRef .tc main_v26)) (Gen.W5 m ρ c (Proc.devRef .tc main_v29)) (Gen.W5 m ρ c (Proc.devRef .tc main_v30))
        (Gen.W5 m ρ c (Proc.devRef .tc main_v23)) (Gen.W5 m ρ c (Proc.devRef .tc main_v18))
        Gen.bcast_S_S1600000 Gen.bcast_S1600000_S1600000x1_0 Gen.bcast_S1600000x1_S1600000x64_0_1 Gen.concatenates_S1600000_S1600000_S3200000_d0
        Gen.concatenates_S1600000x64_S1600000x64_S3200000x64_d0 Gen.bcast_S_S300000x64
        Gen.bcast_S3200000_S3200000x1_0 Gen.shapeCasts_S300000x64_S100000x192 := by
  show StableHlo.after Gen.hostOps0_5 (Gen.W5 m ρ c) (Proc.devRef .tc main_v52) = _
  generalize Gen.W5 m ρ c = V
  after_results
  rfl

/-- The three weight matrices stacked. -/
theorem W6_w1flat : (Gen.W6 m ρ c (Proc.devRef .tc main_v53) : S192x64.Idx → EReal)
    = shapeCast S192x64 (Gen.W5 m ρ c (Proc.devRef .tc main_arg3) : S3x64x64.Idx → EReal) Gen.shapeCasts_S3x64x64_S192x64 := by
  show StableHlo.after Gen.hostOps0_5 (Gen.W5 m ρ c) (Proc.devRef .tc main_v53) = _
  generalize Gen.W5 m ρ c = V
  after_results
  rfl

/-- The bias as a row. -/
theorem W6_b1row : (Gen.W6 m ρ c (Proc.devRef .tc main_v54) : S1x64.Idx → EReal)
    = shapeCast S1x64 (Gen.W5 m ρ c (Proc.devRef .tc main_arg5) : S64.Idx → EReal) Gen.shapeCasts_S64_S1x64 := by
  show StableHlo.after Gen.hostOps0_5 (Gen.W5 m ρ c) (Proc.devRef .tc main_v54) = _
  generalize Gen.W5 m ρ c = V
  after_results
  rfl

end Cert.KernelIdeal.Val

end
-- ==== Proof.KernelRegionForms.lean ====
/-
  The vector unit's spelling of a dense layer, read at one entry over the extended reals.

  A block product accumulated into a zero splat is the plain matrix product (0 + x = x); a one-row value broadcast
  down the rows and added is a bias; a select on "y > 0" between y and exp(y) − 1 is ELU; a maximum with the zero splat
  is the positive part. Each statement reads the whole expression at the entry (p, q) and names the result by the
  index functions densePre, eluExp and reluDense0. Changes of float format are the identity here, so the operands may
  carry any formats.
-/
import proofs.«403743_j85538568667548_2_alg».proof.Proof.Spline
import Idealize.ShloMosaic.Lib.StackMember
import Idealize.ShloMosaic.Lib.KernelVsHost
import Idealize.ShloMosaic.Lib.ValueLayout

noncomputable section

namespace Cert.KernelIdeal.Val

open Idealize.ShloMosaic Idealize.ShloMosaic.ValueIdx
open Cert.Spline

/-- The offsets (0, 0), however spelt. -/
theorem zero_offsets : (![0, 0] : Fin 2 → Nat) = fun _ => 0 := funext fun a => by fin_cases a <;> rfl

/-- The word 0x3F800000 is the number one. -/
theorem one_f32 : Ideal.ofBits .f32 0x3F800000#32 = 1 := by
  simp [Ideal.ofBits, Ideal.ieee]
  rw [← EReal.coe_mul]
  norm_num

/-- An m×k by k×n product accumulated into the zero splat, at (a, b): the sum over c of A(a, c) · B(c, b). -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) (⟨2, ![m, n]⟩ : Shape) .f32 0x00000000#32) (ix2 a b)
      = ∑ c : Fin k, A (ix2 a c) * B (ix2 c b) := by
  rw [matmul_zero_eq_dotGeneral]
  exact StackMember.dotGeneral_plain_apply prec A B a b

/-- Two products into zero accumulators, added, plus a one-row bias broadcast down the rows: densePre at (p, q). -/
theorem dense_vector_apply {m M D' D : ℕ} {φ₁ φ₂ φ₃ φ₄ : FTy}
    (A : FVec Ideal ⟨2, ![m, M]⟩ φ₁) (Wf : FVec Ideal ⟨2, ![M, D]⟩ φ₂)
    (X : FVec Ideal ⟨2, ![m, D']⟩ φ₃) (R : FVec Ideal ⟨2, ![D', D]⟩ φ₄) (b : FVec Ideal ⟨2, ![1, D]⟩ .f32)
    (hb : (⟨2, ![1, D]⟩ : Shape).Broadcasts ⟨2, ![m, D]⟩) (p : Fin m) (q : Fin D) :
    addf (addf (matmul (DotDims.plain m M D) none A Wf (constant (F := Ideal) (⟨2, ![m, D]⟩ : Shape) .f32 0x00000000#32))
               (matmul (DotDims.plain m D' D) none X R (constant (F := Ideal) (⟨2, ![m, D]⟩ : Shape) .f32 0x00000000#32)))
         (broadcastTo (⟨2, ![m, D]⟩ : Shape) b hb) (ix2 p q)
      = densePre (mat2 A) (mat2 Wf) (mat2 X) (mat2 R) (fun j => b (ix2 0 j)) p q := by
  show (matmul (DotDims.plain m M D) none A Wf _ (ix2 p q) + matmul (DotDims.plain m D' D) none X R _ (ix2 p q))
      + broadcastTo (⟨2, ![m, D]⟩ : Shape) b hb (ix2 p q) = _
  rw [matmul_plain_zero_apply, matmul_plain_zero_apply, broadcastTo_1b_ab_apply]
  unfold densePre mat2
  rw [zero_add, zero_add]

/-- The select on "y > 0" between y and exp(y) − 1, at an entry: ELU of the entry. -/
theorem elu_vector_apply {s : Shape} (Y : FVec Ideal s .f32) (i : s.Idx) :
    select (cmpf .ogt Y (broadcast s (Scalar.ofBits (F := Ideal) .f32 0x00000000#32))) Y
      (subf (exp Y) (broadcast s (Scalar.ofBits (F := Ideal) .f32 0x3F800000#32))) i = eluExp (Y i) := by
  show Scalar.select (Ideal.cmp .ogt (Y i) (Ideal.ofBits .f32 0x00000000#32)) (Y i)
      (Ideal.exp (Y i) - Ideal.ofBits .f32 0x3F800000#32) = _
  rw [Ideal.ofBits_zero_f32, one_f32]
  rfl

/-- One product into a zero accumulator plus a broadcast bias row, clamped below at zero: reluDense0 at (p, q). -/
theorem relu_dense_vector_apply {m D' D : ℕ} {φ₁ φ₂ : FTy}
    (X : FVec Ideal ⟨2, ![m, D']⟩ φ₁) (R : FVec Ideal ⟨2, ![D', D]⟩ φ₂) (b : FVec Ideal ⟨2, ![1, D]⟩ .f32)
    (hb : (⟨2, ![1, D]⟩ : Shape).Broadcasts ⟨2, ![m, D]⟩) (p : Fin m) (q : Fin D) :
    maximumf (addf (matmul (DotDims.plain m D' D) none X R (constant (F := Ideal) (⟨2, ![m, D]⟩ : Shape) .f32 0x00000000#32))
                   (broadcastTo (⟨2, ![m, D]⟩ : Shape) b hb))
      (broadcast (⟨2, ![m, D]⟩ : Shape) (Scalar.ofBits (F := Ideal) .f32 0x00000000#32)) (ix2 p q)
      = reluDense0 (mat2 X) (mat2 R) (fun j => b (ix2 0 j)) p q := by
  show max (matmul (DotDims.plain m D' D) none X R _ (ix2 p q) + broadcastTo (⟨2, ![m, D]⟩ : Shape) b hb (ix2 p q))
      (Ideal.ofBits .f32 0x00000000#32) = _
  rw [matmul_plain_zero_apply, broadcastTo_1b_ab_apply, Ideal.ofBits_zero_f32]
  unfold reluDense0 mat2
  rw [zero_add]

end Cert.KernelIdeal.Val

end
-- ==== Proof.KernelRegion0.lean ====
/-
  The first pallas call as a whole-array function.

  The grid has 25 points; point t holds rows 4000·t … 4000·t + 3999 of the features and of the 100000 × 192 aggregate,
  and the stacked weights, the root matrix and the bias row whole. Its stored block is, entry by entry, ELU of
  (aggregate row · stacked weights) + (feature row · root) + bias: a function of row p of the two row blocks only. Row
  p of point t's blocks is row 4000·t + p of the arrays, so what point t writes back is block t of that same function
  taken over the whole arrays; row r of the output lies in the block of point r / 4000 and every point writes back,
  so the output array ends as that function everywhere.
-/
import proofs.«403743_j85538568667548_2_alg».proof.Proof.Gen.KernelIdeal.Frame
import proofs.«403743_j85538568667548_2_alg».proof.Proof.Spline
import proofs.«403743_j85538568667548_2_alg».proof.Proof.KernelRegionForms
import Idealize.ShloMosaic.Lib.Pipeline.Value

noncomputable section

namespace Cert.KernelIdeal.Val

open Idealize.ShloMosaic Idealize.ShloMosaic.ValueIdx Idealize.ShloMosaic.TcCoe Idealize.SL.Sem
open Idealize.ShloMosaic.Pipeline (Dat)
open Cert.KernelIdeal Cert.Spline

variable (V : (c : Dev nD) → (b : Ref sig .tc) → Buf (Elt Ideal) ((c : Thread nD τ).loc b))

/-! ## The body's arithmetic at one entry of a block -/

theorem dot_192_64 : dot_S4000x192_S192x64_S4000x64_1_0_0_1_n_n = DotDims.plain 4000 192 64 := rfl
theorem dot_64_64 : dot_S4000x64_S64x64_S4000x64_1_0_0_1_n_n = DotDims.plain 4000 64 64 := rfl

/-- The stored block of the first call at (p, q), from the five loaded blocks: the layer's row p. -/
theorem pay0_apply (x1 : Vec Ideal S4000x192 .f32) (x2 : Vec Ideal S192x64 .f32) (x0 : Vec Ideal S4000x64 .f32)
    (x3 : Vec Ideal S64x64 .f32) (x4 : Vec Ideal S1x64 .f32) (p : Fin 4000) (q : Fin 64) :
    Gen.k0_pay1 (F := Ideal) x1 x2 x0 x3 x4 (ix2 p q)
      = eluExp (densePre (mat2 x1) (mat2 x2) (mat2 x0) (mat2 x3) (fun j => x4 (ix2 0 j)) p q) := by
  unfold Gen.k0_pay1
  simp only [shapeCast_self, dot_192_64, dot_64_64]
  refine (elu_vector_apply _ (ix2 p q)).trans ?_
  exact congrArg eluExp (dense_vector_apply _ _ _ _ x4 _ p q)

/-- The same, with each loaded block named by the array rows it holds: row p of the two row blocks is row n of their
    arrays, and the three parameter blocks are their arrays. -/
theorem pay0_rows (A : S100000x192.Idx → EReal) (Wf : S192x64.Idx → EReal) (X : S100000x64.Idx → EReal)
    (R : S64x64.Idx → EReal) (b : S1x64.Idx → EReal)
    (x1 : Vec Ideal S4000x192 .f32) (x2 : Vec Ideal S192x64 .f32) (x0 : Vec Ideal S4000x64 .f32)
    (x3 : Vec Ideal S64x64 .f32) (x4 : Vec Ideal S1x64 .f32) (n : Fin 100000) (p : Fin 4000) (q : Fin 64)
    (h1 : ∀ k, x1 (ix2 p k) = A (ix2 n k)) (h2 : ∀ k j, x2 (ix2 k j) = Wf (ix2 k j))
    (h0 : ∀ d, x0 (ix2 p d) = X (ix2 n d)) (h3 : ∀ d j, x3 (ix2 d j) = R (ix2 d j))
    (h4 : ∀ j, x4 (ix2 0 j) = b (ix2 0 j)) :
    Gen.k0_pay1 (F := Ideal) x1 x2 x0 x3 x4 (ix2 p q)
      = eluExp (densePre (mat2 A) (mat2 Wf) (mat2 X) (mat2 R) (fun j => b (ix2 0 j)) n q) := by
  rw [pay0_apply]
  unfold densePre mat2
  simp only [h1, h2, h0, h3, h4]

/-! ## The blocks of the first call -/

theorem arrays0 : Pipeline.arrRef spec0 0 = main_arg0 ∧ Pipeline.arrRef spec0 1 = main_v52 ∧ Pipeline.arrRef spec0 2 = main_v53
    ∧ Pipeline.arrRef spec0 3 = main_arg4 ∧ Pipeline.arrRef spec0 4 = main_v54 ∧ Pipeline.arrRef spec0 5 = main_v55 :=
  ⟨rfl, rfl, rfl, rfl, rfl, rfl⟩

/-- The index maps over the grid: the two row windows and the output are at block (t, 0), the parameters at (0, 0). -/
theorem index_maps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of x is row 4000·t + p of x. -/
theorem block0_0 (c : Dev nD) (t : Fin cfg0.N) (p : Fin 4000) (d : Fin 64) (n : Fin 100000)
    (hn : n.val = 4000 * t.val + p.val) :
    (Gen.iblk0 V c 0 t : Vec Ideal S4000x64 .f32) (ix2 p d) = (V c main_arg0 : S100000x64.Idx → EReal) (ix2 n d) := by
  obtain ⟨e0, e1, -⟩ := index_maps0 t
  unfold Gen.iblk0
  rw [View.read_apply]
  show V c main_arg0 _ = V c main_arg0 _
  refine congrArg _ ?_
  funext a; apply Fin.ext
  match a with
  | ⟨0, _⟩ => show win0_0.index t (0 : Fin 2) * 4000 + 1 * p.val = n.val; omega
  | ⟨1, _⟩ => show win0_0.index t (1 : Fin 2) * 64 + 1 * d.val = d.val; omega

/-- Row p of point t's block of the aggregate is row 4000·t + p of the aggregate. -/
theorem block0_1 (c : Dev nD) (t : Fin cfg0.N) (p : Fin 4000) (k : Fin 192) (n : Fin 100000)
    (hn : n.val = 4000 * t.val + p.val) :
    (Gen.iblk0 V c 1 t : Vec Ideal S4000x192 .f32) (ix2 p k) = (V c main_v52 : S100000x192.Idx → EReal) (ix2 n k) := by
  obtain ⟨-, -, e0, e1, -⟩ := index_maps0 t
  unfold Gen.iblk0
  rw [View.read_apply]
  show V c main_v52 _ = V c main_v52 _
  refine congrArg _ ?_
  funext a; apply Fin.ext
  match a with
  | ⟨0, _⟩ => show win0_1.index t (0 : Fin 2) * 4000 + 1 * p.val = n.val; omega
  | ⟨1, _⟩ => show win0_1.index t (1 : Fin 2) * 192 + 1 * k.val = k.val; omega

/-- Every point's block of the stacked weights is the stacked weights. -/
theorem block0_2 (c : Dev nD) (t : Fin cfg0.N) (k : Fin 192) (j : Fin 64) :
    (Gen.iblk0 V c 2 t : Vec Ideal S192x64 .f32) (ix2 k j) = (V c main_v53 : S192x64.Idx → EReal) (ix2 k j) := by
  obtain ⟨-, -, -, -, e0, e1, -⟩ := index_maps0 t
  unfold Gen.iblk0
  rw [View.read_apply]
  show V c main_v53 _ = V c main_v53 _
  refine congrArg _ ?_
  funext a; apply Fin.ext
  match a with
  | ⟨0, _⟩ => show win0_2.index t (0 : Fin 2) * 192 + 1 * k.val = k.val; omega
  | ⟨1, _⟩ => show win0_2.index t (1 : Fin 2) * 64 + 1 * j.val = j.val; omega

/-- Every point's block of the root matrix is the root matrix. -/
theorem block0_3 (c : Dev nD) (t : Fin cfg0.N) (d : Fin 64) (j : Fin 64) :
    (Gen.iblk0 V c 3 t : Vec Ideal S64x64 .f32) (ix2 d j) = (V c main_arg4 : S64x64.Idx → EReal) (ix2 d j) := by
  obtain ⟨-, -, -, -, -, -, e0, e1, -⟩ := index_maps0 t
  unfold Gen.iblk0
  rw [View.read_apply]
  show V c main_arg4 _ = V c main_arg4 _
  refine congrArg _ ?_
  funext a; apply Fin.ext
  match a with
  | ⟨0, _⟩ => show win0_3.index t (0 : Fin 2) * 64 + 1 * d.val = d.val; omega
  | ⟨1, _⟩ => show win0_3.index t (1 : Fin 2) * 64 + 1 * j.val = j.val; omega

/-- Every point's block of the bias row is the bias row. -/
theorem block0_4 (c : Dev nD) (t : Fin cfg0.N) (u : Fin 1) (j : Fin 64) :
    (Gen.iblk0 V c 4 t : Vec Ideal S1x64 .f32) (ix2 u j) = (V c main_v54 : S1x64.Idx → EReal) (ix2 u j) := by
  obtain ⟨-, -, -, -, -, -, -, -, e0, e1, -⟩ := index_maps0 t
  unfold Gen.iblk0
  rw [View.read_apply]
  show V c main_v54 _ = V c main_v54 _
  refine congrArg _ ?_
  funext a; apply Fin.ext
  match a with
  | ⟨0, _⟩ => show win0_4.index t (0 : Fin 2) * 1 + 1 * u.val = u.val; omega
  | ⟨1, _⟩ => show win0_4.index t (1 : Fin 2) * 64 + 1 * j.val = j.val; omega

/-! ## The array the first call leaves -/

/-- The first layer over whole arrays, as a function of the output's index. -/
def layer0 (c : Dev nD) : S100000x64.Idx → EReal := fun i =>
  eluExp (densePre (mat2 (V c main_v52 : S100000x192.Idx → EReal)) (mat2 (V c main_v53 : S192x64.Idx → EReal))
    (mat2 (V c main_arg0 : S100000x64.Idx → EReal)) (mat2 (V c main_arg4 : S64x64.Idx → EReal))
    (fun j => (V c main_v54 : S1x64.Idx → EReal) (ix2 0 j)) (i 0) (i 1))

/-- What point t writes back is block t of the layer over whole arrays. -/
theorem flushed0 (c : Dev nD) (t : Fin cfg0.N) :
    (Gen.dat0 V c).flushed 5 t = ((cfg0.win 5).blk t).view.read (Elt Ideal) (layer0 V c) := by
  show (cfg0.win 5).cut (grid0.coords t) ((Gen.dat0 V c).after 5 t) = _
  rw [Gen.after0_5]
  unfold Gen.out0_5
  rw [View.canon_unit_zero zero_offsets]
  simp only [View.ld_unit_zero (S := S4000x192) zero_offsets, View.ld_unit_zero (S := S192x64) zero_offsets,
    View.ld_unit_zero (S := S4000x64) zero_offsets, View.ld_unit_zero (S := S64x64) zero_offsets,
    View.ld_unit_zero (S := S1x64) zero_offsets]
  funext j
  obtain ⟨p, q, rfl⟩ : ∃ (p : Fin 4000) (q : Fin 64), j = ix2 p q := ⟨j 0, j 1, eq_ix2 j⟩
  have ht : t.val < 25 := lt_of_lt_of_eq t.isLt Gen.N_0
  have hn : 4000 * t.val + p.val < 100000 := by have := p.isLt; omega
  obtain ⟨-, -, -, -, -, -, -, -, -, -, e0, e1⟩ := index_maps0 t
  show Gen.k0_pay1 (F := Ideal) (Gen.iblk0 V c 1 t) (Gen.iblk0 V c 2 t) (Gen.iblk0 V c 0 t) (Gen.iblk0 V c 3 t)
      (Gen.iblk0 V c 4 t) (ix2 p q) = layer0 V c (((cfg0.win 5).blk t).view.emb (ix2 p q))
  refine (pay0_rows (V c main_v52) (V c main_v53) (V c main_arg0) (V c main_arg4) (V c main_v54)
    (Gen.iblk0 V c 1 t) (Gen.iblk0 V c 2 t) (Gen.iblk0 V c 0 t) (Gen.iblk0 V c 3 t) (Gen.iblk0 V c 4 t)
    ⟨4000 * t.val + p.val, hn⟩ p q (fun k => block0_1 V c t p k _ rfl) (fun k j => block0_2 V c t k j)
    (fun d => block0_0 V c t p d _ rfl) (fun d j => block0_3 V c t d j) (fun j => block0_4 V c t 0 j)).trans ?_
  show layer0 V c (ix2 ⟨4000 * t.val + p.val, hn⟩ q) = _
  refine congrArg (layer0 V c) ?_
  funext a; apply Fin.ext
  match a with
  | ⟨0, _⟩ => show 4000 * t.val + p.val = win0_5.index t (0 : Fin 2) * 4000 + 1 * p.val; omega
  | ⟨1, _⟩ => show q.val = win0_5.index t (1 : Fin 2) * 64 + 1 * q.val; omega

/-- An index of the output array is in point t's block iff each coordinate is in the block's range on its axis. -/
theorem mem_block0 (t : Fin cfg0.N) (i : S100000x64.Idx) :
    i ∈ ((cfg0.win 5).blk t).view.set ↔ ∀ a : Fin 2, win0_5.index t a * S4000x64.size a ≤ (i a).val
      ∧ (i a).val < win0_5.index t a * S4000x64.size a + S4000x64.size a := by
  show i ∈ ((View.whole main_v55).slice (win0_5.rect t)).set ↔ _
  rw [View.set_slice_whole, Rect.mem_set_unit]
  exact Iff.rfl

/-- Row r of the output lies in the block of point r / 4000, and every point writes its block back. -/
theorem cover0 (i : S100000x64.Idx) :
    ∃ t : Fin cfg0.N, (cfg0.win 5).flush t = true ∧ i ∈ ((cfg0.win 5).blk t).view.set := by
  have h0 : (i 0).val < 100000 := idx2_lt0 i
  have h1 : (i 1).val < 64 := idx2_lt1 i
  have hN : cfg0.N = 25 := Gen.N_0
  have hq : (i 0).val / 4000 < cfg0.N := by rw [hN]; omega
  obtain ⟨-, -, -, -, -, -, -, -, -, -, e0, e1⟩ := index_maps0 ⟨(i 0).val / 4000, hq⟩
  refine ⟨⟨(i 0).val / 4000, hq⟩, Gen.flush0_5 _, ?_⟩
  rw [mem_block0]
  intro a
  match a with
  | ⟨0, _⟩ =>
    show win0_5.index ⟨(i 0).val / 4000, hq⟩ (0 : Fin 2) * 4000 ≤ (i 0).val
      ∧ (i 0).val < win0_5.index ⟨(i 0).val / 4000, hq⟩ (0 : Fin 2) * 4000 + 4000
    rw [e0]
    show (i 0).val / 4000 * 4000 ≤ (i 0).val ∧ (i 0).val < (i 0).val / 4000 * 4000 + 4000
    omega
  | ⟨1, _⟩ =>
    show win0_5.index ⟨(i 0).val / 4000, hq⟩ (1 : Fin 2) * 64 ≤ (i 1).val
      ∧ (i 1).val < win0_5.index ⟨(i 0).val / 4000, hq⟩ (1 : Fin 2) * 64 + 64
    rw [e1]
    omega

/-- The output array after the first call is the layer over whole arrays. -/
theorem region0_array (c : Dev nD) : (Gen.dat0 V c).arrAt 5 cfg0.N = layer0 V c :=
  (Gen.dat0 V c).arrAt_eq_of_cover 5 (layer0 V c) (fun t _ => flushed0 V c t) cover0

/-- Entry (n, j) of the array the first call leaves. -/
theorem region0_apply (c : Dev nD) (n : Fin 100000) (j : Fin 64) :
    ((Gen.dat0 V c).arrAt 5 cfg0.N : S100000x64.Idx → EReal) (ix2 n j)
      = eluExp (densePre (mat2 (V c main_v52 : S100000x192.Idx → EReal)) (mat2 (V c main_v53 : S192x64.Idx → EReal))
          (mat2 (V c main_arg0 : S100000x64.Idx → EReal)) (mat2 (V c main_arg4 : S64x64.Idx → EReal))
          (fun j => (V c main_v54 : S1x64.Idx → EReal) (ix2 0 j)) n j) := by
  rw [region0_array]
  rfl

end Cert.KernelIdeal.Val

end
-- ==== Proof.KernelRegion1.lean ====
/-
  The second pallas call as a whole-array function.

  The grid has 25 points; point t holds rows 4000·t … 4000·t + 3999 of the first layer's result and of the
  100000 × 320 aggregate, and seven parameter arrays whole: the stacked weights, the root matrix and the bias row of
  the second layer, and the two matrices and two bias rows of the head. Its stored block is, entry by entry, the
  head's second layer (positive part of hidden row · matrix + bias) over the hidden rows (positive part of layer row ·
  matrix + bias) over the second layer's rows (ELU of aggregate row · stacked weights + feature row · root + bias): a
  function of row p of the two row blocks only. Row p of point t's blocks is row 4000·t + p of the arrays, so what
  point t writes back is block t of that same function taken over the whole arrays; row r of the output lies in the
  block of point r / 4000 and every point writes back, so the output array ends as that function everywhere.
-/
import proofs.«403743_j85538568667548_2_alg».proof.Proof.Gen.KernelIdeal.Frame
import proofs.«403743_j85538568667548_2_alg».proof.Proof.Spline
import proofs.«403743_j85538568667548_2_alg».proof.Proof.KernelRegionForms
import Idealize.ShloMosaic.Lib.Pipeline.Value

noncomputable section

namespace Cert.KernelIdeal.Val

open Idealize.ShloMosaic Idealize.ShloMosaic.ValueIdx Idealize.ShloMosaic.TcCoe Idealize.SL.Sem
open Idealize.ShloMosaic.Pipeline (Dat)
open Cert.KernelIdeal Cert.Spline

variable (V : (c : Dev nD) → (b : Ref sig .tc) → Buf (Elt Ideal) ((c : Thread nD τ).loc b))

/-! ## The body's arithmetic at one entry of a block -/

theorem dot1_320_64 : dot_S4000x320_S320x64_S4000x64_1_0_0_1_n_n = DotDims.plain 4000 320 64 := rfl
theorem dot1_64_64 : dot_S4000x64_S64x64_S4000x64_1_0_0_1_n_n = DotDims.plain 4000 64 64 := rfl
theorem dot1_64_16 : dot_S4000x64_S64x16_S4000x16_1_0_0_1_n_n = DotDims.plain 4000 64 16 := rfl

/-- The hidden block of the second call, by rows and columns: the second layer's rows through the head's first
    layer. -/
theorem hidden1_eq (x1 : Vec Ideal S4000x320 .f32) (x2 : Vec Ideal S320x64 .f32) (x0 : Vec Ideal S4000x64 .f32)
    (x3 : Vec Ideal S64x64 .f32) (x4 : Vec Ideal S1x64 .f32) (x5 : Vec Ideal S64x64 .f32) (x6 : Vec Ideal S1x64 .f32) :
    mat2 (Gen.k1_pay2 (F := Ideal) x1 x2 x0 x3 x4 x5 x6)
      = reluDense0 (fun n d => eluExp (densePre (mat2 x1) (mat2 x2) (mat2 x0) (mat2 x3) (fun j => x4 (ix2 0 j)) n d))
          (mat2 x5) (fun j => x6 (ix2 0 j)) := by
  funext n d
  unfold Gen.k1_pay2
  simp only [shapeCast_self, dot1_320_64, dot1_64_64]
  refine (relu_dense_vector_apply _ _ x6 _ n d).trans ?_
  refine congrArg (fun Z => reluDense0 Z (mat2 x5) (fun j => x6 (ix2 0 j)) n d) ?_
  funext n' d'
  refine (elu_vector_apply _ (ix2 n' d')).trans ?_
  exact congrArg eluExp (dense_vector_apply _ _ _ _ x4 _ n' d')

/-- The stored block of the second call at (p, q), from the nine loaded blocks. -/
theorem pay1_apply (x1 : Vec Ideal S4000x320 .f32) (x2 : Vec Ideal S320x64 .f32) (x0 : Vec Ideal S4000x64 .f32)
    (x3 : Vec Ideal S64x64 .f32) (x4 : Vec Ideal S1x64 .f32) (x5 : Vec Ideal S64x64 .f32) (x6 : Vec Ideal S1x64 .f32)
    (x7 : Vec Ideal S64x16 .f32) (x8 : Vec Ideal S1x16 .f32) (p : Fin 4000) (q : Fin 16) :
    Gen.k1_pay1 (F := Ideal) (Gen.k1_pay2 x1 x2 x0 x3 x4 x5 x6) (Gen.k1_pay3 x7) x8 (ix2 p q)
      = reluDense0 (reluDense0 (fun n d => eluExp (densePre (mat2 x1) (mat2 x2) (mat2 x0) (mat2 x3)
            (fun j => x4 (ix2 0 j)) n d)) (mat2 x5) (fun j => x6 (ix2 0 j)))
          (mat2 x7) (fun j => x8 (ix2 0 j)) p q := by
  unfold Gen.k1_pay1
  simp only [shapeCast_self, dot1_64_16]
  refine (relu_dense_vector_apply _ _ x8 _ p q).trans ?_
  rw [hidden1_eq]
  rfl

/-- The same, with each loaded block named by the array rows it holds: row p of the two row blocks is row n of their
    arrays, and the seven parameter blocks are their arrays. -/
theorem pay1_rows (A : S100000x320.Idx → EReal) (Wf : S320x64.Idx → EReal) (X : S100000x64.Idx → EReal)
    (R : S64x64.Idx → EReal) (b : S1x64.Idx → EReal) (W1 : S64x64.Idx → EReal) (b1 : S1x64.Idx → EReal)
    (W2 : S64x16.Idx → EReal) (b2 : S1x16.Idx → EReal)
    (x1 : Vec Ideal S4000x320 .f32) (x2 : Vec Ideal S320x64 .f32) (x0 : Vec Ideal S4000x64 .f32)
    (x3 : Vec Ideal S64x64 .f32) (x4 : Vec Ideal S1x64 .f32) (x5 : Vec Ideal S64x64 .f32) (x6 : Vec Ideal S1x64 .f32)
    (x7 : Vec Ideal S64x16 .f32) (x8 : Vec Ideal S1x16 .f32) (n : Fin 100000) (p : Fin 4000) (q : Fin 16)
    (h1 : ∀ k, x1 (ix2 p k) = A (ix2 n k)) (h2 : ∀ k j, x2 (ix2 k j) = Wf (ix2 k j))
    (h0 : ∀ d, x0 (ix2 p d) = X (ix2 n d)) (h3 : ∀ d j, x3 (ix2 d j) = R (ix2 d j))
    (h4 : ∀ j, x4 (ix2 0 j) = b (ix2 0 j)) (h5 : ∀ d j, x5 (ix2 d j) = W1 (ix2 d j))
    (h6 : ∀ j, x6 (ix2 0 j) = b1 (ix2 0 j)) (h7 : ∀ d j, x7 (ix2 d j) = W2 (ix2 d j))
    (h8 : ∀ j, x8 (ix2 0 j) = b2 (ix2 0 j)) :
    Gen.k1_pay1 (F := Ideal) (Gen.k1_pay2 x1 x2 x0 x3 x4 x5 x6) (Gen.k1_pay3 x7) x8 (ix2 p q)
      = reluDense0 (reluDense0 (fun n d => eluExp (densePre (mat2 A) (mat2 Wf) (mat2 X) (mat2 R)
            (fun j => b (ix2 0 j)) n d)) (mat2 W1) (fun j => b1 (ix2 0 j)))
          (mat2 W2) (fun j => b2 (ix2 0 j)) n q := by
  rw [pay1_apply]
  unfold reluDense0 densePre mat2
  simp only [h1, h2, h0, h3, h4, h5, h6, h7, h8]

/-! ## The blocks of the second call -/

theorem arrays1 : Pipeline.arrRef spec1 0 = main_v55 ∧ Pipeline.arrRef spec1 1 = main_v89 ∧ Pipeline.arrRef spec1 2 = main_v90
    ∧ Pipeline.arrRef spec1 3 = main_arg7 ∧ Pipeline.arrRef spec1 4 = main_v91 ∧ Pipeline.arrRef spec1 5 = main_arg9
    ∧ Pipeline.arrRef spec1 6 = main_v92 ∧ Pipeline.arrRef spec1 7 = main_arg11 ∧ Pipeline.arrRef spec1 8 = main_v93
    ∧ Pipeline.arrRef spec1 9 = main_v94 :=
  ⟨rfl, rfl, rfl, rfl, rfl, rfl, rfl, rfl, rfl, rfl⟩

/-- The index maps over the grid: the two row windows and the output are at block (t, 0), -/
theorem index_rows1 : ∀ t : Fin cfg1.N, win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0 :=
  (by decide +kernel : ∀ t : Fin grid1.N, _)

/-- and the seven parameter windows at block (0, 0). -/
theorem index_params1 : ∀ t : Fin cfg1.N, (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- Row p of point t's block of the first layer's result is its row 4000·t + p. -/
theorem block1_0 (c : Dev nD) (t : Fin cfg1.N) (p : Fin 4000) (d : Fin 64) (n : Fin 100000)
    (hn : n.val = 4000 * t.val + p.val) :
    (Gen.iblk1 V c 0 t : Vec Ideal S4000x64 .f32) (ix2 p d) = (V c main_v55 : S100000x64.Idx → EReal) (ix2 n d) := by
  obtain ⟨e0, e1, -⟩ := index_rows1 t
  unfold Gen.iblk1
  rw [View.read_apply]
  show V c main_v55 _ = V c main_v55 _
  refine congrArg _ ?_
  funext a; apply Fin.ext
  match a with
  | ⟨0, _⟩ => show win1_0.index t (0 : Fin 2) * 4000 + 1 * p.val = n.val; omega
  | ⟨1, _⟩ => show win1_0.index t (1 : Fin 2) * 64 + 1 * d.val = d.val; omega

/-- Row p of point t's block of the aggregate is row 4000·t + p of the aggregate. -/
theorem block1_1 (c : Dev nD) (t : Fin cfg1.N) (p : Fin 4000) (k : Fin 320) (n : Fin 100000)
    (hn : n.val = 4000 * t.val + p.val) :
    (Gen.iblk1 V c 1 t : Vec Ideal S4000x320 .f32) (ix2 p k) = (V c main_v89 : S100000x320.Idx → EReal) (ix2 n k) := by
  obtain ⟨-, -, e0, e1, -⟩ := index_rows1 t
  unfold Gen.iblk1
  rw [View.read_apply]
  show V c main_v89 _ = V c main_v89 _
  refine congrArg _ ?_
  funext a; apply Fin.ext
  match a with
  | ⟨0, _⟩ => show win1_1.index t (0 : Fin 2) * 4000 + 1 * p.val = n.val; omega
  | ⟨1, _⟩ => show win1_1.index t (1 : Fin 2) * 320 + 1 * k.val = k.val; omega

/-- Every point's block of the stacked weights is the stacked weights. -/
theorem block1_2 (c : Dev nD) (t : Fin cfg1.N) (k : Fin 320) (j : Fin 64) :
    (Gen.iblk1 V c 2 t : Vec Ideal S320x64 .f32) (ix2 k j) = (V c main_v90 : S320x64.Idx → EReal) (ix2 k j) := by
  obtain ⟨⟨e0, e1⟩, -⟩ := index_params1 t
  unfold Gen.iblk1
  rw [View.read_apply]
  show V c main_v90 _ = V c main_v90 _
  refine congrArg _ ?_
  funext a; apply Fin.ext
  match a with
  | ⟨0, _⟩ => show win1_2.index t (0 : Fin 2) * 320 + 1 * k.val = k.val; omega
  | ⟨1, _⟩ => show win1_2.index t (1 : Fin 2) * 64 + 1 * j.val = j.val; omega

/-- Every point's block of the root matrix is the root matrix. -/
theorem block1_3 (c : Dev nD) (t : Fin cfg1.N) (d : Fin 64) (j : Fin 64) :
    (Gen.iblk1 V c 3 t : Vec Ideal S64x64 .f32) (ix2 d j) = (V c main_arg7 : S64x64.Idx → EReal) (ix2 d j) := by
  obtain ⟨-, ⟨e0, e1⟩, -⟩ := index_params1 t
  unfold Gen.iblk1
  rw [View.read_apply]
  show V c main_arg7 _ = V c main_arg7 _
  refine congrArg _ ?_
  funext a; apply Fin.ext
  match a with
  | ⟨0, _⟩ => show win1_3.index t (0 : Fin 2) * 64 + 1 * d.val = d.val; omega
  | ⟨1, _⟩ => show win1_3.index t (1 : Fin 2) * 64 + 1 * j.val = j.val; omega

/-- Every point's block of the layer's bias row is that row. -/
theorem block1_4 (c : Dev nD) (t : Fin cfg1.N) (u : Fin 1) (j : Fin 64) :
    (Gen.iblk1 V c 4 t : Vec Ideal S1x64 .f32) (ix2 u j) = (V c main_v91 : S1x64.Idx → EReal) (ix2 u j) := by
  obtain ⟨-, -, ⟨e0, e1⟩, -⟩ := index_params1 t
  unfold Gen.iblk1
  rw [View.read_apply]
  show V c main_v91 _ = V c main_v91 _
  refine congrArg _ ?_
  funext a; apply Fin.ext
  match a with
  | ⟨0, _⟩ => show win1_4.index t (0 : Fin 2) * 1 + 1 * u.val = u.val; omega
  | ⟨1, _⟩ => show win1_4.index t (1 : Fin 2) * 64 + 1 * j.val = j.val; omega

/-- Every point's block of the head's first matrix is that matrix. -/
theorem block1_5 (c : Dev nD) (t : Fin cfg1.N) (d : Fin 64) (j : Fin 64) :
    (Gen.iblk1 V c 5 t : Vec Ideal S64x64 .f32) (ix2 d j) = (V c main_arg9 : S64x64.Idx → EReal) (ix2 d j) := by
  obtain ⟨-, -, -, ⟨e0, e1⟩, -⟩ := index_params1 t
  unfold Gen.iblk1
  rw [View.read_apply]
  show V c main_arg9 _ = V c main_arg9 _
  refine congrArg _ ?_
  funext a; apply Fin.ext
  match a with
  | ⟨0, _⟩ => show win1_5.index t (0 : Fin 2) * 64 + 1 * d.val = d.val; omega
  | ⟨1, _⟩ => show win1_5.index t (1 : Fin 2) * 64 + 1 * j.val = j.val; omega

/-- Every point's block of the head's first bias row is that row. -/
theorem block1_6 (c : Dev nD) (t : Fin cfg1.N) (u : Fin 1) (j : Fin 64) :
    (Gen.iblk1 V c 6 t : Vec Ideal S1x64 .f32) (ix2 u j) = (V c main_v92 : S1x64.Idx → EReal) (ix2 u j) := by
  obtain ⟨-, -, -, -, ⟨e0, e1⟩, -⟩ := index_params1 t
  unfold Gen.iblk1
  rw [View.read_apply]
  show V c main_v92 _ = V c main_v92 _
  refine congrArg _ ?_
  funext a; apply Fin.ext
  match a with
  | ⟨0, _⟩ => show win1_6.index t (0 : Fin 2) * 1 + 1 * u.val = u.val; omega
  | ⟨1, _⟩ => show win1_6.index t (1 : Fin 2) * 64 + 1 * j.val = j.val; omega

/-- Every point's block of the head's second matrix is that matrix. -/
theorem block1_7 (c : Dev nD) (t : Fin cfg1.N) (d : Fin 64) (j : Fin 16) :
    (Gen.iblk1 V c 7 t : Vec Ideal S64x16 .f32) (ix2 d j) = (V c main_arg11 : S64x16.Idx → EReal) (ix2 d j) := by
  obtain ⟨-, -, -, -, -, ⟨e0, e1⟩, -⟩ := index_params1 t
  unfold Gen.iblk1
  rw [View.read_apply]
  show V c main_arg11 _ = V c main_arg11 _
  refine congrArg _ ?_
  funext a; apply Fin.ext
  match a with
  | ⟨0, _⟩ => show win1_7.index t (0 : Fin 2) * 64 + 1 * d.val = d.val; omega
  | ⟨1, _⟩ => show win1_7.index t (1 : Fin 2) * 16 + 1 * j.val = j.val; omega

/-- Every point's block of the head's second bias row is that row. -/
theorem block1_8 (c : Dev nD) (t : Fin cfg1.N) (u : Fin 1) (j : Fin 16) :
    (Gen.iblk1 V c 8 t : Vec Ideal S1x16 .f32) (ix2 u j) = (V c main_v93 : S1x16.Idx → EReal) (ix2 u j) := by
  obtain ⟨-, -, -, -, -, -, e0, e1⟩ := index_params1 t
  unfold Gen.iblk1
  rw [View.read_apply]
  show V c main_v93 _ = V c main_v93 _
  refine congrArg _ ?_
  funext a; apply Fin.ext
  match a with
  | ⟨0, _⟩ => show win1_8.index t (0 : Fin 2) * 1 + 1 * u.val = u.val; omega
  | ⟨1, _⟩ => show win1_8.index t (1 : Fin 2) * 16 + 1 * j.val = j.val; omega

/-! ## The array the second call leaves -/

/-- The second layer and the head over whole arrays, as a function of the output's index. -/
def head1 (c : Dev nD) : S100000x16.Idx → EReal := fun i =>
  reluDense0 (reluDense0 (fun n d => eluExp (densePre (mat2 (V c main_v89 : S100000x320.Idx → EReal))
        (mat2 (V c main_v90 : S320x64.Idx → EReal)) (mat2 (V c main_v55 : S100000x64.Idx → EReal))
        (mat2 (V c main_arg7 : S64x64.Idx → EReal)) (fun j => (V c main_v91 : S1x64.Idx → EReal) (ix2 0 j)) n d))
      (mat2 (V c main_arg9 : S64x64.Idx → EReal)) (fun j => (V c main_v92 : S1x64.Idx → EReal) (ix2 0 j)))
    (mat2 (V c main_arg11 : S64x16.Idx → EReal)) (fun j => (V c main_v93 : S1x16.Idx → EReal) (ix2 0 j)) (i 0) (i 1)

/-- What point t writes back is block t of that function over whole arrays. -/
theorem flushed1 (c : Dev nD) (t : Fin cfg1.N) :
    (Gen.dat1 V c).flushed 9 t = ((cfg1.win 9).blk t).view.read (Elt Ideal) (head1 V c) := by
  show (cfg1.win 9).cut (grid1.coords t) ((Gen.dat1 V c).after 9 t) = _
  rw [Gen.after1_9]
  unfold Gen.out1_9
  rw [View.canon_unit_zero zero_offsets]
  simp only [View.ld_unit_zero (S := S4000x320) zero_offsets, View.ld_unit_zero (S := S320x64) zero_offsets,
    View.ld_unit_zero (S := S4000x64) zero_offsets, View.ld_unit_zero (S := S64x64) zero_offsets,
    View.ld_unit_zero (S := S1x64) zero_offsets, View.ld_unit_zero (S := S64x16) zero_offsets,
    View.ld_unit_zero (S := S1x16) zero_offsets]
  funext j
  obtain ⟨p, q, rfl⟩ : ∃ (p : Fin 4000) (q : Fin 16), j = ix2 p q := ⟨j 0, j 1, eq_ix2 j⟩
  have ht : t.val < 25 := lt_of_lt_of_eq t.isLt Gen.N_1
  have hn : 4000 * t.val + p.val < 100000 := by have := p.isLt; omega
  obtain ⟨-, -, -, -, e0, e1⟩ := index_rows1 t
  show Gen.k1_pay1 (F := Ideal) (Gen.k1_pay2 (Gen.iblk1 V c 1 t) (Gen.iblk1 V c 2 t) (Gen.iblk1 V c 0 t)
        (Gen.iblk1 V c 3 t) (Gen.iblk1 V c 4 t) (Gen.iblk1 V c 5 t) (Gen.iblk1 V c 6 t))
      (Gen.k1_pay3 (Gen.iblk1 V c 7 t)) (Gen.iblk1 V c 8 t) (ix2 p q)
    = head1 V c (((cfg1.win 9).blk t).view.emb (ix2 p q))
  refine (pay1_rows (V c main_v89) (V c main_v90) (V c main_v55) (V c main_arg7) (V c main_v91) (V c main_arg9)
    (V c main_v92) (V c main_arg11) (V c main_v93)
    (Gen.iblk1 V c 1 t) (Gen.iblk1 V c 2 t) (Gen.iblk1 V c 0 t) (Gen.iblk1 V c 3 t) (Gen.iblk1 V c 4 t)
    (Gen.iblk1 V c 5 t) (Gen.iblk1 V c 6 t) (Gen.iblk1 V c 7 t) (Gen.iblk1 V c 8 t)
    ⟨4000 * t.val + p.val, hn⟩ p q (fun k => block1_1 V c t p k _ rfl) (fun k j => block1_2 V c t k j)
    (fun d => block1_0 V c t p d _ rfl) (fun d j => block1_3 V c t d j) (fun j => block1_4 V c t 0 j)
    (fun d j => block1_5 V c t d j) (fun j => block1_6 V c t 0 j) (fun d j => block1_7 V c t d j)
    (fun j => block1_8 V c t 0 j)).trans ?_
  show head1 V c (ix2 ⟨4000 * t.val + p.val, hn⟩ q) = _
  refine congrArg (head1 V c) ?_
  funext a; apply Fin.ext
  match a with
  | ⟨0, _⟩ => show 4000 * t.val + p.val = win1_9.index t (0 : Fin 2) * 4000 + 1 * p.val; omega
  | ⟨1, _⟩ => show q.val = win1_9.index t (1 : Fin 2) * 16 + 1 * q.val; omega

/-- An index of the output array is in point t's block iff each coordinate is in the block's range on its axis. -/
theorem mem_block1 (t : Fin cfg1.N) (i : S100000x16.Idx) :
    i ∈ ((cfg1.win 9).blk t).view.set ↔ ∀ a : Fin 2, win1_9.index t a * S4000x16.size a ≤ (i a).val
      ∧ (i a).val < win1_9.index t a * S4000x16.size a + S4000x16.size a := by
  show i ∈ ((View.whole main_v94).slice (win1_9.rect t)).set ↔ _
  rw [View.set_slice_whole, Rect.mem_set_unit]
  exact Iff.rfl

/-- Row r of the output lies in the block of point r / 4000, and every point writes its block back. -/
theorem cover1 (i : S100000x16.Idx) :
    ∃ t : Fin cfg1.N, (cfg1.win 9).flush t = true ∧ i ∈ ((cfg1.win 9).blk t).view.set := by
  have h0 : (i 0).val < 100000 := idx2_lt0 i
  have h1 : (i 1).val < 16 := idx2_lt1 i
  have hN : cfg1.N = 25 := Gen.N_1
  have hq : (i 0).val / 4000 < cfg1.N := by rw [hN]; omega
  obtain ⟨-, -, -, -, e0, e1⟩ := index_rows1 ⟨(i 0).val / 4000, hq⟩
  refine ⟨⟨(i 0).val / 4000, hq⟩, Gen.flush1_9 _, ?_⟩
  rw [mem_block1]
  intro a
  match a with
  | ⟨0, _⟩ =>
    show win1_9.index ⟨(i 0).val / 4000, hq⟩ (0 : Fin 2) * 4000 ≤ (i 0).val
      ∧ (i 0).val < win1_9.index ⟨(i 0).val / 4000, hq⟩ (0 : Fin 2) * 4000 + 4000
    rw [e0]
    show (i 0).val / 4000 * 4000 ≤ (i 0).val ∧ (i 0).val < (i 0).val / 4000 * 4000 + 4000
    omega
  | ⟨1, _⟩ =>
    show win1_9.index ⟨(i 0).val / 4000, hq⟩ (1 : Fin 2) * 16 ≤ (i 1).val
      ∧ (i 1).val < win1_9.index ⟨(i 0).val / 4000, hq⟩ (1 : Fin 2) * 16 + 16
    rw [e1]
    omega

/-- The output array after the second call is that function over whole arrays. -/
theorem region1_array (c : Dev nD) : (Gen.dat1 V c).arrAt 9 cfg1.N = head1 V c :=
  (Gen.dat1 V c).arrAt_eq_of_cover 9 (head1 V c) (fun t _ => flushed1 V c t) cover1

/-- Entry (n, j) of the array the second call leaves. -/
theorem region1_apply (c : Dev nD) (n : Fin 100000) (j : Fin 16) :
    ((Gen.dat1 V c).arrAt 9 cfg1.N : S100000x16.Idx → EReal) (ix2 n j)
      = reluDense0 (reluDense0 (fun n d => eluExp (densePre (mat2 (V c main_v89 : S100000x320.Idx → EReal))
            (mat2 (V c main_v90 : S320x64.Idx → EReal)) (mat2 (V c main_v55 : S100000x64.Idx → EReal))
            (mat2 (V c main_arg7 : S64x64.Idx → EReal)) (fun j => (V c main_v91 : S1x64.Idx → EReal) (ix2 0 j)) n d))
          (mat2 (V c main_arg9 : S64x64.Idx → EReal)) (fun j => (V c main_v92 : S1x64.Idx → EReal) (ix2 0 j)))
        (mat2 (V c main_arg11 : S64x16.Idx → EReal)) (fun j => (V c main_v93 : S1x16.Idx → EReal) (ix2 0 j)) n j := by
  rw [region1_array]
  rfl

end Cert.KernelIdeal.Val

end
-- ==== Proof.KernelRegions.lean ====
/-
  The two pallas calls of the first program as whole-array functions, entry by entry.

  Each call's grid walks the 100000 rows in 25 bands of 4000; a band's stored block depends, row by row, only on the
  same row of the band's two row inputs and on the parameters, so the bands assemble into one function of the arrays
  as the call finds them: the first call leaves the first layer (region0_apply), the second call leaves the second
  layer passed through the two-layer head (region1_apply).
-/
import proofs.«403743_j85538568667548_2_alg».proof.Proof.KernelRegion0
import proofs.«403743_j85538568667548_2_alg».proof.Proof.KernelRegion1
-- ==== Proof.KernelLayer1.lean ====
/-
  Layer one of the first program, entry by entry.

  Under the hypothesis that every edge word is a node number, each array the host operations prepare for the
  first call is, entry by entry, the corresponding expression of the layer's definition: a source or
  destination word reads its edge's node; the looked-up reciprocal is the reciprocal clamped in-degree of the
  edge's destination; the fraction and the two slot words are those of the edge's pseudo-coordinate; the looked-up
  source row is the feature row of the edge's source. Hence the 100000 × 192 aggregate is the first
  arrangement's aggregate, the 192 × 64 array the stacked weights, the 1 × 64 array the bias; the features and the
  root matrix are as launched. The first call computes ELU of (aggregate · stacked weights + features · root +
  bias) row by row, so it leaves layer one of the first arrangement.
-/
import proofs.«403743_j85538568667548_2_alg».proof.Proof.Gen.KernelIdeal.Frame
import proofs.«403743_j85538568667548_2_alg».proof.Proof.KernelInputs
import proofs.«403743_j85538568667548_2_alg».proof.Proof.Spline
import proofs.«403743_j85538568667548_2_alg».proof.Proof.KernelReads
import proofs.«403743_j85538568667548_2_alg».proof.Proof.KernelStretches
import proofs.«403743_j85538568667548_2_alg».proof.Proof.KernelRegions

noncomputable section

namespace Cert.KernelIdeal.Val

open Idealize.ShloMosaic Idealize.ShloMosaic.TcCoe Idealize.ShloMosaic.ValueIdx Idealize.SL.Sem Cert.KernelIdeal Cert.Spline

variable (m : (ℓ : Loc nD τ sig) → Buf (Elt Ideal) ℓ) (ρ : Dev nD → PrngReg) (c : Dev nD)

/-! ## The per-edge data -/

variable (hr : InRange m c)

/-- A source word reads its edge's source node. -/
theorem srcWord_toNat (e : Fin 1600000) :
    ((Gen.W1 m ρ c (Proc.devRef .tc main_v1) : S1600000.Idx → BitVec 32) (ix1 e)).toNat = ((inputs m c hr).src e).val := by
  have h := Reads.edgeRow_apply (0 : Fin 2) (m ((c.tc : Thread nD τ).loc main_arg1)) Gen.slices_S2x1600000_S1x1600000_0_0
    Gen.shapeCasts_S1x1600000_S1600000 e
  rw [W1_src m ρ c]
  exact (congrArg BitVec.toNat h).trans rfl

/-- A destination word reads its edge's destination node. -/
theorem dstWord_toNat (e : Fin 1600000) :
    ((Gen.W1 m ρ c (Proc.devRef .tc main_v3) : S1600000.Idx → BitVec 32) (ix1 e)).toNat = ((inputs m c hr).dst e).val := by
  have h := Reads.edgeRow_apply (1 : Fin 2) (m ((c.tc : Thread nD τ).loc main_arg1)) Gen.slices_S2x1600000_S1x1600000_1_0
    Gen.shapeCasts_S1x1600000_S1600000 e
  rw [W1_dst m ρ c]
  exact (congrArg BitVec.toNat h).trans rfl

/-- The looked-up reciprocal at edge e is the reciprocal clamped in-degree of e's destination. -/
theorem recipAt_W1 (e : Fin 1600000) :
    (Gen.W1 m ρ c (Proc.devRef .tc main_v18) : S1600000.Idx → EReal) (ix1 e) = invdeg (inputs m c hr).dst ((inputs m c hr).dst e) := by
  rw [W1_recipAt m ρ c,
    Reads.lookupVec_apply _ rfl rfl rfl rfl _ _ _ _ _ e ((inputs m c hr).dst e) (dstWord_toNat m ρ c hr e) (by decide),
    Reads.recipVec_apply,
    Reads.degVec_apply _ rfl rfl rfl rfl _ _ _ _ (inputs m c hr).dst
      (fun e' => Reads.toInt_of_toNat (dstWord_toNat m ρ c hr e') ((inputs m c hr).dst e').isLt (by decide))]
  rfl

/-- The fraction of edge e. -/
theorem frac_W1 (e : Fin 1600000) :
    (Gen.W1 m ρ c (Proc.devRef .tc main_v23) : S1600000.Idx → EReal) (ix1 e) = frac κ3 ((inputs m c hr).ps e) := by
  rw [W1_frac m ρ c, Reads.fracVec_pos_apply, Reads.colVec_apply]
  rfl

/-- The base slot word of edge e. -/
theorem slot0_W2 (e : Fin 1600000) :
    (Gen.W2 m ρ c (Proc.devRef .tc main_v26) : S1600000.Idx → BitVec 32) (ix1 e) = slot0 2#32 κ3 ((inputs m c hr).ps e) := by
  rw [W2_slot0 m ρ c, Reads.slot0Words_pos_apply, Reads.colVec_apply]
  rfl

/-- The next slot word of edge e. -/
theorem slot1_W4 (e : Fin 1600000) :
    (Gen.W4 m ρ c (Proc.devRef .tc main_v29) : S1600000.Idx → BitVec 32) (ix1 e) = slot1 2#32 κ3 ((inputs m c hr).ps e) := by
  rw [W4_slot1 m ρ c, W2_slot0 m ρ c, Reads.slot1Words_pos_apply, Reads.colVec_apply]
  rfl

/-- The looked-up source row of edge e is the feature row of e's source. -/
theorem take_W5 (e : Fin 1600000) (d : Fin 64) :
    (Gen.W5 m ρ c (Proc.devRef .tc main_v30) : S1600000x64.Idx → EReal) (ix2 e d) = (inputs m c hr).x ((inputs m c hr).src e) d := by
  have hsrc : ∀ e' : Fin 1600000,
      ((Gen.W4 m ρ c (Proc.devRef .tc main_v1) : S1600000.Idx → BitVec 32) (ix1 e')).toNat = ((inputs m c hr).src e').val := fun e' => by
    rw [W4_v1 m ρ c]; exact srcWord_toNat m ρ c hr e'
  have hx : (Gen.W4 m ρ c (Proc.devRef .tc main_arg0) : S100000x64.Idx → EReal) (ix2 ((inputs m c hr).src e) d) = (inputs m c hr).x ((inputs m c hr).src e) d := by
    rw [W4_arg0 m ρ c]; rfl
  rw [W5_take m ρ c]
  exact (Reads.takeRows_apply (N := 100000) (E := 1600000) (D := 64)
    gather_S100000x64_S1600000x1_S1600000x64_1_0_n_n_0_1_164 rfl rfl rfl rfl rfl
    (Gen.W4 m ρ c (Proc.devRef .tc main_arg0)) 100000#32 99999#32 0x7FC00000#32 (Gen.W4 m ρ c (Proc.devRef .tc main_v1))
    Gen.bcast_S_S1600000 Gen.bcast_S1600000_S1600000x1_0 Gen.bcast_S_S1600000x1 Gen.bcast_S1_S1x1_1 Gen.bcast_S1x1_S1600000x1_0_1
    Gen.reducesTo_S1600000x1_S1600000_d1 Gen.h_S_ Gen.bcast_S1600000_S1600000x64_0 Gen.bcast_S_S1600000x64
    (inputs m c hr).src hsrc (by decide) (by decide) e d).trans hx

/-! ## What the first call reads -/

set_option maxHeartbeats 1000000 in
/-- The aggregate the first call reads, entry by entry: the first arrangement's aggregate. -/
theorem agg1_apply (n : Fin 100000) (cc : Fin 192) :
    (Gen.W6 m ρ c (Proc.devRef .tc main_v52) : S100000x192.Idx → EReal) (ix2 n cc)
      = aggFused (inputs m c hr).src (inputs m c hr).dst (fun e => frac κ3 ((inputs m c hr).ps e)) (s0_3 (inputs m c hr)) (s1_3 (inputs m c hr)) (inputs m c hr).x n
          (colSlot (M := 192) (K := 3) (D := 64) rfl cc) (colFeat (M := 192) (D := 64) (by decide) cc) := by
  have hdst : ∀ e : Fin 1600000,
      ((Gen.W5 m ρ c (Proc.devRef .tc main_v3) : S1600000.Idx → BitVec 32) (ix1 e)).toNat = ((inputs m c hr).dst e).val := fun e => by
    rw [W5_v3 m ρ c]; exact dstWord_toNat m ρ c hr e
  have hs0 : ∀ e : Fin 1600000,
      ((Gen.W5 m ρ c (Proc.devRef .tc main_v26) : S1600000.Idx → BitVec 32) (ix1 e)).toNat = (s0_3 (inputs m c hr) e).val := fun e => by
    rw [W5_v26 m ρ c, slot0_W2 m ρ c hr e]; rfl
  have hs1 : ∀ e : Fin 1600000,
      ((Gen.W5 m ρ c (Proc.devRef .tc main_v29) : S1600000.Idx → BitVec 32) (ix1 e)).toNat = (s1_3 (inputs m c hr) e).val := fun e => by
    rw [W5_v29 m ρ c, slot1_W4 m ρ c hr e]; rfl
  rw [W6_agg m ρ c]
  refine (Reads.fusedAgg_apply (N := 100000) (E := 1600000) (D := 64) (Kn := 3) (NK := 300000) (M := 192)
    (E2 := 3200000) scatter_S300000x64_S3200000x1_S3200000x64_1_0_0_1 rfl rfl rfl rfl 3#32
    (Gen.W5 m ρ c (Proc.devRef .tc main_v3)) (Gen.W5 m ρ c (Proc.devRef .tc main_v26)) (Gen.W5 m ρ c (Proc.devRef .tc main_v29)) (Gen.W5 m ρ c (Proc.devRef .tc main_v30))
    (Gen.W5 m ρ c (Proc.devRef .tc main_v23)) (Gen.W5 m ρ c (Proc.devRef .tc main_v18))
    Gen.bcast_S_S1600000 Gen.bcast_S1600000_S1600000x1_0 Gen.bcast_S1600000x1_S1600000x64_0_1 Gen.concatenates_S1600000_S1600000_S3200000_d0
    Gen.concatenates_S1600000x64_S1600000x64_S3200000x64_d0 Gen.bcast_S_S300000x64
    Gen.bcast_S3200000_S3200000x1_0 Gen.shapeCasts_S300000x64_S100000x192
    rfl rfl rfl rfl (by decide) (by decide) (inputs m c hr).dst hdst (s0_3 (inputs m c hr)) (s1_3 (inputs m c hr)) hs0 hs1 n cc).trans ?_
  unfold aggFused
  refine congrArg (0 + ·) (congrArg₂ (· + ·)
    (Finset.sum_congr rfl fun e _ => if_congr Iff.rfl ?_ rfl)
    (Finset.sum_congr rfl fun e _ => if_congr Iff.rfl ?_ rfl))
  · rw [take_W5 m ρ c hr, W5_v23 m ρ c, frac_W1 m ρ c hr, W5_v18 m ρ c, recipAt_W1 m ρ c hr]
  · rw [take_W5 m ρ c hr, W5_v23 m ρ c, frac_W1 m ρ c hr, W5_v18 m ρ c, recipAt_W1 m ρ c hr]

/-- The stacked weights the first call reads: row c is row c mod 64 of matrix c / 64. -/
theorem w1flat_apply (cc : Fin 192) (j : Fin 64) :
    (Gen.W6 m ρ c (Proc.devRef .tc main_v53) : S192x64.Idx → EReal) (ix2 cc j)
      = (inputs m c hr).W1 (colSlot (M := 192) (K := 3) (D := 64) rfl cc) (colFeat (M := 192) (D := 64) (by decide) cc) j := by
  rw [W6_w1flat m ρ c]
  refine (Reads.stackedWeights_apply (K := 3) (D := 64) (J := 64) (M := 192) _ _ rfl (by decide) cc j).trans ?_
  rw [W5_arg3 m ρ c]
  rfl

/-- The bias row the first call reads. -/
theorem b1row_apply (j : Fin 64) :
    (Gen.W6 m ρ c (Proc.devRef .tc main_v54) : S1x64.Idx → EReal) (ix2 0 j) = (inputs m c hr).b1 j := by
  rw [W6_b1row m ρ c, Reads.biasRow_apply, W5_arg5 m ρ c]
  rfl

/-- The reciprocal clamped in-degree at edge e's destination, as the first call's entry finds it. -/
theorem recipAt_apply (e : Fin 1600000) :
    (Gen.W6 m ρ c (Proc.devRef .tc main_v18) : S1600000.Idx → EReal) (ix1 e) = invdeg (inputs m c hr).dst ((inputs m c hr).dst e) := by
  rw [W6_v18 m ρ c]
  exact recipAt_W1 m ρ c hr e

/-- The destination words, as the first call's entry finds them: row 1 of the edge array. -/
theorem dstRow_apply (e : Fin 1600000) :
    (Gen.W6 m ρ c (Proc.devRef .tc main_v3) : S1600000.Idx → BitVec 32) (ix1 e)
      = (m ((c.tc : Thread nD τ).loc main_arg1) : S2x1600000.Idx → BitVec 32) (ix2 1 e) := by
  rw [W6_v3 m ρ c, W1_dst m ρ c]
  exact Reads.edgeRow_apply (1 : Fin 2) _ _ _ e

/-- The source words, as the first call's entry finds them: row 0 of the edge array. -/
theorem srcRow_apply (e : Fin 1600000) :
    (Gen.W6 m ρ c (Proc.devRef .tc main_v1) : S1600000.Idx → BitVec 32) (ix1 e)
      = (m ((c.tc : Thread nD τ).loc main_arg1) : S2x1600000.Idx → BitVec 32) (ix2 0 e) := by
  rw [W6_v1 m ρ c, W1_src m ρ c]
  exact Reads.edgeRow_apply (0 : Fin 2) _ _ _ e

/-! ## What the first call leaves -/

/-- The first call leaves layer one of the first arrangement. -/
theorem h1_apply (n : Fin 100000) (d : Fin 64) :
    (Gen.W7 m ρ c (Proc.devRef .tc main_v55) : S100000x64.Idx → EReal) (ix2 n d) = h1Fused (by decide) (inputs m c hr) n d := by
  have h7 : Gen.W7 m ρ c (Proc.devRef .tc main_v55) = (Gen.dat0 (Gen.V6 m ρ) c).arrAt 5 cfg0.N := Gen.W7_arr m ρ c 5
  refine (congrFun h7 (ix2 n d)).trans ?_
  refine (region0_apply (Gen.V6 m ρ) c n d).trans ?_
  have hA : mat2 (Gen.V6 m ρ c main_v52 : S100000x192.Idx → EReal)
      = fun n' (cc : Fin 192) => aggFused (inputs m c hr).src (inputs m c hr).dst (fun e => frac κ3 ((inputs m c hr).ps e)) (s0_3 (inputs m c hr)) (s1_3 (inputs m c hr)) (inputs m c hr).x n'
          (colSlot (M := 192) (K := 3) (D := 64) rfl cc) (colFeat (M := 192) (D := 64) (by decide) cc) :=
    funext fun n' => funext fun cc => agg1_apply m ρ c hr n' cc
  have hW : mat2 (Gen.V6 m ρ c main_v53 : S192x64.Idx → EReal)
      = fun (cc : Fin 192) j => (inputs m c hr).W1 (colSlot (M := 192) (K := 3) (D := 64) rfl cc) (colFeat (M := 192) (D := 64) (by decide) cc) j :=
    funext fun cc => funext fun j => w1flat_apply m ρ c hr cc j
  have hX : mat2 (Gen.V6 m ρ c main_arg0 : S100000x64.Idx → EReal) = (inputs m c hr).x := by
    show mat2 (Gen.W6 m ρ c (Proc.devRef .tc main_arg0) : S100000x64.Idx → EReal) = _
    rw [W6_arg0 m ρ c]; rfl
  have hR : mat2 (Gen.V6 m ρ c main_arg4 : S64x64.Idx → EReal) = (inputs m c hr).root1 := by
    show mat2 (Gen.W6 m ρ c (Proc.devRef .tc main_arg4) : S64x64.Idx → EReal) = _
    rw [W6_arg4 m ρ c]; rfl
  have hb : (fun j => (Gen.V6 m ρ c main_v54 : S1x64.Idx → EReal) (ix2 0 j)) = (inputs m c hr).b1 :=
    funext fun j => b1row_apply m ρ c hr j
  rw [hA, hW, hX, hR, hb]
  rfl

end Cert.KernelIdeal.Val

end
-- ==== Proof.KernelLayer2Terms.lean ====
/-
  Layer two of the first arrangement, as arrays and index by index.

  Every edge e has a pseudo-coordinate p. Its position is p · 4; its fraction is the position less the position
  rounded down; its base slot is the rounded-down position as a word, clipped to [0, 4]; its next slot is the base
  slot plus one, clipped again. Read at edge e these four arrays are the position, fraction, base slot and next
  slot of the edge's own pseudo-coordinate.

  The rows of a node array taken at the edges' source words, with a fill wherever a word is not a row number:
  when every source word is a node number below 100000 the wrap of negative words does nothing, the in-range
  mask (a conjunction of bits that are all one) is one everywhere, the fill never fires, and row e of the
  result is the node array's row at the node the word names.

  The aggregate: each edge contributes its gathered row twice, weighted by (1 − fraction) · (reciprocal degree
  of its destination) into cell destination · 5 + base slot and by fraction · (that reciprocal) into cell
  destination · 5 + next slot; the 500000 × 64 table of cells, started from zero, is read as 100000 × 320. At
  (n, c) it is zero plus the base-slot contributions plus the next-slot contributions of the edges that end at
  n in slot c / 64, in feature c mod 64: the general fused aggregate at 100000 nodes, 1600000 edges, 64
  features and 5 slots. The stacked weights read at (c, j) are matrix c / 64, row c mod 64, column j.
-/
import proofs.«403743_j85538568667548_2_alg».proof.Proof.Gen.KernelIdeal
import proofs.«403743_j85538568667548_2_alg».proof.Proof.Spline
import proofs.«403743_j85538568667548_2_alg».proof.Proof.LibIndexMaps
import proofs.«403743_j85538568667548_2_alg».proof.Proof.LibWordArith
import proofs.«403743_j85538568667548_2_alg».proof.Proof.LibLayoutReads
import proofs.«403743_j85538568667548_2_alg».proof.Proof.RefReads
import proofs.«403743_j85538568667548_2_alg».proof.Proof.KernelReads
import Idealize.ShloMosaic.Lib.ValueLayout

noncomputable section

namespace Cert.KernelIdeal.Val.L2

open Idealize.ShloMosaic Idealize.ShloMosaic.ValueIdx Idealize.SL.Sem Cert.KernelIdeal Cert.Spline
open Cert.Gcn

/-- An index of the shape without axes is the empty index. -/
theorem scalar_at {α : Type} (x : S_.Idx → α) (k : S_.Idx) : x k = x ix0 := congrArg x (eq_ix0 k)

/-! ## Position, fraction, base word of every edge -/

def posArr (p : FVec Ideal S1600000x1 .f32) : FVec Ideal S1600000 .f32 :=
  mulf (shapeCast S1600000 p Gen.shapeCasts_S1600000x1_S1600000)
    (broadcastInDim S1600000 ![] Gen.bcast_S_S1600000 (constant (F := Ideal) S_ .f32 0x40800000#32))

def fracArr (p : FVec Ideal S1600000x1 .f32) : FVec Ideal S1600000 .f32 := subf (posArr p) (Host.floor (posArr p))

def baseArr (p : FVec Ideal S1600000x1 .f32) : IVec S1600000 32 := fptosi 32 (Host.floor (posArr p))

theorem posArr_apply (p : FVec Ideal S1600000x1 .f32) (e : Fin 1600000) : posArr p (ix1 e) = pos κ5 (p (ix2 e 0)) := by
  unfold posArr pos
  show shapeCast S1600000 p _ (ix1 e) * _ = _
  rw [LayoutReads.shapeCast_ab_n_apply p _ e e (0 : Fin 1) (by simp)]
  rfl

theorem fracArr_apply (p : FVec Ideal S1600000x1 .f32) (e : Fin 1600000) : fracArr p (ix1 e) = frac κ5 (p (ix2 e 0)) := by
  unfold fracArr frac base
  show posArr p (ix1 e) - Ideal.liftRound Int.floor (posArr p (ix1 e)) = _
  rw [posArr_apply]

theorem baseArr_apply (p : FVec Ideal S1600000x1 .f32) (e : Fin 1600000) :
    baseArr p (ix1 e) = Ideal.fptosi 32 (base κ5 (p (ix2 e 0))) := by
  unfold baseArr base
  show Ideal.fptosi 32 (Ideal.liftRound Int.floor (posArr p (ix1 e))) = _
  rw [posArr_apply]

/-! ## The clip of a word array -/

def clipArr (lo hi : IVec S_ 32) (x : IVec S1600000 32) : IVec S1600000 32 :=
  minsi (broadcastInDim S1600000 ![] Gen.bcast_S_S1600000 (id hi)) (maxsi (broadcastInDim S1600000 ![] Gen.bcast_S_S1600000 (id lo)) x)

theorem clipArr_apply (lo hi : IVec S_ 32) (x : IVec S1600000 32) (e : Fin 1600000) :
    clipArr lo hi x (ix1 e) = IntOp.minsi (hi ix0) (IntOp.maxsi (lo ix0) (x (ix1 e))) := by
  unfold clipArr
  show IntOp.minsi (hi _) (IntOp.maxsi (lo _) (x (ix1 e))) = _
  rw [scalar_at hi, scalar_at lo]

def slot0Arr (p : FVec Ideal S1600000x1 .f32) : IVec S1600000 32 :=
  clipArr (constantI S_ 32 0#32) (constantI S_ 32 4#32) (baseArr p)

def slot1Arr (p : FVec Ideal S1600000x1 .f32) : IVec S1600000 32 :=
  clipArr (constantI S_ 32 0#32) (constantI S_ 32 4#32)
    (addi (slot0Arr p) (broadcastInDim S1600000 ![] Gen.bcast_S_S1600000 (constantI S_ 32 1#32)))

theorem slot0Arr_apply (p : FVec Ideal S1600000x1 .f32) (e : Fin 1600000) :
    slot0Arr p (ix1 e) = slot0 4#32 κ5 (p (ix2 e 0)) := by
  unfold slot0Arr slot0
  rw [clipArr_apply, baseArr_apply]
  rfl

theorem slot1Arr_apply (p : FVec Ideal S1600000x1 .f32) (e : Fin 1600000) :
    slot1Arr p (ix1 e) = slot1 4#32 κ5 (p (ix2 e 0)) := by
  unfold slot1Arr slot1
  rw [clipArr_apply]
  show IntOp.minsi 4#32 (IntOp.maxsi 0#32 (IntOp.addi (slot0Arr p (ix1 e)) 1#32)) = _
  rw [slot0Arr_apply]

/-- The decoded slots are the slot words read as naturals. -/
theorem s0_5_val {N E D C : ℕ} (I : Inputs N E D C) (e : Fin E) : (s0_5 I e).val = (slot0 4#32 κ5 (I.ps e)).toNat := by
  unfold s0_5 slotFin; rfl
theorem s1_5_val {N E D C : ℕ} (I : Inputs N E D C) (e : Fin E) : (s1_5 I e).val = (slot1 4#32 κ5 (I.ps e)).toNat := by
  unfold s1_5 slotFin; rfl

/-! ## The row gather with a fill, when every index word is a row number -/

/-- A conjunction-fold from 1 over entries that are all 1 is 1. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  have key : ∀ (l : List (Fin s.numel)) (acc : BitVec 1), acc = 1#1 →
      l.foldl (fun r n => IntOp.andi r (x (s.rowMajor.symm n))) acc = 1#1 := by
    intro l
    induction l with
    | nil => intro acc h; exact h
    | cons a l ih =>
      intro acc h
      rw [List.foldl_cons]
      apply ih
      rw [h, hx]
      rfl
  exact key _ _ (hi _)

def takeIdx (sw : IVec S1600000 32) : IVec S1600000x1 32 :=
  broadcastInDim S1600000x1 ![0] Gen.bcast_S1600000_S1600000x1_0
    (select (cmpi .slt sw (broadcastInDim S1600000 ![] Gen.bcast_S_S1600000 (constantI S_ 32 0#32)))
      (addi sw (broadcastInDim S1600000 ![] Gen.bcast_S_S1600000 (constantI S_ 32 100000#32))) sw)

def takeMask (v5 : IVec S1600000x1 32) : IVec S1600000x64 1 :=
  broadcastInDim S1600000x64 ![0] Gen.bcast_S1600000_S1600000x64_0
    (Host.reduce IntOp.andi
      (andi (cmpi .sge v5 (broadcastInDim S1600000x1 ![] Gen.bcast_S_S1600000x1 (constantI S_ 32 0#32)))
        (cmpi .sle v5 (broadcastInDim S1600000x1 ![0, 1] Gen.bcast_S1x1_S1600000x1_0_1
          (broadcastInDim S1x1 ![1] Gen.bcast_S1_S1x1_1 (constantI S1 32 99999#32)))))
      (constantI S_ 1 1#1) Gen.reducesTo_S1600000x1_S1600000_d1 Gen.h_S_)

def takeArr (X : FVec Ideal S100000x64 .f32) (sw : IVec S1600000 32) : FVec Ideal S1600000x64 .f32 :=
  select (takeMask (takeIdx sw))
    (Host.gather gather_S100000x64_S1600000x1_S1600000x64_1_0_n_n_0_1_164 X (takeIdx sw))
    (broadcastInDim S1600000x64 ![] Gen.bcast_S_S1600000x64 (constant (F := Ideal) S_ .f32 0x7FC00000#32))

theorem takeIdx_apply (sw : IVec S1600000 32) (e : Fin 1600000) (u : Fin 1) (hs : (sw (ix1 e)).toNat < 100000) :
    takeIdx sw (ix2 e u) = sw (ix1 e) := by
  unfold takeIdx
  rw [LayoutReads.broadcastInDim_a_a1_apply]
  show Scalar.select (IntOp.cmpi .slt (sw (ix1 e)) 0#32) (IntOp.addi (sw (ix1 e)) 100000#32) (sw (ix1 e)) = _
  exact WordArith.select_slt_zero_small _ (by omega)

theorem takeMask_apply (v5 : IVec S1600000x1 32)
    (hv : ∀ (e : Fin 1600000) (u : Fin 1), (v5 (ix2 e u)).toNat < 100000) (j : S1600000x64.Idx) :
    takeMask v5 j = 1#1 := by
  unfold takeMask
  show Host.reduce IntOp.andi _ _ _ _ _ = 1#1
  refine reduce_andi_one _ _ _ _ (fun i => ?_) (fun _ => rfl) _
  obtain ⟨e, u, rfl⟩ : ∃ (e : Fin 1600000) (u : Fin 1), i = ix2 e u := ⟨i 0, i 1, eq_ix2 i⟩
  show IntOp.andi (IntOp.cmpi .sge (v5 (ix2 e u)) 0#32) (IntOp.cmpi .sle (v5 (ix2 e u)) 99999#32) = 1#1
  have h := hv e u
  rw [WordArith.sge_small (by omega) (by decide), WordArith.sle_small (by omega) (by decide)]
  rw [if_pos (by simp), if_pos (by show (v5 (ix2 e u)).toNat ≤ 99999; omega)]
  rfl

theorem takeArr_apply (X : FVec Ideal S100000x64 .f32) (sw : IVec S1600000 32)
    (hs : ∀ e : Fin 1600000, (sw (ix1 e)).toNat < 100000) (e : Fin 1600000) (d : Fin 64) :
    takeArr X sw (ix2 e d) = X (ix2 ⟨(sw (ix1 e)).toNat, hs e⟩ d) := by
  unfold takeArr
  rw [select_apply, takeMask_apply _ (fun e' u => by rw [takeIdx_apply sw e' u (hs e')]; exact hs e'), select_one]
  exact IndexMaps.gather2_ix_apply _ rfl rfl rfl rfl rfl X (takeIdx sw) e d _ (hs e)
    (by rw [takeIdx_apply sw e 0 (hs e)]; exact WordArith.toInt_of_small (by have := hs e; omega))

/-! ## The one scatter into (destination, slot) cells, read as N × (5·64) -/

/-- The aggregate of layer two as the generic fused aggregate at 100000 nodes, 1600000 edges, 64 features, 5 slots. -/
def aggArr (dw s0w s1w : IVec S1600000 32) (T : FVec Ideal S1600000x64 .f32) (fr rc : FVec Ideal S1600000 .f32) :
    FVec Ideal S100000x320 .f32 :=
  Reads.fusedAgg (N := 100000) (E := 1600000) (D := 64) (NK := 500000) (M := 320) (E2 := 3200000)
    scatter_S500000x64_S3200000x1_S3200000x64_1_0_0_1 5#32 dw s0w s1w T fr rc
    Gen.bcast_S_S1600000 Gen.bcast_S1600000_S1600000x1_0 Gen.bcast_S1600000x1_S1600000x64_0_1
    Gen.concatenates_S1600000_S1600000_S3200000_d0 Gen.concatenates_S1600000x64_S1600000x64_S3200000x64_d0
    Gen.bcast_S_S500000x64 Gen.bcast_S3200000_S3200000x1_0 Gen.shapeCasts_S500000x64_S100000x320

theorem aggArr_apply (dw s0w s1w : IVec S1600000 32) (T : FVec Ideal S1600000x64 .f32) (fr rc : FVec Ideal S1600000 .f32)
    (dst : Fin 1600000 → Fin 100000) (hdst : ∀ e, (dw (ix1 e)).toNat = (dst e).val)
    (s0 s1 : Fin 1600000 → Fin 5) (hs0 : ∀ e, (s0w (ix1 e)).toNat = (s0 e).val)
    (hs1 : ∀ e, (s1w (ix1 e)).toNat = (s1 e).val) (n : Fin 100000) (cc : Fin 320) :
    aggArr dw s0w s1w T fr rc (ix2 n cc)
      = 0 + ((∑ e : Fin 1600000, if dst e = n ∧ s0 e = colSlot (M := 320) (K := 5) (D := 64) rfl cc
                then T (ix2 e (colFeat (M := 320) (D := 64) (by decide) cc)) * ((1 - fr (ix1 e)) * rc (ix1 e)) else 0)
           + (∑ e : Fin 1600000, if dst e = n ∧ s1 e = colSlot (M := 320) (K := 5) (D := 64) rfl cc
                then T (ix2 e (colFeat (M := 320) (D := 64) (by decide) cc)) * (fr (ix1 e) * rc (ix1 e)) else 0)) :=
  Reads.fusedAgg_apply (N := 100000) (E := 1600000) (D := 64) (Kn := 5) (NK := 500000) (M := 320) (E2 := 3200000)
    scatter_S500000x64_S3200000x1_S3200000x64_1_0_0_1 rfl rfl rfl rfl 5#32 dw s0w s1w T fr rc
    Gen.bcast_S_S1600000 Gen.bcast_S1600000_S1600000x1_0 Gen.bcast_S1600000x1_S1600000x64_0_1
    Gen.concatenates_S1600000_S1600000_S3200000_d0 Gen.concatenates_S1600000x64_S1600000x64_S3200000x64_d0
    Gen.bcast_S_S500000x64 Gen.bcast_S3200000_S3200000x1_0 Gen.shapeCasts_S500000x64_S100000x320
    rfl rfl rfl rfl (by decide) (by decide) dst hdst s0 s1 hs0 hs1 n cc

/-! ## The reshaped parameters -/

theorem stackedW2_apply (w : FVec Ideal S5x64x64 .f32) (cc : Fin 320) (j : Fin 64) :
    shapeCast S320x64 w Gen.shapeCasts_S5x64x64_S320x64 (ix2 cc j)
      = w (ix3 (colSlot (M := 320) (K := 5) (D := 64) rfl cc) (colFeat (M := 320) (D := 64) (by decide) cc) j) :=
  Reads.stackedWeights_apply (K := 5) (D := 64) (J := 64) (M := 320) w _ rfl (by decide) cc j

end Cert.KernelIdeal.Val.L2

end
-- ==== Proof.KernelLayer2Fold.lean ====
/-
  Layer two of the first program, read through the run: from what the first region leaves to what the second
  region is given.

  Between the two regions six stretches of host operations run. A buffer a stretch does not write holds after it
  what it held before; a buffer it writes holds a term of the buffers the stretch reads. Chaining the six:
  the fraction of every edge's position (scale 4), its base slot and its next slot clipped to [0, 4], the rows
  of layer one's result taken at the edges' sources (every source word is a node number, so the fill never
  fires), and the one scatter into (destination · 5 + slot) cells read as 100000 × 320. The reciprocal clamped
  degree at the destinations and the two rows of edge words were computed before the first region and are
  carried over unchanged, as are the arguments.

  Given layer one's result and those three carried arrays, the aggregate the second region reads is the first
  arrangement's aggregate (node, slot c / 64, feature c mod 64) over layer one's result; the stacked weights, the
  three bias rows and the three parameter matrices are the inputs'. The second region computes the head of the
  network over ELU(aggregate · stacked weights + features · root + bias), which is the first arrangement's
  result.
-/
import proofs.«403743_j85538568667548_2_alg».proof.Proof.Gen.KernelIdeal.Frame
import proofs.«403743_j85538568667548_2_alg».proof.Proof.KernelInputs
import proofs.«403743_j85538568667548_2_alg».proof.Proof.Spline
import proofs.«403743_j85538568667548_2_alg».proof.Proof.KernelReads
import proofs.«403743_j85538568667548_2_alg».proof.Proof.KernelLayer2Terms
import proofs.«403743_j85538568667548_2_alg».proof.Proof.KernelRegions

set_option maxRecDepth 16384

noncomputable section

namespace Cert.KernelIdeal.Val.L2

open Idealize.ShloMosaic Idealize.ShloMosaic.TcCoe Idealize.ShloMosaic.ValueIdx Idealize.SL.Sem Cert.KernelIdeal Cert.Spline
open Cert.Gcn

variable (m : (ℓ : Loc nD τ sig) → Buf (Elt Ideal) ℓ) (ρ : Dev nD → PrngReg) (c : Dev nD)

/-! ## What each stretch of host operations between the two regions writes -/

abbrev hostOps1_W : List (Ref sig .tc) :=
  [main_v56, main_cst_14, main_v57, main_v58, main_v59, main_v60, main_v61, main_v62, main_c_15, main_c_16]
abbrev hostOps1_1_W : List (Ref sig .tc) :=
  [main_call3_v0, main_call3_v1, main_call3_v2, main_call3_v3, main_call3_v4, main_v63]
abbrev hostOps1_2_W : List (Ref sig .tc) := [main_c_17, main_v64, main_v65, main_c_18, main_c_19]
abbrev hostOps1_3_W : List (Ref sig .tc) :=
  [main_call4_v0, main_call4_v1, main_call4_v2, main_call4_v3, main_call4_v4, main_v66]
abbrev hostOps1_4_W : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10,
   main_call5_v11, main_call5_c_3, main_call5_v12, main_call5_v13, main_call5_v14, main_call5_cst, main_call5_v15, main_v67]
abbrev hostOps1_5_W : List (Ref sig .tc) :=
  [main_cst_20, main_v68, main_v69, main_v70, main_v71, main_c_21, main_v72, main_v73, main_v74, main_c_22, main_v75,
   main_v76, main_v77, main_v78, main_v79, main_v80, main_v81, main_v82, main_v83, main_v84, main_v85, main_cst_23,
   main_v86, main_v87, main_v88, main_v89, main_v90, main_v91, main_v92, main_v93]

theorem hostOps1_writes : (Gen.hostOps1 : List (HloOp τ sig (Elt Ideal))).Forall fun op =>
    op.writes ⊆ (hostOps1_W.map (Proc.devRef (τ := τ) .tc)).toFinset := by
  simp only [Gen.hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps1_1_writes : (Gen.hostOps1_1 : List (HloOp τ sig (Elt Ideal))).Forall fun op =>
    op.writes ⊆ (hostOps1_1_W.map (Proc.devRef (τ := τ) .tc)).toFinset := by
  simp only [Gen.hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps1_2_writes : (Gen.hostOps1_2 : List (HloOp τ sig (Elt Ideal))).Forall fun op =>
    op.writes ⊆ (hostOps1_2_W.map (Proc.devRef (τ := τ) .tc)).toFinset := by
  simp only [Gen.hostOps1_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps1_3_writes : (Gen.hostOps1_3 : List (HloOp τ sig (Elt Ideal))).Forall fun op =>
    op.writes ⊆ (hostOps1_3_W.map (Proc.devRef (τ := τ) .tc)).toFinset := by
  simp only [Gen.hostOps1_3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps1_4_writes : (Gen.hostOps1_4 : List (HloOp τ sig (Elt Ideal))).Forall fun op =>
    op.writes ⊆ (hostOps1_4_W.map (Proc.devRef (τ := τ) .tc)).toFinset := by
  simp only [Gen.hostOps1_4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem hostOps1_5_writes : (Gen.hostOps1_5 : List (HloOp τ sig (Elt Ideal))).Forall fun op =>
    op.writes ⊆ (hostOps1_5_W.map (Proc.devRef (τ := τ) .tc)).toFinset := by
  simp only [Gen.hostOps1_5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer a stretch does not write holds after it what it held before. -/
theorem W8_of (r : Ref sig .tc) (h : r ∉ hostOps1_W) :
    Gen.W8 m ρ c (Proc.devRef .tc r) = Gen.W7 m ρ c (Proc.devRef .tc r) :=
  StableHlo.after_of_writes_sub Gen.hostOps1 _ hostOps1_writes h
theorem W9_of (r : Ref sig .tc) (h : r ∉ hostOps1_1_W) :
    Gen.W9 m ρ c (Proc.devRef .tc r) = Gen.W8 m ρ c (Proc.devRef .tc r) :=
  StableHlo.after_of_writes_sub Gen.hostOps1_1 _ hostOps1_1_writes h
theorem W10_of (r : Ref sig .tc) (h : r ∉ hostOps1_2_W) :
    Gen.W10 m ρ c (Proc.devRef .tc r) = Gen.W9 m ρ c (Proc.devRef .tc r) :=
  StableHlo.after_of_writes_sub Gen.hostOps1_2 _ hostOps1_2_writes h
theorem W11_of (r : Ref sig .tc) (h : r ∉ hostOps1_3_W) :
    Gen.W11 m ρ c (Proc.devRef .tc r) = Gen.W10 m ρ c (Proc.devRef .tc r) :=
  StableHlo.after_of_writes_sub Gen.hostOps1_3 _ hostOps1_3_writes h
theorem W12_of (r : Ref sig .tc) (h : r ∉ hostOps1_4_W) :
    Gen.W12 m ρ c (Proc.devRef .tc r) = Gen.W11 m ρ c (Proc.devRef .tc r) :=
  StableHlo.after_of_writes_sub Gen.hostOps1_4 _ hostOps1_4_writes h
theorem W13_of (r : Ref sig .tc) (h : r ∉ hostOps1_5_W) :
    Gen.W13 m ρ c (Proc.devRef .tc r) = Gen.W12 m ρ c (Proc.devRef .tc r) :=
  StableHlo.after_of_writes_sub Gen.hostOps1_5 _ hostOps1_5_writes h

/-! ## Each stretch's results as terms of the buffers it reads, from any contents `V` -/

section Stages
variable (V : Valuation τ sig (Elt Ideal))

theorem stage1_frac : (StableHlo.after Gen.hostOps1 V (Proc.devRef .tc main_v60) : FVec Ideal S1600000 .f32)
    = fracArr (V (Proc.devRef .tc main_arg2)) := by
  after_results_simp; rfl
theorem stage1_base : (StableHlo.after Gen.hostOps1 V (Proc.devRef .tc main_v62) : IVec S1600000 32)
    = baseArr (V (Proc.devRef .tc main_arg2)) := by
  after_results_simp; rfl
theorem stage1_lo : (StableHlo.after Gen.hostOps1 V (Proc.devRef .tc main_c_15) : IVec S_ 32) = constantI S_ 32 0#32 := by
  after_results_simp
theorem stage1_hi : (StableHlo.after Gen.hostOps1 V (Proc.devRef .tc main_c_16) : IVec S_ 32) = constantI S_ 32 4#32 := by
  after_results_simp
theorem stage2_clip : (StableHlo.after Gen.hostOps1_1 V (Proc.devRef .tc main_v63) : IVec S1600000 32)
    = clipArr (V (Proc.devRef .tc main_c_15)) (V (Proc.devRef .tc main_c_16)) (V (Proc.devRef .tc main_v62)) := by
  after_results_simp; rfl
theorem stage3_next : (StableHlo.after Gen.hostOps1_2 V (Proc.devRef .tc main_v65) : IVec S1600000 32)
    = addi (V (Proc.devRef .tc main_v63)) (broadcastInDim S1600000 ![] Gen.bcast_S_S1600000 (constantI S_ 32 1#32)) := by
  after_results_simp
theorem stage3_lo : (StableHlo.after Gen.hostOps1_2 V (Proc.devRef .tc main_c_18) : IVec S_ 32) = constantI S_ 32 0#32 := by
  after_results_simp
theorem stage3_hi : (StableHlo.after Gen.hostOps1_2 V (Proc.devRef .tc main_c_19) : IVec S_ 32) = constantI S_ 32 4#32 := by
  after_results_simp
theorem stage4_clip : (StableHlo.after Gen.hostOps1_3 V (Proc.devRef .tc main_v66) : IVec S1600000 32)
    = clipArr (V (Proc.devRef .tc main_c_18)) (V (Proc.devRef .tc main_c_19)) (V (Proc.devRef .tc main_v65)) := by
  after_results_simp; rfl
/-- A transport there and back is the identity. -/
theorem cast_cast_cancel {α β : Type} (h1 : β = α) (h2 : α = β) (v : α) : cast h1 (cast h2 v) = v := by
  subst h2; rfl

/-- At a buffer of the value's own type the transport of contents is the identity. -/
theorem ofBuf_v1 (x : (main_v1 : Ref sig .tc).ty.Contents (Elt Ideal)) :
    (StableHlo.TRef.of main_v1 : StableHlo.TRef sig ⟨S1600000, .i32⟩).ofBuf x = x := rfl
theorem ofBuf_v55 (x : (main_v55 : Ref sig .tc).ty.Contents (Elt Ideal)) :
    (StableHlo.TRef.of main_v55 : StableHlo.TRef sig ⟨S100000x64, .f32⟩).ofBuf x = x := rfl
theorem toBuf_v67 (x : (⟨S1600000x64, .f32⟩ : BufTy).Contents (Elt Ideal)) :
    (StableHlo.TRef.of main_v67 : StableHlo.TRef sig ⟨S1600000x64, .f32⟩).toBuf x = x := rfl

theorem stage5_take_cast : StableHlo.after Gen.hostOps1_4 V (Proc.devRef .tc main_v67)
    = (StableHlo.TRef.of main_v67 : StableHlo.TRef sig ⟨S1600000x64, .f32⟩).toBuf
        (takeArr ((StableHlo.TRef.of main_v55 : StableHlo.TRef sig ⟨S100000x64, .f32⟩).ofBuf (V (Proc.devRef .tc main_v55)))
          ((StableHlo.TRef.of main_v1 : StableHlo.TRef sig ⟨S1600000, .i32⟩).ofBuf (V (Proc.devRef .tc main_v1)))) := by
  after_results_simp
  simp only [cast_cast_cancel]
  rfl

theorem stage5_take : (StableHlo.after Gen.hostOps1_4 V (Proc.devRef .tc main_v67) : FVec Ideal S1600000x64 .f32)
    = takeArr (V (Proc.devRef .tc main_v55)) (V (Proc.devRef .tc main_v1)) :=
  (stage5_take_cast V).trans ((toBuf_v67 _).trans (congrArg₂ takeArr (ofBuf_v55 _) (ofBuf_v1 _)))
theorem stage6_agg : (StableHlo.after Gen.hostOps1_5 V (Proc.devRef .tc main_v89) : FVec Ideal S100000x320 .f32)
    = aggArr (V (Proc.devRef .tc main_v3)) (V (Proc.devRef .tc main_v63)) (V (Proc.devRef .tc main_v66))
        (V (Proc.devRef .tc main_v67)) (V (Proc.devRef .tc main_v60)) (V (Proc.devRef .tc main_v18)) := by
  after_results_simp; rfl
theorem stage6_w2 : (StableHlo.after Gen.hostOps1_5 V (Proc.devRef .tc main_v90) : FVec Ideal S320x64 .f32)
    = shapeCast S320x64 (V (Proc.devRef .tc main_arg6) : FVec Ideal S5x64x64 .f32) Gen.shapeCasts_S5x64x64_S320x64 := by
  after_results_simp; rfl
theorem stage6_b2 : (StableHlo.after Gen.hostOps1_5 V (Proc.devRef .tc main_v91) : FVec Ideal S1x64 .f32)
    = shapeCast S1x64 (V (Proc.devRef .tc main_arg8) : FVec Ideal S64 .f32) Gen.shapeCasts_S64_S1x64 := by
  after_results_simp; rfl
theorem stage6_bm1 : (StableHlo.after Gen.hostOps1_5 V (Proc.devRef .tc main_v92) : FVec Ideal S1x64 .f32)
    = shapeCast S1x64 (V (Proc.devRef .tc main_arg10) : FVec Ideal S64 .f32) Gen.shapeCasts_S64_S1x64 := by
  after_results_simp; rfl
theorem stage6_bm2 : (StableHlo.after Gen.hostOps1_5 V (Proc.devRef .tc main_v93) : FVec Ideal S1x16 .f32)
    = shapeCast S1x16 (V (Proc.devRef .tc main_arg12) : FVec Ideal S16 .f32) Gen.shapeCasts_S16_S1x16 := by
  after_results_simp; rfl

end Stages

/-! ## The buffers layer two reads, at the boundaries where it reads them -/

/-- A buffer none of the six stretches writes holds at the second region's entry what the first region left. -/
theorem W13_W7 (r : Ref sig .tc) (h1 : r ∉ hostOps1_W) (h2 : r ∉ hostOps1_1_W) (h3 : r ∉ hostOps1_2_W)
    (h4 : r ∉ hostOps1_3_W) (h5 : r ∉ hostOps1_4_W) (h6 : r ∉ hostOps1_5_W) :
    Gen.W13 m ρ c (Proc.devRef .tc r) = Gen.W7 m ρ c (Proc.devRef .tc r) := by
  rw [W13_of m ρ c r h6, W12_of m ρ c r h5, W11_of m ρ c r h4, W10_of m ρ c r h3, W9_of m ρ c r h2, W8_of m ρ c r h1]

theorem W12_W7 (r : Ref sig .tc) (h1 : r ∉ hostOps1_W) (h2 : r ∉ hostOps1_1_W) (h3 : r ∉ hostOps1_2_W)
    (h4 : r ∉ hostOps1_3_W) (h5 : r ∉ hostOps1_4_W) :
    Gen.W12 m ρ c (Proc.devRef .tc r) = Gen.W7 m ρ c (Proc.devRef .tc r) := by
  rw [W12_of m ρ c r h5, W11_of m ρ c r h4, W10_of m ρ c r h3, W9_of m ρ c r h2, W8_of m ρ c r h1]

theorem W11_W7 (r : Ref sig .tc) (h1 : r ∉ hostOps1_W) (h2 : r ∉ hostOps1_1_W) (h3 : r ∉ hostOps1_2_W)
    (h4 : r ∉ hostOps1_3_W) :
    Gen.W11 m ρ c (Proc.devRef .tc r) = Gen.W7 m ρ c (Proc.devRef .tc r) := by
  rw [W11_of m ρ c r h4, W10_of m ρ c r h3, W9_of m ρ c r h2, W8_of m ρ c r h1]

/-- An argument that neither region takes as an array and no stretch writes is, where the first region ends, as launched. -/
theorem W7_arg (r : Ref sig .tc) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : ∀ w, Pipeline.arrRef spec1 w ≠ r)
    (hm : Gen.W14 m ρ c (Proc.devRef .tc r) = m ((c : Thread nD τ).loc r)) :
    Gen.W7 m ρ c (Proc.devRef .tc r) = m ((c : Thread nD τ).loc r) := by
  rw [← W13_W7 m ρ c r h1 h2 h3 h4 h5 h6, ← Gen.W14_of_ne m ρ c r h7, hm]

theorem W7_arg2 : Gen.W7 m ρ c (Proc.devRef .tc main_arg2) = m ((c : Thread nD τ).loc main_arg2) :=
  W7_arg m ρ c main_arg2 (by decide) (by decide) (by decide) (by decide) (by decide) (by decide) (by decide)
    (Gen.W14_main_arg2 m ρ c)
theorem W7_arg6 : Gen.W7 m ρ c (Proc.devRef .tc main_arg6) = m ((c : Thread nD τ).loc main_arg6) :=
  W7_arg m ρ c main_arg6 (by decide) (by decide) (by decide) (by decide) (by decide) (by decide) (by decide)
    (Gen.W14_main_arg6 m ρ c)
theorem W7_arg8 : Gen.W7 m ρ c (Proc.devRef .tc main_arg8) = m ((c : Thread nD τ).loc main_arg8) :=
  W7_arg m ρ c main_arg8 (by decide) (by decide) (by decide) (by decide) (by decide) (by decide) (by decide)
    (Gen.W14_main_arg8 m ρ c)
theorem W7_arg10 : Gen.W7 m ρ c (Proc.devRef .tc main_arg10) = m ((c : Thread nD τ).loc main_arg10) :=
  W7_arg m ρ c main_arg10 (by decide) (by decide) (by decide) (by decide) (by decide) (by decide) (by decide)
    (Gen.W14_main_arg10 m ρ c)
theorem W7_arg12 : Gen.W7 m ρ c (Proc.devRef .tc main_arg12) = m ((c : Thread nD τ).loc main_arg12) :=
  W7_arg m ρ c main_arg12 (by decide) (by decide) (by decide) (by decide) (by decide) (by decide) (by decide)
    (Gen.W14_main_arg12 m ρ c)

/-- An array the second region only reads is, at its entry, what the region leaves: so an argument among them is as launched. -/
theorem W13_arg7 : Gen.W13 m ρ c (Proc.devRef .tc main_arg7) = m ((c : Thread nD τ).loc main_arg7) :=
  ((Gen.W14_arr m ρ c 3).trans (((Gen.dat1 (Gen.V13 m ρ) c).arrAt_in 3 rfl _).trans (Gen.A_eq1 (Gen.V13 m ρ) c 3))).symm.trans
    (Gen.W14_main_arg7 m ρ c)
theorem W13_arg9 : Gen.W13 m ρ c (Proc.devRef .tc main_arg9) = m ((c : Thread nD τ).loc main_arg9) :=
  ((Gen.W14_arr m ρ c 5).trans (((Gen.dat1 (Gen.V13 m ρ) c).arrAt_in 5 rfl _).trans (Gen.A_eq1 (Gen.V13 m ρ) c 5))).symm.trans
    (Gen.W14_main_arg9 m ρ c)
theorem W13_arg11 : Gen.W13 m ρ c (Proc.devRef .tc main_arg11) = m ((c : Thread nD τ).loc main_arg11) :=
  ((Gen.W14_arr m ρ c 7).trans (((Gen.dat1 (Gen.V13 m ρ) c).arrAt_in 7 rfl _).trans (Gen.A_eq1 (Gen.V13 m ρ) c 7))).symm.trans
    (Gen.W14_main_arg11 m ρ c)

/-! ## Layer two's per-edge arrays -/

theorem W8_frac : (Gen.W8 m ρ c (Proc.devRef .tc main_v60) : FVec Ideal S1600000 .f32)
    = fracArr (m ((c : Thread nD τ).loc main_arg2)) :=
  (stage1_frac (Gen.W7 m ρ c)).trans (congrArg fracArr (W7_arg2 m ρ c))

theorem W9_slot0 : (Gen.W9 m ρ c (Proc.devRef .tc main_v63) : IVec S1600000 32)
    = slot0Arr (m ((c : Thread nD τ).loc main_arg2)) := by
  refine (stage2_clip (Gen.W8 m ρ c)).trans ?_
  rw [show Gen.W8 m ρ c (Proc.devRef .tc main_c_15) = _ from stage1_lo (Gen.W7 m ρ c),
    show Gen.W8 m ρ c (Proc.devRef .tc main_c_16) = _ from stage1_hi (Gen.W7 m ρ c),
    show Gen.W8 m ρ c (Proc.devRef .tc main_v62) = _ from stage1_base (Gen.W7 m ρ c), W7_arg2]
  rfl

theorem W11_slot1 : (Gen.W11 m ρ c (Proc.devRef .tc main_v66) : IVec S1600000 32)
    = slot1Arr (m ((c : Thread nD τ).loc main_arg2)) := by
  refine (stage4_clip (Gen.W10 m ρ c)).trans ?_
  rw [show Gen.W10 m ρ c (Proc.devRef .tc main_c_18) = _ from stage3_lo (Gen.W9 m ρ c),
    show Gen.W10 m ρ c (Proc.devRef .tc main_c_19) = _ from stage3_hi (Gen.W9 m ρ c),
    show Gen.W10 m ρ c (Proc.devRef .tc main_v65) = _ from stage3_next (Gen.W9 m ρ c), W9_slot0]
  rfl

/-! ## Layer two, index by index -/

section Layer2
variable (hr : InRange m c)
/- What layer one hands over: its result where the first region ends, and, where that region begins, the
   reciprocal clamped degree at every edge's destination and the two rows of edge words. -/
variable (H1 : ∀ (n : Fin 100000) (d : Fin 64),
    (Gen.W7 m ρ c (Proc.devRef .tc main_v55) : S100000x64.Idx → EReal) (ix2 n d) = h1Fused (by decide) (inputs m c hr) n d)
variable (Hrc : ∀ e : Fin 1600000,
    (Gen.W6 m ρ c (Proc.devRef .tc main_v18) : S1600000.Idx → EReal) (ix1 e)
      = invdeg (inputs m c hr).dst ((inputs m c hr).dst e))
variable (Hd : ∀ e : Fin 1600000,
    (Gen.W6 m ρ c (Proc.devRef .tc main_v3) : S1600000.Idx → BitVec 32) (ix1 e)
      = (m ((c.tc : Thread nD τ).loc main_arg1) : S2x1600000.Idx → BitVec 32) (ix2 1 e))
variable (Hs : ∀ e : Fin 1600000,
    (Gen.W6 m ρ c (Proc.devRef .tc main_v1) : S1600000.Idx → BitVec 32) (ix1 e)
      = (m ((c.tc : Thread nD τ).loc main_arg1) : S2x1600000.Idx → BitVec 32) (ix2 0 e))
include hr H1 Hrc Hd Hs

theorem frac2_apply (e : Fin 1600000) :
    (Gen.W12 m ρ c (Proc.devRef .tc main_v60) : S1600000.Idx → EReal) (ix1 e) = frac κ5 ((inputs m c hr).ps e) := by
  rw [W12_of m ρ c main_v60 (by decide), W11_of m ρ c main_v60 (by decide), W10_of m ρ c main_v60 (by decide),
    W9_of m ρ c main_v60 (by decide), W8_frac]
  exact fracArr_apply _ e

theorem slot0w_apply (e : Fin 1600000) :
    (Gen.W12 m ρ c (Proc.devRef .tc main_v63) : S1600000.Idx → BitVec 32) (ix1 e) = slot0 4#32 κ5 ((inputs m c hr).ps e) := by
  rw [W12_of m ρ c main_v63 (by decide), W11_of m ρ c main_v63 (by decide), W10_of m ρ c main_v63 (by decide), W9_slot0]
  exact slot0Arr_apply _ e

theorem slot1w_apply (e : Fin 1600000) :
    (Gen.W12 m ρ c (Proc.devRef .tc main_v66) : S1600000.Idx → BitVec 32) (ix1 e) = slot1 4#32 κ5 ((inputs m c hr).ps e) := by
  rw [W12_of m ρ c main_v66 (by decide), W11_slot1]
  exact slot1Arr_apply _ e

theorem dstw_apply (e : Fin 1600000) :
    ((Gen.W12 m ρ c (Proc.devRef .tc main_v3) : S1600000.Idx → BitVec 32) (ix1 e)).toNat = ((inputs m c hr).dst e).val := by
  rw [W12_W7 m ρ c main_v3 (by decide) (by decide) (by decide) (by decide) (by decide),
    Gen.W7_of_ne m ρ c main_v3 (by decide), Hd e]
  rfl

theorem srcw_apply (e : Fin 1600000) :
    (Gen.W11 m ρ c (Proc.devRef .tc main_v1) : S1600000.Idx → BitVec 32) (ix1 e)
      = (m ((c.tc : Thread nD τ).loc main_arg1) : S2x1600000.Idx → BitVec 32) (ix2 0 e) := by
  rw [W11_W7 m ρ c main_v1 (by decide) (by decide) (by decide) (by decide),
    Gen.W7_of_ne m ρ c main_v1 (by decide), Hs e]

theorem recip2_apply (e : Fin 1600000) :
    (Gen.W12 m ρ c (Proc.devRef .tc main_v18) : S1600000.Idx → EReal) (ix1 e)
      = invdeg (inputs m c hr).dst ((inputs m c hr).dst e) := by
  rw [W12_W7 m ρ c main_v18 (by decide) (by decide) (by decide) (by decide) (by decide),
    Gen.W7_of_ne m ρ c main_v18 (by decide), Hrc e]

/-- The gathered rows of layer one's result: row e is the row of edge e's source. -/
theorem take2_apply (e : Fin 1600000) (d : Fin 64) :
    (Gen.W12 m ρ c (Proc.devRef .tc main_v67) : S1600000x64.Idx → EReal) (ix2 e d)
      = h1Fused (by decide) (inputs m c hr) ((inputs m c hr).src e) d := by
  have hs : ∀ e' : Fin 1600000, ((Gen.W11 m ρ c (Proc.devRef .tc main_v1) : IVec S1600000 32) (ix1 e')).toNat < 100000 :=
    fun e' => by rw [srcw_apply m ρ c hr H1 Hrc Hd Hs e']; exact hr 0 e'
  rw [show Gen.W12 m ρ c (Proc.devRef .tc main_v67) = _ from stage5_take (Gen.W11 m ρ c), takeArr_apply _ _ hs e d,
    W11_W7 m ρ c main_v55 (by decide) (by decide) (by decide) (by decide)]
  have hsrc : (⟨((Gen.W11 m ρ c (Proc.devRef .tc main_v1) : IVec S1600000 32) (ix1 e)).toNat, hs e⟩ : Fin 100000)
      = (inputs m c hr).src e := by
    apply Fin.ext
    show ((Gen.W11 m ρ c (Proc.devRef .tc main_v1) : IVec S1600000 32) (ix1 e)).toNat
      = ((m ((c.tc : Thread nD τ).loc main_arg1) : S2x1600000.Idx → BitVec 32) (ix2 0 e)).toNat
    rw [srcw_apply m ρ c hr H1 Hrc Hd Hs e]
  rw [hsrc]
  exact H1 _ d

/-- The aggregate the second region reads: the first arrangement's, at (node, slot, feature). -/
theorem agg2_apply (n : Fin 100000) (cc : Fin 320) :
    (Gen.W13 m ρ c (Proc.devRef .tc main_v89) : S100000x320.Idx → EReal) (ix2 n cc)
      = aggFused (inputs m c hr).src (inputs m c hr).dst (fun e => frac κ5 ((inputs m c hr).ps e))
          (s0_5 (inputs m c hr)) (s1_5 (inputs m c hr)) (h1Fused (by decide) (inputs m c hr)) n
          (colSlot (M := 320) (K := 5) (D := 64) rfl cc) (colFeat (M := 320) (D := 64) (by decide) cc) := by
  rw [show Gen.W13 m ρ c (Proc.devRef .tc main_v89) = _ from stage6_agg (Gen.W12 m ρ c),
    aggArr_apply _ _ _ _ _ _ (inputs m c hr).dst (dstw_apply m ρ c hr H1 Hrc Hd Hs) (s0_5 (inputs m c hr)) (s1_5 (inputs m c hr))
      (fun e => (congrArg BitVec.toNat (slot0w_apply m ρ c hr H1 Hrc Hd Hs e)).trans (s0_5_val _ e).symm)
      (fun e => (congrArg BitVec.toNat (slot1w_apply m ρ c hr H1 Hrc Hd Hs e)).trans (s1_5_val _ e).symm) n cc]
  unfold aggFused
  simp only [take2_apply m ρ c hr H1 Hrc Hd Hs, frac2_apply m ρ c hr H1 Hrc Hd Hs, recip2_apply m ρ c hr H1 Hrc Hd Hs]

/-- The stacked weights the second region reads. -/
theorem w2_apply (cc : Fin 320) (j : Fin 64) :
    (Gen.W13 m ρ c (Proc.devRef .tc main_v90) : S320x64.Idx → EReal) (ix2 cc j)
      = (inputs m c hr).W2 (colSlot (M := 320) (K := 5) (D := 64) rfl cc) (colFeat (M := 320) (D := 64) (by decide) cc) j := by
  rw [show Gen.W13 m ρ c (Proc.devRef .tc main_v90) = _ from stage6_w2 (Gen.W12 m ρ c), stackedW2_apply,
    W12_W7 m ρ c main_arg6 (by decide) (by decide) (by decide) (by decide) (by decide), W7_arg6]
  rfl

theorem b2_apply (j : Fin 64) :
    (Gen.W13 m ρ c (Proc.devRef .tc main_v91) : S1x64.Idx → EReal) (ix2 0 j) = (inputs m c hr).b2 j := by
  rw [show Gen.W13 m ρ c (Proc.devRef .tc main_v91) = _ from stage6_b2 (Gen.W12 m ρ c), Reads.biasRow_apply,
    W12_W7 m ρ c main_arg8 (by decide) (by decide) (by decide) (by decide) (by decide), W7_arg8]
  rfl

theorem bm1_apply (j : Fin 64) :
    (Gen.W13 m ρ c (Proc.devRef .tc main_v92) : S1x64.Idx → EReal) (ix2 0 j) = (inputs m c hr).bm1 j := by
  rw [show Gen.W13 m ρ c (Proc.devRef .tc main_v92) = _ from stage6_bm1 (Gen.W12 m ρ c), Reads.biasRow_apply,
    W12_W7 m ρ c main_arg10 (by decide) (by decide) (by decide) (by decide) (by decide), W7_arg10]
  rfl

theorem bm2_apply (j : Fin 16) :
    (Gen.W13 m ρ c (Proc.devRef .tc main_v93) : S1x16.Idx → EReal) (ix2 0 j) = (inputs m c hr).bm2 j := by
  rw [show Gen.W13 m ρ c (Proc.devRef .tc main_v93) = _ from stage6_bm2 (Gen.W12 m ρ c), Reads.biasRow_apply,
    W12_W7 m ρ c main_arg12 (by decide) (by decide) (by decide) (by decide) (by decide), W7_arg12]
  rfl

theorem h1_entry (n : Fin 100000) (d : Fin 64) :
    (Gen.W13 m ρ c (Proc.devRef .tc main_v55) : S100000x64.Idx → EReal) (ix2 n d) = h1Fused (by decide) (inputs m c hr) n d := by
  rw [W13_W7 m ρ c main_v55 (by decide) (by decide) (by decide) (by decide) (by decide) (by decide)]
  exact H1 n d

/-- The first program's result: the first arrangement's network at the inputs as launched. -/
theorem result_apply (n : Fin 100000) (j : Fin 16) :
    (Gen.W14 m ρ c (Proc.devRef .tc main_v94) : S100000x16.Idx → EReal) (ix2 n j)
      = outFused (by decide) (inputs m c hr) n j := by
  rw [show Gen.W14 m ρ c (Proc.devRef .tc main_v94) = _ from Gen.W14_arr m ρ c 9, region1_apply (Gen.V13 m ρ) c n j]
  have hA : mat2 (Gen.V13 m ρ c main_v89 : S100000x320.Idx → EReal)
      = fun n (cc : Fin 320) => aggFused (inputs m c hr).src (inputs m c hr).dst (fun e => frac κ5 ((inputs m c hr).ps e))
          (s0_5 (inputs m c hr)) (s1_5 (inputs m c hr)) (h1Fused (by decide) (inputs m c hr)) n
          (colSlot (M := 320) (K := 5) (D := 64) rfl cc) (colFeat (M := 320) (D := 64) (by decide) cc) :=
    funext fun n => funext fun cc => agg2_apply m ρ c hr H1 Hrc Hd Hs n cc
  have hW : mat2 (Gen.V13 m ρ c main_v90 : S320x64.Idx → EReal)
      = fun (cc : Fin 320) j => (inputs m c hr).W2 (colSlot (M := 320) (K := 5) (D := 64) rfl cc)
          (colFeat (M := 320) (D := 64) (by decide) cc) j :=
    funext fun cc => funext fun j => w2_apply m ρ c hr H1 Hrc Hd Hs cc j
  have hX : mat2 (Gen.V13 m ρ c main_v55 : S100000x64.Idx → EReal) = h1Fused (by decide) (inputs m c hr) :=
    funext fun n => funext fun d => h1_entry m ρ c hr H1 Hrc Hd Hs n d
  have hR : mat2 (Gen.V13 m ρ c main_arg7 : S64x64.Idx → EReal) = (inputs m c hr).root2 :=
    congrArg mat2 (W13_arg7 m ρ c)
  have hb : (fun j => (Gen.V13 m ρ c main_v91 : S1x64.Idx → EReal) (ix2 0 j)) = (inputs m c hr).b2 :=
    funext fun j => b2_apply m ρ c hr H1 Hrc Hd Hs j
  have hWm1 : mat2 (Gen.V13 m ρ c main_arg9 : S64x64.Idx → EReal) = (inputs m c hr).Wm1 :=
    congrArg mat2 (W13_arg9 m ρ c)
  have hbm1 : (fun j => (Gen.V13 m ρ c main_v92 : S1x64.Idx → EReal) (ix2 0 j)) = (inputs m c hr).bm1 :=
    funext fun j => bm1_apply m ρ c hr H1 Hrc Hd Hs j
  have hWm2 : mat2 (Gen.V13 m ρ c main_arg11 : S64x16.Idx → EReal) = (inputs m c hr).Wm2 :=
    congrArg mat2 (W13_arg11 m ρ c)
  have hbm2 : (fun j => (Gen.V13 m ρ c main_v93 : S1x16.Idx → EReal) (ix2 0 j)) = (inputs m c hr).bm2 :=
    funext fun j => bm2_apply m ρ c hr H1 Hrc Hd Hs j
  rw [hA, hW, hX, hR, hb, hWm1, hbm1, hWm2, hbm2]
  rfl

end Layer2

end Cert.KernelIdeal.Val.L2

end
-- ==== Proof.KernelLayer2.lean ====
/-
  Layer two of the first program and the program's result, at the inputs as launched.

  Layer one hands over its result h1 (node by node), the reciprocal clamped degree at every edge's destination,
  and the two rows of edge words. With these, the array the second region reads as its aggregate is the first
  arrangement's aggregate over h1 at (node n, slot c / 64, feature c mod 64); its stacked weights, bias rows and
  matrices are the inputs'; and what the second region leaves in the result array is the first arrangement's
  network: the two-layer ReLU head over ELU(aggregate · stacked weights + h1 · root + bias).
-/
import proofs.«403743_j85538568667548_2_alg».proof.Proof.KernelLayer1
import proofs.«403743_j85538568667548_2_alg».proof.Proof.KernelLayer2Fold

noncomputable section

namespace Cert.KernelIdeal.Val

open Idealize.ShloMosaic Idealize.ShloMosaic.TcCoe Idealize.ShloMosaic.ValueIdx Idealize.SL.Sem Cert.KernelIdeal Cert.Spline

variable (m : (ℓ : Loc nD τ sig) → Buf (Elt Ideal) ℓ) (ρ : Dev nD → PrngReg) (c : Dev nD) (hr : InRange m c)

/-- The aggregate the second region reads: the first arrangement's, over layer one's result. -/
theorem agg2_apply (n : Fin 100000) (cc : Fin 320) :
    (Gen.W13 m ρ c (Proc.devRef .tc main_v89) : S100000x320.Idx → EReal) (ix2 n cc)
      = aggFused (inputs m c hr).src (inputs m c hr).dst (fun e => frac κ5 ((inputs m c hr).ps e))
          (s0_5 (inputs m c hr)) (s1_5 (inputs m c hr)) (h1Fused (by decide) (inputs m c hr)) n
          (colSlot (M := 320) (K := 5) (D := 64) rfl cc) (colFeat (M := 320) (D := 64) (by decide) cc) :=
  L2.agg2_apply m ρ c hr (h1_apply m ρ c hr) (recipAt_apply m ρ c hr) (dstRow_apply m ρ c) (srcRow_apply m ρ c) n cc

/-- The stacked weights the second region reads: matrix c / 64, row c mod 64. -/
theorem w2_apply (cc : Fin 320) (j : Fin 64) :
    (Gen.W13 m ρ c (Proc.devRef .tc main_v90) : S320x64.Idx → EReal) (ix2 cc j)
      = (inputs m c hr).W2 (colSlot (M := 320) (K := 5) (D := 64) rfl cc) (colFeat (M := 320) (D := 64) (by decide) cc) j :=
  L2.w2_apply m ρ c hr (h1_apply m ρ c hr) (recipAt_apply m ρ c hr) (dstRow_apply m ρ c) (srcRow_apply m ρ c) cc j

/-- The three bias rows the second region reads. -/
theorem b2_apply (j : Fin 64) :
    (Gen.W13 m ρ c (Proc.devRef .tc main_v91) : S1x64.Idx → EReal) (ix2 0 j) = (inputs m c hr).b2 j :=
  L2.b2_apply m ρ c hr (h1_apply m ρ c hr) (recipAt_apply m ρ c hr) (dstRow_apply m ρ c) (srcRow_apply m ρ c) j
theorem bm1_apply (j : Fin 64) :
    (Gen.W13 m ρ c (Proc.devRef .tc main_v92) : S1x64.Idx → EReal) (ix2 0 j) = (inputs m c hr).bm1 j :=
  L2.bm1_apply m ρ c hr (h1_apply m ρ c hr) (recipAt_apply m ρ c hr) (dstRow_apply m ρ c) (srcRow_apply m ρ c) j
theorem bm2_apply (j : Fin 16) :
    (Gen.W13 m ρ c (Proc.devRef .tc main_v93) : S1x16.Idx → EReal) (ix2 0 j) = (inputs m c hr).bm2 j :=
  L2.bm2_apply m ρ c hr (h1_apply m ρ c hr) (recipAt_apply m ρ c hr) (dstRow_apply m ρ c) (srcRow_apply m ρ c) j

/-- Layer one's result is still in place at the second region's entry. -/
theorem h1_entry (n : Fin 100000) (d : Fin 64) :
    (Gen.W13 m ρ c (Proc.devRef .tc main_v55) : S100000x64.Idx → EReal) (ix2 n d) = h1Fused (by decide) (inputs m c hr) n d :=
  L2.h1_entry m ρ c hr (h1_apply m ρ c hr) (recipAt_apply m ρ c hr) (dstRow_apply m ρ c) (srcRow_apply m ρ c) n d

/-- The three parameter matrices the second region reads are as launched. -/
theorem entry_arg7 : Gen.W13 m ρ c (Proc.devRef .tc main_arg7) = m ((c : Thread nD τ).loc main_arg7) := L2.W13_arg7 m ρ c
theorem entry_arg9 : Gen.W13 m ρ c (Proc.devRef .tc main_arg9) = m ((c : Thread nD τ).loc main_arg9) := L2.W13_arg9 m ρ c
theorem entry_arg11 : Gen.W13 m ρ c (Proc.devRef .tc main_arg11) = m ((c : Thread nD τ).loc main_arg11) := L2.W13_arg11 m ρ c

/-- The first program's result: the first arrangement's network at the inputs as launched. -/
theorem result_apply (n : Fin 100000) (j : Fin 16) :
    (Gen.W14 m ρ c (Proc.devRef .tc main_v94) : S100000x16.Idx → EReal) (ix2 n j)
      = outFused (by decide) (inputs m c hr) n j :=
  L2.result_apply m ρ c hr (h1_apply m ρ c hr) (recipAt_apply m ρ c hr) (dstRow_apply m ρ c) (srcRow_apply m ρ c) n j

end Cert.KernelIdeal.Val

end
-- ==== Proof.RefLayer1.lean ====
/-
  Layer one of the second arrangement, read off the program's operations.

  The first hundred statements compute, from the features, the edge array, the pseudo-coordinates, the three
  weight matrices, the root matrix and the bias: the edges' sources and destinations, their positions 2·p,
  fractions and two slot words, the gathered source rows, the in-degrees, for each of the three slots the
  messages weighted by (1 − frac)·[base = k] + frac·[next = k] and added up per destination, times the k-th
  weight matrix, the three products added to zeros; that sum over the clamped degree, plus the features times
  the root matrix, plus the bias; and ELU of it. Run piece by piece, every array the later pieces read is one
  of the named whole-array functions of the arrays before it, so that the hundredth array is one composed
  function of the six argument arrays; read at (n, j) under the statement that every edge word is a node
  number, that function is the layer's definition.
-/
import proofs.«403743_j85538568667548_2_alg».proof.Proof.RefInputs
import proofs.«403743_j85538568667548_2_alg».proof.Proof.RefReads
import proofs.«403743_j85538568667548_2_alg».proof.Proof.RefOps
import proofs.«403743_j85538568667548_2_alg».proof.Proof.RefRun

noncomputable section

namespace Cert.ReferenceIdeal.Val

open Cert.ReferenceIdeal Cert.ReferenceIdeal.Gen Cert.Spline Cert.Spline.Reads
open Idealize.ShloMosaic Idealize.ShloMosaic.TcCoe Idealize.ShloMosaic.ValueIdx Idealize.SL.Sem Idealize.ShloMosaic.StableHlo

/-! ## The layer as one function of the six argument arrays -/

section Arrays
variable (a0 : FVec Ideal S100000x64 .f32) (a1 : IVec S2x1600000 32) (a2 : FVec Ideal S1600000x1 .f32)
  (a3 : FVec Ideal S3x64x64 .f32) (a4 : FVec Ideal S64x64 .f32) (a5 : FVec Ideal S64 .f32)

/-- The edges' source words. -/
def srcW : S1600000.Idx → BitVec 32 := edgeRow 0 a1 slices_S2x1600000_S1x1600000_0_0 shapeCasts_S1x1600000_S1600000
/-- The edges' destination words. -/
def dstW : S1600000.Idx → BitVec 32 := edgeRow 1 a1 slices_S2x1600000_S1x1600000_1_0 shapeCasts_S1x1600000_S1600000
/-- The edges' positions: twice the pseudo-coordinates. -/
def posA : S1600000.Idx → EReal := posVec 0x40000000#32 (colVec a2 shapeCasts_S1600000x1_S1600000) bcast_S_S1600000
/-- The edges' fractions. -/
def fracA : S1600000.Idx → EReal := fracVec (posA a2)
/-- The edges' base slots. -/
def slot0A : S1600000.Idx → BitVec 32 := slot0Words 2#32 (posA a2) bcast_S_S1600000
/-- The edges' next slots. -/
def slot1A : S1600000.Idx → BitVec 32 := slot1Words 2#32 (slot0A a2) bcast_S_S1600000
/-- The edges' messages: the source rows. -/
def msgA : S1600000x64.Idx → EReal :=
  gatherRows gather_S100000x64_S1600000x1_S1600000x64_1_0_n_n_0_1_164 a0
    (wrapWords 100000#32 (srcW a1) bcast_S_S1600000) bcast_S1600000_S1600000x1_0
/-- The in-degrees. -/
def degA : S100000.Idx → EReal :=
  degVec scatter_S100000_S1600000x1_S1600000_n_0_0_1 (dstW a1) bcast_S_S100000 bcast_S_S1600000 bcast_S1600000_S1600000x1_0
/-- Slot k's product. -/
def prodA (k : ℕ) (kw : BitVec 32) (hs : S3x64x64.Slices ![k, 0, 0] S1x64x64) : S100000x64.Idx → EReal :=
  slotProd dot_S100000x64_S64x64_S100000x64_1_0_0_1_n_n scatter_S100000x64_S1600000x1_S1600000x64_1_0_0_1 k kw
    (dstW a1) (msgA a0 a1) (fracA a2) (slot0A a2) (slot1A a2) a3
    bcast_S_S1600000 bcast_S_S100000x64 bcast_S1600000_S1600000x1_0 bcast_S1600000x1_S1600000x64_0_1 hs shapeCasts_S1x64x64_S64x64
/-- The three slots' products added to zeros. -/
def sumA : S100000x64.Idx → EReal :=
  addf (addf (addf (splatF S100000x64 0x00000000#32 bcast_S_S100000x64)
    (prodA a0 a1 a2 a3 0 0#32 slices_S3x64x64_S1x64x64_0_0_0))
    (prodA a0 a1 a2 a3 1 1#32 slices_S3x64x64_S1x64x64_1_0_0))
    (prodA a0 a1 a2 a3 2 2#32 slices_S3x64x64_S1x64x64_2_0_0)
/-- Layer one. -/
def h1A : S100000x64.Idx → EReal :=
  eluArr S100000x64
    (preAct (sumA a0 a1 a2 a3) (degA a1) (Host.dotGeneral (F := Ideal) (φ₁ := .f32) (φ₂ := .f32) dot_S100000x64_S64x64_S100000x64_1_0_0_1_n_n none a0 a4) a5
      bcast_S_S100000 bcast_S100000_S100000x1_0 bcast_S100000x1_S100000x64_0_1 bcast_S64_S1x64_1 bcast_S1x64_S100000x64_0_1)
    bcast_S_S100000x64

end Arrays

/-! ## The four pieces of the run, each from the contents before it -/

section Pieces
variable (W : Valuation τ sig (Elt Ideal))

/-! ### The first piece: the edges' ends, positions, fractions and slot words -/

theorem a_v1 : (after (HandRun.opsL1a (F := Ideal)) W (main_v1 : DevRef τ sig) : S1600000.Idx → BitVec 32)
    = srcW (W (main_arg1 : DevRef τ sig)) := by
  after_results_simp
  rfl

theorem a_v3 : (after (HandRun.opsL1a (F := Ideal)) W (main_v3 : DevRef τ sig) : S1600000.Idx → BitVec 32)
    = dstW (W (main_arg1 : DevRef τ sig)) := by
  after_results_simp
  rfl

theorem a_v8 : (after (HandRun.opsL1a (F := Ideal)) W (main_v8 : DevRef τ sig) : S1600000.Idx → EReal)
    = fracA (W (main_arg2 : DevRef τ sig)) := by
  after_results_simp
  rfl

theorem a_v11 : (after (HandRun.opsL1a (F := Ideal)) W (main_v11 : DevRef τ sig) : S1600000.Idx → BitVec 32)
    = slot0A (W (main_arg2 : DevRef τ sig)) := by
  after_results_simp
  simp only [TRef.ofBuf, TRef.toBuf, cast_eq, id]
  rfl

theorem a_v14 : (after (HandRun.opsL1a (F := Ideal)) W (main_v14 : DevRef τ sig) : S1600000.Idx → BitVec 32)
    = slot1A (W (main_arg2 : DevRef τ sig)) := by
  after_results_simp
  simp only [TRef.ofBuf, TRef.toBuf, cast_eq, id]
  rfl

/-- Which source words are negative. -/
theorem a_v16 : (after (HandRun.opsL1a (F := Ideal)) W (main_v16 : DevRef τ sig) : S1600000.Idx → BitVec 1)
    = cmpi .slt (srcW (W (main_arg1 : DevRef τ sig))) (splatI S1600000 0#32 bcast_S_S1600000) := by
  after_results_simp
  rfl

/-- The number of nodes as a word. -/
theorem a_c5 : (after (HandRun.opsL1a (F := Ideal)) W (main_c_5 : DevRef τ sig) : S_.Idx → BitVec 32)
    = constantI S_ 32 100000#32 := by
  after_results_simp

/-! ### The second piece: the messages, the degrees, slot 0's aggregate -/

theorem b_v21 : (after (HandRun.opsL1b (F := Ideal)) W (main_v21 : DevRef τ sig) : S1600000x64.Idx → EReal)
    = Host.gather gather_S100000x64_S1600000x1_S1600000x64_1_0_n_n_0_1_164 (W (main_arg0 : DevRef τ sig) : S100000x64.Idx → EReal)
        (asCol (select (W (main_v16 : DevRef τ sig) : S1600000.Idx → BitVec 1)
          (addi (W (main_v1 : DevRef τ sig) : S1600000.Idx → BitVec 32)
            (broadcastInDim S1600000 ![] bcast_S_S1600000 (W (main_c_5 : DevRef τ sig) : S_.Idx → BitVec 32)))
          (W (main_v1 : DevRef τ sig) : S1600000.Idx → BitVec 32)) bcast_S1600000_S1600000x1_0) := by
  after_results_simp
  rfl

theorem b_v25 : (after (HandRun.opsL1b (F := Ideal)) W (main_v25 : DevRef τ sig) : S100000.Idx → EReal)
    = degVec scatter_S100000_S1600000x1_S1600000_n_0_0_1 (W (main_v3 : DevRef τ sig) : S1600000.Idx → BitVec 32)
        bcast_S_S100000 bcast_S_S1600000 bcast_S1600000_S1600000x1_0 := by
  after_results_simp
  rfl

theorem b_v26 : (after (HandRun.opsL1b (F := Ideal)) W (main_v26 : DevRef τ sig) : S100000x64.Idx → EReal)
    = splatF S100000x64 0x00000000#32 bcast_S_S100000x64 := by
  after_results_simp
  rfl

theorem b_v43 : (after (HandRun.opsL1b (F := Ideal)) W (main_v43 : DevRef τ sig) : S100000x64.Idx → EReal)
    = slotAgg scatter_S100000x64_S1600000x1_S1600000x64_1_0_0_1 (W (main_v3 : DevRef τ sig) : S1600000.Idx → BitVec 32)
        (after (HandRun.opsL1b (F := Ideal)) W (main_v21 : DevRef τ sig) : S1600000x64.Idx → EReal)
        (coeffVec 0#32 (W (main_v8 : DevRef τ sig) : S1600000.Idx → EReal) (W (main_v11 : DevRef τ sig) : S1600000.Idx → BitVec 32)
          (W (main_v14 : DevRef τ sig) : S1600000.Idx → BitVec 32) bcast_S_S1600000)
        bcast_S_S100000x64 bcast_S1600000_S1600000x1_0 bcast_S1600000x1_S1600000x64_0_1 := by
  after_results_simp
  rfl

theorem b_v44 : (after (HandRun.opsL1b (F := Ideal)) W (main_v44 : DevRef τ sig) : S1x64x64.Idx → EReal)
    = extractStridedSlice S1x64x64 ![0, 0, 0] (W (main_arg3 : DevRef τ sig) : S3x64x64.Idx → EReal) slices_S3x64x64_S1x64x64_0_0_0 := by
  after_results_simp

theorem b_v3 : after (HandRun.opsL1b (F := Ideal)) W (main_v3 : DevRef τ sig) = W (main_v3 : DevRef τ sig) := by
  after_results_simp
theorem b_v8 : after (HandRun.opsL1b (F := Ideal)) W (main_v8 : DevRef τ sig) = W (main_v8 : DevRef τ sig) := by
  after_results_simp
theorem b_v11 : after (HandRun.opsL1b (F := Ideal)) W (main_v11 : DevRef τ sig) = W (main_v11 : DevRef τ sig) := by
  after_results_simp
theorem b_v14 : after (HandRun.opsL1b (F := Ideal)) W (main_v14 : DevRef τ sig) = W (main_v14 : DevRef τ sig) := by
  after_results_simp

/-! ### The third piece: the three products, their sum over the clamped degree, the root product -/

set_option maxHeartbeats 2000000 in
theorem c_v94 : (after (HandRun.opsL1c (F := Ideal)) W (main_v94 : DevRef τ sig) : S100000x64.Idx → EReal)
    = Host.divf
        (addf (addf (addf (W (main_v26 : DevRef τ sig) : S100000x64.Idx → EReal)
          (Host.dotGeneral (F := Ideal) (φ₁ := .f32) (φ₂ := .f32) dot_S100000x64_S64x64_S100000x64_1_0_0_1_n_n none (W (main_v43 : DevRef τ sig) : S100000x64.Idx → EReal)
            (shapeCast S64x64 (W (main_v44 : DevRef τ sig) : S1x64x64.Idx → EReal) shapeCasts_S1x64x64_S64x64)))
          (slotProd dot_S100000x64_S64x64_S100000x64_1_0_0_1_n_n scatter_S100000x64_S1600000x1_S1600000x64_1_0_0_1 1 1#32
            (W (main_v3 : DevRef τ sig) : S1600000.Idx → BitVec 32) (W (main_v21 : DevRef τ sig) : S1600000x64.Idx → EReal)
            (W (main_v8 : DevRef τ sig) : S1600000.Idx → EReal) (W (main_v11 : DevRef τ sig) : S1600000.Idx → BitVec 32)
            (W (main_v14 : DevRef τ sig) : S1600000.Idx → BitVec 32) (W (main_arg3 : DevRef τ sig) : S3x64x64.Idx → EReal)
            bcast_S_S1600000 bcast_S_S100000x64 bcast_S1600000_S1600000x1_0 bcast_S1600000x1_S1600000x64_0_1
            slices_S3x64x64_S1x64x64_1_0_0 shapeCasts_S1x64x64_S64x64))
          (slotProd dot_S100000x64_S64x64_S100000x64_1_0_0_1_n_n scatter_S100000x64_S1600000x1_S1600000x64_1_0_0_1 2 2#32
            (W (main_v3 : DevRef τ sig) : S1600000.Idx → BitVec 32) (W (main_v21 : DevRef τ sig) : S1600000x64.Idx → EReal)
            (W (main_v8 : DevRef τ sig) : S1600000.Idx → EReal) (W (main_v11 : DevRef τ sig) : S1600000.Idx → BitVec 32)
            (W (main_v14 : DevRef τ sig) : S1600000.Idx → BitVec 32) (W (main_arg3 : DevRef τ sig) : S3x64x64.Idx → EReal)
            bcast_S_S1600000 bcast_S_S100000x64 bcast_S1600000_S1600000x1_0 bcast_S1600000x1_S1600000x64_0_1
            slices_S3x64x64_S1x64x64_2_0_0 shapeCasts_S1x64x64_S64x64))
        (acrossCols (maximumf (W (main_v25 : DevRef τ sig) : S100000.Idx → EReal) (splatF S100000 0x3F800000#32 bcast_S_S100000))
          bcast_S100000_S100000x1_0 bcast_S100000x1_S100000x64_0_1) := by
  after_results_simp
  rfl

theorem c_v95 : (after (HandRun.opsL1c (F := Ideal)) W (main_v95 : DevRef τ sig) : S100000x64.Idx → EReal)
    = Host.dotGeneral (F := Ideal) (φ₁ := .f32) (φ₂ := .f32) dot_S100000x64_S64x64_S100000x64_1_0_0_1_n_n none (W (main_arg0 : DevRef τ sig) : S100000x64.Idx → EReal)
        (W (main_arg4 : DevRef τ sig) : S64x64.Idx → EReal) := by
  after_results_simp

/-! ### The fourth piece: the root product and the bias added, and ELU -/

theorem d_v100 : (after (HandRun.opsL1d (F := Ideal)) W (main_v100 : DevRef τ sig) : S100000x64.Idx → EReal)
    = eluArr S100000x64
        (addf (addf (W (main_v94 : DevRef τ sig) : S100000x64.Idx → EReal) (W (main_v95 : DevRef τ sig) : S100000x64.Idx → EReal))
          (downRows (W (main_arg5 : DevRef τ sig) : S64.Idx → EReal) bcast_S64_S1x64_1 bcast_S1x64_S100000x64_0_1))
        bcast_S_S100000x64 := by
  after_results_simp
  simp only [TRef.ofBuf, TRef.toBuf, cast_eq, id]
  rfl

end Pieces

/-! ## The hundredth array is the layer's function of the arguments -/

section Run
variable (V : Valuation τ sig (Elt Ideal))

/-- A piece of the run keeps an argument array. -/
theorem a_arg (r : Ref sig .tc) (hr : r.idx.val < 13) (W : Valuation τ sig (Elt Ideal)) :
    after (HandRun.opsL1a (F := Ideal)) W (Proc.devRef .tc r) = W (Proc.devRef .tc r) :=
  HandRun.kept_of_pastArgs HandRun.opsL1a_past hr W
theorem b_arg (r : Ref sig .tc) (hr : r.idx.val < 13) (W : Valuation τ sig (Elt Ideal)) :
    after (HandRun.opsL1b (F := Ideal)) W (Proc.devRef .tc r) = W (Proc.devRef .tc r) :=
  HandRun.kept_of_pastArgs HandRun.opsL1b_past hr W
theorem c_arg (r : Ref sig .tc) (hr : r.idx.val < 13) (W : Valuation τ sig (Elt Ideal)) :
    after (HandRun.opsL1c (F := Ideal)) W (Proc.devRef .tc r) = W (Proc.devRef .tc r) :=
  HandRun.kept_of_pastArgs HandRun.opsL1c_past hr W

/-- Layer one's operations keep every argument array. -/
theorem opsL1_kept (r : Ref sig .tc) (hr : r.idx.val < 13) :
    after (HandRun.opsL1 (F := Ideal)) V (Proc.devRef .tc r) = V (Proc.devRef .tc r) :=
  HandRun.kept_of_pastArgs
    (HandRun.forall_append (HandRun.forall_append (HandRun.forall_append HandRun.opsL1a_past HandRun.opsL1b_past)
      HandRun.opsL1c_past) HandRun.opsL1d_past) hr V

theorem v100_eq :
    (after (HandRun.opsL1 (F := Ideal)) V (main_v100 : DevRef τ sig) : S100000x64.Idx → EReal)
      = h1A (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  show after (HandRun.opsL1a ++ HandRun.opsL1b ++ HandRun.opsL1c ++ HandRun.opsL1d) V _ = _
  rw [after_append, after_append, after_append]
  rw [d_v100, c_v94, c_v95, c_arg main_arg5 (by decide)]
  rw [b_v26, b_v43, b_v44, b_v25, b_v21, b_v3, b_v8, b_v11, b_v14,
    b_arg main_arg0 (by decide), b_arg main_arg3 (by decide), b_arg main_arg4 (by decide), b_arg main_arg5 (by decide)]
  rw [a_v1, a_v3, a_v8, a_v11, a_v14, a_v16, a_c5,
    a_arg main_arg0 (by decide), a_arg main_arg3 (by decide), a_arg main_arg4 (by decide), a_arg main_arg5 (by decide)]
  rfl

end Run

/-! ## The layer's function read at (n, j) -/

/-- The layer's function of six arrays, read at (n, j), is the layer's definition over any decoded inputs that
    the arrays spell: the edge words below the number of nodes and equal to the decoded ends, the other arrays
    read by coordinates. -/
theorem h1A_read (a0 : FVec Ideal S100000x64 .f32) (a1 : IVec S2x1600000 32) (a2 : FVec Ideal S1600000x1 .f32)
    (a3 : FVec Ideal S3x64x64 .f32) (a4 : FVec Ideal S64x64 .f32) (a5 : FVec Ideal S64 .f32)
    (I : Inputs 100000 1600000 64 16)
    (hlt : ∀ (r : Fin 2) (e : Fin 1600000), (a1 (ix2 r e)).toNat < 100000)
    (hsrcI : ∀ e : Fin 1600000, (a1 (ix2 (0 : Fin 2) e)).toNat = (I.src e).val)
    (hdstI : ∀ e : Fin 1600000, (a1 (ix2 (1 : Fin 2) e)).toNat = (I.dst e).val)
    (hps : ∀ e : Fin 1600000, a2 (ix2 e (0 : Fin 1)) = I.ps e)
    (hx : ∀ (n : Fin 100000) (d : Fin 64), a0 (ix2 n d) = I.x n d)
    (hW : ∀ (k : Fin 3) (d j : Fin 64), a3 (ix3 k d j) = I.W1 k d j)
    (hR : ∀ d j : Fin 64, a4 (ix2 d j) = I.root1 d j) (hb : ∀ j : Fin 64, a5 (ix1 j) = I.b1 j)
    (n : Fin 100000) (j : Fin 64) :
    h1A a0 a1 a2 a3 a4 a5 (ix2 n j) = h1Slots I n j := by
  have hsrcW : ∀ e : Fin 1600000, srcW a1 (ix1 e) = a1 (ix2 (0 : Fin 2) e) := fun e => edgeRow_apply (0 : Fin 2) _ _ _ e
  have hdstW : ∀ e : Fin 1600000, dstW a1 (ix1 e) = a1 (ix2 (1 : Fin 2) e) := fun e => edgeRow_apply (1 : Fin 2) _ _ _ e
  have hdst : ∀ e : Fin 1600000, (dstW a1 (ix1 e)).toInt = ((I.dst e).val : Int) := fun e => by
    rw [hdstW, toInt_of_lt (by norm_num) (hlt 1 e), hdstI]
  have hsrc : ∀ e : Fin 1600000, (wrapWords 100000#32 (srcW a1) bcast_S_S1600000 (ix1 e)).toInt = ((I.src e).val : Int) :=
    fun e => by
      rw [wrapWords_apply _ _ _ _ (by rw [hsrcW]; exact lt_trans (hlt 0 e) (by norm_num)), hsrcW,
        toInt_of_lt (by norm_num) (hlt 0 e), hsrcI]
  have hxj : ∀ (e : Fin 1600000) (d : Fin 64), msgA a0 a1 (ix2 e d) = I.x (I.src e) d := fun e d => by
    unfold msgA
    rw [gatherRows_apply gather_S100000x64_S1600000x1_S1600000x64_1_0_n_n_0_1_164 rfl rfl rfl rfl rfl _ _ _ I.src hsrc e d, hx]
  have hfr : ∀ e : Fin 1600000, fracA a2 (ix1 e) = frac (Ideal.ofBits .f32 0x40000000#32) (I.ps e) := fun e => by
    unfold fracA posA
    rw [fracVec_pos_apply, colVec_apply, hps]
  have hs0 : ∀ e : Fin 1600000, (slot0A a2 (ix1 e)).toNat = (s0_3 I e).val := fun e => by
    unfold slot0A posA
    rw [slot0Words_pos_apply, colVec_apply, hps, s0_3_val]
  have hs1 : ∀ e : Fin 1600000, (slot1A a2 (ix1 e)).toNat = (s1_3 I e).val := fun e => by
    unfold slot1A slot0A posA
    rw [slot1Words_pos_apply, colVec_apply, hps, s1_3_val]
  have hprod : ∀ (k : Fin 3) (kw : BitVec 32) (hkw : kw.toNat = k.val) (hs : S3x64x64.Slices ![k.val, 0, 0] S1x64x64),
      prodA a0 a1 a2 a3 k.val kw hs (ix2 n j)
        = ∑ d : Fin 64, aggSlot I.src I.dst (fun e => frac κ3 (I.ps e)) (s0_3 I) (s1_3 I) I.x k n d * I.W1 k d j :=
    fun k kw hkw hs =>
      slotProd_apply dot_S100000x64_S64x64_S100000x64_1_0_0_1_n_n rfl rfl rfl rfl rfl rfl
        scatter_S100000x64_S1600000x1_S1600000x64_1_0_0_1 rfl rfl rfl rfl k kw hkw _ _ _ _ _ _ _ _ _ _ hs _
        I.src I.dst (fun e => frac κ3 (I.ps e)) (s0_3 I) (s1_3 I) I.x I.W1 hdst hxj hfr hs0 hs1 hW n j
  have e0 := hprod (0 : Fin 3) 0#32 rfl slices_S3x64x64_S1x64x64_0_0_0
  have e1 := hprod (1 : Fin 3) 1#32 rfl slices_S3x64x64_S1x64x64_1_0_0
  have e2 := hprod (2 : Fin 3) 2#32 rfl slices_S3x64x64_S1x64x64_2_0_0
  have hS : sumA a0 a1 a2 a3 (ix2 n j)
      = ∑ k : Fin 3, ∑ d : Fin 64, aggSlot I.src I.dst (fun e => frac κ3 (I.ps e)) (s0_3 I) (s1_3 I) I.x k n d * I.W1 k d j := by
    unfold sumA
    rw [sum3_apply, Fin.sum_univ_three]
    exact congrArg₂ (· + ·) (congrArg₂ (· + ·) e0 e1) e2
  unfold h1A h1Slots degA
  exact layer_apply (K := 3) dot_S100000x64_S64x64_S100000x64_1_0_0_1_n_n rfl rfl rfl rfl rfl rfl
    scatter_S100000_S1600000x1_S1600000_n_0_0_1 rfl rfl rfl rfl _ _ _ _ _ _ _ _ _ _ _ _ _
    I.src I.dst (fun e => frac κ3 (I.ps e)) (s0_3 I) (s1_3 I) I.x I.W1 I.root1 I.b1 hdst hx hR hb n j hS

theorem h1A_apply (V : Valuation τ sig (Elt Ideal)) (hr : InRange V) (n : Fin 100000) (j : Fin 64) :
    h1A (V (main_arg0 : DevRef τ sig)) (V (main_arg1 : DevRef τ sig)) (V (main_arg2 : DevRef τ sig))
        (V (main_arg3 : DevRef τ sig)) (V (main_arg4 : DevRef τ sig)) (V (main_arg5 : DevRef τ sig)) (ix2 n j)
      = h1Slots (inputs V hr) n j :=
  h1A_read _ _ _ _ _ _ (inputs V hr) hr (fun _ => rfl) (fun _ => rfl) (fun _ => rfl) (fun _ _ => rfl) (fun _ _ _ => rfl)
    (fun _ _ => rfl) (fun _ => rfl) n j

/-! ## The statements -/

/-- Layer one's result at (n, d) is the second arrangement's layer one. -/
theorem h1_apply (V : Valuation τ sig (Elt Ideal)) (hr : InRange V) (n : Fin 100000) (d : Fin 64) :
    (after (HandRun.opsL1 (F := Ideal)) V (main_v100 : DevRef τ sig) : S100000x64.Idx → EReal) (ix2 n d)
      = h1Slots (inputs V hr) n d := by
  rw [v100_eq]
  exact h1A_apply V hr n d

theorem opsL1_arg0_kept (V : Valuation τ sig (Elt Ideal)) :
    after (HandRun.opsL1 (F := Ideal)) V (main_arg0 : DevRef τ sig) = V (main_arg0 : DevRef τ sig) := opsL1_kept V main_arg0 (by decide)
theorem opsL1_arg1_kept (V : Valuation τ sig (Elt Ideal)) :
    after (HandRun.opsL1 (F := Ideal)) V (main_arg1 : DevRef τ sig) = V (main_arg1 : DevRef τ sig) := opsL1_kept V main_arg1 (by decide)
theorem opsL1_arg2_kept (V : Valuation τ sig (Elt Ideal)) :
    after (HandRun.opsL1 (F := Ideal)) V (main_arg2 : DevRef τ sig) = V (main_arg2 : DevRef τ sig) := opsL1_kept V main_arg2 (by decide)
theorem opsL1_arg3_kept (V : Valuation τ sig (Elt Ideal)) :
    after (HandRun.opsL1 (F := Ideal)) V (main_arg3 : DevRef τ sig) = V (main_arg3 : DevRef τ sig) := opsL1_kept V main_arg3 (by decide)
theorem opsL1_arg4_kept (V : Valuation τ sig (Elt Ideal)) :
    after (HandRun.opsL1 (F := Ideal)) V (main_arg4 : DevRef τ sig) = V (main_arg4 : DevRef τ sig) := opsL1_kept V main_arg4 (by decide)
theorem opsL1_arg5_kept (V : Valuation τ sig (Elt Ideal)) :
    after (HandRun.opsL1 (F := Ideal)) V (main_arg5 : DevRef τ sig) = V (main_arg5 : DevRef τ sig) := opsL1_kept V main_arg5 (by decide)
theorem opsL1_arg6_kept (V : Valuation τ sig (Elt Ideal)) :
    after (HandRun.opsL1 (F := Ideal)) V (main_arg6 : DevRef τ sig) = V (main_arg6 : DevRef τ sig) := opsL1_kept V main_arg6 (by decide)
theorem opsL1_arg7_kept (V : Valuation τ sig (Elt Ideal)) :
    after (HandRun.opsL1 (F := Ideal)) V (main_arg7 : DevRef τ sig) = V (main_arg7 : DevRef τ sig) := opsL1_kept V main_arg7 (by decide)
theorem opsL1_arg8_kept (V : Valuation τ sig (Elt Ideal)) :
    after (HandRun.opsL1 (F := Ideal)) V (main_arg8 : DevRef τ sig) = V (main_arg8 : DevRef τ sig) := opsL1_kept V main_arg8 (by decide)
theorem opsL1_arg9_kept (V : Valuation τ sig (Elt Ideal)) :
    after (HandRun.opsL1 (F := Ideal)) V (main_arg9 : DevRef τ sig) = V (main_arg9 : DevRef τ sig) := opsL1_kept V main_arg9 (by decide)
theorem opsL1_arg10_kept (V : Valuation τ sig (Elt Ideal)) :
    after (HandRun.opsL1 (F := Ideal)) V (main_arg10 : DevRef τ sig) = V (main_arg10 : DevRef τ sig) := opsL1_kept V main_arg10 (by decide)
theorem opsL1_arg11_kept (V : Valuation τ sig (Elt Ideal)) :
    after (HandRun.opsL1 (F := Ideal)) V (main_arg11 : DevRef τ sig) = V (main_arg11 : DevRef τ sig) := opsL1_kept V main_arg11 (by decide)
theorem opsL1_arg12_kept (V : Valuation τ sig (Elt Ideal)) :
    after (HandRun.opsL1 (F := Ideal)) V (main_arg12 : DevRef τ sig) = V (main_arg12 : DevRef τ sig) := opsL1_kept V main_arg12 (by decide)

end Cert.ReferenceIdeal.Val

end
-- ==== Proof.RefLayer2Arrays.lean ====
/-
  Layer two and the head of the second arrangement: the arrays, and their entries.

  Layer two is the five-slot spline convolution over layer one's result h.  From the 2 × E edge words it takes
  the source and destination words; from the E × 1 pseudo-coordinates the positions 4·p, their fractions and the
  two slot words clipped to 0 … 4; it gathers the source rows of h, counts the in-degrees, and for each slot
  k = 0 … 4 multiplies the gathered rows by the slot's weight, sums them per destination and multiplies by the
  k-th weight matrix; the five products are added one after the other to zeros, divided by the clamped degree,
  the root product and the bias are added, and ELU is applied.  The head is two dense layers, each a product, a
  bias row and the positive part.

  These arrays are named here as the general layer's functions at this network's extents, and read at one
  entry: layer two at (n, j) is the specification's layer over h read by coordinates, once every edge word is
  a node number, and a dense layer at (n, j) is the positive part of the row-by-column sum plus the bias.
-/
import proofs.«403743_j85538568667548_2_alg».proof.Proof.Gen.ReferenceIdeal
import proofs.«403743_j85538568667548_2_alg».proof.Proof.Spline
import proofs.«403743_j85538568667548_2_alg».proof.Proof.RefReads

noncomputable section

namespace Cert.ReferenceIdeal.Layer2

open Idealize.ShloMosaic Idealize.ShloMosaic.ValueIdx Cert.Spline Cert.Spline.Reads
open Cert.ReferenceIdeal Cert.ReferenceIdeal.Gen

/-! ## The arrays of layer two -/

/-- The source words: row 0 of the edge words. -/
def srcWords (a1 : IVec S2x1600000 32) : IVec S1600000 32 :=
  edgeRow 0 a1 slices_S2x1600000_S1x1600000_0_0 shapeCasts_S1x1600000_S1600000

/-- The destination words: row 1 of the edge words. -/
def dstWords (a1 : IVec S2x1600000 32) : IVec S1600000 32 :=
  edgeRow 1 a1 slices_S2x1600000_S1x1600000_1_0 shapeCasts_S1x1600000_S1600000

/-- The positions: four times the pseudo-coordinates. -/
def positions (a2 : FVec Ideal S1600000x1 .f32) : FVec Ideal S1600000 .f32 :=
  posVec 0x40800000#32 (colVec a2 shapeCasts_S1600000x1_S1600000) bcast_S_S1600000

/-- The fractions of the positions. -/
def fractions (a2 : FVec Ideal S1600000x1 .f32) : FVec Ideal S1600000 .f32 := fracVec (positions a2)

/-- The base slots, clipped to 0 … 4. -/
def baseSlots (a2 : FVec Ideal S1600000x1 .f32) : IVec S1600000 32 :=
  slot0Words 4#32 (positions a2) bcast_S_S1600000

/-- The next slots, clipped to 0 … 4. -/
def nextSlots (a2 : FVec Ideal S1600000x1 .f32) : IVec S1600000 32 :=
  slot1Words 4#32 (baseSlots a2) bcast_S_S1600000

/-- The source rows of h, one per edge. -/
def srcRows (h : FVec Ideal S100000x64 .f32) (a1 : IVec S2x1600000 32) : FVec Ideal S1600000x64 .f32 :=
  gatherRows gather_S100000x64_S1600000x1_S1600000x64_1_0_n_n_0_1_164 h
    (wrapWords 100000#32 (srcWords a1) bcast_S_S1600000) bcast_S1600000_S1600000x1_0

/-- The in-degrees. -/
def degrees (a1 : IVec S2x1600000 32) : FVec Ideal S100000 .f32 :=
  degVec scatter_S100000_S1600000x1_S1600000_n_0_0_1 (dstWords a1) bcast_S_S100000 bcast_S_S1600000
    bcast_S1600000_S1600000x1_0

/-- Slot k's product: its aggregate times its weight matrix. -/
def slotTerm (k : Fin 5) (kw : BitVec 32) (hs : S5x64x64.Slices ![k.val, 0, 0] S1x64x64)
    (h : FVec Ideal S100000x64 .f32) (a1 : IVec S2x1600000 32) (a2 : FVec Ideal S1600000x1 .f32)
    (a6 : FVec Ideal S5x64x64 .f32) : FVec Ideal S100000x64 .f32 :=
  slotProd dot_S100000x64_S64x64_S100000x64_1_0_0_1_n_n scatter_S100000x64_S1600000x1_S1600000x64_1_0_0_1 k.val kw
    (dstWords a1) (srcRows h a1) (fractions a2) (baseSlots a2) (nextSlots a2) a6 bcast_S_S1600000 bcast_S_S100000x64
    bcast_S1600000_S1600000x1_0 bcast_S1600000x1_S1600000x64_0_1 hs shapeCasts_S1x64x64_S64x64

/-- The five slot products added one after the other to zeros. -/
def slotsSum (h : FVec Ideal S100000x64 .f32) (a1 : IVec S2x1600000 32) (a2 : FVec Ideal S1600000x1 .f32)
    (a6 : FVec Ideal S5x64x64 .f32) : FVec Ideal S100000x64 .f32 :=
  addf (addf (addf (addf (addf (splatF S100000x64 0x00000000#32 bcast_S_S100000x64)
    (slotTerm 0 0#32 slices_S5x64x64_S1x64x64_0_0_0 h a1 a2 a6))
    (slotTerm 1 1#32 slices_S5x64x64_S1x64x64_1_0_0 h a1 a2 a6))
    (slotTerm 2 2#32 slices_S5x64x64_S1x64x64_2_0_0 h a1 a2 a6))
    (slotTerm 3 3#32 slices_S5x64x64_S1x64x64_3_0_0 h a1 a2 a6))
    (slotTerm 4 4#32 slices_S5x64x64_S1x64x64_4_0_0 h a1 a2 a6)

/-- Layer two. -/
def layer2 (h : FVec Ideal S100000x64 .f32) (a1 : IVec S2x1600000 32) (a2 : FVec Ideal S1600000x1 .f32)
    (a6 : FVec Ideal S5x64x64 .f32) (a7 : FVec Ideal S64x64 .f32) (a8 : FVec Ideal S64 .f32) :
    FVec Ideal S100000x64 .f32 :=
  eluArr S100000x64
    (preAct (slotsSum h a1 a2 a6) (degrees a1)
      (Host.dotGeneral dot_S100000x64_S64x64_S100000x64_1_0_0_1_n_n none h a7) a8 bcast_S_S100000
      bcast_S100000_S100000x1_0 bcast_S100000x1_S100000x64_0_1 bcast_S64_S1x64_1 bcast_S1x64_S100000x64_0_1)
    bcast_S_S100000x64

/-! ## The arrays of the head -/

/-- The first dense layer: product, bias row, positive part. -/
def dense1 (y : FVec Ideal S100000x64 .f32) (a9 : FVec Ideal S64x64 .f32) (a10 : FVec Ideal S64 .f32) :
    FVec Ideal S100000x64 .f32 :=
  maximumf
    (addf (Host.dotGeneral dot_S100000x64_S64x64_S100000x64_1_0_0_1_n_n none y a9)
      (downRows a10 bcast_S64_S1x64_1 bcast_S1x64_S100000x64_0_1))
    (splatF S100000x64 0x00000000#32 bcast_S_S100000x64)

/-- The second dense layer, to sixteen columns. -/
def dense2 (y : FVec Ideal S100000x64 .f32) (a11 : FVec Ideal S64x16 .f32) (a12 : FVec Ideal S16 .f32) :
    FVec Ideal S100000x16 .f32 :=
  maximumf
    (addf (Host.dotGeneral dot_S100000x64_S64x16_S100000x16_1_0_0_1_n_n none y a11)
      (downRows a12 bcast_S16_S1x16_1 bcast_S1x16_S100000x16_0_1))
    (splatF S100000x16 0x00000000#32 bcast_S_S100000x16)

/-! ## Entries of the edge arrays -/

theorem srcWords_apply (a1 : IVec S2x1600000 32) (e : Fin 1600000) : srcWords a1 (ix1 e) = a1 (ix2 0 e) :=
  edgeRow_apply (0 : Fin 2) a1 slices_S2x1600000_S1x1600000_0_0 shapeCasts_S1x1600000_S1600000 e

theorem dstWords_apply (a1 : IVec S2x1600000 32) (e : Fin 1600000) : dstWords a1 (ix1 e) = a1 (ix2 1 e) :=
  edgeRow_apply (1 : Fin 2) a1 slices_S2x1600000_S1x1600000_1_0 shapeCasts_S1x1600000_S1600000 e

theorem fractions_apply (a2 : FVec Ideal S1600000x1 .f32) (e : Fin 1600000) :
    fractions a2 (ix1 e) = frac κ5 (a2 (ix2 e 0)) := by
  unfold fractions positions
  rw [fracVec_pos_apply, colVec_apply]

theorem baseSlots_apply (a2 : FVec Ideal S1600000x1 .f32) (e : Fin 1600000) :
    baseSlots a2 (ix1 e) = slot0 4#32 κ5 (a2 (ix2 e 0)) := by
  unfold baseSlots positions
  rw [slot0Words_pos_apply, colVec_apply]

theorem nextSlots_apply (a2 : FVec Ideal S1600000x1 .f32) (e : Fin 1600000) :
    nextSlots a2 (ix1 e) = slot1 4#32 κ5 (a2 (ix2 e 0)) := by
  unfold nextSlots baseSlots positions
  rw [slot1Words_pos_apply, colVec_apply]

section Nodes
variable (a1 : IVec S2x1600000 32) (hr : ∀ (r : Fin 2) (e : Fin 1600000), (a1 (ix2 r e)).toNat < 100000)

/-- The decoded sources. -/
def srcOf : Fin 1600000 → Fin 100000 := fun e => ⟨(a1 (ix2 0 e)).toNat, hr 0 e⟩
/-- The decoded destinations. -/
def dstOf : Fin 1600000 → Fin 100000 := fun e => ⟨(a1 (ix2 1 e)).toNat, hr 1 e⟩

theorem dstWords_toInt (e : Fin 1600000) : (dstWords a1 (ix1 e)).toInt = ((dstOf a1 hr e).val : Int) := by
  rw [dstWords_apply]
  exact toInt_of_lt (n := 100000) (by norm_num) (hr 1 e)

theorem wrapped_src_toInt (e : Fin 1600000) :
    (wrapWords 100000#32 (srcWords a1) bcast_S_S1600000 (ix1 e)).toInt = ((srcOf a1 hr e).val : Int) := by
  have hlt : (srcWords a1 (ix1 e)).toNat < 100000 := by rw [srcWords_apply]; exact hr 0 e
  rw [wrapWords_apply _ _ _ _ (lt_trans hlt (by norm_num)), srcWords_apply]
  exact toInt_of_lt (n := 100000) (by norm_num) (hr 0 e)

theorem srcRows_apply (h : FVec Ideal S100000x64 .f32) (e : Fin 1600000) (d : Fin 64) :
    srcRows h a1 (ix2 e d) = h (ix2 (srcOf a1 hr e) d) := by
  unfold srcRows
  exact gatherRows_apply _ rfl rfl rfl rfl rfl h _ _ (srcOf a1 hr) (wrapped_src_toInt a1 hr) e d

end Nodes

/-! ## Entries of layer two -/

section Layer
variable (h : FVec Ideal S100000x64 .f32) (a1 : IVec S2x1600000 32) (a2 : FVec Ideal S1600000x1 .f32)
  (a6 : FVec Ideal S5x64x64 .f32) (a7 : FVec Ideal S64x64 .f32) (a8 : FVec Ideal S64 .f32)
  (hr : ∀ (r : Fin 2) (e : Fin 1600000), (a1 (ix2 r e)).toNat < 100000)
  (X : Fin 100000 → Fin 64 → EReal) (hx : ∀ n d, h (ix2 n d) = X n d)
  (s0 s1 : Fin 1600000 → Fin 5)
  (hs0 : ∀ e, (slot0 4#32 κ5 (a2 (ix2 e 0))).toNat = (s0 e).val)
  (hs1 : ∀ e, (slot1 4#32 κ5 (a2 (ix2 e 0))).toNat = (s1 e).val)

include hx hs0 hs1 in
set_option maxHeartbeats 40000 in
/-- Slot k's product at (n, j): the slot's aggregate against the slot's weights. -/
theorem slotTerm_apply (k : Fin 5) (kw : BitVec 32) (hkw : kw.toNat = k.val)
    (hs : S5x64x64.Slices ![k.val, 0, 0] S1x64x64) (n : Fin 100000) (j : Fin 64) :
    slotTerm k kw hs h a1 a2 a6 (ix2 n j)
      = ∑ d : Fin 64, aggSlot (srcOf a1 hr) (dstOf a1 hr) (fun e => frac κ5 (a2 (ix2 e 0))) s0 s1 X k n d
          * ten3 a6 k d j := by
  unfold slotTerm
  exact slotProd_apply _ rfl rfl rfl rfl rfl rfl _ rfl rfl rfl rfl k kw hkw (dstWords a1) (srcRows h a1)
    (fractions a2) (baseSlots a2) (nextSlots a2) a6 _ _ _ _ hs _
    (srcOf a1 hr) (dstOf a1 hr) (fun e => frac κ5 (a2 (ix2 e 0))) s0 s1 X (ten3 a6)
    (dstWords_toInt a1 hr) (fun e d => (srcRows_apply a1 hr h e d).trans (hx _ d)) (fractions_apply a2)
    (fun e => (congrArg BitVec.toNat (baseSlots_apply a2 e)).trans (hs0 e))
    (fun e => (congrArg BitVec.toNat (nextSlots_apply a2 e)).trans (hs1 e))
    (fun _ _ _ => rfl) n j

include hx hs0 hs1 in
set_option maxHeartbeats 40000 in
/-- The five slot products added to zeros, at (n, j): the sum over the slots. -/
theorem slotsSum_apply (n : Fin 100000) (j : Fin 64) :
    slotsSum h a1 a2 a6 (ix2 n j)
      = ∑ k : Fin 5, ∑ d : Fin 64,
          aggSlot (srcOf a1 hr) (dstOf a1 hr) (fun e => frac κ5 (a2 (ix2 e 0))) s0 s1 X k n d * ten3 a6 k d j := by
  unfold slotsSum
  rw [sum5_apply, Fin.sum_univ_five,
    slotTerm_apply h a1 a2 a6 hr X hx s0 s1 hs0 hs1 0 0#32 rfl,
    slotTerm_apply h a1 a2 a6 hr X hx s0 s1 hs0 hs1 1 1#32 rfl,
    slotTerm_apply h a1 a2 a6 hr X hx s0 s1 hs0 hs1 2 2#32 rfl,
    slotTerm_apply h a1 a2 a6 hr X hx s0 s1 hs0 hs1 3 3#32 rfl,
    slotTerm_apply h a1 a2 a6 hr X hx s0 s1 hs0 hs1 4 4#32 rfl]

include hx hs0 hs1 in
set_option maxHeartbeats 40000 in
/-- Layer two at (n, j) is the specification's layer over h read by coordinates. -/
theorem layer2_apply (n : Fin 100000) (j : Fin 64) :
    layer2 h a1 a2 a6 a7 a8 (ix2 n j)
      = layerSlots (srcOf a1 hr) (dstOf a1 hr) (fun e => frac κ5 (a2 (ix2 e 0))) s0 s1 X (ten3 a6) (mat2 a7) (vec1 a8)
          n j := by
  unfold layer2 degrees
  exact layer_apply _ rfl rfl rfl rfl rfl rfl _ rfl rfl rfl rfl (slotsSum h a1 a2 a6) h (dstWords a1) a7 a8
    _ _ _ _ _ _ _ _ (srcOf a1 hr) (dstOf a1 hr) (fun e => frac κ5 (a2 (ix2 e 0))) s0 s1 X (ten3 a6) (mat2 a7) (vec1 a8)
    (dstWords_toInt a1 hr) hx (fun _ _ => rfl) (fun _ => rfl) n j
    (slotsSum_apply h a1 a2 a6 hr X hx s0 s1 hs0 hs1 n j)

end Layer

/-! ## Entries of the head -/

set_option maxHeartbeats 40000 in
/-- A dense layer to 64 columns at (n, j): the positive part of the row-by-column sum plus the bias. -/
theorem dense1_apply (y : FVec Ideal S100000x64 .f32) (a9 : FVec Ideal S64x64 .f32) (a10 : FVec Ideal S64 .f32)
    (Y : Fin 100000 → Fin 64 → EReal) (hy : ∀ n d, y (ix2 n d) = Y n d) (n : Fin 100000) (j : Fin 64) :
    dense1 y a9 a10 (ix2 n j) = reluDense Y (mat2 a9) (vec1 a10) n j := by
  unfold dense1 reluDense
  rw [maximumf_apply, addf_apply, dot_apply _ rfl rfl rfl rfl rfl rfl, downRows_apply, splatF_apply,
    Ideal.ofBits_zero_f32]
  refine congrArg (fun t => max (t + a10 (ix1 j)) 0) (Finset.sum_congr rfl fun d _ => ?_)
  rw [hy]
  rfl

set_option maxHeartbeats 40000 in
/-- A dense layer to 16 columns at (n, j). -/
theorem dense2_apply (y : FVec Ideal S100000x64 .f32) (a11 : FVec Ideal S64x16 .f32) (a12 : FVec Ideal S16 .f32)
    (Y : Fin 100000 → Fin 64 → EReal) (hy : ∀ n d, y (ix2 n d) = Y n d) (n : Fin 100000) (j : Fin 16) :
    dense2 y a11 a12 (ix2 n j) = reluDense Y (mat2 a11) (vec1 a12) n j := by
  unfold dense2 reluDense
  rw [maximumf_apply, addf_apply, dot_apply _ rfl rfl rfl rfl rfl rfl, downRows_apply, splatF_apply,
    Ideal.ofBits_zero_f32]
  refine congrArg (fun t => max (t + a12 (ix1 j)) 0) (Finset.sum_congr rfl fun d _ => ?_)
  rw [hy]
  rfl

end Cert.ReferenceIdeal.Layer2

end
-- ==== Proof.RefLayer2Run.lean ====
/-
  The second program's layer two and head, run.

  The operations of layer two come in five stretches and the head in one.  Each stretch writes buffers numbered
  from its first one on, so a buffer written before it (an argument, layer one's result, an earlier stretch's
  array) is still what it was after it.  For each stretch, each array a later stretch reads is stated as a
  function of the buffers the stretch starts from:

    first    the source and destination words, the fractions, the two slot words, a zero word;
    second   the gathered source rows, the in-degrees, an array of zeros, slot 0's weighted messages;
    third    the zeros plus the products of slots 0, 1, 2, and a vector of ones;
    fourth   that sum plus slot 3's product, and slot 4's weights;
    fifth    the whole sum over the clamped degree, the root product, the bias, ELU.

  Put one after the other they are the layer-two array of layer one's result and the argument arrays, and the
  head's operations are the two dense layers of that.
-/
import proofs.«403743_j85538568667548_2_alg».proof.Proof.RefOps
import proofs.«403743_j85538568667548_2_alg».proof.Proof.RefRun
import proofs.«403743_j85538568667548_2_alg».proof.Proof.RefLayer2Arrays

set_option pp.maxSteps 6000
set_option pp.deepTerms false

noncomputable section

namespace Cert.ReferenceIdeal.Layer2

open Idealize.ShloMosaic Idealize.ShloMosaic.TcCoe Idealize.ShloMosaic.ValueIdx Idealize.SL.Sem
open Idealize.ShloMosaic.StableHlo
open Cert.ReferenceIdeal Cert.ReferenceIdeal.Gen Cert.Spline Cert.Spline.Reads Cert.ReferenceIdeal.HandRun

/-- The device's buffer contents, at the extended reals. -/
abbrev Vals : Type := Valuation τ sig (Elt Ideal)

/-! ## What a stretch leaves alone -/

/-- Two stretches run one after the other. -/
theorem after_concat : ∀ (l₁ l₂ : List (HloOp τ sig (Elt Ideal))) (V : Vals), after (l₁ ++ l₂) V = after l₂ (after l₁ V)
  | [], _, _ => rfl
  | op :: l₁, l₂, V => by rw [List.cons_append, after_cons, after_cons, after_concat l₁ l₂]

/-- Every buffer the operation writes is numbered L or more. -/
def WritesFrom (L : ℕ) (op : HloOp τ sig (Elt Ideal)) : Prop :=
  ∀ r : Ref sig .tc, Proc.devRef (τ := τ) .tc r ∈ op.writes → L ≤ r.idx.val

theorem writesFrom_of {L : ℕ} {op : HloOp τ sig (Elt Ideal)} {y : Ref sig .tc}
    (hw : op.writes = {Proc.devRef (τ := τ) .tc y}) (hy : L ≤ y.idx.val) : WritesFrom L op := by
  intro r hr
  rw [hw, Finset.mem_singleton] at hr
  exact Proc.devRef_injective _ hr ▸ hy

/-- A stretch that writes from L on leaves every buffer below L as it found it. -/
theorem kept_below {L : ℕ} {l : List (HloOp τ sig (Elt Ideal))} (h : l.Forall (WritesFrom L)) {r : Ref sig .tc}
    (hr : r.idx.val < L) (V : Vals) : after l V (Proc.devRef .tc r) = V (Proc.devRef .tc r) :=
  after_of_forall_not_mem l V fun op hop hb =>
    absurd (List.forall_iff_forall_mem.mp h op hop r hb) (Nat.not_le.mpr hr)

theorem opsL2a_from : (opsL2a (F := Ideal)).Forall (WritesFrom 162) := by
  repeat' apply And.intro
  all_goals exact writesFrom_of rfl (by decide)
theorem opsL2b_from : (opsL2b (F := Ideal)).Forall (WritesFrom 194) := by
  repeat' apply And.intro
  all_goals exact writesFrom_of rfl (by decide)
theorem opsL2c_from : (opsL2c (F := Ideal)).Forall (WritesFrom 227) := by
  repeat' apply And.intro
  all_goals exact writesFrom_of rfl (by decide)
theorem opsL2d_from : (opsL2d (F := Ideal)).Forall (WritesFrom 287) := by
  repeat' apply And.intro
  all_goals exact writesFrom_of rfl (by decide)
theorem opsL2e_from : (opsL2e (F := Ideal)).Forall (WritesFrom 324) := by
  repeat' apply And.intro
  all_goals exact writesFrom_of rfl (by decide)

/-! ## Pieces of a slot's product that lie in different stretches -/

/-- The gathered rows, the wrap-around's zero a buffer of its own. -/
def rowsOf (x : FVec Ideal S100000x64 .f32) (sw : IVec S1600000 32) (z : IVec S_ 32) : FVec Ideal S1600000x64 .f32 :=
  gatherRows gather_S100000x64_S1600000x1_S1600000x64_1_0_n_n_0_1_164 x
    (select (cmpi .slt sw (broadcastInDim S1600000 ![] bcast_S_S1600000 z))
      (addi sw (splatI S1600000 100000#32 bcast_S_S1600000)) sw) bcast_S1600000_S1600000x1_0

/-- A slot's weighted messages: the gathered rows times the slot's weights across the columns. -/
def msgOf (xj : FVec Ideal S1600000x64 .f32) (co : FVec Ideal S1600000 .f32) : FVec Ideal S1600000x64 .f32 :=
  mulf xj (acrossCols co bcast_S1600000_S1600000x1_0 bcast_S1600000x1_S1600000x64_0_1)

/-- A slot's product from its weighted messages: their sums per destination, times the slot's matrix. -/
def prodOf (k : Fin 5) (hs : S5x64x64.Slices ![k.val, 0, 0] S1x64x64) (dw : IVec S1600000 32)
    (m : FVec Ideal S1600000x64 .f32) (a6 : FVec Ideal S5x64x64 .f32) : FVec Ideal S100000x64 .f32 :=
  Host.dotGeneral dot_S100000x64_S64x64_S100000x64_1_0_0_1_n_n none
    (Host.scatterAdd scatter_S100000x64_S1600000x1_S1600000x64_1_0_0_1
      (splatF S100000x64 0x00000000#32 bcast_S_S100000x64) (asCol dw bcast_S1600000_S1600000x1_0) m)
    (stackMat k.val a6 hs shapeCasts_S1x64x64_S64x64)

/-- A slot's weights, the vector of ones a buffer of its own. -/
def coeffOf (one : FVec Ideal S1600000 .f32) (kw : BitVec 32) (fr : FVec Ideal S1600000 .f32)
    (s0 s1 : IVec S1600000 32) : FVec Ideal S1600000 .f32 :=
  addf (mulf (subf one fr) (indVec kw s0 bcast_S_S1600000)) (mulf fr (indVec kw s1 bcast_S_S1600000))

/-! ## The stretches -/

macro "same_term" : tactic => `(tactic| first | done | rfl)

section Stretches
variable (V : Vals)

attribute [local irreducible] Host.scatterAdd Host.gather

set_option maxHeartbeats 400000 in
theorem a_src : (after opsL2a V (main_v102 : DevRef τ sig) : S1600000.Idx → BitVec 32)
    = srcWords (V (main_arg1 : DevRef τ sig)) := by
  after_results_simp
  simp only [srcWords, edgeRow]
  same_term

set_option maxHeartbeats 400000 in
theorem a_dst : (after opsL2a V (main_v104 : DevRef τ sig) : S1600000.Idx → BitVec 32)
    = dstWords (V (main_arg1 : DevRef τ sig)) := by
  after_results_simp
  simp only [dstWords, edgeRow]
  same_term

set_option maxHeartbeats 400000 in
theorem a_frac : (after opsL2a V (main_v109 : DevRef τ sig) : S1600000.Idx → EReal)
    = fractions (V (main_arg2 : DevRef τ sig)) := by
  after_results_simp
  simp only [fractions, positions, fracVec, posVec, colVec, splatF]
  same_term

set_option maxHeartbeats 400000 in
theorem a_s0 : (after opsL2a V (main_v112 : DevRef τ sig) : S1600000.Idx → BitVec 32)
    = baseSlots (V (main_arg2 : DevRef τ sig)) := by
  after_results_simp
  simp only [baseSlots, positions, slot0Words, clipWords, posVec, colVec, splatF, splatI, TRef.ofBuf, TRef.toBuf,
    cast_eq, id_eq]
  same_term

set_option maxHeartbeats 400000 in
theorem a_s1 : (after opsL2a V (main_v115 : DevRef τ sig) : S1600000.Idx → BitVec 32)
    = nextSlots (V (main_arg2 : DevRef τ sig)) := by
  after_results_simp
  simp only [nextSlots, baseSlots, positions, slot1Words, slot0Words, clipWords, posVec, colVec, splatF, splatI,
    TRef.ofBuf, TRef.toBuf, cast_eq, id_eq]
  same_term

set_option maxHeartbeats 400000 in
theorem a_zero : (after opsL2a V (main_c_28 : DevRef τ sig) : S_.Idx → BitVec 32) = constantI S_ 32 0#32 := by
  after_results_simp

set_option maxHeartbeats 400000 in
theorem b_rows : (after opsL2b V (main_v122 : DevRef τ sig) : S1600000x64.Idx → EReal)
    = rowsOf (V (main_v100 : DevRef τ sig)) (V (main_v102 : DevRef τ sig)) (V (main_c_28 : DevRef τ sig)) := by
  after_results_simp
  simp only [rowsOf, gatherRows, asCol, splatI]
  same_term

set_option maxHeartbeats 400000 in
theorem b_deg : (after opsL2b V (main_v126 : DevRef τ sig) : S100000.Idx → EReal)
    = degVec scatter_S100000_S1600000x1_S1600000_n_0_0_1 (V (main_v104 : DevRef τ sig)) bcast_S_S100000 bcast_S_S1600000
        bcast_S1600000_S1600000x1_0 := by
  after_results_simp
  simp only [degVec, asCol, splatF]
  same_term

set_option maxHeartbeats 400000 in
theorem b_zeros : (after opsL2b V (main_v127 : DevRef τ sig) : S100000x64.Idx → EReal)
    = splatF S100000x64 0x00000000#32 bcast_S_S100000x64 := by
  after_results_simp
  simp only [splatF]
  same_term

set_option maxHeartbeats 400000 in
theorem b_msg0 : (after opsL2b V (main_v141 : DevRef τ sig) : S1600000x64.Idx → EReal)
    = msgOf (rowsOf (V (main_v100 : DevRef τ sig)) (V (main_v102 : DevRef τ sig)) (V (main_c_28 : DevRef τ sig)))
        (coeffVec 0#32 (V (main_v109 : DevRef τ sig)) (V (main_v112 : DevRef τ sig)) (V (main_v115 : DevRef τ sig))
          bcast_S_S1600000) := by
  after_results_simp
  simp only [msgOf, rowsOf, gatherRows, acrossCols, asCol, coeffVec, indVec, splatF, splatI]
  same_term

set_option maxHeartbeats 2000000 in
theorem c_sum : (after opsL2c V (main_v190 : DevRef τ sig) : S100000x64.Idx → EReal)
    = addf (addf (addf (V (main_v127 : DevRef τ sig))
        (prodOf 0 slices_S5x64x64_S1x64x64_0_0_0 (V (main_v104 : DevRef τ sig)) (V (main_v141 : DevRef τ sig))
          (V (main_arg6 : DevRef τ sig))))
        (prodOf 1 slices_S5x64x64_S1x64x64_1_0_0 (V (main_v104 : DevRef τ sig))
          (msgOf (V (main_v122 : DevRef τ sig))
            (coeffVec 1#32 (V (main_v109 : DevRef τ sig)) (V (main_v112 : DevRef τ sig)) (V (main_v115 : DevRef τ sig))
              bcast_S_S1600000))
          (V (main_arg6 : DevRef τ sig))))
        (prodOf 2 slices_S5x64x64_S1x64x64_2_0_0 (V (main_v104 : DevRef τ sig))
          (msgOf (V (main_v122 : DevRef τ sig))
            (coeffVec 2#32 (V (main_v109 : DevRef τ sig)) (V (main_v112 : DevRef τ sig)) (V (main_v115 : DevRef τ sig))
              bcast_S_S1600000))
          (V (main_arg6 : DevRef τ sig))) := by
  after_results_simp
  simp only [prodOf, msgOf, stackMat, acrossCols, asCol, coeffVec, indVec, splatF, splatI]
  same_term

set_option maxHeartbeats 2000000 in
theorem c_ones : (after opsL2c V (main_v191 : DevRef τ sig) : S1600000.Idx → EReal)
    = splatF S1600000 0x3F800000#32 bcast_S_S1600000 := by
  after_results_simp
  simp only [splatF]
  same_term

set_option maxHeartbeats 1000000 in
theorem d_sum : (after opsL2d V (main_v211 : DevRef τ sig) : S100000x64.Idx → EReal)
    = addf (V (main_v190 : DevRef τ sig))
        (prodOf 3 slices_S5x64x64_S1x64x64_3_0_0 (V (main_v104 : DevRef τ sig))
          (msgOf (V (main_v122 : DevRef τ sig))
            (coeffOf (V (main_v191 : DevRef τ sig)) 3#32 (V (main_v109 : DevRef τ sig)) (V (main_v112 : DevRef τ sig))
              (V (main_v115 : DevRef τ sig))))
          (V (main_arg6 : DevRef τ sig))) := by
  after_results_simp
  simp only [prodOf, msgOf, coeffOf, stackMat, acrossCols, asCol, indVec, splatF, splatI]
  same_term

set_option maxHeartbeats 1000000 in
theorem d_co4 : (after opsL2d V (main_v222 : DevRef τ sig) : S1600000.Idx → EReal)
    = coeffVec 4#32 (V (main_v109 : DevRef τ sig)) (V (main_v112 : DevRef τ sig)) (V (main_v115 : DevRef τ sig))
        bcast_S_S1600000 := by
  after_results_simp
  simp only [coeffVec, indVec, splatF, splatI]
  same_term

set_option maxHeartbeats 1000000 in
theorem e_out : (after opsL2e V (main_v243 : DevRef τ sig) : S100000x64.Idx → EReal)
    = eluArr S100000x64
        (preAct
          (addf (V (main_v211 : DevRef τ sig))
            (prodOf 4 slices_S5x64x64_S1x64x64_4_0_0 (V (main_v104 : DevRef τ sig))
              (msgOf (V (main_v122 : DevRef τ sig)) (V (main_v222 : DevRef τ sig))) (V (main_arg6 : DevRef τ sig))))
          (V (main_v126 : DevRef τ sig))
          (Host.dotGeneral (F := Ideal) (φ₁ := .f32) (φ₂ := .f32) dot_S100000x64_S64x64_S100000x64_1_0_0_1_n_n none
            (V (main_v100 : DevRef τ sig)) (V (main_arg7 : DevRef τ sig)))
          (V (main_arg8 : DevRef τ sig)) bcast_S_S100000 bcast_S100000_S100000x1_0 bcast_S100000x1_S100000x64_0_1
          bcast_S64_S1x64_1 bcast_S1x64_S100000x64_0_1)
        bcast_S_S100000x64 := by
  after_results_simp
  simp only [eluArr, preAct, prodOf, msgOf, stackMat, acrossCols, downRows, asCol, splatF, TRef.ofBuf, TRef.toBuf,
    cast_eq, id_eq]
  same_term

set_option maxHeartbeats 400000 in
theorem head_out : (after opsHead V (main_v253 : DevRef τ sig) : S100000x16.Idx → EReal)
    = dense2 (dense1 (V (main_v243 : DevRef τ sig)) (V (main_arg9 : DevRef τ sig)) (V (main_arg10 : DevRef τ sig)))
        (V (main_arg11 : DevRef τ sig)) (V (main_arg12 : DevRef τ sig)) := by
  after_results_simp
  simp only [dense2, dense1, downRows, splatF, TRef.ofBuf, TRef.toBuf, cast_eq]
  same_term

end Stretches

end Cert.ReferenceIdeal.Layer2

end
-- ==== Proof.RefLayer2RunB.lean ====
/-
  Layer two and the head of the second arrangement, run as one.

  Layer two's operations come in five stretches and the head's in a sixth. Each stretch writes buffers numbered
  from its own first buffer on, so what an earlier stretch, layer one or the arguments left below that number is
  still there after it. Read last stretch first: the head leaves the two dense layers of the fifth stretch's
  array; the fifth leaves ELU of the five slot products' sum over the clamped degree plus the root product and
  the bias, the sum being the fourth stretch's sum plus slot 4's product; the fourth adds slot 3's product to
  the third's sum of slots 0, 1, 2 on zeros; the second supplies the gathered rows, the degrees, the zeros and
  slot 0's weighted messages; the first the edges' words, fractions and slot words. Substituted into one
  another these are the layer-two array of layer one's buffer and the argument buffers, under the two dense
  layers: the slot products, split above between stretches, are the general layer's slot products with their
  aggregate, weights and gathered rows unfolded.
-/
import proofs.«403743_j85538568667548_2_alg».proof.Proof.RefLayer2Run

noncomputable section

namespace Cert.ReferenceIdeal.Layer2

open Idealize.ShloMosaic Idealize.ShloMosaic.TcCoe Idealize.ShloMosaic.ValueIdx Idealize.SL.Sem
open Idealize.ShloMosaic.StableHlo
open Cert.ReferenceIdeal Cert.ReferenceIdeal.Gen Cert.Spline Cert.Spline.Reads Cert.ReferenceIdeal.HandRun

section Whole
variable (W : Vals)

set_option maxHeartbeats 1600000 in
/-- Layer two's and the head's operations, run from any contents, leave in the last buffer the two dense layers of
    layer two of what was in layer one's buffer and the argument buffers. -/
theorem run_out :
    (after (opsL2 ++ opsHead) W (main_v253 : DevRef τ sig) : S100000x16.Idx → EReal)
      = dense2
          (dense1
            (layer2 (W (main_v100 : DevRef τ sig)) (W (main_arg1 : DevRef τ sig)) (W (main_arg2 : DevRef τ sig))
              (W (main_arg6 : DevRef τ sig)) (W (main_arg7 : DevRef τ sig)) (W (main_arg8 : DevRef τ sig)))
            (W (main_arg9 : DevRef τ sig)) (W (main_arg10 : DevRef τ sig)))
          (W (main_arg11 : DevRef τ sig)) (W (main_arg12 : DevRef τ sig)) := by
  show after ((opsL2a ++ opsL2b ++ opsL2c ++ opsL2d ++ opsL2e) ++ opsHead) W _ = _
  rw [after_concat, after_concat, after_concat, after_concat, after_concat]
  -- the head, from what the fifth stretch leaves; then each stretch from the one before it
  rw [head_out]
  simp (disch := decide) only [kept_below opsL2e_from]
  rw [e_out]
  simp (disch := decide) only [kept_below opsL2d_from]
  rw [d_sum, d_co4]
  simp (disch := decide) only [kept_below opsL2c_from]
  rw [c_sum, c_ones]
  simp (disch := decide) only [kept_below opsL2b_from]
  rw [b_zeros, b_msg0, b_rows, b_deg]
  simp (disch := decide) only [kept_below opsL2a_from]
  rw [a_src, a_dst, a_frac, a_s0, a_s1, a_zero]
  -- both sides are now the same composition, the right one folded into the layer's named functions
  rfl

end Whole

end Cert.ReferenceIdeal.Layer2

end
-- ==== Proof.RefLayer2.lean ====
/-
  The second program's result, entry by entry.

  The second program is layer one, then layer two, then the head.  Layer one leaves the thirteen argument arrays
  as they were and puts the specification's first layer, read by coordinates, in the buffer layer two starts
  from.  Layer two and the head, run from there, give the two dense layers of the layer-two array of that buffer
  and the argument arrays.  Read at (n, j): the second dense layer is the positive part of its row-by-column sum
  plus bias over the first, the first the same over layer two, and layer two is the specification's five-slot
  layer over the first layer, with the edge ends, pseudo-coordinates, slots and weights read off the argument
  arrays.  That is the specification's result in its second arrangement.
-/
import proofs.«403743_j85538568667548_2_alg».proof.Proof.RefInputs
import proofs.«403743_j85538568667548_2_alg».proof.Proof.RefLayer1
import proofs.«403743_j85538568667548_2_alg».proof.Proof.RefLayer2Arrays
import proofs.«403743_j85538568667548_2_alg».proof.Proof.RefLayer2Run
import proofs.«403743_j85538568667548_2_alg».proof.Proof.RefLayer2RunB

noncomputable section

namespace Cert.ReferenceIdeal.Val

open Cert.ReferenceIdeal Cert.ReferenceIdeal.Gen Cert.Spline Cert.Spline.Reads
open Idealize.ShloMosaic Idealize.ShloMosaic.TcCoe Idealize.ShloMosaic.ValueIdx Idealize.SL.Sem Idealize.ShloMosaic.StableHlo

section Result
variable (V : Valuation τ sig (Elt Ideal)) (hr : InRange V)

/-- Layer two over layer one's buffer, at (n, d): the specification's second layer. -/
theorem layer2_entry (n : Fin 100000) (d : Fin 64) :
    Layer2.layer2 (after (HandRun.opsL1 (F := Ideal)) V (main_v100 : DevRef τ sig))
        (V (main_arg1 : DevRef τ sig)) (V (main_arg2 : DevRef τ sig)) (V (main_arg6 : DevRef τ sig))
        (V (main_arg7 : DevRef τ sig)) (V (main_arg8 : DevRef τ sig)) (ix2 n d)
      = h2Slots (inputs V hr) n d :=
  Layer2.layer2_apply _ _ _ _ _ _ hr (h1Slots (inputs V hr)) (h1_apply V hr) (s0_5 (inputs V hr)) (s1_5 (inputs V hr))
    (fun e => (s0_5_val (inputs V hr) e).symm) (fun e => (s1_5_val (inputs V hr) e).symm) n d

/-- The first dense layer over that, at (n, d). -/
theorem dense1_entry (n : Fin 100000) (d : Fin 64) :
    Layer2.dense1
        (Layer2.layer2 (after (HandRun.opsL1 (F := Ideal)) V (main_v100 : DevRef τ sig))
          (V (main_arg1 : DevRef τ sig)) (V (main_arg2 : DevRef τ sig)) (V (main_arg6 : DevRef τ sig))
          (V (main_arg7 : DevRef τ sig)) (V (main_arg8 : DevRef τ sig)))
        (V (main_arg9 : DevRef τ sig)) (V (main_arg10 : DevRef τ sig)) (ix2 n d)
      = reluDense (h2Slots (inputs V hr)) (inputs V hr).Wm1 (inputs V hr).bm1 n d :=
  Layer2.dense1_apply _ _ _ (h2Slots (inputs V hr)) (layer2_entry V hr) n d

end Result

/-- The second program's result at (n, j) is the specification's result in its second arrangement. -/
theorem result_apply (V : Valuation τ sig (Elt Ideal)) (hr : InRange V) (n : Fin 100000) (j : Fin 16) :
    (after (HandRun.ops (F := Ideal)) V (main_v253 : DevRef τ sig) : S100000x16.Idx → EReal) (ix2 n j)
      = outSlots (inputs V hr) n j := by
  have h0 : after (HandRun.ops (F := Ideal)) V
      = after (HandRun.opsL2 ++ HandRun.opsHead) (after (HandRun.opsL1 (F := Ideal)) V) :=
    Layer2.after_concat _ _ V
  rw [h0, Layer2.run_out, opsL1_arg1_kept, opsL1_arg2_kept, opsL1_arg6_kept, opsL1_arg7_kept, opsL1_arg8_kept,
    opsL1_arg9_kept, opsL1_arg10_kept, opsL1_arg11_kept, opsL1_arg12_kept]
  exact Layer2.dense2_apply _ _ _ (reluDense (h2Slots (inputs V hr)) (inputs V hr).Wm1 (inputs V hr).bm1)
    (dense1_entry V hr) n j

end Cert.ReferenceIdeal.Val

end
-- ==== Proof.lean ====
/-
  The certificate of a two-layer SplineConv graph network with a two-layer ReLU head: a Pallas program (two
  pallas_call regions among host gathers and scatters) against its jnp reference, over the extended reals, under
  the precondition that every float input is finite and every edge word is a node number.

  The first program scatters every edge twice into an array indexed by (destination, slot), each message already
  divided by its destination's clamped in-degree, and multiplies the N × (K·D) aggregate by the stacked weights in
  one product inside a kernel; the reference scatters once per slot, multiplies by that slot's weight matrix, adds
  the K products and divides by the clamped in-degree. Proof/Spline.lean writes both arrangements index by index,
  Proof/SplineLaws.lean proves them equal on finite inputs (the reciprocal degree is a common real factor of
  every sum that reaches a node; x·(1/d) is x/d; the two spellings of ELU are one function).

  What each program's result array holds is read off its run: the first program's from the fold of segment
  boundaries of its frame (Proof/KernelRun.lean names the result in the run's postcondition; Proof/KernelRegion0/1
  read the two regions as whole-array functions; Proof/KernelReads, KernelLayer1, KernelLayer2 read the host
  stretches at an index), the reference's from its host operations listed in order (Proof/RefOps.lean, RefRun.lean)
  and read stage by stage (Proof/RefReads, RefLayer1, RefLayer2). Proof/PreDecode.lean reads the printed
  precondition back. The three frames: the two kernels' are the generated frame certificates; the reference has no
  kernel, so its frame is its run with no operation writing an argument. The idealization rewrote nothing, so
  its preservation claim is trivial.
-/
import proofs.«403743_j85538568667548_2_alg».proof.Defs
import proofs.«403743_j85538568667548_2_alg».proof.Proof.Gen.Kernel
import proofs.«403743_j85538568667548_2_alg».proof.Proof.Gen.Kernel.Frame
import proofs.«403743_j85538568667548_2_alg».proof.Proof.Gen.KernelIdeal
import proofs.«403743_j85538568667548_2_alg».proof.Proof.Gen.KernelIdeal.Frame
import proofs.«403743_j85538568667548_2_alg».proof.Proof.Gen.ReferenceIdeal
import proofs.«403743_j85538568667548_2_alg».proof.Proof.Gen.Pre_finite_inputs
import proofs.«403743_j85538568667548_2_alg».proof.Proof.KernelRun
import proofs.«403743_j85538568667548_2_alg».proof.Proof.KernelInputs
import proofs.«403743_j85538568667548_2_alg».proof.Proof.RefInputs
import proofs.«403743_j85538568667548_2_alg».proof.Proof.RefOps
import proofs.«403743_j85538568667548_2_alg».proof.Proof.SplineLaws
import proofs.«403743_j85538568667548_2_alg».proof.Proof.PreDecode
import proofs.«403743_j85538568667548_2_alg».proof.Proof.RefRun
import proofs.«403743_j85538568667548_2_alg».proof.Proof.KernelLayer2
import proofs.«403743_j85538568667548_2_alg».proof.Proof.RefLayer2
import Idealize.ShloMosaic.Adequacy
import Idealize.ShloMosaic.Init

noncomputable section

namespace Cert.Proof

open Idealize.ShloMosaic Idealize.ShloMosaic.TcCoe Idealize.ShloMosaic.ValueIdx Idealize.SL.Sem Idealize.ShloMosaic.StableHlo

/-! ## The three frames -/

theorem frame_k : Cert.frame_Kernel := fun m ρ _ => Cert.Kernel.Gen.frame m ρ

theorem frame_ki : Cert.frame_KernelIdeal := fun m ρ _ => Cert.KernelIdeal.Gen.frame m ρ

/-- The second program has no kernel: its run leaves every buffer at the fold of its host operations over the
    launch contents, and no operation writes an argument. -/
theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.HandRun.arg0_kept _),
     (h c Cert.ReferenceIdeal.main_arg1).trans (Cert.ReferenceIdeal.HandRun.arg1_kept _),
     (h c Cert.ReferenceIdeal.main_arg2).trans (Cert.ReferenceIdeal.HandRun.arg2_kept _),
     (h c Cert.ReferenceIdeal.main_arg3).trans (Cert.ReferenceIdeal.HandRun.arg3_kept _),
     (h c Cert.ReferenceIdeal.main_arg4).trans (Cert.ReferenceIdeal.HandRun.arg4_kept _),
     (h c Cert.ReferenceIdeal.main_arg5).trans (Cert.ReferenceIdeal.HandRun.arg5_kept _),
     (h c Cert.ReferenceIdeal.main_arg6).trans (Cert.ReferenceIdeal.HandRun.arg6_kept _),
     (h c Cert.ReferenceIdeal.main_arg7).trans (Cert.ReferenceIdeal.HandRun.arg7_kept _),
     (h c Cert.ReferenceIdeal.main_arg8).trans (Cert.ReferenceIdeal.HandRun.arg8_kept _),
     (h c Cert.ReferenceIdeal.main_arg9).trans (Cert.ReferenceIdeal.HandRun.arg9_kept _),
     (h c Cert.ReferenceIdeal.main_arg10).trans (Cert.ReferenceIdeal.HandRun.arg10_kept _),
     (h c Cert.ReferenceIdeal.main_arg11).trans (Cert.ReferenceIdeal.HandRun.arg11_kept _),
     (h c Cert.ReferenceIdeal.main_arg12).trans (Cert.ReferenceIdeal.HandRun.arg12_kept _)⟩)
    (Cert.ReferenceIdeal.HandRun.run_main (F := Ideal) m ρ)

/-! ## The two results are one function of the arguments -/

/-- Equal argument arrays give equal inputs (the range evidence is a proof: it does not matter which). -/
theorem ofArrays_congr {a0 a0' a1 a1' a2 a2' a3 a3' a4 a4' a5 a5' a6 a6' a7 a7' a8 a8' a9 a9' a10 a10' a11 a11' a12 a12'}
    {hr hr'} (e0 : a0 = a0') (e1 : a1 = a1') (e2 : a2 = a2') (e3 : a3 = a3') (e4 : a4 = a4') (e5 : a5 = a5')
    (e6 : a6 = a6') (e7 : a7 = a7') (e8 : a8 = a8') (e9 : a9 = a9') (e10 : a10 = a10') (e11 : a11 = a11')
    (e12 : a12 = a12') :
    Cert.Spline.ofArrays a0 a1 a2 a3 a4 a5 a6 a7 a8 a9 a10 a11 a12 hr
    = Cert.Spline.ofArrays a0' a1' a2' a3' a4' a5' a6' a7' a8' a9' a10' a11' a12' hr' := by
  subst e0 e1 e2 e3 e4 e5 e6 e7 e8 e9 e10 e11 e12; rfl

/-- What the precondition says of the thirteen arrays makes the inputs read off them finite where the law needs it. -/
theorem finite_of_says {a0 a1 a2 a3 a4 a5 a6 a7 a8 a9 a10 a11 a12} {hr}
    (s : Cert.PreDecode.Says a0 a1 a2 a3 a4 a5 a6 a7 a8 a9 a10 a11 a12) :
    Cert.Spline.FiniteInputs (Cert.Spline.ofArrays a0 a1 a2 a3 a4 a5 a6 a7 a8 a9 a10 a11 a12 hr) where
  x := fun n d => s.fin0 (ix2 n d)
  ps := fun e => s.fin2 (ix2 e 0)
  W1 := fun k d j => s.fin3 (ix3 k d j)
  root1 := fun d j => s.fin4 (ix2 d j)
  b1 := fun j => s.fin5 (ix1 j)
  W2 := fun k d j => s.fin6 (ix3 k d j)
  root2 := fun d j => s.fin7 (ix2 d j)
  b2 := fun j => s.fin8 (ix1 j)

theorem algebraic : Cert.algebraic_KernelIdeal_ReferenceIdeal := by
  intro m ρ m' ρ' hpre hagree
  refine ⟨fun c => Cert.KernelIdeal.Gen.W14 m ρ c (Proc.devRef .tc Cert.KernelIdeal.main_v94),
    Cert.KernelIdeal.Gen.run_result (F := Ideal) m ρ, ?_⟩
  refine (θ_run (Cert.ReferenceIdeal.defs (F := Ideal)) _ _).mono (fun r h c => ⟨?_,
     (h c Cert.ReferenceIdeal.main_arg0).trans (Cert.ReferenceIdeal.HandRun.arg0_kept _),
     (h c Cert.ReferenceIdeal.main_arg1).trans (Cert.ReferenceIdeal.HandRun.arg1_kept _),
     (h c Cert.ReferenceIdeal.main_arg2).trans (Cert.ReferenceIdeal.HandRun.arg2_kept _),
     (h c Cert.ReferenceIdeal.main_arg3).trans (Cert.ReferenceIdeal.HandRun.arg3_kept _),
     (h c Cert.ReferenceIdeal.main_arg4).trans (Cert.ReferenceIdeal.HandRun.arg4_kept _),
     (h c Cert.ReferenceIdeal.main_arg5).trans (Cert.ReferenceIdeal.HandRun.arg5_kept _),
     (h c Cert.ReferenceIdeal.main_arg6).trans (Cert.ReferenceIdeal.HandRun.arg6_kept _),
     (h c Cert.ReferenceIdeal.main_arg7).trans (Cert.ReferenceIdeal.HandRun.arg7_kept _),
     (h c Cert.ReferenceIdeal.main_arg8).trans (Cert.ReferenceIdeal.HandRun.arg8_kept _),
     (h c Cert.ReferenceIdeal.main_arg9).trans (Cert.ReferenceIdeal.HandRun.arg9_kept _),
     (h c Cert.ReferenceIdeal.main_arg10).trans (Cert.ReferenceIdeal.HandRun.arg10_kept _),
     (h c Cert.ReferenceIdeal.main_arg11).trans (Cert.ReferenceIdeal.HandRun.arg11_kept _),
     (h c Cert.ReferenceIdeal.main_arg12).trans (Cert.ReferenceIdeal.HandRun.arg12_kept _)⟩)
    (Cert.ReferenceIdeal.HandRun.run_main (F := Ideal) m' ρ')
  -- what the precondition says of the first program's arguments on this device
  have s := Cert.PreDecode.says_of_fn _ _ _ _ _ _ _ _ _ _ _ _ _ (hpre c)
  have hr : Cert.KernelIdeal.Val.InRange m c := fun r e => s.range1 (ix2 r e)
  obtain ⟨g0, g1, g2, g3, g4, g5, g6, g7, g8, g9, g10, g11, g12⟩ := hagree c
  have hr' : Cert.ReferenceIdeal.Val.InRange (launchContents m' c) := fun r e => by
    have := s.range1 (ix2 r e)
    rw [← g1] at this; exact this
  refine (h c Cert.ReferenceIdeal.main_v253).trans ?_
  funext i
  obtain ⟨n, j, rfl⟩ : ∃ (n : Fin 100000) (j : Fin 16), i = ix2 n j := ⟨i 0, i 1, eq_ix2 i⟩
  refine (Cert.ReferenceIdeal.Val.result_apply (launchContents m' c) hr' n j).trans ?_
  refine Eq.trans ?_ (Cert.KernelIdeal.Val.result_apply m ρ c hr n j).symm
  have einp : Cert.ReferenceIdeal.Val.inputs (launchContents m' c) hr' = Cert.KernelIdeal.Val.inputs m c hr :=
    ofArrays_congr g0 g1 g2 g3 g4 g5 g6 g7 g8 g9 g10 g11 g12
  rw [einp]
  exact (congrFun (congrFun (Cert.Spline.outFused_eq_outSlots (by decide) _ (finite_of_says s)) n) j).symm

/-! ## The claim -/

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
